-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v160)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v160) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2 : Shape := ⟨2, ![16384, 2]⟩
abbrev S16384x2048 : Shape := ⟨2, ![16384, 2048]⟩
abbrev S16384x512 : Shape := ⟨2, ![16384, 512]⟩
abbrev S2x131072 : Shape := ⟨2, ![2, 131072]⟩
abbrev S2x32 : Shape := ⟨2, ![2, 32]⟩
abbrev S32 : Shape := ⟨1, ![32]⟩
abbrev S_ : Shape := ⟨0, ![]⟩
abbrev S32x32 : Shape := ⟨2, ![32, 32]⟩
abbrev S32x1 : Shape := ⟨2, ![32, 1]⟩
abbrev S1 : Shape := ⟨1, ![1]⟩

class Facts : Prop where
  bcast_S_S16384x2 : S_.BroadcastsInDim S16384x2 (![] : Fin 0 → Fin S16384x2.rank)
  reducesTo_S16384x2_S_d0_1 : S16384x2.ReducesTo [0, 1] S_
  h_S_ : 0 < S_.numel
  bcast_S_S16384x2048 : S_.BroadcastsInDim S16384x2048 (![] : Fin 0 → Fin S16384x2048.rank)
  reducesTo_S16384x2048_S_d0_1 : S16384x2048.ReducesTo [0, 1] S_
  bcast_S_S16384x512 : S_.BroadcastsInDim S16384x512 (![] : Fin 0 → Fin S16384x512.rank)
  reducesTo_S16384x512_S_d0_1 : S16384x512.ReducesTo [0, 1] S_
  bcast_S_S2x32 : S_.BroadcastsInDim S2x32 (![] : Fin 0 → Fin S2x32.rank)
  reducesTo_S2x32_S_d0_1 : S2x32.ReducesTo [0, 1] S_
  bcast_S_S32 : S_.BroadcastsInDim S32 (![] : Fin 0 → Fin S32.rank)
  reducesTo_S32_S_d0 : S32.ReducesTo [0] S_
  reducesTo_S_S_d : S_.ReducesTo [] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg20 : FVec F S32x1 .f32) (main_arg21 : FVec F S1 .f32) (main_v82 : IVec S_ 1) (main_v83 : FVec F S1 .f32) (main_v84 : FVec F S1 .f32) : IVec S_ 1 :=
  let main_v85 : IVec S1 1 := cmpf .olt main_v83 main_v84
  let main_c_33 : IVec S_ 1 := constantI S_ 1 1#1
  let main_v86 : IVec S_ 1 := (fun x v => Host.reduce IntOp.andi x v reducesTo_S1_S_d0 h_S_) main_v85 main_c_33
  let main_v87 : IVec S_ 1 := andi main_v82 main_v86
  let main_v88 : FVec F S32x1 .f32 := Host.absf main_arg20
  let main_cst_34 : FVec F S_ .f32 := constant S_ .f32 0x7F800000#32
  let main_v89 : FVec F S32x1 .f32 := broadcastInDim S32x1 ![] bcast_S_S32x1 main_cst_34
  let main_v90 : IVec S32x1 1 := cmpf .olt main_v88 main_v89
  let main_c_35 : IVec S_ 1 := constantI S_ 1 1#1
  let main_v91 : IVec S_ 1 := (fun x v => Host.reduce IntOp.andi x v reducesTo_S32x1_S_d0_1 h_S_) main_v90 main_c_35
  let main_v92 : IVec S_ 1 := andi main_v87 main_v91
  let main_v93 : FVec F S1 .f32 := Host.absf main_arg21
  let main_cst_36 : FVec F S_ .f32 := constant S_ .f32 0x7F800000#32
  let main_v94 : FVec F S1 .f32 := broadcastInDim S1 ![] bcast_S_S1 main_cst_36
  let main_v95 : IVec S1 1 := cmpf .olt main_v93 main_v94
  let main_c_37 : IVec S_ 1 := constantI S_ 1 1#1
  let main_v96 : IVec S_ 1 := (fun x v => Host.reduce IntOp.andi x v reducesTo_S1_S_d0 h_S_) main_v95 main_c_37
  let main_v97 : IVec S_ 1 := andi main_v92 main_v96
  main_v97

def fn_part4 {F : FTy → Type} [FloatOps F] (main_arg16 : FVec F S32x32 .f32) (main_arg17 : FVec F S32 .f32) (main_arg18 : FVec F S32x1 .f32) (main_arg19 : FVec F S1 .f32) (main_arg20 : FVec F S32x1 .f32) (main_arg21 : FVec F S1 .f32) (main_v67 : IVec S_ 1) : IVec S_ 1 :=
  let main_v68 : FVec F S32x32 .f32 := Host.absf main_arg16
  let main_cst_26 : FVec F S_ .f32 := constant S_ .f32 0x7F800000#32
  let main_v69 : FVec F S32x32 .f32 := broadcastInDim S32x32 ![] bcast_S_S32x32 main_cst_26
  let main_v70 : IVec S32x32 1 := cmpf .olt main_v68 main_v69
  let main_c_27 : IVec S_ 1 := constantI S_ 1 1#1
  let main_v71 : IVec S_ 1 := (fun x v => Host.reduce IntOp.andi x v reducesTo_S32x32_S_d0_1 h_S_) main_v70 main_c_27
  let main_v72 : IVec S_ 1 := andi main_v67 main_v71
  let main_v73 : FVec F S32 .f32 := Host.absf main_arg17
  let main_cst_28 : FVec F S_ .f32 := constant S_ .f32 0x7F800000#32
  let main_v74 : FVec F S32 .f32 := broadcastInDim S32 ![] bcast_S_S32 main_cst_28
  let main_v75 : IVec S32 1 := cmpf .olt main_v73 main_v74
  let main_c_29 : IVec S_ 1 := constantI S_ 1 1#1
  let main_v76 : IVec S_ 1 := (fun x v => Host.reduce IntOp.andi x v reducesTo_S32_S_d0 h_S_) main_v75 main_c_29
  let main_v77 : IVec S_ 1 := andi main_v72 main_v76
  let main_v78 : FVec F S32x1 .f32 := Host.absf main_arg18
  let main_cst_30 : FVec F S_ .f32 := constant S_ .f32 0x7F800000#32
  let main_v79 : FVec F S32x1 .f32 := broadcastInDim S32x1 ![] bcast_S_S32x1 main_cst_30
  let main_v80 : IVec S32x1 1 := cmpf .olt main_v78 main_v79
  let main_c_31 : IVec S_ 1 := constantI S_ 1 1#1
  let main_v81 : IVec S_ 1 := (fun x v => Host.reduce IntOp.andi x v reducesTo_S32x1_S_d0_1 h_S_) main_v80 main_c_31
  let main_v82 : IVec S_ 1 := andi main_v77 main_v81
  let main_v83 : FVec F S1 .f32 := Host.absf main_arg19
  let main_cst_32 : FVec F S_ .f32 := constant S_ .f32 0x7F800000#32
  let main_v84 : FVec F S1 .f32 := broadcastInDim S1 ![] bcast_S_S1 main_cst_32
  fn_part5 (F := F) main_arg20 main_arg21 main_v82 main_v83 main_v84

def fn_part3 {F : FTy → Type} [FloatOps F] (main_arg13 : FVec F S1 .f32) (main_arg14 : FVec F S32x32 .f32) (main_arg15 : FVec F S32 .f32) (main_arg16 : FVec F S32x32 .f32) (main_arg17 : FVec F S32 .f32) (main_arg18 : FVec F S32x1 .f32) (main_arg19 : FVec F S1 .f32) (main_arg20 : FVec F S32x1 .f32) (main_arg21 : FVec F S1 .f32) (main_v47 : IVec S_ 1) (main_v50 : IVec S32x1 1) : IVec S_ 1 :=
  let main_c_19 : IVec S_ 1 := constantI S_ 1 1#1
  let main_v51 : IVec S_ 1 := (fun x v => Host.reduce IntOp.andi x v reducesTo_S32x1_S_d0_1 h_S_) main_v50 main_c_19
  let main_v52 : IVec S_ 1 := andi main_v47 main_v51
  let main_v53 : FVec F S1 .f32 := Host.absf main_arg13
  let main_cst_20 : FVec F S_ .f32 := constant S_ .f32 0x7F800000#32
  let main_v54 : FVec F S1 .f32 := broadcastInDim S1 ![] bcast_S_S1 main_cst_20
  let main_v55 : IVec S1 1 := cmpf .olt main_v53 main_v54
  let main_c_21 : IVec S_ 1 := constantI S_ 1 1#1
  let main_v56 : IVec S_ 1 := (fun x v => Host.reduce IntOp.andi x v reducesTo_S1_S_d0 h_S_) main_v55 main_c_21
  let main_v57 : IVec S_ 1 := andi main_v52 main_v56
  let main_v58 : FVec F S32x32 .f32 := Host.absf main_arg14
  let main_cst_22 : FVec F S_ .f32 := constant S_ .f32 0x7F800000#32
  let main_v59 : FVec F S32x32 .f32 := broadcastInDim S32x32 ![] bcast_S_S32x32 main_cst_22
  let main_v60 : IVec S32x32 1 := cmpf .olt main_v58 main_v59
  let main_c_23 : IVec S_ 1 := constantI S_ 1 1#1
  let main_v61 : IVec S_ 1 := (fun x v => Host.reduce IntOp.andi x v reducesTo_S32x32_S_d0_1 h_S_) main_v60 main_c_23
  let main_v62 : IVec S_ 1 := andi main_v57 main_v61
  let main_v63 : FVec F S32 .f32 := Host.absf main_arg15
  let main_cst_24 : FVec F S_ .f32 := constant S_ .f32 0x7F800000#32
  let main_v64 : FVec F S32 .f32 := broadcastInDim S32 ![] bcast_S_S32 main_cst_24
  let main_v65 : IVec S32 1 := cmpf .olt main_v63 main_v64
  let main_c_25 : IVec S_ 1 := constantI S_ 1 1#1
  let main_v66 : IVec S_ 1 := (fun x v => Host.reduce IntOp.andi x v reducesTo_S32_S_d0 h_S_) main_v65 main_c_25
  let main_v67 : IVec S_ 1 := andi main_v62 main_v66
  fn_part4 (F := F) main_arg16 main_arg17 main_arg18 main_arg19 main_arg20 main_arg21 main_v67

def fn_part2 {F : FTy → Type} [FloatOps F] (main_arg9 : FVec F S_ .f32) (main_arg10 : FVec F S32x32 .f32) (main_arg11 : FVec F S32 .f32) (main_arg12 : FVec F S32x1 .f32) (main_arg13 : FVec F S1 .f32) (main_arg14 : FVec F S32x32 .f32) (main_arg15 : FVec F S32 .f32) (main_arg16 : FVec F S32x32 .f32) (main_arg17 : FVec F S32 .f32) (main_arg18 : FVec F S32x1 .f32) (main_arg19 : FVec F S1 .f32) (main_arg20 : FVec F S32x1 .f32) (main_arg21 : FVec F S1 .f32) (main_v33 : IVec S_ 1) : IVec S_ 1 :=
  let main_v34 : FVec F S_ .f32 := Host.absf main_arg9
  let main_cst_12 : FVec F S_ .f32 := constant S_ .f32 0x7F800000#32
  let main_v35 : IVec S_ 1 := cmpf .olt main_v34 main_cst_12
  let main_c_13 : IVec S_ 1 := constantI S_ 1 1#1
  let main_v36 : IVec S_ 1 := (fun x v => Host.reduce IntOp.andi x v reducesTo_S_S_d h_S_) main_v35 main_c_13
  let main_v37 : IVec S_ 1 := andi main_v33 main_v36
  let main_v38 : FVec F S32x32 .f32 := Host.absf main_arg10
  let main_cst_14 : FVec F S_ .f32 := constant S_ .f32 0x7F800000#32
  let main_v39 : FVec F S32x32 .f32 := broadcastInDim S32x32 ![] bcast_S_S32x32 main_cst_14
  let main_v40 : IVec S32x32 1 := cmpf .olt main_v38 main_v39
  let main_c_15 : IVec S_ 1 := constantI S_ 1 1#1
  let main_v41 : IVec S_ 1 := (fun x v => Host.reduce IntOp.andi x v reducesTo_S32x32_S_d0_1 h_S_) main_v40 main_c_15
  let main_v42 : IVec S_ 1 := andi main_v37 main_v41
  let main_v43 : FVec F S32 .f32 := Host.absf main_arg11
  let main_cst_16 : FVec F S_ .f32 := constant S_ .f32 0x7F800000#32
  let main_v44 : FVec F S32 .f32 := broadcastInDim S32 ![] bcast_S_S32 main_cst_16
  let main_v45 : IVec S32 1 := cmpf .olt main_v43 main_v44
  let main_c_17 : IVec S_ 1 := constantI S_ 1 1#1
  let main_v46 : IVec S_ 1 := (fun x v => Host.reduce IntOp.andi x v reducesTo_S32_S_d0 h_S_) main_v45 main_c_17
  let main_v47 : IVec S_ 1 := andi main_v42 main_v46
  let main_v48 : FVec F S32x1 .f32 := Host.absf main_arg12
  let main_cst_18 : FVec F S_ .f32 := constant S_ .f32 0x7F800000#32
  let main_v49 : FVec F S32x1 .f32 := broadcastInDim S32x1 ![] bcast_S_S32x1 main_cst_18
  let main_v50 : IVec S32x1 1 := cmpf .olt main_v48 main_v49
  fn_part3 (F := F) main_arg13 main_arg14 main_arg15 main_arg16 main_arg17 main_arg18 main_arg19 main_arg20 main_arg21 main_v47 main_v50

def fn_part1 {F : FTy → Type} [FloatOps F] (main_arg6 : FVec F S32 .f32) (main_arg7 : FVec F S32 .f32) (main_arg8 : FVec F S32 .f32) (main_arg9 : FVec F S_ .f32) (main_arg10 : FVec F S32x32 .f32) (main_arg11 : FVec F S32 .f32) (main_arg12 : FVec F S32x1 .f32) (main_arg13 : FVec F S1 .f32) (main_arg14 : FVec F S32x32 .f32) (main_arg15 : FVec F S32 .f32) (main_arg16 : FVec F S32x32 .f32) (main_arg17 : FVec F S32 .f32) (main_arg18 : FVec F S32x1 .f32) (main_arg19 : FVec F S1 .f32) (main_arg20 : FVec F S32x1 .f32) (main_arg21 : FVec F S1 .f32) (main_v13 : IVec S_ 1) (main_v16 : IVec S2x32 1) : IVec S_ 1 :=
  let main_c_5 : IVec S_ 1 := constantI S_ 1 1#1
  let main_v17 : IVec S_ 1 := (fun x v => Host.reduce IntOp.andi x v reducesTo_S2x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_v33

def fn {F : FTy → Type} [FloatOps F] (main_arg0 : FVec F S16384x2 .f32) (main_arg1 : FVec F S16384x2048 .f32) (main_arg2 : FVec F S16384x512 .f32) (main_arg3 : IVec S2x131072 32) (main_arg4 : IVec S2x131072 32) (main_arg5 : FVec F S2x32 .f32) (main_arg6 : FVec F S32 .f32) (main_arg7 : FVec F S32 .f32) (main_arg8 : FVec F S32 .f32) (main_arg9 : FVec F S_ .f32) (main_arg10 : FVec F S32x32 .f32) (main_arg11 : FVec F S32 .f32) (main_arg12 : FVec F S32x1 .f32) (main_arg13 : FVec F S1 .f32) (main_arg14 : FVec F S32x32 .f32) (main_arg15 : FVec F S32 .f32) (main_arg16 : FVec F S32x32 .f32) (main_arg17 : FVec F S32 .f32) (main_arg18 : FVec F S32x1 .f32) (main_arg19 : FVec F S1 .f32) (main_arg20 : FVec F S32x1 .f32) (main_arg21 : FVec F S1 .f32) : IVec S_ 1 :=
  let main_v0 : FVec F S16384x2 .f32 := Host.absf main_arg0
  let main_cst : FVec F S_ .f32 := constant S_ .f32 0x7F800000#32
  let main_v1 : FVec F S16384x2 .f32 := broadcastInDim S16384x2 ![] bcast_S_S16384x2 main_cst
  let main_v2 : IVec S16384x2 1 := cmpf .olt main_v0 main_v1
  let main_c : IVec S_ 1 := constantI S_ 1 1#1
  let main_v3 : IVec S_ 1 := (fun x v => Host.reduce IntOp.andi x v reducesTo_S16384x2_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S2x32 .f32 := Host.absf main_arg5
  let main_cst_4 : FVec F S_ .f32 := constant S_ .f32 0x7F800000#32
  let main_v15 : FVec F S2x32 .f32 := broadcastInDim S2x32 ![] bcast_S_S2x32 main_cst_4
  let main_v16 : IVec S2x32 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S16384x2 : Shape := ⟨2, ![16384, 2]⟩
abbrev S16384x2048 : Shape := ⟨2, ![16384, 2048]⟩
abbrev S16384x512 : Shape := ⟨2, ![16384, 512]⟩
abbrev S2x131072 : Shape := ⟨2, ![2, 131072]⟩
abbrev S2x32 : Shape := ⟨2, ![2, 32]⟩
abbrev S32 : Shape := ⟨1, ![32]⟩
abbrev S_ : Shape := ⟨0, ![]⟩
abbrev S32x32 : Shape := ⟨2, ![32, 32]⟩
abbrev S32x1 : Shape := ⟨2, ![32, 1]⟩
abbrev S1 : Shape := ⟨1, ![1]⟩
abbrev S16384x1 : Shape := ⟨2, ![16384, 1]⟩
abbrev S1024x2048 : Shape := ⟨2, ![1024, 2048]⟩
abbrev S1024x512 : Shape := ⟨2, ![1024, 512]⟩
abbrev S1024x1 : Shape := ⟨2, ![1024, 1]⟩
abbrev S1024 : Shape := ⟨1, ![1024]⟩
abbrev S16384x32 : Shape := ⟨2, ![16384, 32]⟩
abbrev S1x32 : Shape := ⟨2, ![1, 32]⟩
abbrev S1x1 : Shape := ⟨2, ![1, 1]⟩
abbrev S1x131072 : Shape := ⟨2, ![1, 131072]⟩
abbrev S131072 : Shape := ⟨1, ![131072]⟩
abbrev S131072x1 : Shape := ⟨2, ![131072, 1]⟩
abbrev S131072x2048 : Shape := ⟨2, ![131072, 2048]⟩
abbrev S16384 : Shape := ⟨1, ![16384]⟩
abbrev S147456 : Shape := ⟨1, ![147456]⟩
abbrev S147456x1 : Shape := ⟨2, ![147456, 1]⟩
abbrev S147456x32 : Shape := ⟨2, ![147456, 32]⟩
abbrev S131072x512 : Shape := ⟨2, ![131072, 512]⟩

abbrev nBuf : Space → Nat
  | .hbm => 230
  | .vmem => 31
  | .smem => 0
  | _ => 0

abbrev hbmTy0_0 (i : Nat) : BufTy := match i % 128 with
  | 0 => ⟨S16384x2, .f32⟩
  | 1 => ⟨S16384x2048, .f32⟩
  | 2 => ⟨S16384x512, .f32⟩
  | 3 => ⟨S2x131072, .i32⟩
  | 4 => ⟨S2x131072, .i32⟩
  | 5 => ⟨S2x32, .f32⟩
  | 6 => ⟨S32, .f32⟩
  | 7 => ⟨S32, .f32⟩
  | 8 => ⟨S32, .f32⟩
  | 9 => ⟨S_, .f32⟩
  | 10 => ⟨S32x32, .f32⟩
  | 11 => ⟨S32, .f32⟩
  | 12 => ⟨S32x1, .f32⟩
  | 13 => ⟨S1, .f32⟩
  | 14 => ⟨S32x32, .f32⟩
  | 15 => ⟨S32, .f32⟩
  | 16 => ⟨S32x32, .f32⟩
  | 17 => ⟨S32, .f32⟩
  | 18 => ⟨S32x1, .f32⟩
  | 19 => ⟨S1, .f32⟩
  | 20 => ⟨S32x1, .f32⟩
  | 21 => ⟨S1, .f32⟩
  | 22 => ⟨S16384x1, .f32⟩
  | 23 => ⟨S16384x1, .f32⟩
  | 24 => ⟨S1, .f32⟩
  | 25 => ⟨S16384x32, .f32⟩
  | 26 => ⟨S1x131072, .i32⟩
  | 27 => ⟨S131072, .i32⟩
  | 28 => ⟨S1x131072, .i32⟩
  | 29 => ⟨S131072, .i32⟩
  | 30 => ⟨S1x131072, .i32⟩
  | 31 => ⟨S131072, .i32⟩
  | 32 => ⟨S1x131072, .i32⟩
  | 33 => ⟨S131072, .i32⟩
  | 34 => ⟨S_, .i32⟩
  | 35 => ⟨S131072, .i32⟩
  | 36 => ⟨S131072, .i1⟩
  | 37 => ⟨S_, .i32⟩
  | 38 => ⟨S131072, .i32⟩
  | 39 => ⟨S131072, .i32⟩
  | 40 => ⟨S131072, .i32⟩
  | 41 => ⟨S131072x1, .i32⟩
  | 42 => ⟨S131072x2048, .f32⟩
  | 43 => ⟨S_, .i32⟩
  | 44 => ⟨S131072, .i32⟩
  | 45 => ⟨S131072, .i1⟩
  | 46 => ⟨S_, .i32⟩
  | 47 => ⟨S131072, .i32⟩
  | 48 => ⟨S131072, .i32⟩
  | 49 => ⟨S131072, .i32⟩
  | 50 => ⟨S131072x1, .i32⟩
  | 51 => ⟨S131072x1, .f32⟩
  | 52 => ⟨S131072x2048, .f32⟩
  | 53 => ⟨S131072x2048, .f32⟩
  | 54 => ⟨S_, .i32⟩
  | 55 => ⟨S131072, .i32⟩
  | 56 => ⟨S131072, .i1⟩
  | 57 => ⟨S_, .i32⟩
  | 58 => ⟨S131072, .i32⟩
  | 59 => ⟨S131072, .i32⟩
  | 60 => ⟨S131072, .i32⟩
  | 61 => ⟨S131072x1, .i32⟩
  | 62 => ⟨S131072x2048, .f32⟩
  | 63 => ⟨S_, .i32⟩
  | 64 => ⟨S131072, .i32⟩
  | 65 => ⟨S131072, .i1⟩
  | 66 => ⟨S_, .i32⟩
  | 67 => ⟨S131072, .i32⟩
  | 68 => ⟨S131072, .i32⟩
  | 69 => ⟨S131072, .i32⟩
  | 70 => ⟨S131072x1, .i32⟩
  | 71 => ⟨S131072x1, .f32⟩
  | 72 => ⟨S131072x2048, .f32⟩
  | 73 => ⟨S131072x2048, .f32⟩
  | 74 => ⟨S131072x2048, .f32⟩
  | 75 => ⟨S_, .f32⟩
  | 76 => ⟨S131072, .f32⟩
  | 77 => ⟨S_, .f32⟩
  | 78 => ⟨S131072, .f32⟩
  | 79 => ⟨S131072, .f32⟩
  | 80 => ⟨S16384, .i32⟩
  | 81 => ⟨S147456, .i32⟩
  | 82 => ⟨S147456, .i32⟩
  | 83 => ⟨S_, .f32⟩
  | 84 => ⟨S16384, .f32⟩
  | 85 => ⟨S147456, .f32⟩
  | 86 => ⟨S_, .f32⟩
  | 87 => ⟨S16384, .f32⟩
  | 88 => ⟨S147456x1, .i32⟩
  | 89 => ⟨S16384, .f32⟩
  | 90 => ⟨S_, .f32⟩
  | 91 => ⟨S_, .f32⟩
  | 92 => ⟨S16384, .f32⟩
  | 93 => ⟨S16384, .f32⟩
  | 94 => ⟨S16384, .f32⟩
  | 95 => ⟨S_, .i32⟩
  | 96 => ⟨S147456, .i32⟩
  | 97 => ⟨S147456, .i1⟩
  | 98 => ⟨S_, .i32⟩
  | 99 => ⟨S147456, .i32⟩
  | 100 => ⟨S147456, .i32⟩
  | 101 => ⟨S147456, .i32⟩
  | 102 => ⟨S147456x1, .i32⟩
  | 103 => ⟨S147456, .f32⟩
  | 104 => ⟨S_, .i32⟩
  | 105 => ⟨S147456, .i32⟩
  | 106 => ⟨S147456, .i1⟩
  | 107 => ⟨S_, .i32⟩
  | 108 => ⟨S147456, .i32⟩
  | 109 => ⟨S147456, .i32⟩
  | 110 => ⟨S147456, .i32⟩
  | 111 => ⟨S147456x1, .i32⟩
  | 112 => ⟨S147456, .f32⟩
  | 113 => ⟨S147456, .f32⟩
  | 114 => ⟨S147456, .f32⟩
  | 115 => ⟨S_, .i32⟩
  | 116 => ⟨S147456, .i32⟩
  | 117 => ⟨S147456, .i1⟩
  | 118 => ⟨S_, .i32⟩
  | 119 => ⟨S147456, .i32⟩
  | 120 => ⟨S147456, .i32⟩
  | 121 => ⟨S147456, .i32⟩
  | 122 => ⟨S147456x1, .i32⟩
  | 123 => ⟨S147456x32, .f32⟩
  | 124 => ⟨S147456x1, .f32⟩
  | 125 => ⟨S147456x32, .f32⟩
  | 126 => ⟨S147456x32, .f32⟩
  | 127 => ⟨S_, .f32⟩
  | _ => ⟨S16384x2, .f32⟩

abbrev hbmTy0_1 (i : Nat) : BufTy := match i % 128 with
  | 0 => ⟨S16384x32, .f32⟩
  | 1 => ⟨S147456x1, .i32⟩
  | 2 => ⟨S16384x32, .f32⟩
  | 3 => ⟨S_, .i32⟩
  | 4 => ⟨S131072, .i32⟩
  | 5 => ⟨S131072, .i1⟩
  | 6 => ⟨S_, .i32⟩
  | 7 => ⟨S131072, .i32⟩
  | 8 => ⟨S131072, .i32⟩
  | 9 => ⟨S131072, .i32⟩
  | 10 => ⟨S131072x1, .i32⟩
  | 11 => ⟨S131072x512, .f32⟩
  | 12 => ⟨S_, .i32⟩
  | 13 => ⟨S131072, .i32⟩
  | 14 => ⟨S131072, .i1⟩
  | 15 => ⟨S_, .i32⟩
  | 16 => ⟨S131072, .i32⟩
  | 17 => ⟨S131072, .i32⟩
  | 18 => ⟨S131072, .i32⟩
  | 19 => ⟨S131072x1, .i32⟩
  | 20 => ⟨S131072x1, .f32⟩
  | 21 => ⟨S131072x512, .f32⟩
  | 22 => ⟨S131072x512, .f32⟩
  | 23 => ⟨S_, .i32⟩
  | 24 => ⟨S131072, .i32⟩
  | 25 => ⟨S131072, .i1⟩
  | 26 => ⟨S_, .i32⟩
  | 27 => ⟨S131072, .i32⟩
  | 28 => ⟨S131072, .i32⟩
  | 29 => ⟨S131072, .i32⟩
  | 30 => ⟨S131072x1, .i32⟩
  | 31 => ⟨S131072x512, .f32⟩
  | 32 => ⟨S_, .i32⟩
  | 33 => ⟨S131072, .i32⟩
  | 34 => ⟨S131072, .i1⟩
  | 35 => ⟨S_, .i32⟩
  | 36 => ⟨S131072, .i32⟩
  | 37 => ⟨S131072, .i32⟩
  | 38 => ⟨S131072, .i32⟩
  | 39 => ⟨S131072x1, .i32⟩
  | 40 => ⟨S131072x1, .f32⟩
  | 41 => ⟨S131072x512, .f32⟩
  | 42 => ⟨S131072x512, .f32⟩
  | 43 => ⟨S131072x512, .f32⟩
  | 44 => ⟨S_, .f32⟩
  | 45 => ⟨S131072, .f32⟩
  | 46 => ⟨S_, .f32⟩
  | 47 => ⟨S131072, .f32⟩
  | 48 => ⟨S131072, .f32⟩
  | 49 => ⟨S16384, .i32⟩
  | 50 => ⟨S147456, .i32⟩
  | 51 => ⟨S147456, .i32⟩
  | 52 => ⟨S_, .f32⟩
  | 53 => ⟨S16384, .f32⟩
  | 54 => ⟨S147456, .f32⟩
  | 55 => ⟨S_, .f32⟩
  | 56 => ⟨S16384, .f32⟩
  | 57 => ⟨S147456x1, .i32⟩
  | 58 => ⟨S16384, .f32⟩
  | 59 => ⟨S_, .f32⟩
  | 60 => ⟨S_, .f32⟩
  | 61 => ⟨S16384, .f32⟩
  | 62 => ⟨S16384, .f32⟩
  | 63 => ⟨S16384, .f32⟩
  | 64 => ⟨S_, .i32⟩
  | 65 => ⟨S147456, .i32⟩
  | 66 => ⟨S147456, .i1⟩
  | 67 => ⟨S_, .i32⟩
  | 68 => ⟨S147456, .i32⟩
  | 69 => ⟨S147456, .i32⟩
  | 70 => ⟨S147456, .i32⟩
  | 71 => ⟨S147456x1, .i32⟩
  | 72 => ⟨S147456, .f32⟩
  | 73 => ⟨S_, .i32⟩
  | 74 => ⟨S147456, .i32⟩
  | 75 => ⟨S147456, .i1⟩
  | 76 => ⟨S_, .i32⟩
  | 77 => ⟨S147456, .i32⟩
  | 78 => ⟨S147456, .i32⟩
  | 79 => ⟨S147456, .i32⟩
  | 80 => ⟨S147456x1, .i32⟩
  | 81 => ⟨S147456, .f32⟩
  | 82 => ⟨S147456, .f32⟩
  | 83 => ⟨S147456, .f32⟩
  | 84 => ⟨S_, .i32⟩
  | 85 => ⟨S147456, .i32⟩
  | 86 => ⟨S147456, .i1⟩
  | 87 => ⟨S_, .i32⟩
  | 88 => ⟨S147456, .i32⟩
  | 89 => ⟨S147456, .i32⟩
  | 90 => ⟨S147456, .i32⟩
  | 91 => ⟨S147456x1, .i32⟩
  | 92 => ⟨S147456x32, .f32⟩
  | 93 => ⟨S147456x1, .f32⟩
  | 94 => ⟨S147456x32, .f32⟩
  | 95 => ⟨S147456x32, .f32⟩
  | 96 => ⟨S_, .f32⟩
  | 97 => ⟨S16384x32, .f32⟩
  | 98 => ⟨S147456x1, .i32⟩
  | 99 => ⟨S16384x32, .f32⟩
  | 100 => ⟨S16384x1, .f32⟩
  | 101 => ⟨S16384, .f32⟩
  | _ => ⟨S16384x2, .f32⟩

abbrev hbmTy (i : Nat) : BufTy := match i / 128 with
  | 0 => hbmTy0_0 i
  | 1 => hbmTy0_1 i
  | _ => ⟨S16384x2, .f32⟩

abbrev bufTy : (tb : Table) → Fin (tcTables nBuf tb) → BufTy
  | .hbm, ⟨i, _⟩ => hbmTy i
  | .local _ .vmem, ⟨0, _⟩ => ⟨S1024x2048, .f32⟩
  | .local _ .vmem, ⟨1, _⟩ => ⟨S1024x2048, .f32⟩
  | .local _ .vmem, ⟨2, _⟩ => ⟨S1024x512, .f32⟩
  | .local _ .vmem, ⟨3, _⟩ => ⟨S1024x512, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S16384x2, .f32⟩
  | .local _ .vmem, ⟨9, _⟩ => ⟨S2x32, .f32⟩
  | .local _ .vmem, ⟨10, _⟩ => ⟨S32, .f32⟩
  | .local _ .vmem, ⟨11, _⟩ => ⟨S32, .f32⟩
  | .local _ .vmem, ⟨12, _⟩ => ⟨S32, .f32⟩
  | .local _ .vmem, ⟨13, _⟩ => ⟨S1, .f32⟩
  | .local _ .vmem, ⟨14, _⟩ => ⟨S32x32, .f32⟩
  | .local _ .vmem, ⟨15, _⟩ => ⟨S32, .f32⟩
  | .local _ .vmem, ⟨16, _⟩ => ⟨S16384x32, .f32⟩
  | .local _ .vmem, ⟨17, _⟩ => ⟨S16384x32, .f32⟩
  | .local _ .vmem, ⟨18, _⟩ => ⟨S16384x32, .f32⟩
  | .local _ .vmem, ⟨19, _⟩ => ⟨S16384x32, .f32⟩
  | .local _ .vmem, ⟨20, _⟩ => ⟨S32x32, .f32⟩
  | .local _ .vmem, ⟨21, _⟩ => ⟨S32, .f32⟩
  | .local _ .vmem, ⟨22, _⟩ => ⟨S32x32, .f32⟩
  | .local _ .vmem, ⟨23, _⟩ => ⟨S32, .f32⟩
  | .local _ .vmem, ⟨24, _⟩ => ⟨S32x1, .f32⟩
  | .local _ .vmem, ⟨25, _⟩ => ⟨S1, .f32⟩
  | .local _ .vmem, ⟨26, _⟩ => ⟨S32x1, .f32⟩
  | .local _ .vmem, ⟨27, _⟩ => ⟨S1, .f32⟩
  | .local _ .vmem, ⟨28, _⟩ => ⟨S32x1, .f32⟩
  | .local _ .vmem, ⟨29, _⟩ => ⟨S1, .f32⟩
  | .local _ .vmem, ⟨30, _⟩ => ⟨S16384x1, .f32⟩
  | _, _ => ⟨S16384x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0_0 : Ref sig .tc := ⟨.hbm, 22, rfl⟩
abbrev main_v0_1 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_c : Ref sig .tc := ⟨.hbm, 34, rfl⟩
abbrev main_v11 : Ref sig .tc := ⟨.hbm, 35, rfl⟩
abbrev main_v12 : Ref sig .tc := ⟨.hbm, 36, rfl⟩
abbrev main_c_0 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_c_1 : Ref sig .tc := ⟨.hbm, 43, rfl⟩
abbrev main_v18 : Ref sig .tc := ⟨.hbm, 44, rfl⟩
abbrev main_v19 : Ref sig .tc := ⟨.hbm, 45, rfl⟩
abbrev main_c_2 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_c_3 : Ref sig .tc := ⟨.hbm, 54, rfl⟩
abbrev main_v27 : Ref sig .tc := ⟨.hbm, 55, rfl⟩
abbrev main_v28 : Ref sig .tc := ⟨.hbm, 56, rfl⟩
abbrev main_c_4 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_c_5 : Ref sig .tc := ⟨.hbm, 63, rfl⟩
abbrev main_v34 : Ref sig .tc := ⟨.hbm, 64, rfl⟩
abbrev main_v35 : Ref sig .tc := ⟨.hbm, 65, rfl⟩
abbrev main_c_6 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst : Ref sig .tc := ⟨.hbm, 75, rfl⟩
abbrev main_v44 : Ref sig .tc := ⟨.hbm, 76, rfl⟩
abbrev main_call0_cst : Ref sig .tc := ⟨.hbm, 77, rfl⟩
abbrev main_call0_v0 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_cst_7 : Ref sig .tc := ⟨.hbm, 83, rfl⟩
abbrev main_v49 : Ref sig .tc := ⟨.hbm, 84, rfl⟩
abbrev main_v50 : Ref sig .tc := ⟨.hbm, 85, rfl⟩
abbrev main_cst_8 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_9 : Ref sig .tc := ⟨.hbm, 90, rfl⟩
abbrev main_call1_v0 : Ref sig .tc := ⟨.hbm, 91, rfl⟩
abbrev main_call1_v1 : Ref sig .tc := ⟨.hbm, 92, rfl⟩
abbrev main_v54 : Ref sig .tc := ⟨.hbm, 93, rfl⟩
abbrev main_v55 : Ref sig .tc := ⟨.hbm, 94, rfl⟩
abbrev main_c_10 : Ref sig .tc := ⟨.hbm, 95, rfl⟩
abbrev main_v56 : Ref sig .tc := ⟨.hbm, 96, rfl⟩
abbrev main_v57 : Ref sig .tc := ⟨.hbm, 97, rfl⟩
abbrev main_c_11 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_c_12 : Ref sig .tc := ⟨.hbm, 104, rfl⟩
abbrev main_v63 : Ref sig .tc := ⟨.hbm, 105, rfl⟩
abbrev main_v64 : Ref sig .tc := ⟨.hbm, 106, rfl⟩
abbrev main_c_13 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_c_14 : Ref sig .tc := ⟨.hbm, 115, rfl⟩
abbrev main_v72 : Ref sig .tc := ⟨.hbm, 116, rfl⟩
abbrev main_v73 : Ref sig .tc := ⟨.hbm, 117, rfl⟩
abbrev main_c_15 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_cst_16 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_c_17 : Ref sig .tc := ⟨.hbm, 131, rfl⟩
abbrev main_v85 : Ref sig .tc := ⟨.hbm, 132, rfl⟩
abbrev main_v86 : Ref sig .tc := ⟨.hbm, 133, rfl⟩
abbrev main_c_18 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_c_19 : Ref sig .tc := ⟨.hbm, 140, rfl⟩
abbrev main_v92 : Ref sig .tc := ⟨.hbm, 141, rfl⟩
abbrev main_v93 : Ref sig .tc := ⟨.hbm, 142, rfl⟩
abbrev main_c_20 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_c_21 : Ref sig .tc := ⟨.hbm, 151, rfl⟩
abbrev main_v101 : Ref sig .tc := ⟨.hbm, 152, rfl⟩
abbrev main_v102 : Ref sig .tc := ⟨.hbm, 153, rfl⟩
abbrev main_c_22 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_c_23 : Ref sig .tc := ⟨.hbm, 160, rfl⟩
abbrev main_v108 : Ref sig .tc := ⟨.hbm, 161, rfl⟩
abbrev main_v109 : Ref sig .tc := ⟨.hbm, 162, rfl⟩
abbrev main_c_24 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_cst_25 : Ref sig .tc := ⟨.hbm, 172, rfl⟩
abbrev main_v118 : Ref sig .tc := ⟨.hbm, 173, rfl⟩
abbrev main_call2_cst : Ref sig .tc := ⟨.hbm, 174, rfl⟩
abbrev main_call2_v0 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_cst_26 : Ref sig .tc := ⟨.hbm, 180, rfl⟩
abbrev main_v123 : Ref sig .tc := ⟨.hbm, 181, rfl⟩
abbrev main_v124 : Ref sig .tc := ⟨.hbm, 182, rfl⟩
abbrev main_cst_27 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_cst_28 : Ref sig .tc := ⟨.hbm, 187, rfl⟩
abbrev main_call3_v0 : Ref sig .tc := ⟨.hbm, 188, rfl⟩
abbrev main_call3_v1 : Ref sig .tc := ⟨.hbm, 189, rfl⟩
abbrev main_v128 : Ref sig .tc := ⟨.hbm, 190, rfl⟩
abbrev main_v129 : Ref sig .tc := ⟨.hbm, 191, rfl⟩
abbrev main_c_29 : Ref sig .tc := ⟨.hbm, 192, rfl⟩
abbrev main_v130 : Ref sig .tc := ⟨.hbm, 193, rfl⟩
abbrev main_v131 : Ref sig .tc := ⟨.hbm, 194, rfl⟩
abbrev main_c_30 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_c_31 : Ref sig .tc := ⟨.hbm, 201, rfl⟩
abbrev main_v137 : Ref sig .tc := ⟨.hbm, 202, rfl⟩
abbrev main_v138 : Ref sig .tc := ⟨.hbm, 203, rfl⟩
abbrev main_c_32 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_c_33 : Ref sig .tc := ⟨.hbm, 212, rfl⟩
abbrev main_v146 : Ref sig .tc := ⟨.hbm, 213, rfl⟩
abbrev main_v147 : Ref sig .tc := ⟨.hbm, 214, rfl⟩
abbrev main_c_34 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_cst_35 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_v159 : Ref sig .tc := ⟨.hbm, 228, rfl⟩
abbrev main_v160 : Ref sig .tc := ⟨.hbm, 229, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc2_stg0_0 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg8_0 : Ref sig .tc := ⟨.vmem, 25, rfl⟩
abbrev cc2_stg9_0 : Ref sig .tc := ⟨.vmem, 26, rfl⟩
abbrev cc2_stg10_0 : Ref sig .tc := ⟨.vmem, 27, rfl⟩
abbrev cc2_stg11_0 : Ref sig .tc := ⟨.vmem, 28, rfl⟩
abbrev cc2_stg12_0 : Ref sig .tc := ⟨.vmem, 29, rfl⟩
abbrev cc2_stg13_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc2_sem0_0 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem8_0 : DmaSem sig := 25
abbrev cc2_sem9_0 : DmaSem sig := 26
abbrev cc2_sem10_0 : DmaSem sig := 27
abbrev cc2_sem11_0 : DmaSem sig := 28
abbrev cc2_sem12_0 : DmaSem sig := 29
abbrev cc2_sem13_0 : DmaSem sig := 30

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S16384x2 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S16384x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S16384x32 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S16384x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S16384x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S32x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S32x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S32x1 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S16384x1 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

class Facts₀ : Prop where
  inb_S1024x2048_S1024x2048_0_0 : ∀ a, (![0, 0] : Fin 2 → Nat) a + S1024x2048.size a ≤ S1024x2048.size a
  h_S1024x2048 : 0 < S1024x2048.numel
  inb_S1024x512_S1024x512_0_0 : ∀ a, (![0, 0] : Fin 2 → Nat) a + S1024x512.size a ≤ S1024x512.size a
  h_S1024x512 : 0 < S1024x512.numel
  reduces_S1024x2048_S1024 : S1024x2048.Reduces [1] S1024
  shapeCasts_S1024_S1024x1 : S1024.ShapeCasts S1024x1
  reduces_S1024x512_S1024 : S1024x512.Reduces [1] S1024
  inb_S1024x1_S1024x1_0_0 : ∀ a, (![0, 0] : Fin 2 → Nat) a + S1024x1.size a ≤ S1024x1.size a
  h_S1024x1 : 0 < S1024x1.numel
  shapeCasts_S_S1 : S_.ShapeCasts S1
  inb_S16384x2_S16384x2_0_0 : ∀ a, (![0, 0] : Fin 2 → Nat) a + S16384x2.size a ≤ S16384x2.size a
  h_S16384x2 : 0 < S16384x2.numel
  inb_S2x32_S2x32_0_0 : ∀ a, (![0, 0] : Fin 2 → Nat) a + S2x32.size a ≤ S2x32.size a
  h_S2x32 : 0 < S2x32.numel
  inb_S32_S32_0 : ∀ a, (![0] : Fin 1 → Nat) a + S32.size a ≤ S32.size a
  h_S32 : 0 < S32.numel
  shapeCasts_S32_S1x32 : S32.ShapeCasts S1x32
  broadcasts_S1x32_S16384x32 : S1x32.Broadcasts S16384x32
  reduces_S16384x32_S32 : S16384x32.Reduces [0] S32
  inb_S1_S1_0 : ∀ a, (![0] : Fin 1 → Nat) a + S1.size a ≤ S1.size a
  h_S1 : 0 < S1.numel
  shapeCasts_S1_S1 : S1.ShapeCasts S1
  shapeCasts_S1_S1x1 : S1.ShapeCasts S1x1
  broadcasts_S1x1_S16384x32 : S1x1.Broadcasts S16384x32
  inb_S32x32_S32x32_0_0 : ∀ a, (![0, 0] : Fin 2 → Nat) a + S32x32.size a ≤ S32x32.size a
  h_S32x32 : 0 < S32x32.numel
  inb_S16384x32_S16384x32_0_0 : ∀ a, (![0, 0] : Fin 2 → Nat) a + S16384x32.size a ≤ S16384x32.size a
  h_S16384x32 : 0 < S16384x32.numel
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S131072 : S_.BroadcastsInDim S131072 (![] : Fin 0 → Fin S131072.rank)
  bcast_S131072_S131072x1_0 : S131072.BroadcastsInDim S131072x1 (![0] : Fin 1 → Fin S131072x1.rank)
  bcast_S131072x1_S131072x2048_0_1 : S131072x1.BroadcastsInDim S131072x2048 (![0, 1] : Fin 2 → Fin S131072x2048.rank)
  reducesTo_S131072x2048_S131072_d1 : S131072x2048.ReducesTo [1] S131072
  h_S_ : 0 < S_.numel
  concatenates_S131072_S16384_S147456_d0 : Shape.Concatenates [S131072, S16384] S147456 0
  bcast_S_S16384 : S_.BroadcastsInDim S16384 (![] : Fin 0 → Fin S16384.rank)
  bcast_S147456_S147456x1_0 : S147456.BroadcastsInDim S147456x1 (![0] : Fin 1 → Fin S147456x1.rank)
  bcast_S_S147456 : S_.BroadcastsInDim S147456 (![] : Fin 0 → Fin S147456.rank)
  bcast_S147456x1_S147456x32_0_1 : S147456x1.BroadcastsInDim S147456x32 (![0, 1] : Fin 2 → Fin S147456x32.rank)
  bcast_S_S16384x32 : S_.BroadcastsInDim S16384x32 (![] : Fin 0 → Fin S16384x32.rank)
  bcast_S131072x1_S131072x512_0_1 : S131072x1.BroadcastsInDim S131072x512 (![0, 1] : Fin 2 → Fin S131072x512.rank)
  reducesTo_S131072x512_S131072_d1 : S131072x512.ReducesTo [1] S131072
  shapeCasts_S16384x32_S16384x32 : S16384x32.ShapeCasts S16384x32
  inb_S32x1_S32x1_0_0 : ∀ a, (![0, 0] : Fin 2 → Nat) a + S32x1.size a ≤ S32x1.size a
  h_S32x1 : 0 < S32x1.numel
  broadcasts_S1x1_S16384x1 : S1x1.Broadcasts S16384x1
  inb_S16384x1_S16384x1_0_0 : ∀ a, (![0, 0] : Fin 2 → Nat) a + S16384x1.size a ≤ S16384x1.size a
  h_S16384x1 : 0 < S16384x1.numel
  shapeCasts_S16384x1_S16384 : S16384x1.ShapeCasts S16384
  dot_S16384x2_S2x32_S16384x32_1_0_0_1_n_n_wf : DotDims.WF S16384x2 S2x32 S16384x32 [1] [0] [0] [1] [] []
  dot_S16384x32_S32x32_S16384x32_1_0_0_1_n_n_wf : DotDims.WF S16384x32 S32x32 S16384x32 [1] [0] [0] [1] [] []
  gather_S16384x2048_S131072x1_S131072x2048_1_0_n_n_0_1_12048_wf : GatherDims.WF S16384x2048 S131072x1 S131072x2048 [1] [0] [] [0] [] 1 ![1, 2048]
  gather_S16384x1_S131072x1_S131072x1_1_0_n_n_0_1_11_wf : GatherDims.WF S16384x1 S131072x1 S131072x1 [1] [0] [] [0] [] 1 ![1, 1]
  scatter_S16384_S147456x1_S147456_n_0_0_1_wf : ScatterDims.WF S16384 S147456x1 S147456 [] [0] [0] 1
  gather_S16384_S147456x1_S147456_n_0_n_n_0_1_1_wf : GatherDims.WF S16384 S147456x1 S147456 [] [0] [] [0] [] 1 ![1]
  gather_S16384x32_S147456x1_S147456x32_1_0_n_n_0_1_132_wf : GatherDims.WF S16384x32 S147456x1 S147456x32 [1] [0] [] [0] [] 1 ![1, 32]
  scatter_S16384x32_S147456x1_S147456x32_1_0_0_1_wf : ScatterDims.WF S16384x32 S147456x1 S147456x32 [1] [0] [0] 1
  gather_S16384x512_S131072x1_S131072x512_1_0_n_n_0_1_1512_wf : GatherDims.WF S16384x512 S131072x1 S131072x512 [1] [0] [] [0] [] 1 ![1, 512]
  dot_S16384x32_S32x1_S16384x1_1_0_0_1_n_n_wf : DotDims.WF S16384x32 S32x1 S16384x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x512.size a
  hwx0_1 : ∀ i : grid0.Coords, EltTy.bits .f32 = 32 ∨ (Rect.block (s := S16384x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S16384x1.size a
  hwx0_3 : ∀ i : grid0.Coords, EltTy.bits .f32 = 32 ∨ (Rect.block (s := S16384x1) S1024x1.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S16384x2.size a ≤ S16384x2.size a
  hwx1_0 : ∀ i : grid1.Coords, EltTy.bits .f32 = 32 ∨ (Rect.block (s := S16384x2) S16384x2.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x32.size a ≤ S2x32.size a
  hwx1_1 : ∀ i : grid1.Coords, EltTy.bits .f32 = 32 ∨ (Rect.block (s := S2x32) S2x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32.size a ≤ S32.size a
  hwx1_2 : ∀ i : grid1.Coords, EltTy.bits .f32 = 32 ∨ (Rect.block (s := S32) S32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32.size a ≤ S32.size a
  hwx1_3 : ∀ i : grid1.Coords, EltTy.bits .f32 = 32 ∨ (Rect.block (s := S32) S32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32.size a ≤ S32.size a
  hwx1_4 : ∀ i : grid1.Coords, EltTy.bits .f32 = 32 ∨ (Rect.block (s := S32) S32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1.size a ≤ S1.size a
  hwx1_5 : ∀ i : grid1.Coords, EltTy.bits .f32 = 32 ∨ (Rect.block (s := S1) S1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32x32.size a ≤ S32x32.size a
  hwx1_6 : ∀ i : grid1.Coords, EltTy.bits .f32 = 32 ∨ (Rect.block (s := S32x32) S32x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S32.size a ≤ S32.size a
  hwx1_7 : ∀ i : grid1.Coords, EltTy.bits .f32 = 32 ∨ (Rect.block (s := S32) S32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S16384x32.size a ≤ S16384x32.size a
  hwx1_8 : ∀ i : grid1.Coords, EltTy.bits .f32 = 32 ∨ (Rect.block (s := S16384x32) S16384x32.size (cc1_transform_8 i) (hinb1_8 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S16384x32.size a ≤ S16384x32.size a
  hwx2_0 : ∀ i : grid2.Coords, EltTy.bits .f32 = 32 ∨ (Rect.block (s := S16384x32) S16384x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16384x32.size a ≤ S16384x32.size a
  hwx2_1 : ∀ i : grid2.Coords, EltTy.bits .f32 = 32 ∨ (Rect.block (s := S16384x32) S16384x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16384x32.size a ≤ S16384x32.size a
  hwx2_2 : ∀ i : grid2.Coords, EltTy.bits .f32 = 32 ∨ (Rect.block (s := S16384x32) S16384x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x32.size a ≤ S32x32.size a
  hwx2_3 : ∀ i : grid2.Coords, EltTy.bits .f32 = 32 ∨ (Rect.block (s := S32x32) S32x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32.size a ≤ S32.size a
  hwx2_4 : ∀ i : grid2.Coords, EltTy.bits .f32 = 32 ∨ (Rect.block (s := S32) S32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x32.size a ≤ S32x32.size a
  hwx2_5 : ∀ i : grid2.Coords, EltTy.bits .f32 = 32 ∨ (Rect.block (s := S32x32) S32x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S32.size a ≤ S32.size a
  hwx2_6 : ∀ i : grid2.Coords, EltTy.bits .f32 = 32 ∨ (Rect.block (s := S32) S32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S32x1.size a ≤ S32x1.size a
  hwx2_7 : ∀ i : grid2.Coords, EltTy.bits .f32 = 32 ∨ (Rect.block (s := S32x1) S32x1.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1.size a ≤ S1.size a
  hwx2_8 : ∀ i : grid2.Coords, EltTy.bits .f32 = 32 ∨ (Rect.block (s := S1) S1.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S32x1.size a ≤ S32x1.size a
  hwx2_9 : ∀ i : grid2.Coords, EltTy.bits .f32 = 32 ∨ (Rect.block (s := S32x1) S32x1.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1.size a ≤ S1.size a
  hwx2_10 : ∀ i : grid2.Coords, EltTy.bits .f32 = 32 ∨ (Rect.block (s := S1) S1.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S32x1.size a ≤ S32x1.size a
  hwx2_11 : ∀ i : grid2.Coords, EltTy.bits .f32 = 32 ∨ (Rect.block (s := S32x1) S32x1.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1.size a ≤ S1.size a
  hwx2_12 : ∀ i : grid2.Coords, EltTy.bits .f32 = 32 ∨ (Rect.block (s := S1) S1.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S16384x1.size a ≤ S16384x1.size a
  hwx2_13 : ∀ i : grid2.Coords, EltTy.bits .f32 = 32 ∨ (Rect.block (s := S16384x1) S16384x1.size (cc2_transform_13 i) (hinb2_13 i)).WholeWords (EltTy.packing .f32)

variable [Facts₀]

def dot_S16384x2_S2x32_S16384x32_1_0_0_1_n_n : DotDims S16384x2 S2x32 S16384x32 where
  lhsContracting := [1]
  rhsContracting := [0]
  lhsNonContracting := [0]
  rhsNonContracting := [1]
  lhsBatch := []
  rhsBatch := []
  wf := dot_S16384x2_S2x32_S16384x32_1_0_0_1_n_n_wf
def dot_S16384x32_S32x32_S16384x32_1_0_0_1_n_n : DotDims S16384x32 S32x32 S16384x32 where
  lhsContracting := [1]
  rhsContracting := [0]
  lhsNonContracting := [0]
  rhsNonContracting := [1]
  lhsBatch := []
  rhsBatch := []
  wf := dot_S16384x32_S32x32_S16384x32_1_0_0_1_n_n_wf
def gather_S16384x2048_S131072x1_S131072x2048_1_0_n_n_0_1_12048 : GatherDims S16384x2048 S131072x1 S131072x2048 where
  offsetDims := [1]
  collapsedSliceDims := [0]
  operandBatchingDims := []
  startIndicesBatchingDims := []
  startIndexMap := [0]
  indexVectorDim := 1
  sliceSizes := ![1, 2048]
  wf := gather_S16384x2048_S131072x1_S131072x2048_1_0_n_n_0_1_12048_wf
def gather_S16384x1_S131072x1_S131072x1_1_0_n_n_0_1_11 : GatherDims S16384x1 S131072x1 S131072x1 where
  offsetDims := [1]
  collapsedSliceDims := [0]
  operandBatchingDims := []
  startIndicesBatchingDims := []
  startIndexMap := [0]
  indexVectorDim := 1
  sliceSizes := ![1, 1]
  wf := gather_S16384x1_S131072x1_S131072x1_1_0_n_n_0_1_11_wf
def scatter_S16384_S147456x1_S147456_n_0_0_1 : ScatterDims S16384 S147456x1 S147456 where
  updateWindowDims := []
  insertedWindowDims := [0]
  scatterDimsToOperandDims := [0]
  indexVectorDim := 1
  wf := scatter_S16384_S147456x1_S147456_n_0_0_1_wf
def gather_S16384_S147456x1_S147456_n_0_n_n_0_1_1 : GatherDims S16384 S147456x1 S147456 where
  offsetDims := []
  collapsedSliceDims := [0]
  operandBatchingDims := []
  startIndicesBatchingDims := []
  startIndexMap := [0]
  indexVectorDim := 1
  sliceSizes := ![1]
  wf := gather_S16384_S147456x1_S147456_n_0_n_n_0_1_1_wf
def gather_S16384x32_S147456x1_S147456x32_1_0_n_n_0_1_132 : GatherDims S16384x32 S147456x1 S147456x32 where
  offsetDims := [1]
  collapsedSliceDims := [0]
  operandBatchingDims := []
  startIndicesBatchingDims := []
  startIndexMap := [0]
  indexVectorDim := 1
  sliceSizes := ![1, 32]
  wf := gather_S16384x32_S147456x1_S147456x32_1_0_n_n_0_1_132_wf
def scatter_S16384x32_S147456x1_S147456x32_1_0_0_1 : ScatterDims S16384x32 S147456x1 S147456x32 where
  updateWindowDims := [1]
  insertedWindowDims := [0]
  scatterDimsToOperandDims := [0]
  indexVectorDim := 1
  wf := scatter_S16384x32_S147456x1_S147456x32_1_0_0_1_wf
def gather_S16384x512_S131072x1_S131072x512_1_0_n_n_0_1_1512 : GatherDims S16384x512 S131072x1 S131072x512 where
  offsetDims := [1]
  collapsedSliceDims := [0]
  operandBatchingDims := []
  startIndicesBatchingDims := []
  startIndexMap := [0]
  indexVectorDim := 1
  sliceSizes := ![1, 512]
  wf := gather_S16384x512_S131072x1_S131072x512_1_0_n_n_0_1_1512_wf
def dot_S16384x32_S32x1_S16384x1_1_0_0_1_n_n : DotDims S16384x32 S32x1 S16384x1 where
  lhsContracting := [1]
  rhsContracting := [0]
  lhsNonContracting := [0]
  rhsNonContracting := [1]
  lhsBatch := []
  rhsBatch := []
  wf := dot_S16384x32_S32x1_S16384x1_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S16384x2.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S2x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S32x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg11) S32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v2) S16384x32.size cc1_transform_8 reads1_8 true true 1 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v2) S16384x32.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v84) S16384x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v158) S16384x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg14) S32x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg15) S32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg16) S32x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg17) S32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg12) S32x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg13) S1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg18) S32x1.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg19) S1.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_arg20) S32x1.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_arg21) S1.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v159) S16384x1.size cc2_transform_13 reads2_13 true true 1 stage2_13 sem2_13
    hrank2 hreads2_13 hinb2_13 nbuf2_13 (Memref.isWhole_whole _) hwx2_13 hstage2_13

abbrev win2 : Fin 14 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | ⟨_ + 14, h⟩ => absurd h (Nat.not_lt.2 (Nat.le_add_left _ _))
abbrev spec2 : Fin 14 → Pipeline.WinSpec sig grid2.rank := fun w => (win2 w).toWinSpec

class Facts : Prop extends Facts₀ where

variable [Facts]
-- ==== ReferenceIdeal.lean ====
abbrev S16384x2 : Shape := ⟨2, ![16384, 2]⟩
abbrev S16384x2048 : Shape := ⟨2, ![16384, 2048]⟩
abbrev S16384x512 : Shape := ⟨2, ![16384, 512]⟩
abbrev S2x131072 : Shape := ⟨2, ![2, 131072]⟩
abbrev S2x32 : Shape := ⟨2, ![2, 32]⟩
abbrev S32 : Shape := ⟨1, ![32]⟩
abbrev S_ : Shape := ⟨0, ![]⟩
abbrev S32x32 : Shape := ⟨2, ![32, 32]⟩
abbrev S32x1 : Shape := ⟨2, ![32, 1]⟩
abbrev S1 : Shape := ⟨1, ![1]⟩
abbrev S16384x32 : Shape := ⟨2, ![16384, 32]⟩
abbrev S1x32 : Shape := ⟨2, ![1, 32]⟩
abbrev S1x131072 : Shape := ⟨2, ![1, 131072]⟩
abbrev S131072 : Shape := ⟨1, ![131072]⟩
abbrev S16384 : Shape := ⟨1, ![16384]⟩
abbrev S16384x1 : Shape := ⟨2, ![16384, 1]⟩
abbrev S131072x1 : Shape := ⟨2, ![131072, 1]⟩
abbrev S131072x2048 : Shape := ⟨2, ![131072, 2048]⟩
abbrev S147456 : Shape := ⟨1, ![147456]⟩
abbrev S147456x1 : Shape := ⟨2, ![147456, 1]⟩
abbrev S147456x32 : Shape := ⟨2, ![147456, 32]⟩
abbrev S131072x512 : Shape := ⟨2, ![131072, 512]⟩
abbrev S1x1 : Shape := ⟨2, ![1, 1]⟩

abbrev nBuf : Space → Nat
  | .hbm => 283
  | .vmem => 0
  | .smem => 0
  | _ => 0

abbrev hbmTy0_0 (i : Nat) : BufTy := match i % 128 with
  | 0 => ⟨S16384x2, .f32⟩
  | 1 => ⟨S16384x2048, .f32⟩
  | 2 => ⟨S16384x512, .f32⟩
  | 3 => ⟨S2x131072, .i32⟩
  | 4 => ⟨S2x131072, .i32⟩
  | 5 => ⟨S2x32, .f32⟩
  | 6 => ⟨S32, .f32⟩
  | 7 => ⟨S32, .f32⟩
  | 8 => ⟨S32, .f32⟩
  | 9 => ⟨S_, .f32⟩
  | 10 => ⟨S32x32, .f32⟩
  | 11 => ⟨S32, .f32⟩
  | 12 => ⟨S32x1, .f32⟩
  | 13 => ⟨S1, .f32⟩
  | 14 => ⟨S32x32, .f32⟩
  | 15 => ⟨S32, .f32⟩
  | 16 => ⟨S32x32, .f32⟩
  | 17 => ⟨S32, .f32⟩
  | 18 => ⟨S32x1, .f32⟩
  | 19 => ⟨S1, .f32⟩
  | 20 => ⟨S32x1, .f32⟩
  | 21 => ⟨S1, .f32⟩
  | 22 => ⟨S16384x32, .f32⟩
  | 23 => ⟨S1x32, .f32⟩
  | 24 => ⟨S16384x32, .f32⟩
  | 25 => ⟨S16384x32, .f32⟩
  | 26 => ⟨S_, .f32⟩
  | 27 => ⟨S32, .f32⟩
  | 28 => ⟨S_, .f32⟩
  | 29 => ⟨S32, .f32⟩
  | 30 => ⟨S32, .f32⟩
  | 31 => ⟨S_, .i32⟩
  | 32 => ⟨S_, .f32⟩
  | 33 => ⟨S32, .f32⟩
  | 34 => ⟨S1x32, .f32⟩
  | 35 => ⟨S_, .f32⟩
  | 36 => ⟨S1x32, .f32⟩
  | 37 => ⟨S1x32, .f32⟩
  | 38 => ⟨S16384x32, .f32⟩
  | 39 => ⟨S16384x32, .f32⟩
  | 40 => ⟨S16384x32, .f32⟩
  | 41 => ⟨S_, .f32⟩
  | 42 => ⟨S_, .f32⟩
  | 43 => ⟨S_, .f32⟩
  | 44 => ⟨S_, .f32⟩
  | 45 => ⟨S32, .f32⟩
  | 46 => ⟨S32, .f32⟩
  | 47 => ⟨S32, .f32⟩
  | 48 => ⟨S_, .f32⟩
  | 49 => ⟨S_, .i1⟩
  | 50 => ⟨S_, .f32⟩
  | 51 => ⟨S_, .f32⟩
  | 52 => ⟨S32, .f32⟩
  | 53 => ⟨S32, .f32⟩
  | 54 => ⟨S1x32, .f32⟩
  | 55 => ⟨S16384x32, .f32⟩
  | 56 => ⟨S16384x32, .f32⟩
  | 57 => ⟨S_, .f32⟩
  | 58 => ⟨S32, .f32⟩
  | 59 => ⟨S32, .f32⟩
  | 60 => ⟨S32, .f32⟩
  | 61 => ⟨S1x32, .f32⟩
  | 62 => ⟨S16384x32, .f32⟩
  | 63 => ⟨S16384x32, .f32⟩
  | 64 => ⟨S1x32, .f32⟩
  | 65 => ⟨S16384x32, .f32⟩
  | 66 => ⟨S16384x32, .f32⟩
  | 67 => ⟨S1x32, .f32⟩
  | 68 => ⟨S16384x32, .f32⟩
  | 69 => ⟨S16384x32, .f32⟩
  | 70 => ⟨S_, .f32⟩
  | 71 => ⟨S16384x32, .f32⟩
  | 72 => ⟨S16384x32, .i1⟩
  | 73 => ⟨S16384x32, .f32⟩
  | 74 => ⟨S16384x32, .f32⟩
  | 75 => ⟨S16384x32, .f32⟩
  | 76 => ⟨S16384x32, .f32⟩
  | 77 => ⟨S1x32, .f32⟩
  | 78 => ⟨S16384x32, .f32⟩
  | 79 => ⟨S16384x32, .f32⟩
  | 80 => ⟨S1x131072, .i32⟩
  | 81 => ⟨S131072, .i32⟩
  | 82 => ⟨S1x131072, .i32⟩
  | 83 => ⟨S131072, .i32⟩
  | 84 => ⟨S16384x2048, .f32⟩
  | 85 => ⟨S_, .f32⟩
  | 86 => ⟨S16384, .f32⟩
  | 87 => ⟨S16384x1, .f32⟩
  | 88 => ⟨S_, .f32⟩
  | 89 => ⟨S16384x1, .f32⟩
  | 90 => ⟨S16384x1, .f32⟩
  | 91 => ⟨S16384x1, .f32⟩
  | 92 => ⟨S16384x2048, .f32⟩
  | 93 => ⟨S16384x2048, .f32⟩
  | 94 => ⟨S_, .i32⟩
  | 95 => ⟨S131072, .i32⟩
  | 96 => ⟨S131072, .i1⟩
  | 97 => ⟨S_, .i32⟩
  | 98 => ⟨S131072, .i32⟩
  | 99 => ⟨S131072, .i32⟩
  | 100 => ⟨S131072, .i32⟩
  | 101 => ⟨S131072x1, .i32⟩
  | 102 => ⟨S131072x2048, .f32⟩
  | 103 => ⟨S_, .i32⟩
  | 104 => ⟨S131072, .i32⟩
  | 105 => ⟨S131072, .i1⟩
  | 106 => ⟨S_, .i32⟩
  | 107 => ⟨S131072, .i32⟩
  | 108 => ⟨S131072, .i32⟩
  | 109 => ⟨S131072, .i32⟩
  | 110 => ⟨S131072x1, .i32⟩
  | 111 => ⟨S131072x2048, .f32⟩
  | 112 => ⟨S131072x2048, .f32⟩
  | 113 => ⟨S_, .f32⟩
  | 114 => ⟨S131072, .f32⟩
  | 115 => ⟨S_, .f32⟩
  | 116 => ⟨S131072, .f32⟩
  | 117 => ⟨S131072, .f32⟩
  | 118 => ⟨S16384, .i32⟩
  | 119 => ⟨S147456, .i32⟩
  | 120 => ⟨S147456, .i32⟩
  | 121 => ⟨S_, .f32⟩
  | 122 => ⟨S16384, .f32⟩
  | 123 => ⟨S147456, .f32⟩
  | 124 => ⟨S_, .f32⟩
  | 125 => ⟨S16384, .f32⟩
  | 126 => ⟨S147456x1, .i32⟩
  | 127 => ⟨S16384, .f32⟩
  | _ => ⟨S16384x2, .f32⟩

abbrev hbmTy0_1 (i : Nat) : BufTy := match i % 128 with
  | 0 => ⟨S_, .f32⟩
  | 1 => ⟨S_, .f32⟩
  | 2 => ⟨S16384, .f32⟩
  | 3 => ⟨S16384, .f32⟩
  | 4 => ⟨S16384, .f32⟩
  | 5 => ⟨S_, .i32⟩
  | 6 => ⟨S147456, .i32⟩
  | 7 => ⟨S147456, .i1⟩
  | 8 => ⟨S_, .i32⟩
  | 9 => ⟨S147456, .i32⟩
  | 10 => ⟨S147456, .i32⟩
  | 11 => ⟨S147456, .i32⟩
  | 12 => ⟨S147456x1, .i32⟩
  | 13 => ⟨S147456, .f32⟩
  | 14 => ⟨S_, .i32⟩
  | 15 => ⟨S147456, .i32⟩
  | 16 => ⟨S147456, .i1⟩
  | 17 => ⟨S_, .i32⟩
  | 18 => ⟨S147456, .i32⟩
  | 19 => ⟨S147456, .i32⟩
  | 20 => ⟨S147456, .i32⟩
  | 21 => ⟨S147456x1, .i32⟩
  | 22 => ⟨S147456, .f32⟩
  | 23 => ⟨S147456, .f32⟩
  | 24 => ⟨S147456, .f32⟩
  | 25 => ⟨S_, .i32⟩
  | 26 => ⟨S147456, .i32⟩
  | 27 => ⟨S147456, .i1⟩
  | 28 => ⟨S_, .i32⟩
  | 29 => ⟨S147456, .i32⟩
  | 30 => ⟨S147456, .i32⟩
  | 31 => ⟨S147456, .i32⟩
  | 32 => ⟨S147456x1, .i32⟩
  | 33 => ⟨S147456x32, .f32⟩
  | 34 => ⟨S147456x1, .f32⟩
  | 35 => ⟨S147456x32, .f32⟩
  | 36 => ⟨S147456x32, .f32⟩
  | 37 => ⟨S_, .f32⟩
  | 38 => ⟨S16384x32, .f32⟩
  | 39 => ⟨S147456x1, .i32⟩
  | 40 => ⟨S16384x32, .f32⟩
  | 41 => ⟨S16384x32, .f32⟩
  | 42 => ⟨S1x32, .f32⟩
  | 43 => ⟨S16384x32, .f32⟩
  | 44 => ⟨S16384x32, .f32⟩
  | 45 => ⟨S1x131072, .i32⟩
  | 46 => ⟨S131072, .i32⟩
  | 47 => ⟨S1x131072, .i32⟩
  | 48 => ⟨S131072, .i32⟩
  | 49 => ⟨S16384x512, .f32⟩
  | 50 => ⟨S_, .f32⟩
  | 51 => ⟨S16384, .f32⟩
  | 52 => ⟨S16384x1, .f32⟩
  | 53 => ⟨S_, .f32⟩
  | 54 => ⟨S16384x1, .f32⟩
  | 55 => ⟨S16384x1, .f32⟩
  | 56 => ⟨S16384x1, .f32⟩
  | 57 => ⟨S16384x512, .f32⟩
  | 58 => ⟨S16384x512, .f32⟩
  | 59 => ⟨S_, .i32⟩
  | 60 => ⟨S131072, .i32⟩
  | 61 => ⟨S131072, .i1⟩
  | 62 => ⟨S_, .i32⟩
  | 63 => ⟨S131072, .i32⟩
  | 64 => ⟨S131072, .i32⟩
  | 65 => ⟨S131072, .i32⟩
  | 66 => ⟨S131072x1, .i32⟩
  | 67 => ⟨S131072x512, .f32⟩
  | 68 => ⟨S_, .i32⟩
  | 69 => ⟨S131072, .i32⟩
  | 70 => ⟨S131072, .i1⟩
  | 71 => ⟨S_, .i32⟩
  | 72 => ⟨S131072, .i32⟩
  | 73 => ⟨S131072, .i32⟩
  | 74 => ⟨S131072, .i32⟩
  | 75 => ⟨S131072x1, .i32⟩
  | 76 => ⟨S131072x512, .f32⟩
  | 77 => ⟨S131072x512, .f32⟩
  | 78 => ⟨S_, .f32⟩
  | 79 => ⟨S131072, .f32⟩
  | 80 => ⟨S_, .f32⟩
  | 81 => ⟨S131072, .f32⟩
  | 82 => ⟨S131072, .f32⟩
  | 83 => ⟨S16384, .i32⟩
  | 84 => ⟨S147456, .i32⟩
  | 85 => ⟨S147456, .i32⟩
  | 86 => ⟨S_, .f32⟩
  | 87 => ⟨S16384, .f32⟩
  | 88 => ⟨S147456, .f32⟩
  | 89 => ⟨S_, .f32⟩
  | 90 => ⟨S16384, .f32⟩
  | 91 => ⟨S147456x1, .i32⟩
  | 92 => ⟨S16384, .f32⟩
  | 93 => ⟨S_, .f32⟩
  | 94 => ⟨S_, .f32⟩
  | 95 => ⟨S16384, .f32⟩
  | 96 => ⟨S16384, .f32⟩
  | 97 => ⟨S16384, .f32⟩
  | 98 => ⟨S_, .i32⟩
  | 99 => ⟨S147456, .i32⟩
  | 100 => ⟨S147456, .i1⟩
  | 101 => ⟨S_, .i32⟩
  | 102 => ⟨S147456, .i32⟩
  | 103 => ⟨S147456, .i32⟩
  | 104 => ⟨S147456, .i32⟩
  | 105 => ⟨S147456x1, .i32⟩
  | 106 => ⟨S147456, .f32⟩
  | 107 => ⟨S_, .i32⟩
  | 108 => ⟨S147456, .i32⟩
  | 109 => ⟨S147456, .i1⟩
  | 110 => ⟨S_, .i32⟩
  | 111 => ⟨S147456, .i32⟩
  | 112 => ⟨S147456, .i32⟩
  | 113 => ⟨S147456, .i32⟩
  | 114 => ⟨S147456x1, .i32⟩
  | 115 => ⟨S147456, .f32⟩
  | 116 => ⟨S147456, .f32⟩
  | 117 => ⟨S147456, .f32⟩
  | 118 => ⟨S_, .i32⟩
  | 119 => ⟨S147456, .i32⟩
  | 120 => ⟨S147456, .i1⟩
  | 121 => ⟨S_, .i32⟩
  | 122 => ⟨S147456, .i32⟩
  | 123 => ⟨S147456, .i32⟩
  | 124 => ⟨S147456, .i32⟩
  | 125 => ⟨S147456x1, .i32⟩
  | 126 => ⟨S147456x32, .f32⟩
  | 127 => ⟨S147456x1, .f32⟩
  | _ => ⟨S16384x2, .f32⟩

abbrev hbmTy0_2 (i : Nat) : BufTy := match i % 128 with
  | 0 => ⟨S147456x32, .f32⟩
  | 1 => ⟨S147456x32, .f32⟩
  | 2 => ⟨S_, .f32⟩
  | 3 => ⟨S16384x32, .f32⟩
  | 4 => ⟨S147456x1, .i32⟩
  | 5 => ⟨S16384x32, .f32⟩
  | 6 => ⟨S16384x32, .f32⟩
  | 7 => ⟨S1x32, .f32⟩
  | 8 => ⟨S16384x32, .f32⟩
  | 9 => ⟨S16384x32, .f32⟩
  | 10 => ⟨S16384x1, .f32⟩
  | 11 => ⟨S1x1, .f32⟩
  | 12 => ⟨S16384x1, .f32⟩
  | 13 => ⟨S16384x1, .f32⟩
  | 14 => ⟨S16384, .f32⟩
  | 15 => ⟨S16384x1, .f32⟩
  | 16 => ⟨S1x1, .f32⟩
  | 17 => ⟨S16384x1, .f32⟩
  | 18 => ⟨S16384x1, .f32⟩
  | 19 => ⟨S16384, .f32⟩
  | 20 => ⟨S16384x1, .f32⟩
  | 21 => ⟨S1x1, .f32⟩
  | 22 => ⟨S16384x1, .f32⟩
  | 23 => ⟨S16384x1, .f32⟩
  | 24 => ⟨S16384, .f32⟩
  | 25 => ⟨S16384, .f32⟩
  | 26 => ⟨S16384, .f32⟩
  | _ => ⟨S16384x2, .f32⟩

abbrev hbmTy (i : Nat) : BufTy := match i / 128 with
  | 0 => hbmTy0_0 i
  | 1 => hbmTy0_1 i
  | 2 => hbmTy0_2 i
  | _ => ⟨S16384x2, .f32⟩

abbrev bufTy : (tb : Table) → Fin (tcTables nBuf tb) → BufTy
  | .hbm, ⟨i, _⟩ => hbmTy i
  | _, _ => ⟨S16384x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst : Ref sig .tc := ⟨.hbm, 26, rfl⟩
abbrev main_v4 : Ref sig .tc := ⟨.hbm, 27, rfl⟩
abbrev main_cst_0 : Ref sig .tc := ⟨.hbm, 28, rfl⟩
abbrev main_v5 : Ref sig .tc := ⟨.hbm, 29, rfl⟩
abbrev main_v6 : Ref sig .tc := ⟨.hbm, 30, rfl⟩
abbrev main_c : Ref sig .tc := ⟨.hbm, 31, rfl⟩
abbrev main_call0_cst : Ref sig .tc := ⟨.hbm, 32, rfl⟩
abbrev main_call0_v0 : Ref sig .tc := ⟨.hbm, 33, rfl⟩
abbrev main_call0_v1 : Ref sig .tc := ⟨.hbm, 34, rfl⟩
abbrev main_call0_cst_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_cst_1 : Ref sig .tc := ⟨.hbm, 42, rfl⟩
abbrev main_call0_v8 : Ref sig .tc := ⟨.hbm, 43, rfl⟩
abbrev main_call0_cst_2 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_cst_3 : Ref sig .tc := ⟨.hbm, 48, rfl⟩
abbrev main_call0_v12 : Ref sig .tc := ⟨.hbm, 49, rfl⟩
abbrev main_call0_cst_4 : Ref sig .tc := ⟨.hbm, 50, rfl⟩
abbrev main_call0_call0_v0 : Ref sig .tc := ⟨.hbm, 51, rfl⟩
abbrev main_call0_call0_v1 : Ref sig .tc := ⟨.hbm, 52, rfl⟩
abbrev main_v7 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_cst_1 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_cst_2 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_cst_3 : Ref sig .tc := ⟨.hbm, 85, rfl⟩
abbrev main_v37 : Ref sig .tc := ⟨.hbm, 86, rfl⟩
abbrev main_v38 : Ref sig .tc := ⟨.hbm, 87, rfl⟩
abbrev main_cst_4 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_c_5 : Ref sig .tc := ⟨.hbm, 94, rfl⟩
abbrev main_v44 : Ref sig .tc := ⟨.hbm, 95, rfl⟩
abbrev main_v45 : Ref sig .tc := ⟨.hbm, 96, rfl⟩
abbrev main_c_6 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_c_7 : Ref sig .tc := ⟨.hbm, 103, rfl⟩
abbrev main_v51 : Ref sig .tc := ⟨.hbm, 104, rfl⟩
abbrev main_v52 : Ref sig .tc := ⟨.hbm, 105, rfl⟩
abbrev main_c_8 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_cst_9 : Ref sig .tc := ⟨.hbm, 113, rfl⟩
abbrev main_v59 : Ref sig .tc := ⟨.hbm, 114, rfl⟩
abbrev main_call2_cst : Ref sig .tc := ⟨.hbm, 115, rfl⟩
abbrev main_call2_v0 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_cst_10 : Ref sig .tc := ⟨.hbm, 121, rfl⟩
abbrev main_v64 : Ref sig .tc := ⟨.hbm, 122, rfl⟩
abbrev main_v65 : Ref sig .tc := ⟨.hbm, 123, rfl⟩
abbrev main_cst_11 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_cst_12 : Ref sig .tc := ⟨.hbm, 128, rfl⟩
abbrev main_call3_v0 : Ref sig .tc := ⟨.hbm, 129, rfl⟩
abbrev main_call3_v1 : Ref sig .tc := ⟨.hbm, 130, rfl⟩
abbrev main_v69 : Ref sig .tc := ⟨.hbm, 131, rfl⟩
abbrev main_v70 : Ref sig .tc := ⟨.hbm, 132, rfl⟩
abbrev main_c_13 : Ref sig .tc := ⟨.hbm, 133, rfl⟩
abbrev main_v71 : Ref sig .tc := ⟨.hbm, 134, rfl⟩
abbrev main_v72 : Ref sig .tc := ⟨.hbm, 135, rfl⟩
abbrev main_c_14 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_c_15 : Ref sig .tc := ⟨.hbm, 142, rfl⟩
abbrev main_v78 : Ref sig .tc := ⟨.hbm, 143, rfl⟩
abbrev main_v79 : Ref sig .tc := ⟨.hbm, 144, rfl⟩
abbrev main_c_16 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_c_17 : Ref sig .tc := ⟨.hbm, 153, rfl⟩
abbrev main_v87 : Ref sig .tc := ⟨.hbm, 154, rfl⟩
abbrev main_v88 : Ref sig .tc := ⟨.hbm, 155, rfl⟩
abbrev main_c_18 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_cst_19 : Ref sig .tc := ⟨.hbm, 165, rfl⟩
abbrev main_v97 : Ref sig .tc := ⟨.hbm, 166, rfl⟩
abbrev main_v98 : Ref sig .tc := ⟨.hbm, 167, rfl⟩
abbrev main_v99 : Ref sig .tc := ⟨.hbm, 168, rfl⟩
abbrev main_v100 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_cst_20 : Ref sig .tc := ⟨.hbm, 178, rfl⟩
abbrev main_v109 : Ref sig .tc := ⟨.hbm, 179, rfl⟩
abbrev main_v110 : Ref sig .tc := ⟨.hbm, 180, rfl⟩
abbrev main_cst_21 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_c_22 : Ref sig .tc := ⟨.hbm, 187, rfl⟩
abbrev main_v116 : Ref sig .tc := ⟨.hbm, 188, rfl⟩
abbrev main_v117 : Ref sig .tc := ⟨.hbm, 189, rfl⟩
abbrev main_c_23 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_c_24 : Ref sig .tc := ⟨.hbm, 196, rfl⟩
abbrev main_v123 : Ref sig .tc := ⟨.hbm, 197, rfl⟩
abbrev main_v124 : Ref sig .tc := ⟨.hbm, 198, rfl⟩
abbrev main_c_25 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_cst_26 : Ref sig .tc := ⟨.hbm, 206, rfl⟩
abbrev main_v131 : Ref sig .tc := ⟨.hbm, 207, rfl⟩
abbrev main_call4_cst : Ref sig .tc := ⟨.hbm, 208, rfl⟩
abbrev main_call4_v0 : Ref sig .tc := ⟨.hbm, 209, rfl⟩
abbrev main_v132 : Ref sig .tc := ⟨.hbm, 210, rfl⟩
abbrev main_v133 : Ref sig .tc := ⟨.hbm, 211, rfl⟩
abbrev main_v134 : Ref sig .tc := ⟨.hbm, 212, rfl⟩
abbrev main_v135 : Ref sig .tc := ⟨.hbm, 213, rfl⟩
abbrev main_cst_27 : Ref sig .tc := ⟨.hbm, 214, rfl⟩
abbrev main_v136 : Ref sig .tc := ⟨.hbm, 215, rfl⟩
abbrev main_v137 : Ref sig .tc := ⟨.hbm, 216, rfl⟩
abbrev main_cst_28 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_cst_29 : Ref sig .tc := ⟨.hbm, 221, rfl⟩
abbrev main_call5_v0 : Ref sig .tc := ⟨.hbm, 222, rfl⟩
abbrev main_call5_v1 : Ref sig .tc := ⟨.hbm, 223, rfl⟩
abbrev main_v141 : Ref sig .tc := ⟨.hbm, 224, rfl⟩
abbrev main_v142 : Ref sig .tc := ⟨.hbm, 225, rfl⟩
abbrev main_c_30 : Ref sig .tc := ⟨.hbm, 226, rfl⟩
abbrev main_v143 : Ref sig .tc := ⟨.hbm, 227, rfl⟩
abbrev main_v144 : Ref sig .tc := ⟨.hbm, 228, rfl⟩
abbrev main_c_31 : Ref sig .tc := ⟨.hbm, 229, rfl⟩
abbrev main_v145 : Ref sig .tc := ⟨.hbm, 230, rfl⟩
abbrev main_v146 : Ref sig .tc := ⟨.hbm, 231, rfl⟩
abbrev main_v147 : Ref sig .tc := ⟨.hbm, 232, rfl⟩
abbrev main_v148 : Ref sig .tc := ⟨.hbm, 233, rfl⟩
abbrev main_v149 : Ref sig .tc := ⟨.hbm, 234, rfl⟩
abbrev main_c_32 : Ref sig .tc := ⟨.hbm, 235, rfl⟩
abbrev main_v150 : Ref sig .tc := ⟨.hbm, 236, rfl⟩
abbrev main_v151 : Ref sig .tc := ⟨.hbm, 237, rfl⟩
abbrev main_c_33 : Ref sig .tc := ⟨.hbm, 238, rfl⟩
abbrev main_v152 : Ref sig .tc := ⟨.hbm, 239, rfl⟩
abbrev main_v153 : Ref sig .tc := ⟨.hbm, 240, rfl⟩
abbrev main_v154 : Ref sig .tc := ⟨.hbm, 241, rfl⟩
abbrev main_v155 : Ref sig .tc := ⟨.hbm, 242, rfl⟩
abbrev main_v156 : Ref sig .tc := ⟨.hbm, 243, rfl⟩
abbrev main_v157 : Ref sig .tc := ⟨.hbm, 244, rfl⟩
abbrev main_v158 : Ref sig .tc := ⟨.hbm, 245, rfl⟩
abbrev main_c_34 : Ref sig .tc := ⟨.hbm, 246, rfl⟩
abbrev main_v159 : Ref sig .tc := ⟨.hbm, 247, rfl⟩
abbrev main_v160 : Ref sig .tc := ⟨.hbm, 248, rfl⟩
abbrev main_c_35 : Ref sig .tc := ⟨.hbm, 249, rfl⟩
abbrev main_v161 : Ref sig .tc := ⟨.hbm, 250, rfl⟩
abbrev main_v162 : Ref sig .tc := ⟨.hbm, 251, rfl⟩
abbrev main_v163 : Ref sig .tc := ⟨.hbm, 252, rfl⟩
abbrev main_v164 : Ref sig .tc := ⟨.hbm, 253, rfl⟩
abbrev main_v165 : Ref sig .tc := ⟨.hbm, 254, rfl⟩
abbrev main_v166 : Ref sig .tc := ⟨.hbm, 255, rfl⟩
abbrev main_v167 : Ref sig .tc := ⟨.hbm, 256, rfl⟩
abbrev main_v168 : Ref sig .tc := ⟨.hbm, 257, rfl⟩
abbrev main_cst_36 : Ref sig .tc := ⟨.hbm, 258, rfl⟩
abbrev main_v169 : Ref sig .tc := ⟨.hbm, 259, rfl⟩
abbrev main_v170 : Ref sig .tc := ⟨.hbm, 260, rfl⟩
abbrev main_v171 : Ref sig .tc := ⟨.hbm, 261, rfl⟩
abbrev main_v172 : Ref sig .tc := ⟨.hbm, 262, rfl⟩
abbrev main_v173 : Ref sig .tc := ⟨.hbm, 263, rfl⟩
abbrev main_v174 : Ref sig .tc := ⟨.hbm, 264, rfl⟩
abbrev main_v175 : Ref sig .tc := ⟨.hbm, 265, rfl⟩
abbrev main_v176 : Ref sig .tc := ⟨.hbm, 266, rfl⟩
abbrev main_v177 : Ref sig .tc := ⟨.hbm, 267, rfl⟩
abbrev main_v178 : Ref sig .tc := ⟨.hbm, 268, rfl⟩
abbrev main_v179 : Ref sig .tc := ⟨.hbm, 269, rfl⟩
abbrev main_v180 : Ref sig .tc := ⟨.hbm, 270, rfl⟩
abbrev main_v181 : Ref sig .tc := ⟨.hbm, 271, rfl⟩
abbrev main_v182 : Ref sig .tc := ⟨.hbm, 272, rfl⟩
abbrev main_v183 : Ref sig .tc := ⟨.hbm, 273, rfl⟩
abbrev main_v184 : Ref sig .tc := ⟨.hbm, 274, rfl⟩
abbrev main_v185 : Ref sig .tc := ⟨.hbm, 275, rfl⟩
abbrev main_v186 : Ref sig .tc := ⟨.hbm, 276, rfl⟩
abbrev main_v187 : Ref sig .tc := ⟨.hbm, 277, rfl⟩
abbrev main_v188 : Ref sig .tc := ⟨.hbm, 278, rfl⟩
abbrev main_v189 : Ref sig .tc := ⟨.hbm, 279, rfl⟩
abbrev main_v190 : Ref sig .tc := ⟨.hbm, 280, rfl⟩
abbrev main_v191 : Ref sig .tc := ⟨.hbm, 281, rfl⟩
abbrev main_v192 : Ref sig .tc := ⟨.hbm, 282, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  reducesTo_S16384x32_S32_d0 : S16384x32.ReducesTo [0] S32
  h_S_ : 0 < S_.numel
  bcast_S_S32 : S_.BroadcastsInDim S32 (![] : Fin 0 → Fin S32.rank)
  bcast_S_S1x32 : S_.BroadcastsInDim S1x32 (![] : Fin 0 → Fin S1x32.rank)
  bcast_S_S16384x32 : S_.BroadcastsInDim S16384x32 (![] : Fin 0 → Fin S16384x32.rank)
  slices_S2x131072_S1x131072_0_0 : S2x131072.Slices ![0, 0] S1x131072
  shapeCasts_S1x131072_S131072 : S1x131072.ShapeCasts S131072
  slices_S2x131072_S1x131072_1_0 : S2x131072.Slices ![1, 0] S1x131072
  reducesTo_S16384x2048_S16384_d1 : S16384x2048.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x2048_0_1 : S16384x1.BroadcastsInDim S16384x2048 (![0, 1] : Fin 2 → Fin S16384x2048.rank)
  bcast_S_S131072 : S_.BroadcastsInDim S131072 (![] : Fin 0 → Fin S131072.rank)
  bcast_S131072_S131072x1_0 : S131072.BroadcastsInDim S131072x1 (![0] : Fin 1 → Fin S131072x1.rank)
  reducesTo_S131072x2048_S131072_d1 : S131072x2048.ReducesTo [1] S131072
  concatenates_S131072_S16384_S147456_d0 : Shape.Concatenates [S131072, S16384] S147456 0
  bcast_S_S16384 : S_.BroadcastsInDim S16384 (![] : Fin 0 → Fin S16384.rank)
  bcast_S147456_S147456x1_0 : S147456.BroadcastsInDim S147456x1 (![0] : Fin 1 → Fin S147456x1.rank)
  bcast_S_S147456 : S_.BroadcastsInDim S147456 (![] : Fin 0 → Fin S147456.rank)
  bcast_S147456x1_S147456x32_0_1 : S147456x1.BroadcastsInDim S147456x32 (![0, 1] : Fin 2 → Fin S147456x32.rank)
  reducesTo_S16384x512_S16384_d1 : S16384x512.ReducesTo [1] S16384
  bcast_S16384x1_S16384x512_0_1 : S16384x1.BroadcastsInDim S16384x512 (![0, 1] : Fin 2 → Fin S16384x512.rank)
  reducesTo_S131072x512_S131072_d1 : S131072x512.ReducesTo [1] S131072
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  shapeCasts_S16384x1_S16384 : S16384x1.ShapeCasts S16384
  dot_S16384x2_S2x32_S16384x32_1_0_0_1_n_n_wf : DotDims.WF S16384x2 S2x32 S16384x32 [1] [0] [0] [1] [] []
  dot_S16384x32_S32x32_S16384x32_1_0_0_1_n_n_wf : DotDims.WF S16384x32 S32x32 S16384x32 [1] [0] [0] [1] [] []
  gather_S16384x2048_S131072x1_S131072x2048_1_0_n_n_0_1_12048_wf : GatherDims.WF S16384x2048 S131072x1 S131072x2048 [1] [0] [] [0] [] 1 ![1, 2048]
  scatter_S16384_S147456x1_S147456_n_0_0_1_wf : ScatterDims.WF S16384 S147456x1 S147456 [] [0] [0] 1
  gather_S16384_S147456x1_S147456_n_0_n_n_0_1_1_wf : GatherDims.WF S16384 S147456x1 S147456 [] [0] [] [0] [] 1 ![1]
  gather_S16384x32_S147456x1_S147456x32_1_0_n_n_0_1_132_wf : GatherDims.WF S16384x32 S147456x1 S147456x32 [1] [0] [] [0] [] 1 ![1, 32]
  scatter_S16384x32_S147456x1_S147456x32_1_0_0_1_wf : ScatterDims.WF S16384x32 S147456x1 S147456x32 [1] [0] [0] 1
  gather_S16384x512_S131072x1_S131072x512_1_0_n_n_0_1_1512_wf : GatherDims.WF S16384x512 S131072x1 S131072x512 [1] [0] [] [0] [] 1 ![1, 512]
  dot_S16384x32_S32x1_S16384x1_1_0_0_1_n_n_wf : DotDims.WF S16384x32 S32x1 S16384x1 [1] [0] [0] [1] [] []

variable [Facts₀]

def dot_S16384x2_S2x32_S16384x32_1_0_0_1_n_n : DotDims S16384x2 S2x32 S16384x32 where
  lhsContracting := [1]
  rhsContracting := [0]
  lhsNonContracting := [0]
  rhsNonContracting := [1]
  lhsBatch := []
  rhsBatch := []
  wf := dot_S16384x2_S2x32_S16384x32_1_0_0_1_n_n_wf
def dot_S16384x32_S32x32_S16384x32_1_0_0_1_n_n : DotDims S16384x32 S32x32 S16384x32 where
  lhsContracting := [1]
  rhsContracting := [0]
  lhsNonContracting := [0]
  rhsNonContracting := [1]
  lhsBatch := []
  rhsBatch := []
  wf := dot_S16384x32_S32x32_S16384x32_1_0_0_1_n_n_wf
def gather_S16384x2048_S131072x1_S131072x2048_1_0_n_n_0_1_12048 : GatherDims S16384x2048 S131072x1 S131072x2048 where
  offsetDims := [1]
  collapsedSliceDims := [0]
  operandBatchingDims := []
  startIndicesBatchingDims := []
  startIndexMap := [0]
  indexVectorDim := 1
  sliceSizes := ![1, 2048]
  wf := gather_S16384x2048_S131072x1_S131072x2048_1_0_n_n_0_1_12048_wf
def scatter_S16384_S147456x1_S147456_n_0_0_1 : ScatterDims S16384 S147456x1 S147456 where
  updateWindowDims := []
  insertedWindowDims := [0]
  scatterDimsToOperandDims := [0]
  indexVectorDim := 1
  wf := scatter_S16384_S147456x1_S147456_n_0_0_1_wf
def gather_S16384_S147456x1_S147456_n_0_n_n_0_1_1 : GatherDims S16384 S147456x1 S147456 where
  offsetDims := []
  collapsedSliceDims := [0]
  operandBatchingDims := []
  startIndicesBatchingDims := []
  startIndexMap := [0]
  indexVectorDim := 1
  sliceSizes := ![1]
  wf := gather_S16384_S147456x1_S147456_n_0_n_n_0_1_1_wf
def gather_S16384x32_S147456x1_S147456x32_1_0_n_n_0_1_132 : GatherDims S16384x32 S147456x1 S147456x32 where
  offsetDims := [1]
  collapsedSliceDims := [0]
  operandBatchingDims := []
  startIndicesBatchingDims := []
  startIndexMap := [0]
  indexVectorDim := 1
  sliceSizes := ![1, 32]
  wf := gather_S16384x32_S147456x1_S147456x32_1_0_n_n_0_1_132_wf
def scatter_S16384x32_S147456x1_S147456x32_1_0_0_1 : ScatterDims S16384x32 S147456x1 S147456x32 where
  updateWindowDims := [1]
  insertedWindowDims := [0]
  scatterDimsToOperandDims := [0]
  indexVectorDim := 1
  wf := scatter_S16384x32_S147456x1_S147456x32_1_0_0_1_wf
def gather_S16384x512_S131072x1_S131072x512_1_0_n_n_0_1_1512 : GatherDims S16384x512 S131072x1 S131072x512 where
  offsetDims := [1]
  collapsedSliceDims := [0]
  operandBatchingDims := []
  startIndicesBatchingDims := []
  startIndexMap := [0]
  indexVectorDim := 1
  sliceSizes := ![1, 512]
  wf := gather_S16384x512_S131072x1_S131072x512_1_0_n_n_0_1_1512_wf
def dot_S16384x32_S32x1_S16384x1_1_0_0_1_n_n : DotDims S16384x32 S32x1 S16384x1 where
  lhsContracting := [1]
  rhsContracting := [0]
  lhsNonContracting := [0]
  rhsNonContracting := [1]
  lhsBatch := []
  rhsBatch := []
  wf := dot_S16384x32_S32x1_S16384x1_1_0_0_1_n_n_wf

class Facts : Prop extends Facts₀ where

variable [Facts]
-- ==== Proof.KKeep.lean ====
/-
  Buffers walked back through the kernel program's boundary contents: an argument no region writes and no host
  operation writes holds, wherever it is read, what the launch gave it; a region's output array holds after the
  region what the region's write-backs leave; the one-element slope vector is the scalar argument recast.
-/
import proofs.«416178_j39376260169848_1_alg».proof.Proof.Gen.KernelIdeal.Frame

set_option maxRecDepth 16384

noncomputable section

namespace Cert.KKeep

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-! ## At region 1's entry (after region 0 and the reshape of the slope) -/

theorem W2_arg0 (c : Dev nD) : W2 m ρ c (Proc.devRef .tc main_arg0) = m ((c : Thread nD τ).loc main_arg0) :=
  calc W2 m ρ c (Proc.devRef .tc main_arg0)
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := W1_of_ne m ρ c main_arg0 (by decide)
    _ = m ((c : Thread nD τ).loc main_arg0) := rfl
theorem W2_arg5 (c : Dev nD) : W2 m ρ c (Proc.devRef .tc main_arg5) = m ((c : Thread nD τ).loc main_arg5) :=
  calc W2 m ρ c (Proc.devRef .tc main_arg5)
    _ = W1 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := W1_of_ne m ρ c main_arg5 (by decide)
    _ = m ((c : Thread nD τ).loc main_arg5) := rfl
theorem W2_arg6 (c : Dev nD) : W2 m ρ c (Proc.devRef .tc main_arg6) = m ((c : Thread nD τ).loc main_arg6) :=
  calc W2 m ρ c (Proc.devRef .tc main_arg6)
    _ = W1 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := W1_of_ne m ρ c main_arg6 (by decide)
    _ = m ((c : Thread nD τ).loc main_arg6) := rfl
theorem W2_arg7 (c : Dev nD) : W2 m ρ c (Proc.devRef .tc main_arg7) = m ((c : Thread nD τ).loc main_arg7) :=
  calc W2 m ρ c (Proc.devRef .tc main_arg7)
    _ = W1 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := W1_of_ne m ρ c main_arg7 (by decide)
    _ = m ((c : Thread nD τ).loc main_arg7) := rfl
theorem W2_arg8 (c : Dev nD) : W2 m ρ c (Proc.devRef .tc main_arg8) = m ((c : Thread nD τ).loc main_arg8) :=
  calc W2 m ρ c (Proc.devRef .tc main_arg8)
    _ = W1 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := W1_of_ne m ρ c main_arg8 (by decide)
    _ = m ((c : Thread nD τ).loc main_arg8) := rfl
theorem W2_arg10 (c : Dev nD) : W2 m ρ c (Proc.devRef .tc main_arg10) = m ((c : Thread nD τ).loc main_arg10) :=
  calc W2 m ρ c (Proc.devRef .tc main_arg10)
    _ = W1 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg10) := W1_of_ne m ρ c main_arg10 (by decide)
    _ = m ((c : Thread nD τ).loc main_arg10) := rfl
theorem W2_arg11 (c : Dev nD) : W2 m ρ c (Proc.devRef .tc main_arg11) = m ((c : Thread nD τ).loc main_arg11) :=
  calc W2 m ρ c (Proc.devRef .tc main_arg11)
    _ = W1 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg11) := W1_of_ne m ρ c main_arg11 (by decide)
    _ = m ((c : Thread nD τ).loc main_arg11) := rfl

/-- The slope reaches the encoder as the scalar argument recast to a one-element vector. -/
theorem W2_v1 (c : Dev nD) :
    W2 m ρ c (Proc.devRef .tc main_v1) = shapeCast S1 (m ((c : Thread nD τ).loc main_arg9)) Facts₀.shapeCasts_S_S1 := by
  have h9 : W1 m ρ c (Proc.devRef .tc main_arg9) = m ((c : Thread nD τ).loc main_arg9) :=
    (W1_of_ne m ρ c main_arg9 (by decide)).trans rfl
  show StableHlo.after hostOps1 (W1 m ρ c) (Proc.devRef .tc main_v1) = _
  after_results
  rw [h9]
  rfl

/-! ## At region 1's exit -/

theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := W1_of_ne m ρ c main_arg3 (by decide)
    _ = m ((c : Thread nD τ).loc main_arg3) := rfl
theorem W3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := W1_of_ne m ρ c main_arg4 (by decide)
    _ = m ((c : Thread nD τ).loc main_arg4) := rfl
theorem W3_arg12 (c : Dev nD) : W3 m ρ c (Proc.devRef .tc main_arg12) = m ((c : Thread nD τ).loc main_arg12) :=
  calc W3 m ρ c (Proc.devRef .tc main_arg12)
    _ = W2 m ρ c (Proc.devRef .tc main_arg12) := W3_of_ne m ρ c main_arg12 (by decide)
    _ = W1 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg12) := W1_of_ne m ρ c main_arg12 (by decide)
    _ = m ((c : Thread nD τ).loc main_arg12) := rfl
theorem W3_arg13 (c : Dev nD) : W3 m ρ c (Proc.devRef .tc main_arg13) = m ((c : Thread nD τ).loc main_arg13) :=
  calc W3 m ρ c (Proc.devRef .tc main_arg13)
    _ = W2 m ρ c (Proc.devRef .tc main_arg13) := W3_of_ne m ρ c main_arg13 (by decide)
    _ = W1 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg13) := W1_of_ne m ρ c main_arg13 (by decide)
    _ = m ((c : Thread nD τ).loc main_arg13) := rfl
theorem W3_arg14 (c : Dev nD) : W3 m ρ c (Proc.devRef .tc main_arg14) = m ((c : Thread nD τ).loc main_arg14) :=
  calc W3 m ρ c (Proc.devRef .tc main_arg14)
    _ = W2 m ρ c (Proc.devRef .tc main_arg14) := W3_of_ne m ρ c main_arg14 (by decide)
    _ = W1 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg14) := W1_of_ne m ρ c main_arg14 (by decide)
    _ = m ((c : Thread nD τ).loc main_arg14) := rfl
theorem W3_arg15 (c : Dev nD) : W3 m ρ c (Proc.devRef .tc main_arg15) = m ((c : Thread nD τ).loc main_arg15) :=
  calc W3 m ρ c (Proc.devRef .tc main_arg15)
    _ = W2 m ρ c (Proc.devRef .tc main_arg15) := W3_of_ne m ρ c main_arg15 (by decide)
    _ = W1 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg15) := W1_of_ne m ρ c main_arg15 (by decide)
    _ = m ((c : Thread nD τ).loc main_arg15) := rfl
theorem W3_arg16 (c : Dev nD) : W3 m ρ c (Proc.devRef .tc main_arg16) = m ((c : Thread nD τ).loc main_arg16) :=
  calc W3 m ρ c (Proc.devRef .tc main_arg16)
    _ = W2 m ρ c (Proc.devRef .tc main_arg16) := W3_of_ne m ρ c main_arg16 (by decide)
    _ = W1 m ρ c (Proc.devRef .tc main_arg16) := StableHlo.after_of_forall_not_mem (b := Proc.devRef .tc main_arg16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg16) := W1_of_ne m ρ c main_arg16 (by decide)
    _ = m ((c : Thread nD τ).loc main_arg16) := rfl
theorem W3_arg17 (c : Dev nD) : W3 m ρ c (Proc.devRef .tc main_arg17) = m ((c : Thread nD τ).loc main_arg17) :=
  calc W3 m ρ c (Proc.devRef .tc main_arg17)
    _ = W2 m ρ c (Proc.devRef .tc main_arg17) := W3_of_ne m ρ c main_arg17 (by decide)
    _ = W1 m ρ c (Proc.devRef .tc main_arg17) := StableHlo.after_of_forall_not_mem (b := Proc.devRef .tc main_arg17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg17) := W1_of_ne m ρ c main_arg17 (by decide)
    _ = m ((c : Thread nD τ).loc main_arg17) := rfl
theorem W3_arg18 (c : Dev nD) : W3 m ρ c (Proc.devRef .tc main_arg18) = m ((c : Thread nD τ).loc main_arg18) :=
  calc W3 m ρ c (Proc.devRef .tc main_arg18)
    _ = W2 m ρ c (Proc.devRef .tc main_arg18) := W3_of_ne m ρ c main_arg18 (by decide)
    _ = W1 m ρ c (Proc.devRef .tc main_arg18) := StableHlo.after_of_forall_not_mem (b := Proc.devRef .tc main_arg18) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg18) := W1_of_ne m ρ c main_arg18 (by decide)
    _ = m ((c : Thread nD τ).loc main_arg18) := rfl
theorem W3_arg19 (c : Dev nD) : W3 m ρ c (Proc.devRef .tc main_arg19) = m ((c : Thread nD τ).loc main_arg19) :=
  calc W3 m ρ c (Proc.devRef .tc main_arg19)
    _ = W2 m ρ c (Proc.devRef .tc main_arg19) := W3_of_ne m ρ c main_arg19 (by decide)
    _ = W1 m ρ c (Proc.devRef .tc main_arg19) := StableHlo.after_of_forall_not_mem (b := Proc.devRef .tc main_arg19) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg19) := W1_of_ne m ρ c main_arg19 (by decide)
    _ = m ((c : Thread nD τ).loc main_arg19) := rfl
theorem W3_arg20 (c : Dev nD) : W3 m ρ c (Proc.devRef .tc main_arg20) = m ((c : Thread nD τ).loc main_arg20) :=
  calc W3 m ρ c (Proc.devRef .tc main_arg20)
    _ = W2 m ρ c (Proc.devRef .tc main_arg20) := W3_of_ne m ρ c main_arg20 (by decide)
    _ = W1 m ρ c (Proc.devRef .tc main_arg20) := StableHlo.after_of_forall_not_mem (b := Proc.devRef .tc main_arg20) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg20) := W1_of_ne m ρ c main_arg20 (by decide)
    _ = m ((c : Thread nD τ).loc main_arg20) := rfl
theorem W3_arg21 (c : Dev nD) : W3 m ρ c (Proc.devRef .tc main_arg21) = m ((c : Thread nD τ).loc main_arg21) :=
  calc W3 m ρ c (Proc.devRef .tc main_arg21)
    _ = W2 m ρ c (Proc.devRef .tc main_arg21) := W3_of_ne m ρ c main_arg21 (by decide)
    _ = W1 m ρ c (Proc.devRef .tc main_arg21) := StableHlo.after_of_forall_not_mem (b := Proc.devRef .tc main_arg21) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg21) := W1_of_ne m ρ c main_arg21 (by decide)
    _ = m ((c : Thread nD τ).loc main_arg21) := rfl
theorem W3_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl
theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl
/-- Region 0's output array `main_v0_0` still holds at region 1's exit what region 0's write-backs left. -/
theorem W3_v0_0 (c : Dev nD) : W3 m ρ c (Proc.devRef .tc main_v0_0) = (dat0 (V0 m ρ) c).arrAt 2 cfg0.N :=
  calc W3 m ρ c (Proc.devRef .tc main_v0_0)
    _ = W2 m ρ c (Proc.devRef .tc main_v0_0) := W3_of_ne m ρ c main_v0_0 (by decide)
    _ = W1 m ρ c (Proc.devRef .tc main_v0_0) := StableHlo.after_of_forall_not_mem (b := Proc.devRef .tc main_v0_0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V0 m ρ) c).arrAt 2 cfg0.N := W1_arr m ρ c 2
/-- Region 0's output array `main_v0_1` still holds at region 1's exit what region 0's write-backs left. -/
theorem W3_v0_1 (c : Dev nD) : W3 m ρ c (Proc.devRef .tc main_v0_1) = (dat0 (V0 m ρ) c).arrAt 3 cfg0.N :=
  calc W3 m ρ c (Proc.devRef .tc main_v0_1)
    _ = W2 m ρ c (Proc.devRef .tc main_v0_1) := W3_of_ne m ρ c main_v0_1 (by decide)
    _ = W1 m ρ c (Proc.devRef .tc main_v0_1) := StableHlo.after_of_forall_not_mem (b := Proc.devRef .tc main_v0_1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V0 m ρ) c).arrAt 3 cfg0.N := W1_arr m ρ c 3

/-- Region 1's output array at its exit is what its write-back leaves. -/
theorem W3_v2 (c : Dev nD) : W3 m ρ c (Proc.devRef .tc main_v2) = (dat1 (V2 m ρ) c).arrAt 8 cfg1.N := W3_arr m ρ c 8

/-- The launch contents of region 0's two input arrays. -/
theorem V0_arg1 (c : Dev nD) : V0 m ρ c main_arg1 = m ((c : Thread nD τ).loc main_arg1) := rfl
theorem V0_arg2 (c : Dev nD) : V0 m ρ c main_arg2 = m ((c : Thread nD τ).loc main_arg2) := rfl

/-! ## After region 2 -/

/-- The program's result is region 2's output array recast from [16384, 1] to [16384]. -/
theorem W14_v160 (c : Dev nD) :
    W14 m ρ c (Proc.devRef .tc main_v160)
      = shapeCast S16384 ((dat2 (V12 m ρ) c).arrAt 13 cfg2.N) Facts₀.shapeCasts_S16384x1_S16384 := by
  have h : W13 m ρ c (Proc.devRef .tc main_v159) = (dat2 (V12 m ρ) c).arrAt 13 cfg2.N := W13_arr m ρ c 13
  show StableHlo.after hostOps3 (W13 m ρ c) (Proc.devRef .tc main_v160) = _
  after_results
  rw [h]
  rfl

end Cert.KKeep

end
-- ==== Proof.RegionArr.lean ====
/-
  The two single-point regions (the encoder and the output heads) each load whole arrays and store one whole array:
  at the one grid point every window's block is its whole array, so after the region the output array is the
  block the body stores, as a function of the input arrays as the region found them.
-/
import proofs.«416178_j39376260169848_1_alg».proof.Proof.Gen.KernelIdeal.Frame
import Idealize.ShloMosaic.Lib.Pipeline.Value

set_option maxRecDepth 16384

noncomputable section

namespace Cert.RegionArr

open Idealize.ShloMosaic Idealize.ShloMosaic.TcCoe Idealize.SL.Sem
open Cert.KernelIdeal Cert.KernelIdeal.Gen

variable {F : FTy → Type} [FloatOps F]
variable (V : (c : Dev nD) → (b : Ref sig .tc) → Buf (Elt F) ((c : Thread nD τ).loc b))

/-! ## Region 1: the encoder -/

/-- At the region's one point every window's block index is 0 on every axis. -/
theorem idx1 : ∀ t : Fin cfg1.N,
    win1_0.index t (0 : Fin 2) = 0
    ∧ win1_0.index t (1 : Fin 2) = 0
    ∧ win1_1.index t (0 : Fin 2) = 0
    ∧ win1_1.index t (1 : Fin 2) = 0
    ∧ win1_2.index t (0 : Fin 1) = 0
    ∧ win1_3.index t (0 : Fin 1) = 0
    ∧ win1_4.index t (0 : Fin 1) = 0
    ∧ win1_5.index t (0 : Fin 1) = 0
    ∧ win1_6.index t (0 : Fin 2) = 0
    ∧ win1_6.index t (1 : Fin 2) = 0
    ∧ win1_7.index t (0 : Fin 1) = 0
    ∧ win1_8.index t (0 : Fin 2) = 0
    ∧ win1_8.index t (1 : Fin 2) = 0 :=
  (by decide +kernel : ∀ t : Fin grid1.N, _)

/-- Window 0's block at the one point is the whole array `main_arg0` as the region finds it. -/
theorem blk1_0 (c : Dev nD) (t : Fin cfg1.N) : (iblk1 V c 0 t : Vec F S16384x2 .f32) = V c main_arg0 := by
  obtain ⟨e0, e1, e2, e3, e4, e5, e6, e7, e8, e9, e10, e11, e12⟩ := idx1 t
  funext j
  show V c main_arg0 (((cfg1.win 0).blk t).view.emb j) = V c main_arg0 j
  refine congrArg _ (funext fun a => Fin.ext ?_)
  match a with
  | ⟨0, _⟩ => show win1_0.index t (0 : Fin 2) * 16384 + 1 * (j 0).val = (j 0).val; omega
  | ⟨1, _⟩ => show win1_0.index t (1 : Fin 2) * 2 + 1 * (j 1).val = (j 1).val; omega

/-- Window 1's block at the one point is the whole array `main_arg5` as the region finds it. -/
theorem blk1_1 (c : Dev nD) (t : Fin cfg1.N) : (iblk1 V c 1 t : Vec F S2x32 .f32) = V c main_arg5 := by
  obtain ⟨e0, e1, e2, e3, e4, e5, e6, e7, e8, e9, e10, e11, e12⟩ := idx1 t
  funext j
  show V c main_arg5 (((cfg1.win 1).blk t).view.emb j) = V c main_arg5 j
  refine congrArg _ (funext fun a => Fin.ext ?_)
  match a with
  | ⟨0, _⟩ => show win1_1.index t (0 : Fin 2) * 2 + 1 * (j 0).val = (j 0).val; omega
  | ⟨1, _⟩ => show win1_1.index t (1 : Fin 2) * 32 + 1 * (j 1).val = (j 1).val; omega

/-- Window 2's block at the one point is the whole array `main_arg6` as the region finds it. -/
theorem blk1_2 (c : Dev nD) (t : Fin cfg1.N) : (iblk1 V c 2 t : Vec F S32 .f32) = V c main_arg6 := by
  obtain ⟨e0, e1, e2, e3, e4, e5, e6, e7, e8, e9, e10, e11, e12⟩ := idx1 t
  funext j
  show V c main_arg6 (((cfg1.win 2).blk t).view.emb j) = V c main_arg6 j
  refine congrArg _ (funext fun a => Fin.ext ?_)
  match a with
  | ⟨0, _⟩ => show win1_2.index t (0 : Fin 1) * 32 + 1 * (j 0).val = (j 0).val; omega

/-- Window 3's block at the one point is the whole array `main_arg7` as the region finds it. -/
theorem blk1_3 (c : Dev nD) (t : Fin cfg1.N) : (iblk1 V c 3 t : Vec F S32 .f32) = V c main_arg7 := by
  obtain ⟨e0, e1, e2, e3, e4, e5, e6, e7, e8, e9, e10, e11, e12⟩ := idx1 t
  funext j
  show V c main_arg7 (((cfg1.win 3).blk t).view.emb j) = V c main_arg7 j
  refine congrArg _ (funext fun a => Fin.ext ?_)
  match a with
  | ⟨0, _⟩ => show win1_3.index t (0 : Fin 1) * 32 + 1 * (j 0).val = (j 0).val; omega

/-- Window 4's block at the one point is the whole array `main_arg8` as the region finds it. -/
theorem blk1_4 (c : Dev nD) (t : Fin cfg1.N) : (iblk1 V c 4 t : Vec F S32 .f32) = V c main_arg8 := by
  obtain ⟨e0, e1, e2, e3, e4, e5, e6, e7, e8, e9, e10, e11, e12⟩ := idx1 t
  funext j
  show V c main_arg8 (((cfg1.win 4).blk t).view.emb j) = V c main_arg8 j
  refine congrArg _ (funext fun a => Fin.ext ?_)
  match a with
  | ⟨0, _⟩ => show win1_4.index t (0 : Fin 1) * 32 + 1 * (j 0).val = (j 0).val; omega

/-- Window 5's block at the one point is the whole array `main_v1` as the region finds it. -/
theorem blk1_5 (c : Dev nD) (t : Fin cfg1.N) : (iblk1 V c 5 t : Vec F S1 .f32) = V c main_v1 := by
  obtain ⟨e0, e1, e2, e3, e4, e5, e6, e7, e8, e9, e10, e11, e12⟩ := idx1 t
  funext j
  show V c main_v1 (((cfg1.win 5).blk t).view.emb j) = V c main_v1 j
  refine congrArg _ (funext fun a => Fin.ext ?_)
  match a with
  | ⟨0, _⟩ => show win1_5.index t (0 : Fin 1) * 1 + 1 * (j 0).val = (j 0).val; omega

/-- Window 6's block at the one point is the whole array `main_arg10` as the region finds it. -/
theorem blk1_6 (c : Dev nD) (t : Fin cfg1.N) : (iblk1 V c 6 t : Vec F S32x32 .f32) = V c main_arg10 := by
  obtain ⟨e0, e1, e2, e3, e4, e5, e6, e7, e8, e9, e10, e11, e12⟩ := idx1 t
  funext j
  show V c main_arg10 (((cfg1.win 6).blk t).view.emb j) = V c main_arg10 j
  refine congrArg _ (funext fun a => Fin.ext ?_)
  match a with
  | ⟨0, _⟩ => show win1_6.index t (0 : Fin 2) * 32 + 1 * (j 0).val = (j 0).val; omega
  | ⟨1, _⟩ => show win1_6.index t (1 : Fin 2) * 32 + 1 * (j 1).val = (j 1).val; omega

/-- Window 7's block at the one point is the whole array `main_arg11` as the region finds it. -/
theorem blk1_7 (c : Dev nD) (t : Fin cfg1.N) : (iblk1 V c 7 t : Vec F S32 .f32) = V c main_arg11 := by
  obtain ⟨e0, e1, e2, e3, e4, e5, e6, e7, e8, e9, e10, e11, e12⟩ := idx1 t
  funext j
  show V c main_arg11 (((cfg1.win 7).blk t).view.emb j) = V c main_arg11 j
  refine congrArg _ (funext fun a => Fin.ext ?_)
  match a with
  | ⟨0, _⟩ => show win1_7.index t (0 : Fin 1) * 32 + 1 * (j 0).val = (j 0).val; omega

/-- What the one point writes back is the stored block of the whole input arrays, read through the output's (whole) block. -/
theorem flushed1 (c : Dev nD) (t : Fin cfg1.N) :
    (dat1 V c).flushed 8 t = ((cfg1.win 8).blk t).view.read (Elt F) (out1_8 (V c main_arg0) (V c main_arg5) (V c main_arg6) (V c main_arg7) (V c main_arg8) (V c main_v1) (V c main_arg10) (V c main_arg11)) := by
  obtain ⟨e0, e1, e2, e3, e4, e5, e6, e7, e8, e9, e10, e11, e12⟩ := idx1 t
  show (cfg1.win 8).cut (grid1.coords t) ((dat1 V c).after 8 t) = _
  rw [after1_8, blk1_0 V c t, blk1_1 V c t, blk1_2 V c t, blk1_3 V c t, blk1_4 V c t, blk1_5 V c t, blk1_6 V c t, blk1_7 V c t]
  generalize out1_8 (V c main_arg0) (V c main_arg5) (V c main_arg6) (V c main_arg7) (V c main_arg8) (V c main_v1) (V c main_arg10) (V c main_arg11) = X
  funext j
  show X j = X (((cfg1.win 8).blk t).view.emb j)
  refine congrArg _ (funext fun a => Fin.ext ?_)
  match a with
  | ⟨0, _⟩ => show (j 0).val = win1_8.index t (0 : Fin 2) * 16384 + 1 * (j 0).val; omega
  | ⟨1, _⟩ => show (j 1).val = win1_8.index t (1 : Fin 2) * 32 + 1 * (j 1).val; omega

/-- The one point's block is the whole output array. -/
theorem cover1 (i : S16384x32.Idx) : ∃ t : Fin cfg1.N, (cfg1.win 8).flush t = true ∧ i ∈ ((cfg1.win 8).blk t).view.set := by
  refine ⟨t1_0, flush1_8 _, ?_⟩
  obtain ⟨e0, e1, e2, e3, e4, e5, e6, e7, e8, e9, e10, e11, e12⟩ := idx1 t1_0
  show i ∈ ((View.whole main_v2).slice (win1_8.rect t1_0)).set
  rw [View.set_slice_whole, Rect.mem_set_unit]
  intro a
  match a with
  | ⟨0, _⟩ => show win1_8.index t1_0 (0 : Fin 2) * 16384 ≤ (i 0).val ∧ (i 0).val < win1_8.index t1_0 (0 : Fin 2) * 16384 + 16384; have hi : (i 0).val < 16384 := (i 0).isLt; omega
  | ⟨1, _⟩ => show win1_8.index t1_0 (1 : Fin 2) * 32 ≤ (i 1).val ∧ (i 1).val < win1_8.index t1_0 (1 : Fin 2) * 32 + 32; have hi : (i 1).val < 32 := (i 1).isLt; omega

/-- After the region its output array is the stored block of the input arrays as the region found them. -/
theorem arr1 (c : Dev nD) : (dat1 V c).arrAt 8 cfg1.N = out1_8 (V c main_arg0) (V c main_arg5) (V c main_arg6) (V c main_arg7) (V c main_arg8) (V c main_v1) (V c main_arg10) (V c main_arg11) :=
  (dat1 V c).arrAt_eq_of_cover 8 _ (fun t _ => flushed1 V c t) cover1

/-! ## Region 2: the output layers and score heads -/

/-- At the region's one point every window's block index is 0 on every axis. -/
theorem idx2 : ∀ t : Fin cfg2.N,
    win2_0.index t (0 : Fin 2) = 0
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 1) = 0
    ∧ win2_5.index t (0 : Fin 2) = 0
    ∧ win2_5.index t (1 : Fin 2) = 0
    ∧ win2_6.index t (0 : Fin 1) = 0
    ∧ win2_7.index t (0 : Fin 2) = 0
    ∧ win2_7.index t (1 : Fin 2) = 0
    ∧ win2_8.index t (0 : Fin 1) = 0
    ∧ win2_9.index t (0 : Fin 2) = 0
    ∧ win2_9.index t (1 : Fin 2) = 0
    ∧ win2_10.index t (0 : Fin 1) = 0
    ∧ win2_11.index t (0 : Fin 2) = 0
    ∧ win2_11.index t (1 : Fin 2) = 0
    ∧ win2_12.index t (0 : Fin 1) = 0
    ∧ win2_13.index t (0 : Fin 2) = 0
    ∧ win2_13.index t (1 : Fin 2) = 0 :=
  (by decide +kernel : ∀ t : Fin grid2.N, _)

/-- Window 0's block at the one point is the whole array `main_v2` as the region finds it. -/
theorem blk2_0 (c : Dev nD) (t : Fin cfg2.N) : (iblk2 V c 0 t : Vec F S16384x32 .f32) = V c main_v2 := by
  obtain ⟨e0, e1, e2, e3, e4, e5, e6, e7, e8, e9, e10, e11, e12, e13, e14, e15, e16, e17, e18, e19, e20, e21, e22⟩ := idx2 t
  funext j
  show V c main_v2 (((cfg2.win 0).blk t).view.emb j) = V c main_v2 j
  refine congrArg _ (funext fun a => Fin.ext ?_)
  match a with
  | ⟨0, _⟩ => show win2_0.index t (0 : Fin 2) * 16384 + 1 * (j 0).val = (j 0).val; omega
  | ⟨1, _⟩ => show win2_0.index t (1 : Fin 2) * 32 + 1 * (j 1).val = (j 1).val; omega

/-- Window 1's block at the one point is the whole array `main_v84` as the region finds it. -/
theorem blk2_1 (c : Dev nD) (t : Fin cfg2.N) : (iblk2 V c 1 t : Vec F S16384x32 .f32) = V c main_v84 := by
  obtain ⟨e0, e1, e2, e3, e4, e5, e6, e7, e8, e9, e10, e11, e12, e13, e14, e15, e16, e17, e18, e19, e20, e21, e22⟩ := idx2 t
  funext j
  show V c main_v84 (((cfg2.win 1).blk t).view.emb j) = V c main_v84 j
  refine congrArg _ (funext fun a => Fin.ext ?_)
  match a with
  | ⟨0, _⟩ => show win2_1.index t (0 : Fin 2) * 16384 + 1 * (j 0).val = (j 0).val; omega
  | ⟨1, _⟩ => show win2_1.index t (1 : Fin 2) * 32 + 1 * (j 1).val = (j 1).val; omega

/-- Window 2's block at the one point is the whole array `main_v158` as the region finds it. -/
theorem blk2_2 (c : Dev nD) (t : Fin cfg2.N) : (iblk2 V c 2 t : Vec F S16384x32 .f32) = V c main_v158 := by
  obtain ⟨e0, e1, e2, e3, e4, e5, e6, e7, e8, e9, e10, e11, e12, e13, e14, e15, e16, e17, e18, e19, e20, e21, e22⟩ := idx2 t
  funext j
  show V c main_v158 (((cfg2.win 2).blk t).view.emb j) = V c main_v158 j
  refine congrArg _ (funext fun a => Fin.ext ?_)
  match a with
  | ⟨0, _⟩ => show win2_2.index t (0 : Fin 2) * 16384 + 1 * (j 0).val = (j 0).val; omega
  | ⟨1, _⟩ => show win2_2.index t (1 : Fin 2) * 32 + 1 * (j 1).val = (j 1).val; omega

/-- Window 3's block at the one point is the whole array `main_arg14` as the region finds it. -/
theorem blk2_3 (c : Dev nD) (t : Fin cfg2.N) : (iblk2 V c 3 t : Vec F S32x32 .f32) = V c main_arg14 := by
  obtain ⟨e0, e1, e2, e3, e4, e5, e6, e7, e8, e9, e10, e11, e12, e13, e14, e15, e16, e17, e18, e19, e20, e21, e22⟩ := idx2 t
  funext j
  show V c main_arg14 (((cfg2.win 3).blk t).view.emb j) = V c main_arg14 j
  refine congrArg _ (funext fun a => Fin.ext ?_)
  match a with
  | ⟨0, _⟩ => show win2_3.index t (0 : Fin 2) * 32 + 1 * (j 0).val = (j 0).val; omega
  | ⟨1, _⟩ => show win2_3.index t (1 : Fin 2) * 32 + 1 * (j 1).val = (j 1).val; omega

/-- Window 4's block at the one point is the whole array `main_arg15` as the region finds it. -/
theorem blk2_4 (c : Dev nD) (t : Fin cfg2.N) : (iblk2 V c 4 t : Vec F S32 .f32) = V c main_arg15 := by
  obtain ⟨e0, e1, e2, e3, e4, e5, e6, e7, e8, e9, e10, e11, e12, e13, e14, e15, e16, e17, e18, e19, e20, e21, e22⟩ := idx2 t
  funext j
  show V c main_arg15 (((cfg2.win 4).blk t).view.emb j) = V c main_arg15 j
  refine congrArg _ (funext fun a => Fin.ext ?_)
  match a with
  | ⟨0, _⟩ => show win2_4.index t (0 : Fin 1) * 32 + 1 * (j 0).val = (j 0).val; omega

/-- Window 5's block at the one point is the whole array `main_arg16` as the region finds it. -/
theorem blk2_5 (c : Dev nD) (t : Fin cfg2.N) : (iblk2 V c 5 t : Vec F S32x32 .f32) = V c main_arg16 := by
  obtain ⟨e0, e1, e2, e3, e4, e5, e6, e7, e8, e9, e10, e11, e12, e13, e14, e15, e16, e17, e18, e19, e20, e21, e22⟩ := idx2 t
  funext j
  show V c main_arg16 (((cfg2.win 5).blk t).view.emb j) = V c main_arg16 j
  refine congrArg _ (funext fun a => Fin.ext ?_)
  match a with
  | ⟨0, _⟩ => show win2_5.index t (0 : Fin 2) * 32 + 1 * (j 0).val = (j 0).val; omega
  | ⟨1, _⟩ => show win2_5.index t (1 : Fin 2) * 32 + 1 * (j 1).val = (j 1).val; omega

/-- Window 6's block at the one point is the whole array `main_arg17` as the region finds it. -/
theorem blk2_6 (c : Dev nD) (t : Fin cfg2.N) : (iblk2 V c 6 t : Vec F S32 .f32) = V c main_arg17 := by
  obtain ⟨e0, e1, e2, e3, e4, e5, e6, e7, e8, e9, e10, e11, e12, e13, e14, e15, e16, e17, e18, e19, e20, e21, e22⟩ := idx2 t
  funext j
  show V c main_arg17 (((cfg2.win 6).blk t).view.emb j) = V c main_arg17 j
  refine congrArg _ (funext fun a => Fin.ext ?_)
  match a with
  | ⟨0, _⟩ => show win2_6.index t (0 : Fin 1) * 32 + 1 * (j 0).val = (j 0).val; omega

/-- Window 7's block at the one point is the whole array `main_arg12` as the region finds it. -/
theorem blk2_7 (c : Dev nD) (t : Fin cfg2.N) : (iblk2 V c 7 t : Vec F S32x1 .f32) = V c main_arg12 := by
  obtain ⟨e0, e1, e2, e3, e4, e5, e6, e7, e8, e9, e10, e11, e12, e13, e14, e15, e16, e17, e18, e19, e20, e21, e22⟩ := idx2 t
  funext j
  show V c main_arg12 (((cfg2.win 7).blk t).view.emb j) = V c main_arg12 j
  refine congrArg _ (funext fun a => Fin.ext ?_)
  match a with
  | ⟨0, _⟩ => show win2_7.index t (0 : Fin 2) * 32 + 1 * (j 0).val = (j 0).val; omega
  | ⟨1, _⟩ => show win2_7.index t (1 : Fin 2) * 1 + 1 * (j 1).val = (j 1).val; omega

/-- Window 8's block at the one point is the whole array `main_arg13` as the region finds it. -/
theorem blk2_8 (c : Dev nD) (t : Fin cfg2.N) : (iblk2 V c 8 t : Vec F S1 .f32) = V c main_arg13 := by
  obtain ⟨e0, e1, e2, e3, e4, e5, e6, e7, e8, e9, e10, e11, e12, e13, e14, e15, e16, e17, e18, e19, e20, e21, e22⟩ := idx2 t
  funext j
  show V c main_arg13 (((cfg2.win 8).blk t).view.emb j) = V c main_arg13 j
  refine congrArg _ (funext fun a => Fin.ext ?_)
  match a with
  | ⟨0, _⟩ => show win2_8.index t (0 : Fin 1) * 1 + 1 * (j 0).val = (j 0).val; omega

/-- Window 9's block at the one point is the whole array `main_arg18` as the region finds it. -/
theorem blk2_9 (c : Dev nD) (t : Fin cfg2.N) : (iblk2 V c 9 t : Vec F S32x1 .f32) = V c main_arg18 := by
  obtain ⟨e0, e1, e2, e3, e4, e5, e6, e7, e8, e9, e10, e11, e12, e13, e14, e15, e16, e17, e18, e19, e20, e21, e22⟩ := idx2 t
  funext j
  show V c main_arg18 (((cfg2.win 9).blk t).view.emb j) = V c main_arg18 j
  refine congrArg _ (funext fun a => Fin.ext ?_)
  match a with
  | ⟨0, _⟩ => show win2_9.index t (0 : Fin 2) * 32 + 1 * (j 0).val = (j 0).val; omega
  | ⟨1, _⟩ => show win2_9.index t (1 : Fin 2) * 1 + 1 * (j 1).val = (j 1).val; omega

/-- Window 10's block at the one point is the whole array `main_arg19` as the region finds it. -/
theorem blk2_10 (c : Dev nD) (t : Fin cfg2.N) : (iblk2 V c 10 t : Vec F S1 .f32) = V c main_arg19 := by
  obtain ⟨e0, e1, e2, e3, e4, e5, e6, e7, e8, e9, e10, e11, e12, e13, e14, e15, e16, e17, e18, e19, e20, e21, e22⟩ := idx2 t
  funext j
  show V c main_arg19 (((cfg2.win 10).blk t).view.emb j) = V c main_arg19 j
  refine congrArg _ (funext fun a => Fin.ext ?_)
  match a with
  | ⟨0, _⟩ => show win2_10.index t (0 : Fin 1) * 1 + 1 * (j 0).val = (j 0).val; omega

/-- Window 11's block at the one point is the whole array `main_arg20` as the region finds it. -/
theorem blk2_11 (c : Dev nD) (t : Fin cfg2.N) : (iblk2 V c 11 t : Vec F S32x1 .f32) = V c main_arg20 := by
  obtain ⟨e0, e1, e2, e3, e4, e5, e6, e7, e8, e9, e10, e11, e12, e13, e14, e15, e16, e17, e18, e19, e20, e21, e22⟩ := idx2 t
  funext j
  show V c main_arg20 (((cfg2.win 11).blk t).view.emb j) = V c main_arg20 j
  refine congrArg _ (funext fun a => Fin.ext ?_)
  match a with
  | ⟨0, _⟩ => show win2_11.index t (0 : Fin 2) * 32 + 1 * (j 0).val = (j 0).val; omega
  | ⟨1, _⟩ => show win2_11.index t (1 : Fin 2) * 1 + 1 * (j 1).val = (j 1).val; omega

/-- Window 12's block at the one point is the whole array `main_arg21` as the region finds it. -/
theorem blk2_12 (c : Dev nD) (t : Fin cfg2.N) : (iblk2 V c 12 t : Vec F S1 .f32) = V c main_arg21 := by
  obtain ⟨e0, e1, e2, e3, e4, e5, e6, e7, e8, e9, e10, e11, e12, e13, e14, e15, e16, e17, e18, e19, e20, e21, e22⟩ := idx2 t
  funext j
  show V c main_arg21 (((cfg2.win 12).blk t).view.emb j) = V c main_arg21 j
  refine congrArg _ (funext fun a => Fin.ext ?_)
  match a with
  | ⟨0, _⟩ => show win2_12.index t (0 : Fin 1) * 1 + 1 * (j 0).val = (j 0).val; omega

/-- What the one point writes back is the stored block of the whole input arrays, read through the output's (whole) block. -/
theorem flushed2 (c : Dev nD) (t : Fin cfg2.N) :
    (dat2 V c).flushed 13 t = ((cfg2.win 13).blk t).view.read (Elt F) (out2_13 (V c main_v2) (V c main_v84) (V c main_v158) (V c main_arg14) (V c main_arg15) (V c main_arg16) (V c main_arg17) (V c main_arg12) (V c main_arg13) (V c main_arg18) (V c main_arg19) (V c main_arg20) (V c main_arg21)) := by
  obtain ⟨e0, e1, e2, e3, e4, e5, e6, e7, e8, e9, e10, e11, e12, e13, e14, e15, e16, e17, e18, e19, e20, e21, e22⟩ := idx2 t
  show (cfg2.win 13).cut (grid2.coords t) ((dat2 V c).after 13 t) = _
  rw [after2_13, blk2_0 V c t, blk2_1 V c t, blk2_2 V c t, blk2_3 V c t, blk2_4 V c t, blk2_5 V c t, blk2_6 V c t, blk2_7 V c t, blk2_8 V c t, blk2_9 V c t, blk2_10 V c t, blk2_11 V c t, blk2_12 V c t]
  generalize out2_13 (V c main_v2) (V c main_v84) (V c main_v158) (V c main_arg14) (V c main_arg15) (V c main_arg16) (V c main_arg17) (V c main_arg12) (V c main_arg13) (V c main_arg18) (V c main_arg19) (V c main_arg20) (V c main_arg21) = X
  funext j
  show X j = X (((cfg2.win 13).blk t).view.emb j)
  refine congrArg _ (funext fun a => Fin.ext ?_)
  match a with
  | ⟨0, _⟩ => show (j 0).val = win2_13.index t (0 : Fin 2) * 16384 + 1 * (j 0).val; omega
  | ⟨1, _⟩ => show (j 1).val = win2_13.index t (1 : Fin 2) * 1 + 1 * (j 1).val; omega

/-- The one point's block is the whole output array. -/
theorem cover2 (i : S16384x1.Idx) : ∃ t : Fin cfg2.N, (cfg2.win 13).flush t = true ∧ i ∈ ((cfg2.win 13).blk t).view.set := by
  refine ⟨t2_0, flush2_13 _, ?_⟩
  obtain ⟨e0, e1, e2, e3, e4, e5, e6, e7, e8, e9, e10, e11, e12, e13, e14, e15, e16, e17, e18, e19, e20, e21, e22⟩ := idx2 t2_0
  show i ∈ ((View.whole main_v159).slice (win2_13.rect t2_0)).set
  rw [View.set_slice_whole, Rect.mem_set_unit]
  intro a
  match a with
  | ⟨0, _⟩ => show win2_13.index t2_0 (0 : Fin 2) * 16384 ≤ (i 0).val ∧ (i 0).val < win2_13.index t2_0 (0 : Fin 2) * 16384 + 16384; have hi : (i 0).val < 16384 := (i 0).isLt; omega
  | ⟨1, _⟩ => show win2_13.index t2_0 (1 : Fin 2) * 1 ≤ (i 1).val ∧ (i 1).val < win2_13.index t2_0 (1 : Fin 2) * 1 + 1; have hi : (i 1).val < 1 := (i 1).isLt; omega

/-- After the region its output array is the stored block of the input arrays as the region found them. -/
theorem arr2 (c : Dev nD) : (dat2 V c).arrAt 13 cfg2.N = out2_13 (V c main_v2) (V c main_v84) (V c main_v158) (V c main_arg14) (V c main_arg15) (V c main_arg16) (V c main_arg17) (V c main_arg12) (V c main_arg13) (V c main_arg18) (V c main_arg19) (V c main_arg20) (V c main_arg21) :=
  (dat2 V c).arrAt_eq_of_cover 13 _ (fun t _ => flushed2 V c t) cover2

end Cert.RegionArr

end
-- ==== Proof.KSpec.lean ====
/-
  The kernel program's host operations between its encoder and its last region, stage by stage, as functions of
  what they read: the edge rows, each graph's per-edge cosine weights (the inverse norms gathered per endpoint, the
  scaling after the gather), and the normalised aggregation; one let per operation, in the program's order.
-/
import proofs.«416178_j39376260169848_1_alg».proof.Proof.Gen.KernelIdeal

noncomputable section

namespace Cert.KSpec

open Idealize.ShloMosaic Idealize.SL.Sem
open Cert.KernelIdeal Cert.KernelIdeal.Facts₀ Cert.KernelIdeal.Facts

variable {F : FTy → Type} [FloatOps F]

/-- Row 0 of an edge list [2, 131072]: the source node of each edge. -/
noncomputable def srcOf (a3 : (⟨S2x131072, .i32⟩ : BufTy).Contents (Elt F)) :
    (⟨S131072, .i32⟩ : BufTy).Contents (Elt F) :=
  let v3 : (⟨S1x131072, .i32⟩ : BufTy).Contents (Elt F) := ((extractStridedSlice S1x131072 ![0, 0] · slices_S2x131072_S1x131072_0_0) : (⟨S2x131072, .i32⟩ : BufTy).Contents (Elt F) → (⟨S1x131072, .i32⟩ : BufTy).Contents (Elt F)) a3
  let v4 : (⟨S131072, .i32⟩ : BufTy).Contents (Elt F) := shapeCast _ v3 shapeCasts_S1x131072_S131072
  v4

/-- Row 1 of an edge list [2, 131072]: the destination node of each edge. -/
noncomputable def dstOf (a3 : (⟨S2x131072, .i32⟩ : BufTy).Contents (Elt F)) :
    (⟨S131072, .i32⟩ : BufTy).Contents (Elt F) :=
  let v5 : (⟨S1x131072, .i32⟩ : BufTy).Contents (Elt F) := ((extractStridedSlice S1x131072 ![1, 0] · slices_S2x131072_S1x131072_1_0) : (⟨S2x131072, .i32⟩ : BufTy).Contents (Elt F) → (⟨S1x131072, .i32⟩ : BufTy).Contents (Elt F)) a3
  let v6 : (⟨S131072, .i32⟩ : BufTy).Contents (Elt F) := shapeCast _ v5 shapeCasts_S1x131072_S131072
  v6

/-- Per edge, the rectified inner product of the two endpoint rows of the [16384, 2048] feature table, each gathered row scaled by its node's gathered entry of the column v0_0 (the scaling AFTER the gather). -/
noncomputable def sim2048 (a1 : (⟨S16384x2048, .f32⟩ : BufTy).Contents (Elt F)) (v0_0 : (⟨S16384x1, .f32⟩ : BufTy).Contents (Elt F)) (v4 : (⟨S131072, .i32⟩ : BufTy).Contents (Elt F)) (v6 : (⟨S131072, .i32⟩ : BufTy).Contents (Elt F)) :
    (⟨S131072, .f32⟩ : BufTy).Contents (Elt F) :=
  let c : (⟨S_, .i32⟩ : BufTy).Contents (Elt F) := constantI S_ 32 0#32
  let v11 : (⟨S131072, .i32⟩ : BufTy).Contents (Elt F) := (broadcastInDim S131072 ![] bcast_S_S131072 : (⟨S_, .i32⟩ : BufTy).Contents (Elt F) → (⟨S131072, .i32⟩ : BufTy).Contents (Elt F)) c
  let v12 : (⟨S131072, .i1⟩ : BufTy).Contents (Elt F) := (cmpi .slt : (⟨S131072, .i32⟩ : BufTy).Contents (Elt F) → (⟨S131072, .i32⟩ : BufTy).Contents (Elt F) → (⟨S131072, .i1⟩ : BufTy).Contents (Elt F)) v4 v11
  let c_0 : (⟨S_, .i32⟩ : BufTy).Contents (Elt F) := constantI S_ 32 16384#32
  let v13 : (⟨S131072, .i32⟩ : BufTy).Contents (Elt F) := (broadcastInDim S131072 ![] bcast_S_S131072 : (⟨S_, .i32⟩ : BufTy).Contents (Elt F) → (⟨S131072, .i32⟩ : BufTy).Contents (Elt F)) c_0
  let v14 : (⟨S131072, .i32⟩ : BufTy).Contents (Elt F) := (addi : (⟨S131072, .i32⟩ : BufTy).Contents (Elt F) → (⟨S131072, .i32⟩ : BufTy).Contents (Elt F) → (⟨S131072, .i32⟩ : BufTy).Contents (Elt F)) v4 v13
  let v15 : (⟨S131072, .i32⟩ : BufTy).Contents (Elt F) := (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)) v12 v14 v4
  let v16 : (⟨S131072x1, .i32⟩ : BufTy).Contents (Elt F) := (broadcastInDim S131072x1 ![0] bcast_S131072_S131072x1_0 : (⟨S131072, .i32⟩ : BufTy).Contents (Elt F) → (⟨S131072x1, .i32⟩ : BufTy).Contents (Elt F)) v15
  let v17 : (⟨S131072x2048, .f32⟩ : BufTy).Contents (Elt F) := ((fun x i => Host.gather gather_S16384x2048_S131072x1_S131072x2048_1_0_n_n_0_1_12048 x i) : (⟨S16384x2048, .f32⟩ : BufTy).Contents (Elt F) → (⟨S131072x1, .i32⟩ : BufTy).Contents (Elt F) → (⟨S131072x2048, .f32⟩ : BufTy).Contents (Elt F)) a1 v16
  let c_1 : (⟨S_, .i32⟩ : BufTy).Contents (Elt F) := constantI S_ 32 0#32
  let v18 : (⟨S131072, .i32⟩ : BufTy).Contents (Elt F) := (broadcastInDim S131072 ![] bcast_S_S131072 : (⟨S_, .i32⟩ : BufTy).Contents (Elt F) → (⟨S131072, .i32⟩ : BufTy).Contents (Elt F)) c_1
  let v19 : (⟨S131072, .i1⟩ : BufTy).Contents (Elt F) := (cmpi .slt : (⟨S131072, .i32⟩ : BufTy).Contents (Elt F) → (⟨S131072, .i32⟩ : BufTy).Contents (Elt F) → (⟨S131072, .i1⟩ : BufTy).Contents (Elt F)) v4 v18
  let c_2 : (⟨S_, .i32⟩ : BufTy).Contents (Elt F) := constantI S_ 32 16384#32
  let v20 : (⟨S131072, .i32⟩ : BufTy).Contents (Elt F) := (broadcastInDim S131072 ![] bcast_S_S131072 : (⟨S_, .i32⟩ : BufTy).Contents (Elt F) → (⟨S131072, .i32⟩ : BufTy).Contents (Elt F)) c_2
  let v21 : (⟨S131072, .i32⟩ : BufTy).Contents (Elt F) := (addi : (⟨S131072, .i32⟩ : BufTy).Contents (Elt F) → (⟨S131072, .i32⟩ : BufTy).Contents (Elt F) → (⟨S131072, .i32⟩ : BufTy).Contents (Elt F)) v4 v20
  let v22 : (⟨S131072, .i32⟩ : BufTy).Contents (Elt F) := (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)) v19 v21 v4
  let v23 : (⟨S131072x1, .i32⟩ : BufTy).Contents (Elt F) := (broadcastInDim S131072x1 ![0] bcast_S131072_S131072x1_0 : (⟨S131072, .i32⟩ : BufTy).Contents (Elt F) → (⟨S131072x1, .i32⟩ : BufTy).Contents (Elt F)) v22
  let v24 : (⟨S131072x1, .f32⟩ : BufTy).Contents (Elt F) := ((fun x i => Host.gather gather_S16384x1_S131072x1_S131072x1_1_0_n_n_0_1_11 x i) : (⟨S16384x1, .f32⟩ : BufTy).Contents (Elt F) → (⟨S131072x1, .i32⟩ : BufTy).Contents (Elt F) → (⟨S131072x1, .f32⟩ : BufTy).Contents (Elt F)) v0_0 v23
  let v25 : (⟨S131072x2048, .f32⟩ : BufTy).Contents (Elt F) := (broadcastInDim S131072x2048 ![0, 1] bcast_S131072x1_S131072x2048_0_1 : (⟨S131072x1, .f32⟩ : BufTy).Contents (Elt F) → (⟨S131072x2048, .f32⟩ : BufTy).Contents (Elt F)) v24
  let v26 : (⟨S131072x2048, .f32⟩ : BufTy).Contents (Elt F) := (mulf : (⟨S131072x2048, .f32⟩ : BufTy).Contents (Elt F) → (⟨S131072x2048, .f32⟩ : BufTy).Contents (Elt F) → (⟨S131072x2048, .f32⟩ : BufTy).Contents (Elt F)) v17 v25
  let c_3 : (⟨S_, .i32⟩ : BufTy).Contents (Elt F) := constantI S_ 32 0#32
  let v27 : (⟨S131072, .i32⟩ : BufTy).Contents (Elt F) := (broadcastInDim S131072 ![] bcast_S_S131072 : (⟨S_, .i32⟩ : BufTy).Contents (Elt F) → (⟨S131072, .i32⟩ : BufTy).Contents (Elt F)) c_3
  let v28 : (⟨S131072, .i1⟩ : BufTy).Contents (Elt F) := (cmpi .slt : (⟨S131072, .i32⟩ : BufTy).Contents (Elt F) → (⟨S131072, .i32⟩ : BufTy).Contents (Elt F) → (⟨S131072, .i1⟩ : BufTy).Contents (Elt F)) v6 v27
  let c_4 : (⟨S_, .i32⟩ : BufTy).Contents (Elt F) := constantI S_ 32 16384#32
  let v29 : (⟨S131072, .i32⟩ : BufTy).Contents (Elt F) := (broadcastInDim S131072 ![] bcast_S_S131072 : (⟨S_, .i32⟩ : BufTy).Contents (Elt F) → (⟨S131072, .i32⟩ : BufTy).Contents (Elt F)) c_4
  let v30 : (⟨S131072, .i32⟩ : BufTy).Contents (Elt F) := (addi : (⟨S131072, .i32⟩ : BufTy).Contents (Elt F) → (⟨S131072, .i32⟩ : BufTy).Contents (Elt F) → (⟨S131072, .i32⟩ : BufTy).Contents (Elt F)) v6 v29
  let v31 : (⟨S131072, .i32⟩ : BufTy).Contents (Elt F) := (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)) v28 v30 v6
  let v32 : (⟨S131072x1, .i32⟩ : BufTy).Contents (Elt F) := (broadcastInDim S131072x1 ![0] bcast_S131072_S131072x1_0 : (⟨S131072, .i32⟩ : BufTy).Contents (Elt F) → (⟨S131072x1, .i32⟩ : BufTy).Contents (Elt F)) v31
  let v33 : (⟨S131072x2048, .f32⟩ : BufTy).Contents (Elt F) := ((fun x i => Host.gather gather_S16384x2048_S131072x1_S131072x2048_1_0_n_n_0_1_12048 x i) : (⟨S16384x2048, .f32⟩ : BufTy).Contents (Elt F) → (⟨S131072x1, .i32⟩ : BufTy).Contents (Elt F) → (⟨S131072x2048, .f32⟩ : BufTy).Contents (Elt F)) a1 v32
  let c_5 : (⟨S_, .i32⟩ : BufTy).Contents (Elt F) := constantI S_ 32 0#32
  let v34 : (⟨S131072, .i32⟩ : BufTy).Contents (Elt F) := (broadcastInDim S131072 ![] bcast_S_S131072 : (⟨S_, .i32⟩ : BufTy).Contents (Elt F) → (⟨S131072, .i32⟩ : BufTy).Contents (Elt F)) c_5
  let v35 : (⟨S131072, .i1⟩ : BufTy).Contents (Elt F) := (cmpi .slt : (⟨S131072, .i32⟩ : BufTy).Contents (Elt F) → (⟨S131072, .i32⟩ : BufTy).Contents (Elt F) → (⟨S131072, .i1⟩ : BufTy).Contents (Elt F)) v6 v34
  let c_6 : (⟨S_, .i32⟩ : BufTy).Contents (Elt F) := constantI S_ 32 16384#32
  let v36 : (⟨S131072, .i32⟩ : BufTy).Contents (Elt F) := (broadcastInDim S131072 ![] bcast_S_S131072 : (⟨S_, .i32⟩ : BufTy).Contents (Elt F) → (⟨S131072, .i32⟩ : BufTy).Contents (Elt F)) c_6
  let v37 : (⟨S131072, .i32⟩ : BufTy).Contents (Elt F) := (addi : (⟨S131072, .i32⟩ : BufTy).Contents (Elt F) → (⟨S131072, .i32⟩ : BufTy).Contents (Elt F) → (⟨S131072, .i32⟩ : BufTy).Contents (Elt F)) v6 v36
  let v38 : (⟨S131072, .i32⟩ : BufTy).Contents (Elt F) := (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)) v35 v37 v6
  let v39 : (⟨S131072x1, .i32⟩ : BufTy).Contents (Elt F) := (broadcastInDim S131072x1 ![0] bcast_S131072_S131072x1_0 : (⟨S131072, .i32⟩ : BufTy).Contents (Elt F) → (⟨S131072x1, .i32⟩ : BufTy).Contents (Elt F)) v38
  let v40 : (⟨S131072x1, .f32⟩ : BufTy).Contents (Elt F) := ((fun x i => Host.gather gather_S16384x1_S131072x1_S131072x1_1_0_n_n_0_1_11 x i) : (⟨S16384x1, .f32⟩ : BufTy).Contents (Elt F) → (⟨S131072x1, .i32⟩ : BufTy).Contents (Elt F) → (⟨S131072x1, .f32⟩ : BufTy).Contents (Elt F)) v0_0 v39
  let v41 : (⟨S131072x2048, .f32⟩ : BufTy).Contents (Elt F) := (broadcastInDim S131072x2048 ![0, 1] bcast_S131072x1_S131072x2048_0_1 : (⟨S131072x1, .f32⟩ : BufTy).Contents (Elt F) → (⟨S131072x2048, .f32⟩ : BufTy).Contents (Elt F)) v40
  let v42 : (⟨S131072x2048, .f32⟩ : BufTy).Contents (Elt F) := (mulf : (⟨S131072x2048, .f32⟩ : BufTy).Contents (Elt F) → (⟨S131072x2048, .f32⟩ : BufTy).Contents (Elt F) → (⟨S131072x2048, .f32⟩ : BufTy).Contents (Elt F)) v33 v41
  let v43 : (⟨S131072x2048, .f32⟩ : BufTy).Contents (Elt F) := (mulf : (⟨S131072x2048, .f32⟩ : BufTy).Contents (Elt F) → (⟨S131072x2048, .f32⟩ : BufTy).Contents (Elt F) → (⟨S131072x2048, .f32⟩ : BufTy).Contents (Elt F)) v26 v42
  let cst : (⟨S_, .f32⟩ : BufTy).Contents (Elt F) := constant (F := F) S_ .f32 0x00000000#32
  let v44 : (⟨S131072, .f32⟩ : BufTy).Contents (Elt F) := ((fun x v => Host.reduceAdd x v reducesTo_S131072x2048_S131072_d1 h_S_) : (⟨S131072x2048, .f32⟩ : BufTy).Contents (Elt F) → (⟨S_, .f32⟩ : BufTy).Contents (Elt F) → (⟨S131072, .f32⟩ : BufTy).Contents (Elt F)) v43 cst
  let call0_cst : (⟨S_, .f32⟩ : BufTy).Contents (Elt F) := constant (F := F) S_ .f32 0x00000000#32
  let call0_v0 : (⟨S131072, .f32⟩ : BufTy).Contents (Elt F) := (broadcastInDim S131072 ![] bcast_S_S131072) call0_cst
  let v45 : (⟨S131072, .f32⟩ : BufTy).Contents (Elt F) := maximumf v44 call0_v0
  v45

/-- Symmetric-normalised aggregation over the edges and one self loop per node (the same operations as the reference's). -/
noncomputable def agg (v2 : (⟨S16384x32, .f32⟩ : BufTy).Contents (Elt F)) (v4 : (⟨S131072, .i32⟩ : BufTy).Contents (Elt F)) (v6 : (⟨S131072, .i32⟩ : BufTy).Contents (Elt F)) (v45 : (⟨S131072, .f32⟩ : BufTy).Contents (Elt F)) :
    (⟨S16384x32, .f32⟩ : BufTy).Contents (Elt F) :=
  let v46 : (⟨S16384, .i32⟩ : BufTy).Contents (Elt F) := iotaInDim S16384 32 0
  let v47 : (⟨S147456, .i32⟩ : BufTy).Contents (Elt F) := ((fun a b => concatenate S147456 0 [⟨S131072, a⟩, ⟨S16384, b⟩] concatenates_S131072_S16384_S147456_d0) : (⟨S131072, .i32⟩ : BufTy).Contents (Elt F) → (⟨S16384, .i32⟩ : BufTy).Contents (Elt F) → (⟨S147456, .i32⟩ : BufTy).Contents (Elt F)) v4 v46
  let v48 : (⟨S147456, .i32⟩ : BufTy).Contents (Elt F) := ((fun a b => concatenate S147456 0 [⟨S131072, a⟩, ⟨S16384, b⟩] concatenates_S131072_S16384_S147456_d0) : (⟨S131072, .i32⟩ : BufTy).Contents (Elt F) → (⟨S16384, .i32⟩ : BufTy).Contents (Elt F) → (⟨S147456, .i32⟩ : BufTy).Contents (Elt F)) v6 v46
  let cst_7 : (⟨S_, .f32⟩ : BufTy).Contents (Elt F) := constant (F := F) S_ .f32 0x3F800000#32
  let v49 : (⟨S16384, .f32⟩ : BufTy).Contents (Elt F) := (broadcastInDim S16384 ![] bcast_S_S16384 : (⟨S_, .f32⟩ : BufTy).Contents (Elt F) → (⟨S16384, .f32⟩ : BufTy).Contents (Elt F)) cst_7
  let v50 : (⟨S147456, .f32⟩ : BufTy).Contents (Elt F) := ((fun a b => concatenate S147456 0 [⟨S131072, a⟩, ⟨S16384, b⟩] concatenates_S131072_S16384_S147456_d0) : (⟨S131072, .f32⟩ : BufTy).Contents (Elt F) → (⟨S16384, .f32⟩ : BufTy).Contents (Elt F) → (⟨S147456, .f32⟩ : BufTy).Contents (Elt F)) v45 v49
  let cst_8 : (⟨S_, .f32⟩ : BufTy).Contents (Elt F) := constant (F := F) S_ .f32 0x00000000#32
  let v51 : (⟨S16384, .f32⟩ : BufTy).Contents (Elt F) := (broadcastInDim S16384 ![] bcast_S_S16384 : (⟨S_, .f32⟩ : BufTy).Contents (Elt F) → (⟨S16384, .f32⟩ : BufTy).Contents (Elt F)) cst_8
  let v52 : (⟨S147456x1, .i32⟩ : BufTy).Contents (Elt F) := (broadcastInDim S147456x1 ![0] bcast_S147456_S147456x1_0 : (⟨S147456, .i32⟩ : BufTy).Contents (Elt F) → (⟨S147456x1, .i32⟩ : BufTy).Contents (Elt F)) v48
  let v53 : (⟨S16384, .f32⟩ : BufTy).Contents (Elt F) := ((fun x i u => Host.scatterAdd scatter_S16384_S147456x1_S147456_n_0_0_1 x i u) : (⟨S16384, .f32⟩ : BufTy).Contents (Elt F) → (⟨S147456x1, .i32⟩ : BufTy).Contents (Elt F) → (⟨S147456, .f32⟩ : BufTy).Contents (Elt F) → (⟨S16384, .f32⟩ : BufTy).Contents (Elt F)) v51 v52 v50
  let cst_9 : (⟨S_, .f32⟩ : BufTy).Contents (Elt F) := constant (F := F) S_ .f32 0x358637BD#32
  let call1_v0 : (⟨S_, .f32⟩ : BufTy).Contents (Elt F) := id cst_9
  let call1_v1 : (⟨S16384, .f32⟩ : BufTy).Contents (Elt F) := (broadcastInDim S16384 ![] bcast_S_S16384) call1_v0
  let v54 : (⟨S16384, .f32⟩ : BufTy).Contents (Elt F) := maximumf call1_v1 v53
  let v55 : (⟨S16384, .f32⟩ : BufTy).Contents (Elt F) := (Host.rsqrt : (⟨S16384, .f32⟩ : BufTy).Contents (Elt F) → (⟨S16384, .f32⟩ : BufTy).Contents (Elt F)) v54
  let c_10 : (⟨S_, .i32⟩ : BufTy).Contents (Elt F) := constantI S_ 32 0#32
  let v56 : (⟨S147456, .i32⟩ : BufTy).Contents (Elt F) := (broadcastInDim S147456 ![] bcast_S_S147456 : (⟨S_, .i32⟩ : BufTy).Contents (Elt F) → (⟨S147456, .i32⟩ : BufTy).Contents (Elt F)) c_10
  let v57 : (⟨S147456, .i1⟩ : BufTy).Contents (Elt F) := (cmpi .slt : (⟨S147456, .i32⟩ : BufTy).Contents (Elt F) → (⟨S147456, .i32⟩ : BufTy).Contents (Elt F) → (⟨S147456, .i1⟩ : BufTy).Contents (Elt F)) v47 v56
  let c_11 : (⟨S_, .i32⟩ : BufTy).Contents (Elt F) := constantI S_ 32 16384#32
  let v58 : (⟨S147456, .i32⟩ : BufTy).Contents (Elt F) := (broadcastInDim S147456 ![] bcast_S_S147456 : (⟨S_, .i32⟩ : BufTy).Contents (Elt F) → (⟨S147456, .i32⟩ : BufTy).Contents (Elt F)) c_11
  let v59 : (⟨S147456, .i32⟩ : BufTy).Contents (Elt F) := (addi : (⟨S147456, .i32⟩ : BufTy).Contents (Elt F) → (⟨S147456, .i32⟩ : BufTy).Contents (Elt F) → (⟨S147456, .i32⟩ : BufTy).Contents (Elt F)) v47 v58
  let v60 : (⟨S147456, .i32⟩ : BufTy).Contents (Elt F) := (select : (⟨S147456, .i1⟩ : BufTy).Contents (Elt F) → (⟨S147456, .i32⟩ : BufTy).Contents (Elt F) → (⟨S147456, .i32⟩ : BufTy).Contents (Elt F) → (⟨S147456, .i32⟩ : BufTy).Contents (Elt F)) v57 v59 v47
  let v61 : (⟨S147456x1, .i32⟩ : BufTy).Contents (Elt F) := (broadcastInDim S147456x1 ![0] bcast_S147456_S147456x1_0 : (⟨S147456, .i32⟩ : BufTy).Contents (Elt F) → (⟨S147456x1, .i32⟩ : BufTy).Contents (Elt F)) v60
  let v62 : (⟨S147456, .f32⟩ : BufTy).Contents (Elt F) := ((fun x i => Host.gather gather_S16384_S147456x1_S147456_n_0_n_n_0_1_1 x i) : (⟨S16384, .f32⟩ : BufTy).Contents (Elt F) → (⟨S147456x1, .i32⟩ : BufTy).Contents (Elt F) → (⟨S147456, .f32⟩ : BufTy).Contents (Elt F)) v55 v61
  let c_12 : (⟨S_, .i32⟩ : BufTy).Contents (Elt F) := constantI S_ 32 0#32
  let v63 : (⟨S147456, .i32⟩ : BufTy).Contents (Elt F) := (broadcastInDim S147456 ![] bcast_S_S147456 : (⟨S_, .i32⟩ : BufTy).Contents (Elt F) → (⟨S147456, .i32⟩ : BufTy).Contents (Elt F)) c_12
  let v64 : (⟨S147456, .i1⟩ : BufTy).Contents (Elt F) := (cmpi .slt : (⟨S147456, .i32⟩ : BufTy).Contents (Elt F) → (⟨S147456, .i32⟩ : BufTy).Contents (Elt F) → (⟨S147456, .i1⟩ : BufTy).Contents (Elt F)) v48 v63
  let c_13 : (⟨S_, .i32⟩ : BufTy).Contents (Elt F) := constantI S_ 32 16384#32
  let v65 : (⟨S147456, .i32⟩ : BufTy).Contents (Elt F) := (broadcastInDim S147456 ![] bcast_S_S147456 : (⟨S_, .i32⟩ : BufTy).Contents (Elt F) → (⟨S147456, .i32⟩ : BufTy).Contents (Elt F)) c_13
  let v66 : (⟨S147456, .i32⟩ : BufTy).Contents (Elt F) := (addi : (⟨S147456, .i32⟩ : BufTy).Contents (Elt F) → (⟨S147456, .i32⟩ : BufTy).Contents (Elt F) → (⟨S147456, .i32⟩ : BufTy).Contents (Elt F)) v48 v65
  let v67 : (⟨S147456, .i32⟩ : BufTy).Contents (Elt F) := (select : (⟨S147456, .i1⟩ : BufTy).Contents (Elt F) → (⟨S147456, .i32⟩ : BufTy).Contents (Elt F) → (⟨S147456, .i32⟩ : BufTy).Contents (Elt F) → (⟨S147456, .i32⟩ : BufTy).Contents (Elt F)) v64 v66 v48
  let v68 : (⟨S147456x1, .i32⟩ : BufTy).Contents (Elt F) := (broadcastInDim S147456x1 ![0] bcast_S147456_S147456x1_0 : (⟨S147456, .i32⟩ : BufTy).Contents (Elt F) → (⟨S147456x1, .i32⟩ : BufTy).Contents (Elt F)) v67
  let v69 : (⟨S147456, .f32⟩ : BufTy).Contents (Elt F) := ((fun x i => Host.gather gather_S16384_S147456x1_S147456_n_0_n_n_0_1_1 x i) : (⟨S16384, .f32⟩ : BufTy).Contents (Elt F) → (⟨S147456x1, .i32⟩ : BufTy).Contents (Elt F) → (⟨S147456, .f32⟩ : BufTy).Contents (Elt F)) v55 v68
  let v70 : (⟨S147456, .f32⟩ : BufTy).Contents (Elt F) := (mulf : (⟨S147456, .f32⟩ : BufTy).Contents (Elt F) → (⟨S147456, .f32⟩ : BufTy).Contents (Elt F) → (⟨S147456, .f32⟩ : BufTy).Contents (Elt F)) v62 v69
  let v71 : (⟨S147456, .f32⟩ : BufTy).Contents (Elt F) := (mulf : (⟨S147456, .f32⟩ : BufTy).Contents (Elt F) → (⟨S147456, .f32⟩ : BufTy).Contents (Elt F) → (⟨S147456, .f32⟩ : BufTy).Contents (Elt F)) v70 v50
  let c_14 : (⟨S_, .i32⟩ : BufTy).Contents (Elt F) := constantI S_ 32 0#32
  let v72 : (⟨S147456, .i32⟩ : BufTy).Contents (Elt F) := (broadcastInDim S147456 ![] bcast_S_S147456 : (⟨S_, .i32⟩ : BufTy).Contents (Elt F) → (⟨S147456, .i32⟩ : BufTy).Contents (Elt F)) c_14
  let v73 : (⟨S147456, .i1⟩ : BufTy).Contents (Elt F) := (cmpi .slt : (⟨S147456, .i32⟩ : BufTy).Contents (Elt F) → (⟨S147456, .i32⟩ : BufTy).Contents (Elt F) → (⟨S147456, .i1⟩ : BufTy).Contents (Elt F)) v47 v72
  let c_15 : (⟨S_, .i32⟩ : BufTy).Contents (Elt F) := constantI S_ 32 16384#32
  let v74 : (⟨S147456, .i32⟩ : BufTy).Contents (Elt F) := (broadcastInDim S147456 ![] bcast_S_S147456 : (⟨S_, .i32⟩ : BufTy).Contents (Elt F) → (⟨S147456, .i32⟩ : BufTy).Contents (Elt F)) c_15
  let v75 : (⟨S147456, .i32⟩ : BufTy).Contents (Elt F) := (addi : (⟨S147456, .i32⟩ : BufTy).Contents (Elt F) → (⟨S147456, .i32⟩ : BufTy).Contents (Elt F) → (⟨S147456, .i32⟩ : BufTy).Contents (Elt F)) v47 v74
  let v76 : (⟨S147456, .i32⟩ : BufTy).Contents (Elt F) := (select : (⟨S147456, .i1⟩ : BufTy).Contents (Elt F) → (⟨S147456, .i32⟩ : BufTy).Contents (Elt F) → (⟨S147456, .i32⟩ : BufTy).Contents (Elt F) → (⟨S147456, .i32⟩ : BufTy).Contents (Elt F)) v73 v75 v47
  let v77 : (⟨S147456x1, .i32⟩ : BufTy).Contents (Elt F) := (broadcastInDim S147456x1 ![0] bcast_S147456_S147456x1_0 : (⟨S147456, .i32⟩ : BufTy).Contents (Elt F) → (⟨S147456x1, .i32⟩ : BufTy).Contents (Elt F)) v76
  let v78 : (⟨S147456x32, .f32⟩ : BufTy).Contents (Elt F) := ((fun x i => Host.gather gather_S16384x32_S147456x1_S147456x32_1_0_n_n_0_1_132 x i) : (⟨S16384x32, .f32⟩ : BufTy).Contents (Elt F) → (⟨S147456x1, .i32⟩ : BufTy).Contents (Elt F) → (⟨S147456x32, .f32⟩ : BufTy).Contents (Elt F)) v2 v77
  let v79 : (⟨S147456x1, .f32⟩ : BufTy).Contents (Elt F) := (broadcastInDim S147456x1 ![0] bcast_S147456_S147456x1_0 : (⟨S147456, .f32⟩ : BufTy).Contents (Elt F) → (⟨S147456x1, .f32⟩ : BufTy).Contents (Elt F)) v71
  let v80 : (⟨S147456x32, .f32⟩ : BufTy).Contents (Elt F) := (broadcastInDim S147456x32 ![0, 1] bcast_S147456x1_S147456x32_0_1 : (⟨S147456x1, .f32⟩ : BufTy).Contents (Elt F) → (⟨S147456x32, .f32⟩ : BufTy).Contents (Elt F)) v79
  let v81 : (⟨S147456x32, .f32⟩ : BufTy).Contents (Elt F) := (mulf : (⟨S147456x32, .f32⟩ : BufTy).Contents (Elt F) → (⟨S147456x32, .f32⟩ : BufTy).Contents (Elt F) → (⟨S147456x32, .f32⟩ : BufTy).Contents (Elt F)) v78 v80
  let cst_16 : (⟨S_, .f32⟩ : BufTy).Contents (Elt F) := constant (F := F) S_ .f32 0x00000000#32
  let v82 : (⟨S16384x32, .f32⟩ : BufTy).Contents (Elt F) := (broadcastInDim S16384x32 ![] bcast_S_S16384x32 : (⟨S_, .f32⟩ : BufTy).Contents (Elt F) → (⟨S16384x32, .f32⟩ : BufTy).Contents (Elt F)) cst_16
  let v83 : (⟨S147456x1, .i32⟩ : BufTy).Contents (Elt F) := (broadcastInDim S147456x1 ![0] bcast_S147456_S147456x1_0 : (⟨S147456, .i32⟩ : BufTy).Contents (Elt F) → (⟨S147456x1, .i32⟩ : BufTy).Contents (Elt F)) v48
  let v84 : (⟨S16384x32, .f32⟩ : BufTy).Contents (Elt F) := ((fun x i u => Host.scatterAdd scatter_S16384x32_S147456x1_S147456x32_1_0_0_1 x i u) : (⟨S16384x32, .f32⟩ : BufTy).Contents (Elt F) → (⟨S147456x1, .i32⟩ : BufTy).Contents (Elt F) → (⟨S147456x32, .f32⟩ : BufTy).Contents (Elt F) → (⟨S16384x32, .f32⟩ : BufTy).Contents (Elt F)) v82 v83 v81
  v84

/-- Per edge, the rectified inner product of the two endpoint rows of the [16384, 512] feature table, each gathered row scaled by its node's gathered entry of the column v0_1. -/
noncomputable def sim512 (a2 : (⟨S16384x512, .f32⟩ : BufTy).Contents (Elt F)) (v0_1 : (⟨S16384x1, .f32⟩ : BufTy).Contents (Elt F)) (v8 : (⟨S131072, .i32⟩ : BufTy).Contents (Elt F)) (v10 : (⟨S131072, .i32⟩ : BufTy).Contents (Elt F)) :
    (⟨S131072, .f32⟩ : BufTy).Contents (Elt F) :=
  let c_17 : (⟨S_, .i32⟩ : BufTy).Contents (Elt F) := constantI S_ 32 0#32
  let v85 : (⟨S131072, .i32⟩ : BufTy).Contents (Elt F) := (broadcastInDim S131072 ![] bcast_S_S131072 : (⟨S_, .i32⟩ : BufTy).Contents (Elt F) → (⟨S131072, .i32⟩ : BufTy).Contents (Elt F)) c_17
  let v86 : (⟨S131072, .i1⟩ : BufTy).Contents (Elt F) := (cmpi .slt : (⟨S131072, .i32⟩ : BufTy).Contents (Elt F) → (⟨S131072, .i32⟩ : BufTy).Contents (Elt F) → (⟨S131072, .i1⟩ : BufTy).Contents (Elt F)) v8 v85
  let c_18 : (⟨S_, .i32⟩ : BufTy).Contents (Elt F) := constantI S_ 32 16384#32
  let v87 : (⟨S131072, .i32⟩ : BufTy).Contents (Elt F) := (broadcastInDim S131072 ![] bcast_S_S131072 : (⟨S_, .i32⟩ : BufTy).Contents (Elt F) → (⟨S131072, .i32⟩ : BufTy).Contents (Elt F)) c_18
  let v88 : (⟨S131072, .i32⟩ : BufTy).Contents (Elt F) := (addi : (⟨S131072, .i32⟩ : BufTy).Contents (Elt F) → (⟨S131072, .i32⟩ : BufTy).Contents (Elt F) → (⟨S131072, .i32⟩ : BufTy).Contents (Elt F)) v8 v87
  let v89 : (⟨S131072, .i32⟩ : BufTy).Contents (Elt F) := (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)) v86 v88 v8
  let v90 : (⟨S131072x1, .i32⟩ : BufTy).Contents (Elt F) := (broadcastInDim S131072x1 ![0] bcast_S131072_S131072x1_0 : (⟨S131072, .i32⟩ : BufTy).Contents (Elt F) → (⟨S131072x1, .i32⟩ : BufTy).Contents (Elt F)) v89
  let v91 : (⟨S131072x512, .f32⟩ : BufTy).Contents (Elt F) := ((fun x i => Host.gather gather_S16384x512_S131072x1_S131072x512_1_0_n_n_0_1_1512 x i) : (⟨S16384x512, .f32⟩ : BufTy).Contents (Elt F) → (⟨S131072x1, .i32⟩ : BufTy).Contents (Elt F) → (⟨S131072x512, .f32⟩ : BufTy).Contents (Elt F)) a2 v90
  let c_19 : (⟨S_, .i32⟩ : BufTy).Contents (Elt F) := constantI S_ 32 0#32
  let v92 : (⟨S131072, .i32⟩ : BufTy).Contents (Elt F) := (broadcastInDim S131072 ![] bcast_S_S131072 : (⟨S_, .i32⟩ : BufTy).Contents (Elt F) → (⟨S131072, .i32⟩ : BufTy).Contents (Elt F)) c_19
  let v93 : (⟨S131072, .i1⟩ : BufTy).Contents (Elt F) := (cmpi .slt : (⟨S131072, .i32⟩ : BufTy).Contents (Elt F) → (⟨S131072, .i32⟩ : BufTy).Contents (Elt F) → (⟨S131072, .i1⟩ : BufTy).Contents (Elt F)) v8 v92
  let c_20 : (⟨S_, .i32⟩ : BufTy).Contents (Elt F) := constantI S_ 32 16384#32
  let v94 : (⟨S131072, .i32⟩ : BufTy).Contents (Elt F) := (broadcastInDim S131072 ![] bcast_S_S131072 : (⟨S_, .i32⟩ : BufTy).Contents (Elt F) → (⟨S131072, .i32⟩ : BufTy).Contents (Elt F)) c_20
  let v95 : (⟨S131072, .i32⟩ : BufTy).Contents (Elt F) := (addi : (⟨S131072, .i32⟩ : BufTy).Contents (Elt F) → (⟨S131072, .i32⟩ : BufTy).Contents (Elt F) → (⟨S131072, .i32⟩ : BufTy).Contents (Elt F)) v8 v94
  let v96 : (⟨S131072, .i32⟩ : BufTy).Contents (Elt F) := (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)) v93 v95 v8
  let v97 : (⟨S131072x1, .i32⟩ : BufTy).Contents (Elt F) := (broadcastInDim S131072x1 ![0] bcast_S131072_S131072x1_0 : (⟨S131072, .i32⟩ : BufTy).Contents (Elt F) → (⟨S131072x1, .i32⟩ : BufTy).Contents (Elt F)) v96
  let v98 : (⟨S131072x1, .f32⟩ : BufTy).Contents (Elt F) := ((fun x i => Host.gather gather_S16384x1_S131072x1_S131072x1_1_0_n_n_0_1_11 x i) : (⟨S16384x1, .f32⟩ : BufTy).Contents (Elt F) → (⟨S131072x1, .i32⟩ : BufTy).Contents (Elt F) → (⟨S131072x1, .f32⟩ : BufTy).Contents (Elt F)) v0_1 v97
  let v99 : (⟨S131072x512, .f32⟩ : BufTy).Contents (Elt F) := (broadcastInDim S131072x512 ![0, 1] bcast_S131072x1_S131072x512_0_1 : (⟨S131072x1, .f32⟩ : BufTy).Contents (Elt F) → (⟨S131072x512, .f32⟩ : BufTy).Contents (Elt F)) v98
  let v100 : (⟨S131072x512, .f32⟩ : BufTy).Contents (Elt F) := (mulf : (⟨S131072x512, .f32⟩ : BufTy).Contents (Elt F) → (⟨S131072x512, .f32⟩ : BufTy).Contents (Elt F) → (⟨S131072x512, .f32⟩ : BufTy).Contents (Elt F)) v91 v99
  let c_21 : (⟨S_, .i32⟩ : BufTy).Contents (Elt F) := constantI S_ 32 0#32
  let v101 : (⟨S131072, .i32⟩ : BufTy).Contents (Elt F) := (broadcastInDim S131072 ![] bcast_S_S131072 : (⟨S_, .i32⟩ : BufTy).Contents (Elt F) → (⟨S131072, .i32⟩ : BufTy).Contents (Elt F)) c_21
  let v102 : (⟨S131072, .i1⟩ : BufTy).Contents (Elt F) := (cmpi .slt : (⟨S131072, .i32⟩ : BufTy).Contents (Elt F) → (⟨S131072, .i32⟩ : BufTy).Contents (Elt F) → (⟨S131072, .i1⟩ : BufTy).Contents (Elt F)) v10 v101
  let c_22 : (⟨S_, .i32⟩ : BufTy).Contents (Elt F) := constantI S_ 32 16384#32
  let v103 : (⟨S131072, .i32⟩ : BufTy).Contents (Elt F) := (broadcastInDim S131072 ![] bcast_S_S131072 : (⟨S_, .i32⟩ : BufTy).Contents (Elt F) → (⟨S131072, .i32⟩ : BufTy).Contents (Elt F)) c_22
  let v104 : (⟨S131072, .i32⟩ : BufTy).Contents (Elt F) := (addi : (⟨S131072, .i32⟩ : BufTy).Contents (Elt F) → (⟨S131072, .i32⟩ : BufTy).Contents (Elt F) → (⟨S131072, .i32⟩ : BufTy).Contents (Elt F)) v10 v103
  let v105 : (⟨S131072, .i32⟩ : BufTy).Contents (Elt F) := (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)) v102 v104 v10
  let v106 : (⟨S131072x1, .i32⟩ : BufTy).Contents (Elt F) := (broadcastInDim S131072x1 ![0] bcast_S131072_S131072x1_0 : (⟨S131072, .i32⟩ : BufTy).Contents (Elt F) → (⟨S131072x1, .i32⟩ : BufTy).Contents (Elt F)) v105
  let v107 : (⟨S131072x512, .f32⟩ : BufTy).Contents (Elt F) := ((fun x i => Host.gather gather_S16384x512_S131072x1_S131072x512_1_0_n_n_0_1_1512 x i) : (⟨S16384x512, .f32⟩ : BufTy).Contents (Elt F) → (⟨S131072x1, .i32⟩ : BufTy).Contents (Elt F) → (⟨S131072x512, .f32⟩ : BufTy).Contents (Elt F)) a2 v106
  let c_23 : (⟨S_, .i32⟩ : BufTy).Contents (Elt F) := constantI S_ 32 0#32
  let v108 : (⟨S131072, .i32⟩ : BufTy).Contents (Elt F) := (broadcastInDim S131072 ![] bcast_S_S131072 : (⟨S_, .i32⟩ : BufTy).Contents (Elt F) → (⟨S131072, .i32⟩ : BufTy).Contents (Elt F)) c_23
  let v109 : (⟨S131072, .i1⟩ : BufTy).Contents (Elt F) := (cmpi .slt : (⟨S131072, .i32⟩ : BufTy).Contents (Elt F) → (⟨S131072, .i32⟩ : BufTy).Contents (Elt F) → (⟨S131072, .i1⟩ : BufTy).Contents (Elt F)) v10 v108
  let c_24 : (⟨S_, .i32⟩ : BufTy).Contents (Elt F) := constantI S_ 32 16384#32
  let v110 : (⟨S131072, .i32⟩ : BufTy).Contents (Elt F) := (broadcastInDim S131072 ![] bcast_S_S131072 : (⟨S_, .i32⟩ : BufTy).Contents (Elt F) → (⟨S131072, .i32⟩ : BufTy).Contents (Elt F)) c_24
  let v111 : (⟨S131072, .i32⟩ : BufTy).Contents (Elt F) := (addi : (⟨S131072, .i32⟩ : BufTy).Contents (Elt F) → (⟨S131072, .i32⟩ : BufTy).Contents (Elt F) → (⟨S131072, .i32⟩ : BufTy).Contents (Elt F)) v10 v110
  let v112 : (⟨S131072, .i32⟩ : BufTy).Contents (Elt F) := (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)) v109 v111 v10
  let v113 : (⟨S131072x1, .i32⟩ : BufTy).Contents (Elt F) := (broadcastInDim S131072x1 ![0] bcast_S131072_S131072x1_0 : (⟨S131072, .i32⟩ : BufTy).Contents (Elt F) → (⟨S131072x1, .i32⟩ : BufTy).Contents (Elt F)) v112
  let v114 : (⟨S131072x1, .f32⟩ : BufTy).Contents (Elt F) := ((fun x i => Host.gather gather_S16384x1_S131072x1_S131072x1_1_0_n_n_0_1_11 x i) : (⟨S16384x1, .f32⟩ : BufTy).Contents (Elt F) → (⟨S131072x1, .i32⟩ : BufTy).Contents (Elt F) → (⟨S131072x1, .f32⟩ : BufTy).Contents (Elt F)) v0_1 v113
  let v115 : (⟨S131072x512, .f32⟩ : BufTy).Contents (Elt F) := (broadcastInDim S131072x512 ![0, 1] bcast_S131072x1_S131072x512_0_1 : (⟨S131072x1, .f32⟩ : BufTy).Contents (Elt F) → (⟨S131072x512, .f32⟩ : BufTy).Contents (Elt F)) v114
  let v116 : (⟨S131072x512, .f32⟩ : BufTy).Contents (Elt F) := (mulf : (⟨S131072x512, .f32⟩ : BufTy).Contents (Elt F) → (⟨S131072x512, .f32⟩ : BufTy).Contents (Elt F) → (⟨S131072x512, .f32⟩ : BufTy).Contents (Elt F)) v107 v115
  let v117 : (⟨S131072x512, .f32⟩ : BufTy).Contents (Elt F) := (mulf : (⟨S131072x512, .f32⟩ : BufTy).Contents (Elt F) → (⟨S131072x512, .f32⟩ : BufTy).Contents (Elt F) → (⟨S131072x512, .f32⟩ : BufTy).Contents (Elt F)) v100 v116
  let cst_25 : (⟨S_, .f32⟩ : BufTy).Contents (Elt F) := constant (F := F) S_ .f32 0x00000000#32
  let v118 : (⟨S131072, .f32⟩ : BufTy).Contents (Elt F) := ((fun x v => Host.reduceAdd x v reducesTo_S131072x512_S131072_d1 h_S_) : (⟨S131072x512, .f32⟩ : BufTy).Contents (Elt F) → (⟨S_, .f32⟩ : BufTy).Contents (Elt F) → (⟨S131072, .f32⟩ : BufTy).Contents (Elt F)) v117 cst_25
  let call2_cst : (⟨S_, .f32⟩ : BufTy).Contents (Elt F) := constant (F := F) S_ .f32 0x00000000#32
  let call2_v0 : (⟨S131072, .f32⟩ : BufTy).Contents (Elt F) := (broadcastInDim S131072 ![] bcast_S_S131072) call2_cst
  let v119 : (⟨S131072, .f32⟩ : BufTy).Contents (Elt F) := maximumf v118 call2_v0
  v119

end Cert.KSpec

end
-- ==== Proof.LibSeqLine.lean ====
/-
  Lines of host operations: three general facts for running a host program whose operations are listed piece by piece
  (one piece per window of the program, or per call of a local function).

  `chain_map_seq`: pieces run one after the other are their concatenation run as one line. `after_append`: the
  contents after two lines in a row are the second line's applied to what the first leaves. `forall_flatten`: a
  property every operation of every piece has, every operation of the concatenation has.
-/
import Idealize.ShloMosaic.Lib.StableHlo.Run
import Idealize.ShloMosaic.Lib.Pipeline.Regions

noncomputable section

namespace Cert.LibSeqLine

open Idealize.ShloMosaic Idealize.ShloMosaic.TcCoe Idealize.SL.Sem Idealize.ShloMosaic.StableHlo

section General

variable {nD : Nat} {τ : Topo} {sig : RefSig} {Val : EltTy → Type} {Λ : Labels}

/-- Lines run one after the other are their concatenation run as one line. -/
theorem chain_map_seq : ∀ L : List (List (HloOp τ sig Val)),
    Pipeline.chain (L.map fun l => (seq l : Prog (TpuEff nD τ sig Val Λ .tc) PUnit)) = seq L.flatten
  | [] => rfl
  | l :: L => by rw [List.map_cons, Pipeline.chain_cons, List.flatten_cons, seq_append, chain_map_seq L]

/-- The contents after two lines in a row: the second applied to what the first leaves. -/
theorem after_append : ∀ (l₁ l₂ : List (HloOp τ sig Val)) (V : Valuation τ sig Val), after (l₁ ++ l₂) V = after l₂ (after l₁ V)
  | [], _, _ => rfl
  | op :: l, l₂, V => by rw [List.cons_append, after_cons, after_cons, after_append l l₂]

/-- A property of every operation of every line holds of every operation of their concatenation. -/
theorem forall_flatten {α : Type} {p : α → Prop} (L : List (List α)) (h : ∀ l ∈ L, l.Forall p) : ∀ x ∈ L.flatten, p x := by
  intro x hx
  obtain ⟨l, hl, hxl⟩ := List.mem_flatten.mp hx
  exact (List.forall_iff_forall_mem.mp (h l hl)) x hxl

end General

end Cert.LibSeqLine

end
-- ==== Proof.KHost.lean ====
/-
  The kernel program's host operations between its encoder and its last region, read at the two aggregated arrays
  they leave: each is the aggregation stage of what the stretch finds in the embedding, the edge list, the feature
  table and the inverse-norm column; and the buffers the stretch does not write pass through it.
-/
import proofs.«416178_j39376260169848_1_alg».proof.Proof.Gen.KernelIdeal.Frame
import proofs.«416178_j39376260169848_1_alg».proof.Proof.KSpec
import proofs.«416178_j39376260169848_1_alg».proof.Proof.LibSeqLine

set_option maxRecDepth 16384

noncomputable section

namespace Cert.KHost

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-! ## What the stretch writes

Every operation of the stretch writes one buffer, its result. Line by line, the results are the references listed
here; a reference in none of the nine lists is written by no operation of the stretch, so it holds after the stretch
what it held before. -/

/-- The results of the first line: the four edge rows, then the body graph's per-edge products and their sums. -/
noncomputable def wr0 : List (Ref sig .tc) :=
  [main_v3, main_v4, main_v5, main_v6, main_v7, main_v8, main_v9, main_v10, main_c, main_v11, main_v12, main_c_0,
   main_v13, main_v14, main_v15, main_v16, main_v17, main_c_1, main_v18, main_v19, main_c_2, main_v20, main_v21,
   main_v22, main_v23, main_v24, main_v25, main_v26, main_c_3, main_v27, main_v28, main_c_4, main_v29, main_v30,
   main_v31, main_v32, main_v33, main_c_5, main_v34, main_v35, main_c_6, main_v36, main_v37, main_v38, main_v39,
   main_v40, main_v41, main_v42, main_v43, main_cst, main_v44]

/-- The results of the line that rectifies the body graph's sums. -/
noncomputable def wr1 : List (Ref sig .tc) :=
  [main_call0_cst, main_call0_v0, main_v45]

/-- The results of the line that lays out the body graph's self loops and sums its degrees. -/
noncomputable def wr2 : List (Ref sig .tc) :=
  [main_v46, main_v47, main_v48, main_cst_7, main_v49, main_v50, main_cst_8, main_v51, main_v52, main_v53,
   main_cst_9]

/-- The results of the line that floors the body graph's degrees. -/
noncomputable def wr3 : List (Ref sig .tc) :=
  [main_call1_v0, main_call1_v1, main_v54]

/-- The results of the fifth line: the body graph's normalised aggregation, then the face graph's per-edge products and their sums. -/
noncomputable def wr4 : List (Ref sig .tc) :=
  [main_v55, main_c_10, main_v56, main_v57, main_c_11, main_v58, main_v59, main_v60, main_v61, main_v62, main_c_12,
   main_v63, main_v64, main_c_13, main_v65, main_v66, main_v67, main_v68, main_v69, main_v70, main_v71, main_c_14,
   main_v72, main_v73, main_c_15, main_v74, main_v75, main_v76, main_v77, main_v78, main_v79, main_v80, main_v81,
   main_cst_16, main_v82, main_v83, main_v84, main_c_17, main_v85, main_v86, main_c_18, main_v87, main_v88,
   main_v89, main_v90, main_v91, main_c_19, main_v92, main_v93, main_c_20, main_v94, main_v95, main_v96, main_v97,
   main_v98, main_v99, main_v100, main_c_21, main_v101, main_v102, main_c_22, main_v103, main_v104, main_v105,
   main_v106, main_v107, main_c_23, main_v108, main_v109, main_c_24, main_v110, main_v111, main_v112, main_v113,
   main_v114, main_v115, main_v116, main_v117, main_cst_25, main_v118]

/-- The results of the line that rectifies the face graph's sums. -/
noncomputable def wr5 : List (Ref sig .tc) :=
  [main_call2_cst, main_call2_v0, main_v119]

/-- The results of the line that lays out the face graph's self loops and sums its degrees. -/
noncomputable def wr6 : List (Ref sig .tc) :=
  [main_v120, main_v121, main_v122, main_cst_26, main_v123, main_v124, main_cst_27, main_v125, main_v126,
   main_v127, main_cst_28]

/-- The results of the line that floors the face graph's degrees. -/
noncomputable def wr7 : List (Ref sig .tc) :=
  [main_call3_v0, main_call3_v1, main_v128]

/-- The results of the last line: the face graph's normalised aggregation. -/
noncomputable def wr8 : List (Ref sig .tc) :=
  [main_v129, main_c_29, main_v130, main_v131, main_c_30, main_v132, main_v133, main_v134, main_v135, main_v136,
   main_c_31, main_v137, main_v138, main_c_32, main_v139, main_v140, main_v141, main_v142, main_v143, main_v144,
   main_v145, main_c_33, main_v146, main_v147, main_c_34, main_v148, main_v149, main_v150, main_v151, main_v152,
   main_v153, main_v154, main_v155, main_cst_35, main_v156, main_v157, main_v158]

/-- Each operation of a listed line writes its one result, a member of the line's list of results. -/
local macro "writes_listed" l:ident : tactic =>
  `(tactic| (simp only [$l:ident, List.Forall, StableHlo.nullary_writes, StableHlo.unary_writes,
                StableHlo.binary_writes, StableHlo.ternary_writes, StableHlo.reshape_writes,
                Finset.singleton_subset_iff, List.mem_toFinset] <;>
              (repeat' apply And.intro) <;> exact List.mem_map_of_mem (by decide)))

theorem wr0_sub : (hostOps2 : List (HloOp τ sig (Elt F))).Forall fun op =>
    op.writes ⊆ (wr0.map (Proc.devRef (τ := τ) .tc)).toFinset := by writes_listed hostOps2
theorem wr1_sub : (hostOps2_1 : List (HloOp τ sig (Elt F))).Forall fun op =>
    op.writes ⊆ (wr1.map (Proc.devRef (τ := τ) .tc)).toFinset := by writes_listed hostOps2_1
theorem wr2_sub : (hostOps2_2 : List (HloOp τ sig (Elt F))).Forall fun op =>
    op.writes ⊆ (wr2.map (Proc.devRef (τ := τ) .tc)).toFinset := by writes_listed hostOps2_2
theorem wr3_sub : (hostOps2_3 : List (HloOp τ sig (Elt F))).Forall fun op =>
    op.writes ⊆ (wr3.map (Proc.devRef (τ := τ) .tc)).toFinset := by writes_listed hostOps2_3
set_option maxHeartbeats 4000000 in
theorem wr4_sub : (hostOps2_4 : List (HloOp τ sig (Elt F))).Forall fun op =>
    op.writes ⊆ (wr4.map (Proc.devRef (τ := τ) .tc)).toFinset := by writes_listed hostOps2_4
theorem wr5_sub : (hostOps2_5 : List (HloOp τ sig (Elt F))).Forall fun op =>
    op.writes ⊆ (wr5.map (Proc.devRef (τ := τ) .tc)).toFinset := by writes_listed hostOps2_5
theorem wr6_sub : (hostOps2_6 : List (HloOp τ sig (Elt F))).Forall fun op =>
    op.writes ⊆ (wr6.map (Proc.devRef (τ := τ) .tc)).toFinset := by writes_listed hostOps2_6
theorem wr7_sub : (hostOps2_7 : List (HloOp τ sig (Elt F))).Forall fun op =>
    op.writes ⊆ (wr7.map (Proc.devRef (τ := τ) .tc)).toFinset := by writes_listed hostOps2_7
theorem wr8_sub : (hostOps2_8 : List (HloOp τ sig (Elt F))).Forall fun op =>
    op.writes ⊆ (wr8.map (Proc.devRef (τ := τ) .tc)).toFinset := by writes_listed hostOps2_8

/-- A reference in none of the nine lists holds at region 2's entry what it held at region 1's exit: one step back
    per line, the line writing only its listed results. -/
theorem keep_of (c : Dev nD) (r : Ref sig .tc)
    (h : r ∉ wr0 ∧ r ∉ wr1 ∧ r ∉ wr2 ∧ r ∉ wr3 ∧ r ∉ wr4 ∧ r ∉ wr5 ∧ r ∉ wr6 ∧ r ∉ wr7 ∧ r ∉ wr8) :
    W12 m ρ c (Proc.devRef .tc r) = W3 m ρ c (Proc.devRef .tc r) :=
  calc W12 m ρ c (Proc.devRef .tc r)
    _ = W11 m ρ c (Proc.devRef .tc r) := after_of_writes_sub hostOps2_8 _ wr8_sub h.2.2.2.2.2.2.2.2
    _ = W10 m ρ c (Proc.devRef .tc r) := after_of_writes_sub hostOps2_7 _ wr7_sub h.2.2.2.2.2.2.2.1
    _ = W9 m ρ c (Proc.devRef .tc r) := after_of_writes_sub hostOps2_6 _ wr6_sub h.2.2.2.2.2.2.1
    _ = W8 m ρ c (Proc.devRef .tc r) := after_of_writes_sub hostOps2_5 _ wr5_sub h.2.2.2.2.2.1
    _ = W7 m ρ c (Proc.devRef .tc r) := after_of_writes_sub hostOps2_4 _ wr4_sub h.2.2.2.2.1
    _ = W6 m ρ c (Proc.devRef .tc r) := after_of_writes_sub hostOps2_3 _ wr3_sub h.2.2.2.1
    _ = W5 m ρ c (Proc.devRef .tc r) := after_of_writes_sub hostOps2_2 _ wr2_sub h.2.2.1
    _ = W4 m ρ c (Proc.devRef .tc r) := after_of_writes_sub hostOps2_1 _ wr1_sub h.2.1
    _ = W3 m ρ c (Proc.devRef .tc r) := after_of_writes_sub hostOps2 _ wr0_sub h.1

/-! ## The two aggregated arrays

Read at a result buffer, the stretch is its operations applied, from the last one back, to what the earlier ones
leave: an operation's result buffer holds its function of its operands' buffers, and every other buffer passes
through it. The stage functions of the specification are these same operations in this order, so the two readings
agree term by term. -/

/-- Two pieces, of 131072 and of 16384 entries, laid end to end: the concatenation as a function of the two pieces. -/
def cat2 {α : Type} (a : S131072.Idx → α) (b : S16384.Idx → α) : S147456.Idx → α :=
  concatenate S147456 0 [⟨S131072, a⟩, ⟨S16384, b⟩] concatenates_S131072_S16384_S147456_d0

theorem cat2_eq {α : Type} (a : S131072.Idx → α) (b : S16384.Idx → α) (h) :
    concatenate S147456 0 [⟨S131072, a⟩, ⟨S16384, b⟩] h = cat2 a b := rfl

/-- One pass over the stretch read at a buffer: every operation's result at its own buffer is its function's value,
    at another buffer what was there. -/
local macro "read_stretch" : tactic =>
  `(tactic| (simp (disch := decide) only [after_cons, after_nil, cat2_eq,
      nullary_result', unary_result', binary_result', ternary_result', reshape_result',
      nullary_result_ne', unary_result_ne', binary_result_ne', ternary_result_ne', reshape_result_ne']))

set_option maxHeartbeats 40000000 in
/-- The body graph's aggregated array at region 2's entry. -/
theorem v84_eq (c : Dev nD) :
    W12 m ρ c (Proc.devRef .tc main_v84)
      = Cert.KSpec.agg (W3 m ρ c (Proc.devRef .tc main_v2))
          (Cert.KSpec.srcOf (W3 m ρ c (Proc.devRef .tc main_arg3))) (Cert.KSpec.dstOf (W3 m ρ c (Proc.devRef .tc main_arg3)))
          (Cert.KSpec.sim2048 (W3 m ρ c (Proc.devRef .tc main_arg1)) (W3 m ρ c (Proc.devRef .tc main_v0_0))
            (Cert.KSpec.srcOf (W3 m ρ c (Proc.devRef .tc main_arg3))) (Cert.KSpec.dstOf (W3 m ρ c (Proc.devRef .tc main_arg3)))) := by
  show after hostOps2_8 (after hostOps2_7 (after hostOps2_6 (after hostOps2_5 (after hostOps2_4 (after hostOps2_3
      (after hostOps2_2 (after hostOps2_1 (after hostOps2 (W3 m ρ c))))))))) _ = _
  generalize W3 m ρ c = V
  read_stretch
  simp only [TRef.ofBuf, TRef.toBuf, cast_eq]
  unfold Cert.KSpec.agg Cert.KSpec.sim2048 Cert.KSpec.srcOf Cert.KSpec.dstOf
  rfl

set_option maxHeartbeats 40000000 in
/-- The face graph's aggregated array at region 2's entry. -/
theorem v158_eq (c : Dev nD) :
    W12 m ρ c (Proc.devRef .tc main_v158)
      = Cert.KSpec.agg (W3 m ρ c (Proc.devRef .tc main_v2))
          (Cert.KSpec.srcOf (W3 m ρ c (Proc.devRef .tc main_arg4))) (Cert.KSpec.dstOf (W3 m ρ c (Proc.devRef .tc main_arg4)))
          (Cert.KSpec.sim512 (W3 m ρ c (Proc.devRef .tc main_arg2)) (W3 m ρ c (Proc.devRef .tc main_v0_1))
            (Cert.KSpec.srcOf (W3 m ρ c (Proc.devRef .tc main_arg4))) (Cert.KSpec.dstOf (W3 m ρ c (Proc.devRef .tc main_arg4)))) := by
  show after hostOps2_8 (after hostOps2_7 (after hostOps2_6 (after hostOps2_5 (after hostOps2_4 (after hostOps2_3
      (after hostOps2_2 (after hostOps2_1 (after hostOps2 (W3 m ρ c))))))))) _ = _
  generalize W3 m ρ c = V
  read_stretch
  simp only [TRef.ofBuf, TRef.toBuf, cast_eq]
  unfold Cert.KSpec.agg Cert.KSpec.sim512 Cert.KSpec.srcOf Cert.KSpec.dstOf
  rfl

/-- A buffer none of the stretch's operations writes holds at region 2's entry what it held at region 1's exit. -/
theorem keep_v2 (c : Dev nD) : W12 m ρ c (Proc.devRef .tc main_v2) = W3 m ρ c (Proc.devRef .tc main_v2) :=
  keep_of m ρ c _ (by decide)
theorem keep_arg12 (c : Dev nD) : W12 m ρ c (Proc.devRef .tc main_arg12) = W3 m ρ c (Proc.devRef .tc main_arg12) :=
  keep_of m ρ c _ (by decide)
theorem keep_arg13 (c : Dev nD) : W12 m ρ c (Proc.devRef .tc main_arg13) = W3 m ρ c (Proc.devRef .tc main_arg13) :=
  keep_of m ρ c _ (by decide)
theorem keep_arg14 (c : Dev nD) : W12 m ρ c (Proc.devRef .tc main_arg14) = W3 m ρ c (Proc.devRef .tc main_arg14) :=
  keep_of m ρ c _ (by decide)
theorem keep_arg15 (c : Dev nD) : W12 m ρ c (Proc.devRef .tc main_arg15) = W3 m ρ c (Proc.devRef .tc main_arg15) :=
  keep_of m ρ c _ (by decide)
theorem keep_arg16 (c : Dev nD) : W12 m ρ c (Proc.devRef .tc main_arg16) = W3 m ρ c (Proc.devRef .tc main_arg16) :=
  keep_of m ρ c _ (by decide)
theorem keep_arg17 (c : Dev nD) : W12 m ρ c (Proc.devRef .tc main_arg17) = W3 m ρ c (Proc.devRef .tc main_arg17) :=
  keep_of m ρ c _ (by decide)
theorem keep_arg18 (c : Dev nD) : W12 m ρ c (Proc.devRef .tc main_arg18) = W3 m ρ c (Proc.devRef .tc main_arg18) :=
  keep_of m ρ c _ (by decide)
theorem keep_arg19 (c : Dev nD) : W12 m ρ c (Proc.devRef .tc main_arg19) = W3 m ρ c (Proc.devRef .tc main_arg19) :=
  keep_of m ρ c _ (by decide)
theorem keep_arg20 (c : Dev nD) : W12 m ρ c (Proc.devRef .tc main_arg20) = W3 m ρ c (Proc.devRef .tc main_arg20) :=
  keep_of m ρ c _ (by decide)
theorem keep_arg21 (c : Dev nD) : W12 m ρ c (Proc.devRef .tc main_arg21) = W3 m ρ c (Proc.devRef .tc main_arg21) :=
  keep_of m ρ c _ (by decide)

end Cert.KHost

end
-- ==== Proof.Spec.lean ====
/-
  The function both programs compute, stage by stage, over the host operations' vocabulary: the node embedding
  (enc), each graph's per-edge cosine weights (inv…, fn…, sim…), the normalised aggregation (agg), and the output
  layers with the score heads (head); G composes them. Each stage lists the reference program's own operations in
  order, one let per operation, so the reference's result reads as G of its arguments with no algebra at all;
  the aggregation and the edge-row readings are the same operations for both graphs and are stated once.
-/
import proofs.«416178_j39376260169848_1_alg».proof.Proof.Gen.ReferenceIdeal

noncomputable section

namespace Cert.Spec

open Idealize.ShloMosaic Idealize.SL.Sem
open Cert.ReferenceIdeal Cert.ReferenceIdeal.Facts₀ Cert.ReferenceIdeal.Facts

variable {F : FTy → Type} [FloatOps F]

/-- The encoder: a linear layer on the two input features, batch normalisation over the 16384 nodes (the biased variance as the mean of the squared deviations, as jnp.var lays it out), the parametric rectifier with slope a9, and a second linear layer: the node embedding [16384, 32]. -/
noncomputable def enc (a0 : (⟨S16384x2, .f32⟩ : BufTy).Contents (Elt F)) (a5 : (⟨S2x32, .f32⟩ : BufTy).Contents (Elt F)) (a6 : (⟨S32, .f32⟩ : BufTy).Contents (Elt F)) (a7 : (⟨S32, .f32⟩ : BufTy).Contents (Elt F)) (a8 : (⟨S32, .f32⟩ : BufTy).Contents (Elt F)) (a9 : (⟨S_, .f32⟩ : BufTy).Contents (Elt F)) (a10 : (⟨S32x32, .f32⟩ : BufTy).Contents (Elt F)) (a11 : (⟨S32, .f32⟩ : BufTy).Contents (Elt F)) :
    (⟨S16384x32, .f32⟩ : BufTy).Contents (Elt F) :=
  let v0 : (⟨S16384x32, .f32⟩ : BufTy).Contents (Elt F) := ((fun l r => Host.dotGeneral dot_S16384x2_S2x32_S16384x32_1_0_0_1_n_n none l r) : (⟨S16384x2, .f32⟩ : BufTy).Contents (Elt F) → (⟨S2x32, .f32⟩ : BufTy).Contents (Elt F) → (⟨S16384x32, .f32⟩ : BufTy).Contents (Elt F)) a0 a5
  let v1 : (⟨S1x32, .f32⟩ : BufTy).Contents (Elt F) := (broadcastInDim S1x32 ![1] bcast_S32_S1x32_1 : (⟨S32, .f32⟩ : BufTy).Contents (Elt F) → (⟨S1x32, .f32⟩ : BufTy).Contents (Elt F)) a6
  let v2 : (⟨S16384x32, .f32⟩ : BufTy).Contents (Elt F) := (broadcastInDim S16384x32 ![0, 1] bcast_S1x32_S16384x32_0_1 : (⟨S1x32, .f32⟩ : BufTy).Contents (Elt F) → (⟨S16384x32, .f32⟩ : BufTy).Contents (Elt F)) v1
  let v3 : (⟨S16384x32, .f32⟩ : BufTy).Contents (Elt F) := (addf : (⟨S16384x32, .f32⟩ : BufTy).Contents (Elt F) → (⟨S16384x32, .f32⟩ : BufTy).Contents (Elt F) → (⟨S16384x32, .f32⟩ : BufTy).Contents (Elt F)) v0 v2
  let cst : (⟨S_, .f32⟩ : BufTy).Contents (Elt F) := constant (F := F) S_ .f32 0x00000000#32
  let v4 : (⟨S32, .f32⟩ : BufTy).Contents (Elt F) := ((fun x v => Host.reduceAdd x v reducesTo_S16384x32_S32_d0 h_S_) : (⟨S16384x32, .f32⟩ : BufTy).Contents (Elt F) → (⟨S_, .f32⟩ : BufTy).Contents (Elt F) → (⟨S32, .f32⟩ : BufTy).Contents (Elt F)) v3 cst
  let cst_0 : (⟨S_, .f32⟩ : BufTy).Contents (Elt F) := constant (F := F) S_ .f32 0x46800000#32
  let v5 : (⟨S32, .f32⟩ : BufTy).Contents (Elt F) := (broadcastInDim S32 ![] bcast_S_S32 : (⟨S_, .f32⟩ : BufTy).Contents (Elt F) → (⟨S32, .f32⟩ : BufTy).Contents (Elt F)) cst_0
  let v6 : (⟨S32, .f32⟩ : BufTy).Contents (Elt F) := (Host.divf : (⟨S32, .f32⟩ : BufTy).Contents (Elt F) → (⟨S32, .f32⟩ : BufTy).Contents (Elt F) → (⟨S32, .f32⟩ : BufTy).Contents (Elt F)) v4 v5
  let c := constantI S_ 32 0#32
  let call0_cst : (⟨S_, .f32⟩ : BufTy).Contents (Elt F) := constant (F := F) S_ .f32 0x00000000#32
  let call0_v0 : (⟨S32, .f32⟩ : BufTy).Contents (Elt F) := (fun x v => Host.reduceAdd x v reducesTo_S16384x32_S32_d0 h_S_) v3 call0_cst
  let call0_v1 : (⟨S1x32, .f32⟩ : BufTy).Contents (Elt F) := (broadcastInDim S1x32 ![1] bcast_S32_S1x32_1) call0_v0
  let call0_cst_0 : (⟨S_, .f32⟩ : BufTy).Contents (Elt F) := constant (F := F) S_ .f32 0x46800000#32
  let call0_v2 : (⟨S1x32, .f32⟩ : BufTy).Contents (Elt F) := (broadcastInDim S1x32 ![] bcast_S_S1x32) call0_cst_0
  let call0_v3 : (⟨S1x32, .f32⟩ : BufTy).Contents (Elt F) := Host.divf call0_v1 call0_v2
  let call0_v4 : (⟨S16384x32, .f32⟩ : BufTy).Contents (Elt F) := (broadcastInDim S16384x32 ![0, 1] bcast_S1x32_S16384x32_0_1) call0_v3
  let call0_v5 : (⟨S16384x32, .f32⟩ : BufTy).Contents (Elt F) := subf v3 call0_v4
  let call0_v6 : (⟨S16384x32, .f32⟩ : BufTy).Contents (Elt F) := mulf call0_v5 call0_v5
  let call0_v7 : (⟨S_, .f32⟩ : BufTy).Contents (Elt F) := (sitofp .f32) c
  let call0_cst_1 : (⟨S_, .f32⟩ : BufTy).Contents (Elt F) := constant (F := F) S_ .f32 0x46800000#32
  let call0_v8 : (⟨S_, .f32⟩ : BufTy).Contents (Elt F) := subf call0_cst_1 call0_v7
  let call0_cst_2 : (⟨S_, .f32⟩ : BufTy).Contents (Elt F) := constant (F := F) S_ .f32 0x00000000#32
  let call0_v9 : (⟨S32, .f32⟩ : BufTy).Contents (Elt F) := (fun x v => Host.reduceAdd x v reducesTo_S16384x32_S32_d0 h_S_) call0_v6 call0_cst_2
  let call0_v10 : (⟨S32, .f32⟩ : BufTy).Contents (Elt F) := (broadcastInDim S32 ![] bcast_S_S32) call0_v8
  let call0_v11 : (⟨S32, .f32⟩ : BufTy).Contents (Elt F) := Host.divf call0_v9 call0_v10
  let call0_cst_3 : (⟨S_, .f32⟩ : BufTy).Contents (Elt F) := constant (F := F) S_ .f32 0x00000000#32
  let call0_v12 : (⟨S_, .i1⟩ : BufTy).Contents (Elt F) := (cmpf .ogt) call0_v8 call0_cst_3
  let call0_cst_4 : (⟨S_, .f32⟩ : BufTy).Contents (Elt F) := constant (F := F) S_ .f32 0x7FC00000#32
  let call0_call0_v0 : (⟨S_, .f32⟩ : BufTy).Contents (Elt F) := id call0_cst_4
  let call0_call0_v1 : (⟨S32, .f32⟩ : BufTy).Contents (Elt F) := (broadcastInDim S32 ![] bcast_S_S32) call0_call0_v0
  let v7 : (⟨S32, .f32⟩ : BufTy).Contents (Elt F) := (fun p a b => select (broadcastInDim S32 ![] bcast_S_S32 p) a b) call0_v12 call0_v11 call0_call0_v1
  let v8 : (⟨S1x32, .f32⟩ : BufTy).Contents (Elt F) := (broadcastInDim S1x32 ![1] bcast_S32_S1x32_1 : (⟨S32, .f32⟩ : BufTy).Contents (Elt F) → (⟨S1x32, .f32⟩ : BufTy).Contents (Elt F)) v6
  let v9 : (⟨S16384x32, .f32⟩ : BufTy).Contents (Elt F) := (broadcastInDim S16384x32 ![0, 1] bcast_S1x32_S16384x32_0_1 : (⟨S1x32, .f32⟩ : BufTy).Contents (Elt F) → (⟨S16384x32, .f32⟩ : BufTy).Contents (Elt F)) v8
  let v10 : (⟨S16384x32, .f32⟩ : BufTy).Contents (Elt F) := (subf : (⟨S16384x32, .f32⟩ : BufTy).Contents (Elt F) → (⟨S16384x32, .f32⟩ : BufTy).Contents (Elt F) → (⟨S16384x32, .f32⟩ : BufTy).Contents (Elt F)) v3 v9
  let cst_1 : (⟨S_, .f32⟩ : BufTy).Contents (Elt F) := constant (F := F) S_ .f32 0x3727C5AC#32
  let v11 : (⟨S32, .f32⟩ : BufTy).Contents (Elt F) := (broadcastInDim S32 ![] bcast_S_S32 : (⟨S_, .f32⟩ : BufTy).Contents (Elt F) → (⟨S32, .f32⟩ : BufTy).Contents (Elt F)) cst_1
  let v12 : (⟨S32, .f32⟩ : BufTy).Contents (Elt F) := (addf : (⟨S32, .f32⟩ : BufTy).Contents (Elt F) → (⟨S32, .f32⟩ : BufTy).Contents (Elt F) → (⟨S32, .f32⟩ : BufTy).Contents (Elt F)) v7 v11
  let v13 : (⟨S32, .f32⟩ : BufTy).Contents (Elt F) := (Host.rsqrt : (⟨S32, .f32⟩ : BufTy).Contents (Elt F) → (⟨S32, .f32⟩ : BufTy).Contents (Elt F)) v12
  let v14 : (⟨S1x32, .f32⟩ : BufTy).Contents (Elt F) := (broadcastInDim S1x32 ![1] bcast_S32_S1x32_1 : (⟨S32, .f32⟩ : BufTy).Contents (Elt F) → (⟨S1x32, .f32⟩ : BufTy).Contents (Elt F)) v13
  let v15 : (⟨S16384x32, .f32⟩ : BufTy).Contents (Elt F) := (broadcastInDim S16384x32 ![0, 1] bcast_S1x32_S16384x32_0_1 : (⟨S1x32, .f32⟩ : BufTy).Contents (Elt F) → (⟨S16384x32, .f32⟩ : BufTy).Contents (Elt F)) v14
  let v16 : (⟨S16384x32, .f32⟩ : BufTy).Contents (Elt F) := (mulf : (⟨S16384x32, .f32⟩ : BufTy).Contents (Elt F) → (⟨S16384x32, .f32⟩ : BufTy).Contents (Elt F) → (⟨S16384x32, .f32⟩ : BufTy).Contents (Elt F)) v10 v15
  let v17 : (⟨S1x32, .f32⟩ : BufTy).Contents (Elt F) := (broadcastInDim S1x32 ![1] bcast_S32_S1x32_1 : (⟨S32, .f32⟩ : BufTy).Contents (Elt F) → (⟨S1x32, .f32⟩ : BufTy).Contents (Elt F)) a7
  let v18 : (⟨S16384x32, .f32⟩ : BufTy).Contents (Elt F) := (broadcastInDim S16384x32 ![0, 1] bcast_S1x32_S16384x32_0_1 : (⟨S1x32, .f32⟩ : BufTy).Contents (Elt F) → (⟨S16384x32, .f32⟩ : BufTy).Contents (Elt F)) v17
  let v19 : (⟨S16384x32, .f32⟩ : BufTy).Contents (Elt F) := (mulf : (⟨S16384x32, .f32⟩ : BufTy).Contents (Elt F) → (⟨S16384x32, .f32⟩ : BufTy).Contents (Elt F) → (⟨S16384x32, .f32⟩ : BufTy).Contents (Elt F)) v16 v18
  let v20 : (⟨S1x32, .f32⟩ : BufTy).Contents (Elt F) := (broadcastInDim S1x32 ![1] bcast_S32_S1x32_1 : (⟨S32, .f32⟩ : BufTy).Contents (Elt F) → (⟨S1x32, .f32⟩ : BufTy).Contents (Elt F)) a8
  let v21 : (⟨S16384x32, .f32⟩ : BufTy).Contents (Elt F) := (broadcastInDim S16384x32 ![0, 1] bcast_S1x32_S16384x32_0_1 : (⟨S1x32, .f32⟩ : BufTy).Contents (Elt F) → (⟨S16384x32, .f32⟩ : BufTy).Contents (Elt F)) v20
  let v22 : (⟨S16384x32, .f32⟩ : BufTy).Contents (Elt F) := (addf : (⟨S16384x32, .f32⟩ : BufTy).Contents (Elt F) → (⟨S16384x32, .f32⟩ : BufTy).Contents (Elt F) → (⟨S16384x32, .f32⟩ : BufTy).Contents (Elt F)) v19 v21
  let cst_2 : (⟨S_, .f32⟩ : BufTy).Contents (Elt F) := constant (F := F) S_ .f32 0x00000000#32
  let v23 : (⟨S16384x32, .f32⟩ : BufTy).Contents (Elt F) := (broadcastInDim S16384x32 ![] bcast_S_S16384x32 : (⟨S_, .f32⟩ : BufTy).Contents (Elt F) → (⟨S16384x32, .f32⟩ : BufTy).Contents (Elt F)) cst_2
  let v24 : (⟨S16384x32, .i1⟩ : BufTy).Contents (Elt F) := (cmpf .ogt : (⟨S16384x32, .f32⟩ : BufTy).Contents (Elt F) → (⟨S16384x32, .f32⟩ : BufTy).Contents (Elt F) → (⟨S16384x32, .i1⟩ : BufTy).Contents (Elt F)) v22 v23
  let v25 : (⟨S16384x32, .f32⟩ : BufTy).Contents (Elt F) := (broadcastInDim S16384x32 ![] bcast_S_S16384x32 : (⟨S_, .f32⟩ : BufTy).Contents (Elt F) → (⟨S16384x32, .f32⟩ : BufTy).Contents (Elt F)) a9
  let v26 : (⟨S16384x32, .f32⟩ : BufTy).Contents (Elt F) := (mulf : (⟨S16384x32, .f32⟩ : BufTy).Contents (Elt F) → (⟨S16384x32, .f32⟩ : BufTy).Contents (Elt F) → (⟨S16384x32, .f32⟩ : BufTy).Contents (Elt F)) v25 v22
  let v27 : (⟨S16384x32, .f32⟩ : BufTy).Contents (Elt F) := select v24 v22 v26
  let v28 : (⟨S16384x32, .f32⟩ : BufTy).Contents (Elt F) := ((fun l r => Host.dotGeneral dot_S16384x32_S32x32_S16384x32_1_0_0_1_n_n none l r) : (⟨S16384x32, .f32⟩ : BufTy).Contents (Elt F) → (⟨S32x32, .f32⟩ : BufTy).Contents (Elt F) → (⟨S16384x32, .f32⟩ : BufTy).Contents (Elt F)) v27 a10
  let v29 : (⟨S1x32, .f32⟩ : BufTy).Contents (Elt F) := (broadcastInDim S1x32 ![1] bcast_S32_S1x32_1 : (⟨S32, .f32⟩ : BufTy).Contents (Elt F) → (⟨S1x32, .f32⟩ : BufTy).Contents (Elt F)) a11
  let v30 : (⟨S16384x32, .f32⟩ : BufTy).Contents (Elt F) := (broadcastInDim S16384x32 ![0, 1] bcast_S1x32_S16384x32_0_1 : (⟨S1x32, .f32⟩ : BufTy).Contents (Elt F) → (⟨S16384x32, .f32⟩ : BufTy).Contents (Elt F)) v29
  let v31 : (⟨S16384x32, .f32⟩ : BufTy).Contents (Elt F) := (addf : (⟨S16384x32, .f32⟩ : BufTy).Contents (Elt F) → (⟨S16384x32, .f32⟩ : BufTy).Contents (Elt F) → (⟨S16384x32, .f32⟩ : BufTy).Contents (Elt F)) v28 v30
  v31

/-- Row 0 of an edge list [2, 131072]: the source node of each edge. -/
noncomputable def srcOf (a3 : (⟨S2x131072, .i32⟩ : BufTy).Contents (Elt F)) :
    (⟨S131072, .i32⟩ : BufTy).Contents (Elt F) :=
  let v32 : (⟨S1x131072, .i32⟩ : BufTy).Contents (Elt F) := ((extractStridedSlice S1x131072 ![0, 0] · slices_S2x131072_S1x131072_0_0) : (⟨S2x131072, .i32⟩ : BufTy).Contents (Elt F) → (⟨S1x131072, .i32⟩ : BufTy).Contents (Elt F)) a3
  let v33 : (⟨S131072, .i32⟩ : BufTy).Contents (Elt F) := shapeCast _ v32 shapeCasts_S1x131072_S131072
  v33

/-- Row 1 of an edge list [2, 131072]: the destination node of each edge. -/
noncomputable def dstOf (a3 : (⟨S2x131072, .i32⟩ : BufTy).Contents (Elt F)) :
    (⟨S131072, .i32⟩ : BufTy).Contents (Elt F) :=
  let v34 : (⟨S1x131072, .i32⟩ : BufTy).Contents (Elt F) := ((extractStridedSlice S1x131072 ![1, 0] · slices_S2x131072_S1x131072_1_0) : (⟨S2x131072, .i32⟩ : BufTy).Contents (Elt F) → (⟨S1x131072, .i32⟩ : BufTy).Contents (Elt F)) a3
  let v35 : (⟨S131072, .i32⟩ : BufTy).Contents (Elt F) := shapeCast _ v34 shapeCasts_S1x131072_S131072
  v35

/-- Per node, the reciprocal square root of (the sum of the squares of its 2048 features + 1e-12), as a column [16384, 1]. -/
noncomputable def inv2048 (a1 : (⟨S16384x2048, .f32⟩ : BufTy).Contents (Elt F)) :
    (⟨S16384x1, .f32⟩ : BufTy).Contents (Elt F) :=
  let v36 : (⟨S16384x2048, .f32⟩ : BufTy).Contents (Elt F) := (mulf : (⟨S16384x2048, .f32⟩ : BufTy).Contents (Elt F) → (⟨S16384x2048, .f32⟩ : BufTy).Contents (Elt F) → (⟨S16384x2048, .f32⟩ : BufTy).Contents (Elt F)) a1 a1
  let cst_3 : (⟨S_, .f32⟩ : BufTy).Contents (Elt F) := constant (F := F) S_ .f32 0x00000000#32
  let v37 : (⟨S16384, .f32⟩ : BufTy).Contents (Elt F) := ((fun x v => Host.reduceAdd x v reducesTo_S16384x2048_S16384_d1 h_S_) : (⟨S16384x2048, .f32⟩ : BufTy).Contents (Elt F) → (⟨S_, .f32⟩ : BufTy).Contents (Elt F) → (⟨S16384, .f32⟩ : BufTy).Contents (Elt F)) v36 cst_3
  let v38 : (⟨S16384x1, .f32⟩ : BufTy).Contents (Elt F) := (broadcastInDim S16384x1 ![0] bcast_S16384_S16384x1_0 : (⟨S16384, .f32⟩ : BufTy).Contents (Elt F) → (⟨S16384x1, .f32⟩ : BufTy).Contents (Elt F)) v37
  let cst_4 : (⟨S_, .f32⟩ : BufTy).Contents (Elt F) := constant (F := F) S_ .f32 0x2B8CBCCC#32
  let v39 : (⟨S16384x1, .f32⟩ : BufTy).Contents (Elt F) := (broadcastInDim S16384x1 ![] bcast_S_S16384x1 : (⟨S_, .f32⟩ : BufTy).Contents (Elt F) → (⟨S16384x1, .f32⟩ : BufTy).Contents (Elt F)) cst_4
  let v40 : (⟨S16384x1, .f32⟩ : BufTy).Contents (Elt F) := (addf : (⟨S16384x1, .f32⟩ : BufTy).Contents (Elt F) → (⟨S16384x1, .f32⟩ : BufTy).Contents (Elt F) → (⟨S16384x1, .f32⟩ : BufTy).Contents (Elt F)) v38 v39
  let v41 : (⟨S16384x1, .f32⟩ : BufTy).Contents (Elt F) := (Host.rsqrt : (⟨S16384x1, .f32⟩ : BufTy).Contents (Elt F) → (⟨S16384x1, .f32⟩ : BufTy).Contents (Elt F)) v40
  v41

/-- The 2048 features of every node scaled by the node's entry of a column [16384, 1]. -/
noncomputable def fn2048 (a1 : (⟨S16384x2048, .f32⟩ : BufTy).Contents (Elt F)) (v41 : (⟨S16384x1, .f32⟩ : BufTy).Contents (Elt F)) :
    (⟨S16384x2048, .f32⟩ : BufTy).Contents (Elt F) :=
  let v42 : (⟨S16384x2048, .f32⟩ : BufTy).Contents (Elt F) := (broadcastInDim S16384x2048 ![0, 1] bcast_S16384x1_S16384x2048_0_1 : (⟨S16384x1, .f32⟩ : BufTy).Contents (Elt F) → (⟨S16384x2048, .f32⟩ : BufTy).Contents (Elt F)) v41
  let v43 : (⟨S16384x2048, .f32⟩ : BufTy).Contents (Elt F) := (mulf : (⟨S16384x2048, .f32⟩ : BufTy).Contents (Elt F) → (⟨S16384x2048, .f32⟩ : BufTy).Contents (Elt F) → (⟨S16384x2048, .f32⟩ : BufTy).Contents (Elt F)) a1 v42
  v43

/-- Per edge, the rectified inner product of the rows of a [16384, 2048] table at the edge's two endpoints (a negative node number wrapped once by 16384, then clamped by the gather). -/
noncomputable def sim2048 (v43 : (⟨S16384x2048, .f32⟩ : BufTy).Contents (Elt F)) (v33 : (⟨S131072, .i32⟩ : BufTy).Contents (Elt F)) (v35 : (⟨S131072, .i32⟩ : BufTy).Contents (Elt F)) :
    (⟨S131072, .f32⟩ : BufTy).Contents (Elt F) :=
  let c_5 : (⟨S_, .i32⟩ : BufTy).Contents (Elt F) := constantI S_ 32 0#32
  let v44 : (⟨S131072, .i32⟩ : BufTy).Contents (Elt F) := (broadcastInDim S131072 ![] bcast_S_S131072 : (⟨S_, .i32⟩ : BufTy).Contents (Elt F) → (⟨S131072, .i32⟩ : BufTy).Contents (Elt F)) c_5
  let v45 : (⟨S131072, .i1⟩ : BufTy).Contents (Elt F) := (cmpi .slt : (⟨S131072, .i32⟩ : BufTy).Contents (Elt F) → (⟨S131072, .i32⟩ : BufTy).Contents (Elt F) → (⟨S131072, .i1⟩ : BufTy).Contents (Elt F)) v33 v44
  let c_6 : (⟨S_, .i32⟩ : BufTy).Contents (Elt F) := constantI S_ 32 16384#32
  let v46 : (⟨S131072, .i32⟩ : BufTy).Contents (Elt F) := (broadcastInDim S131072 ![] bcast_S_S131072 : (⟨S_, .i32⟩ : BufTy).Contents (Elt F) → (⟨S131072, .i32⟩ : BufTy).Contents (Elt F)) c_6
  let v47 : (⟨S131072, .i32⟩ : BufTy).Contents (Elt F) := (addi : (⟨S131072, .i32⟩ : BufTy).Contents (Elt F) → (⟨S131072, .i32⟩ : BufTy).Contents (Elt F) → (⟨S131072, .i32⟩ : BufTy).Contents (Elt F)) v33 v46
  let v48 : (⟨S131072, .i32⟩ : BufTy).Contents (Elt F) := (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)) v45 v47 v33
  let v49 : (⟨S131072x1, .i32⟩ : BufTy).Contents (Elt F) := (broadcastInDim S131072x1 ![0] bcast_S131072_S131072x1_0 : (⟨S131072, .i32⟩ : BufTy).Contents (Elt F) → (⟨S131072x1, .i32⟩ : BufTy).Contents (Elt F)) v48
  let v50 : (⟨S131072x2048, .f32⟩ : BufTy).Contents (Elt F) := ((fun x i => Host.gather gather_S16384x2048_S131072x1_S131072x2048_1_0_n_n_0_1_12048 x i) : (⟨S16384x2048, .f32⟩ : BufTy).Contents (Elt F) → (⟨S131072x1, .i32⟩ : BufTy).Contents (Elt F) → (⟨S131072x2048, .f32⟩ : BufTy).Contents (Elt F)) v43 v49
  let c_7 : (⟨S_, .i32⟩ : BufTy).Contents (Elt F) := constantI S_ 32 0#32
  let v51 : (⟨S131072, .i32⟩ : BufTy).Contents (Elt F) := (broadcastInDim S131072 ![] bcast_S_S131072 : (⟨S_, .i32⟩ : BufTy).Contents (Elt F) → (⟨S131072, .i32⟩ : BufTy).Contents (Elt F)) c_7
  let v52 : (⟨S131072, .i1⟩ : BufTy).Contents (Elt F) := (cmpi .slt : (⟨S131072, .i32⟩ : BufTy).Contents (Elt F) → (⟨S131072, .i32⟩ : BufTy).Contents (Elt F) → (⟨S131072, .i1⟩ : BufTy).Contents (Elt F)) v35 v51
  let c_8 : (⟨S_, .i32⟩ : BufTy).Contents (Elt F) := constantI S_ 32 16384#32
  let v53 : (⟨S131072, .i32⟩ : BufTy).Contents (Elt F) := (broadcastInDim S131072 ![] bcast_S_S131072 : (⟨S_, .i32⟩ : BufTy).Contents (Elt F) → (⟨S131072, .i32⟩ : BufTy).Contents (Elt F)) c_8
  let v54 : (⟨S131072, .i32⟩ : BufTy).Contents (Elt F) := (addi : (⟨S131072, .i32⟩ : BufTy).Contents (Elt F) → (⟨S131072, .i32⟩ : BufTy).Contents (Elt F) → (⟨S131072, .i32⟩ : BufTy).Contents (Elt F)) v35 v53
  let v55 : (⟨S131072, .i32⟩ : BufTy).Contents (Elt F) := (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)) v52 v54 v35
  let v56 : (⟨S131072x1, .i32⟩ : BufTy).Contents (Elt F) := (broadcastInDim S131072x1 ![0] bcast_S131072_S131072x1_0 : (⟨S131072, .i32⟩ : BufTy).Contents (Elt F) → (⟨S131072x1, .i32⟩ : BufTy).Contents (Elt F)) v55
  let v57 : (⟨S131072x2048, .f32⟩ : BufTy).Contents (Elt F) := ((fun x i => Host.gather gather_S16384x2048_S131072x1_S131072x2048_1_0_n_n_0_1_12048 x i) : (⟨S16384x2048, .f32⟩ : BufTy).Contents (Elt F) → (⟨S131072x1, .i32⟩ : BufTy).Contents (Elt F) → (⟨S131072x2048, .f32⟩ : BufTy).Contents (Elt F)) v43 v56
  let v58 : (⟨S131072x2048, .f32⟩ : BufTy).Contents (Elt F) := (mulf : (⟨S131072x2048, .f32⟩ : BufTy).Contents (Elt F) → (⟨S131072x2048, .f32⟩ : BufTy).Contents (Elt F) → (⟨S131072x2048, .f32⟩ : BufTy).Contents (Elt F)) v50 v57
  let cst_9 : (⟨S_, .f32⟩ : BufTy).Contents (Elt F) := constant (F := F) S_ .f32 0x00000000#32
  let v59 : (⟨S131072, .f32⟩ : BufTy).Contents (Elt F) := ((fun x v => Host.reduceAdd x v reducesTo_S131072x2048_S131072_d1 h_S_) : (⟨S131072x2048, .f32⟩ : BufTy).Contents (Elt F) → (⟨S_, .f32⟩ : BufTy).Contents (Elt F) → (⟨S131072, .f32⟩ : BufTy).Contents (Elt F)) v58 cst_9
  let call2_cst : (⟨S_, .f32⟩ : BufTy).Contents (Elt F) := constant (F := F) S_ .f32 0x00000000#32
  let call2_v0 : (⟨S131072, .f32⟩ : BufTy).Contents (Elt F) := (broadcastInDim S131072 ![] bcast_S_S131072) call2_cst
  let v60 : (⟨S131072, .f32⟩ : BufTy).Contents (Elt F) := maximumf v59 call2_v0
  v60

/-- Symmetric-normalised aggregation over the edges and one self loop per node: the weighted in-degree (edge weights v60, self loops 1), its reciprocal square root after clipping below at 1e-6, each edge's coefficient, and the coefficient-weighted sum of the source embeddings into each destination: [16384, 32]. -/
noncomputable def agg (v31 : (⟨S16384x32, .f32⟩ : BufTy).Contents (Elt F)) (v33 : (⟨S131072, .i32⟩ : BufTy).Contents (Elt F)) (v35 : (⟨S131072, .i32⟩ : BufTy).Contents (Elt F)) (v60 : (⟨S131072, .f32⟩ : BufTy).Contents (Elt F)) :
    (⟨S16384x32, .f32⟩ : BufTy).Contents (Elt F) :=
  let v61 : (⟨S16384, .i32⟩ : BufTy).Contents (Elt F) := iotaInDim S16384 32 0
  let v62 : (⟨S147456, .i32⟩ : BufTy).Contents (Elt F) := ((fun a b => concatenate S147456 0 [⟨S131072, a⟩, ⟨S16384, b⟩] concatenates_S131072_S16384_S147456_d0) : (⟨S131072, .i32⟩ : BufTy).Contents (Elt F) → (⟨S16384, .i32⟩ : BufTy).Contents (Elt F) → (⟨S147456, .i32⟩ : BufTy).Contents (Elt F)) v33 v61
  let v63 : (⟨S147456, .i32⟩ : BufTy).Contents (Elt F) := ((fun a b => concatenate S147456 0 [⟨S131072, a⟩, ⟨S16384, b⟩] concatenates_S131072_S16384_S147456_d0) : (⟨S131072, .i32⟩ : BufTy).Contents (Elt F) → (⟨S16384, .i32⟩ : BufTy).Contents (Elt F) → (⟨S147456, .i32⟩ : BufTy).Contents (Elt F)) v35 v61
  let cst_10 : (⟨S_, .f32⟩ : BufTy).Contents (Elt F) := constant (F := F) S_ .f32 0x3F800000#32
  let v64 : (⟨S16384, .f32⟩ : BufTy).Contents (Elt F) := (broadcastInDim S16384 ![] bcast_S_S16384 : (⟨S_, .f32⟩ : BufTy).Contents (Elt F) → (⟨S16384, .f32⟩ : BufTy).Contents (Elt F)) cst_10
  let v65 : (⟨S147456, .f32⟩ : BufTy).Contents (Elt F) := ((fun a b => concatenate S147456 0 [⟨S131072, a⟩, ⟨S16384, b⟩] concatenates_S131072_S16384_S147456_d0) : (⟨S131072, .f32⟩ : BufTy).Contents (Elt F) → (⟨S16384, .f32⟩ : BufTy).Contents (Elt F) → (⟨S147456, .f32⟩ : BufTy).Contents (Elt F)) v60 v64
  let cst_11 : (⟨S_, .f32⟩ : BufTy).Contents (Elt F) := constant (F := F) S_ .f32 0x00000000#32
  let v66 : (⟨S16384, .f32⟩ : BufTy).Contents (Elt F) := (broadcastInDim S16384 ![] bcast_S_S16384 : (⟨S_, .f32⟩ : BufTy).Contents (Elt F) → (⟨S16384, .f32⟩ : BufTy).Contents (Elt F)) cst_11
  let v67 : (⟨S147456x1, .i32⟩ : BufTy).Contents (Elt F) := (broadcastInDim S147456x1 ![0] bcast_S147456_S147456x1_0 : (⟨S147456, .i32⟩ : BufTy).Contents (Elt F) → (⟨S147456x1, .i32⟩ : BufTy).Contents (Elt F)) v63
  let v68 : (⟨S16384, .f32⟩ : BufTy).Contents (Elt F) := ((fun x i u => Host.scatterAdd scatter_S16384_S147456x1_S147456_n_0_0_1 x i u) : (⟨S16384, .f32⟩ : BufTy).Contents (Elt F) → (⟨S147456x1, .i32⟩ : BufTy).Contents (Elt F) → (⟨S147456, .f32⟩ : BufTy).Contents (Elt F) → (⟨S16384, .f32⟩ : BufTy).Contents (Elt F)) v66 v67 v65
  let cst_12 := constant (F := F) S_ .f32 0x358637BD#32
  let call3_v0 : (⟨S_, .f32⟩ : BufTy).Contents (Elt F) := id cst_12
  let call3_v1 : (⟨S16384, .f32⟩ : BufTy).Contents (Elt F) := (broadcastInDim S16384 ![] bcast_S_S16384) call3_v0
  let v69 : (⟨S16384, .f32⟩ : BufTy).Contents (Elt F) := maximumf call3_v1 v68
  let v70 : (⟨S16384, .f32⟩ : BufTy).Contents (Elt F) := (Host.rsqrt : (⟨S16384, .f32⟩ : BufTy).Contents (Elt F) → (⟨S16384, .f32⟩ : BufTy).Contents (Elt F)) v69
  let c_13 : (⟨S_, .i32⟩ : BufTy).Contents (Elt F) := constantI S_ 32 0#32
  let v71 : (⟨S147456, .i32⟩ : BufTy).Contents (Elt F) := (broadcastInDim S147456 ![] bcast_S_S147456 : (⟨S_, .i32⟩ : BufTy).Contents (Elt F) → (⟨S147456, .i32⟩ : BufTy).Contents (Elt F)) c_13
  let v72 : (⟨S147456, .i1⟩ : BufTy).Contents (Elt F) := (cmpi .slt : (⟨S147456, .i32⟩ : BufTy).Contents (Elt F) → (⟨S147456, .i32⟩ : BufTy).Contents (Elt F) → (⟨S147456, .i1⟩ : BufTy).Contents (Elt F)) v62 v71
  let c_14 : (⟨S_, .i32⟩ : BufTy).Contents (Elt F) := constantI S_ 32 16384#32
  let v73 : (⟨S147456, .i32⟩ : BufTy).Contents (Elt F) := (broadcastInDim S147456 ![] bcast_S_S147456 : (⟨S_, .i32⟩ : BufTy).Contents (Elt F) → (⟨S147456, .i32⟩ : BufTy).Contents (Elt F)) c_14
  let v74 : (⟨S147456, .i32⟩ : BufTy).Contents (Elt F) := (addi : (⟨S147456, .i32⟩ : BufTy).Contents (Elt F) → (⟨S147456, .i32⟩ : BufTy).Contents (Elt F) → (⟨S147456, .i32⟩ : BufTy).Contents (Elt F)) v62 v73
  let v75 : (⟨S147456, .i32⟩ : BufTy).Contents (Elt F) := (select : (⟨S147456, .i1⟩ : BufTy).Contents (Elt F) → (⟨S147456, .i32⟩ : BufTy).Contents (Elt F) → (⟨S147456, .i32⟩ : BufTy).Contents (Elt F) → (⟨S147456, .i32⟩ : BufTy).Contents (Elt F)) v72 v74 v62
  let v76 : (⟨S147456x1, .i32⟩ : BufTy).Contents (Elt F) := (broadcastInDim S147456x1 ![0] bcast_S147456_S147456x1_0 : (⟨S147456, .i32⟩ : BufTy).Contents (Elt F) → (⟨S147456x1, .i32⟩ : BufTy).Contents (Elt F)) v75
  let v77 : (⟨S147456, .f32⟩ : BufTy).Contents (Elt F) := ((fun x i => Host.gather gather_S16384_S147456x1_S147456_n_0_n_n_0_1_1 x i) : (⟨S16384, .f32⟩ : BufTy).Contents (Elt F) → (⟨S147456x1, .i32⟩ : BufTy).Contents (Elt F) → (⟨S147456, .f32⟩ : BufTy).Contents (Elt F)) v70 v76
  let c_15 : (⟨S_, .i32⟩ : BufTy).Contents (Elt F) := constantI S_ 32 0#32
  let v78 : (⟨S147456, .i32⟩ : BufTy).Contents (Elt F) := (broadcastInDim S147456 ![] bcast_S_S147456 : (⟨S_, .i32⟩ : BufTy).Contents (Elt F) → (⟨S147456, .i32⟩ : BufTy).Contents (Elt F)) c_15
  let v79 : (⟨S147456, .i1⟩ : BufTy).Contents (Elt F) := (cmpi .slt : (⟨S147456, .i32⟩ : BufTy).Contents (Elt F) → (⟨S147456, .i32⟩ : BufTy).Contents (Elt F) → (⟨S147456, .i1⟩ : BufTy).Contents (Elt F)) v63 v78
  let c_16 : (⟨S_, .i32⟩ : BufTy).Contents (Elt F) := constantI S_ 32 16384#32
  let v80 : (⟨S147456, .i32⟩ : BufTy).Contents (Elt F) := (broadcastInDim S147456 ![] bcast_S_S147456 : (⟨S_, .i32⟩ : BufTy).Contents (Elt F) → (⟨S147456, .i32⟩ : BufTy).Contents (Elt F)) c_16
  let v81 : (⟨S147456, .i32⟩ : BufTy).Contents (Elt F) := (addi : (⟨S147456, .i32⟩ : BufTy).Contents (Elt F) → (⟨S147456, .i32⟩ : BufTy).Contents (Elt F) → (⟨S147456, .i32⟩ : BufTy).Contents (Elt F)) v63 v80
  let v82 : (⟨S147456, .i32⟩ : BufTy).Contents (Elt F) := (select : (⟨S147456, .i1⟩ : BufTy).Contents (Elt F) → (⟨S147456, .i32⟩ : BufTy).Contents (Elt F) → (⟨S147456, .i32⟩ : BufTy).Contents (Elt F) → (⟨S147456, .i32⟩ : BufTy).Contents (Elt F)) v79 v81 v63
  let v83 : (⟨S147456x1, .i32⟩ : BufTy).Contents (Elt F) := (broadcastInDim S147456x1 ![0] bcast_S147456_S147456x1_0 : (⟨S147456, .i32⟩ : BufTy).Contents (Elt F) → (⟨S147456x1, .i32⟩ : BufTy).Contents (Elt F)) v82
  let v84 : (⟨S147456, .f32⟩ : BufTy).Contents (Elt F) := ((fun x i => Host.gather gather_S16384_S147456x1_S147456_n_0_n_n_0_1_1 x i) : (⟨S16384, .f32⟩ : BufTy).Contents (Elt F) → (⟨S147456x1, .i32⟩ : BufTy).Contents (Elt F) → (⟨S147456, .f32⟩ : BufTy).Contents (Elt F)) v70 v83
  let v85 : (⟨S147456, .f32⟩ : BufTy).Contents (Elt F) := (mulf : (⟨S147456, .f32⟩ : BufTy).Contents (Elt F) → (⟨S147456, .f32⟩ : BufTy).Contents (Elt F) → (⟨S147456, .f32⟩ : BufTy).Contents (Elt F)) v77 v84
  let v86 : (⟨S147456, .f32⟩ : BufTy).Contents (Elt F) := (mulf : (⟨S147456, .f32⟩ : BufTy).Contents (Elt F) → (⟨S147456, .f32⟩ : BufTy).Contents (Elt F) → (⟨S147456, .f32⟩ : BufTy).Contents (Elt F)) v85 v65
  let c_17 : (⟨S_, .i32⟩ : BufTy).Contents (Elt F) := constantI S_ 32 0#32
  let v87 : (⟨S147456, .i32⟩ : BufTy).Contents (Elt F) := (broadcastInDim S147456 ![] bcast_S_S147456 : (⟨S_, .i32⟩ : BufTy).Contents (Elt F) → (⟨S147456, .i32⟩ : BufTy).Contents (Elt F)) c_17
  let v88 : (⟨S147456, .i1⟩ : BufTy).Contents (Elt F) := (cmpi .slt : (⟨S147456, .i32⟩ : BufTy).Contents (Elt F) → (⟨S147456, .i32⟩ : BufTy).Contents (Elt F) → (⟨S147456, .i1⟩ : BufTy).Contents (Elt F)) v62 v87
  let c_18 : (⟨S_, .i32⟩ : BufTy).Contents (Elt F) := constantI S_ 32 16384#32
  let v89 : (⟨S147456, .i32⟩ : BufTy).Contents (Elt F) := (broadcastInDim S147456 ![] bcast_S_S147456 : (⟨S_, .i32⟩ : BufTy).Contents (Elt F) → (⟨S147456, .i32⟩ : BufTy).Contents (Elt F)) c_18
  let v90 : (⟨S147456, .i32⟩ : BufTy).Contents (Elt F) := (addi : (⟨S147456, .i32⟩ : BufTy).Contents (Elt F) → (⟨S147456, .i32⟩ : BufTy).Contents (Elt F) → (⟨S147456, .i32⟩ : BufTy).Contents (Elt F)) v62 v89
  let v91 : (⟨S147456, .i32⟩ : BufTy).Contents (Elt F) := (select : (⟨S147456, .i1⟩ : BufTy).Contents (Elt F) → (⟨S147456, .i32⟩ : BufTy).Contents (Elt F) → (⟨S147456, .i32⟩ : BufTy).Contents (Elt F) → (⟨S147456, .i32⟩ : BufTy).Contents (Elt F)) v88 v90 v62
  let v92 : (⟨S147456x1, .i32⟩ : BufTy).Contents (Elt F) := (broadcastInDim S147456x1 ![0] bcast_S147456_S147456x1_0 : (⟨S147456, .i32⟩ : BufTy).Contents (Elt F) → (⟨S147456x1, .i32⟩ : BufTy).Contents (Elt F)) v91
  let v93 : (⟨S147456x32, .f32⟩ : BufTy).Contents (Elt F) := ((fun x i => Host.gather gather_S16384x32_S147456x1_S147456x32_1_0_n_n_0_1_132 x i) : (⟨S16384x32, .f32⟩ : BufTy).Contents (Elt F) → (⟨S147456x1, .i32⟩ : BufTy).Contents (Elt F) → (⟨S147456x32, .f32⟩ : BufTy).Contents (Elt F)) v31 v92
  let v94 : (⟨S147456x1, .f32⟩ : BufTy).Contents (Elt F) := (broadcastInDim S147456x1 ![0] bcast_S147456_S147456x1_0 : (⟨S147456, .f32⟩ : BufTy).Contents (Elt F) → (⟨S147456x1, .f32⟩ : BufTy).Contents (Elt F)) v86
  let v95 : (⟨S147456x32, .f32⟩ : BufTy).Contents (Elt F) := (broadcastInDim S147456x32 ![0, 1] bcast_S147456x1_S147456x32_0_1 : (⟨S147456x1, .f32⟩ : BufTy).Contents (Elt F) → (⟨S147456x32, .f32⟩ : BufTy).Contents (Elt F)) v94
  let v96 : (⟨S147456x32, .f32⟩ : BufTy).Contents (Elt F) := (mulf : (⟨S147456x32, .f32⟩ : BufTy).Contents (Elt F) → (⟨S147456x32, .f32⟩ : BufTy).Contents (Elt F) → (⟨S147456x32, .f32⟩ : BufTy).Contents (Elt F)) v93 v95
  let cst_19 : (⟨S_, .f32⟩ : BufTy).Contents (Elt F) := constant (F := F) S_ .f32 0x00000000#32
  let v97 : (⟨S16384x32, .f32⟩ : BufTy).Contents (Elt F) := (broadcastInDim S16384x32 ![] bcast_S_S16384x32 : (⟨S_, .f32⟩ : BufTy).Contents (Elt F) → (⟨S16384x32, .f32⟩ : BufTy).Contents (Elt F)) cst_19
  let v98 : (⟨S147456x1, .i32⟩ : BufTy).Contents (Elt F) := (broadcastInDim S147456x1 ![0] bcast_S147456_S147456x1_0 : (⟨S147456, .i32⟩ : BufTy).Contents (Elt F) → (⟨S147456x1, .i32⟩ : BufTy).Contents (Elt F)) v63
  let v99 : (⟨S16384x32, .f32⟩ : BufTy).Contents (Elt F) := ((fun x i u => Host.scatterAdd scatter_S16384x32_S147456x1_S147456x32_1_0_0_1 x i u) : (⟨S16384x32, .f32⟩ : BufTy).Contents (Elt F) → (⟨S147456x1, .i32⟩ : BufTy).Contents (Elt F) → (⟨S147456x32, .f32⟩ : BufTy).Contents (Elt F) → (⟨S16384x32, .f32⟩ : BufTy).Contents (Elt F)) v97 v98 v96
  v99

/-- Per node, the reciprocal square root of (the sum of the squares of its 512 features + 1e-12), as a column [16384, 1]. -/
noncomputable def inv512 (a2 : (⟨S16384x512, .f32⟩ : BufTy).Contents (Elt F)) :
    (⟨S16384x1, .f32⟩ : BufTy).Contents (Elt F) :=
  let v108 : (⟨S16384x512, .f32⟩ : BufTy).Contents (Elt F) := (mulf : (⟨S16384x512, .f32⟩ : BufTy).Contents (Elt F) → (⟨S16384x512, .f32⟩ : BufTy).Contents (Elt F) → (⟨S16384x512, .f32⟩ : BufTy).Contents (Elt F)) a2 a2
  let cst_20 : (⟨S_, .f32⟩ : BufTy).Contents (Elt F) := constant (F := F) S_ .f32 0x00000000#32
  let v109 : (⟨S16384, .f32⟩ : BufTy).Contents (Elt F) := ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)) v108 cst_20
  let v110 : (⟨S16384x1, .f32⟩ : BufTy).Contents (Elt F) := (broadcastInDim S16384x1 ![0] bcast_S16384_S16384x1_0 : (⟨S16384, .f32⟩ : BufTy).Contents (Elt F) → (⟨S16384x1, .f32⟩ : BufTy).Contents (Elt F)) v109
  let cst_21 : (⟨S_, .f32⟩ : BufTy).Contents (Elt F) := constant (F := F) S_ .f32 0x2B8CBCCC#32
  let v111 : (⟨S16384x1, .f32⟩ : BufTy).Contents (Elt F) := (broadcastInDim S16384x1 ![] bcast_S_S16384x1 : (⟨S_, .f32⟩ : BufTy).Contents (Elt F) → (⟨S16384x1, .f32⟩ : BufTy).Contents (Elt F)) cst_21
  let v112 : (⟨S16384x1, .f32⟩ : BufTy).Contents (Elt F) := (addf : (⟨S16384x1, .f32⟩ : BufTy).Contents (Elt F) → (⟨S16384x1, .f32⟩ : BufTy).Contents (Elt F) → (⟨S16384x1, .f32⟩ : BufTy).Contents (Elt F)) v110 v111
  let v113 : (⟨S16384x1, .f32⟩ : BufTy).Contents (Elt F) := (Host.rsqrt : (⟨S16384x1, .f32⟩ : BufTy).Contents (Elt F) → (⟨S16384x1, .f32⟩ : BufTy).Contents (Elt F)) v112
  v113

/-- The 512 features of every node scaled by the node's entry of a column [16384, 1]. -/
noncomputable def fn512 (a2 : (⟨S16384x512, .f32⟩ : BufTy).Contents (Elt F)) (v113 : (⟨S16384x1, .f32⟩ : BufTy).Contents (Elt F)) :
    (⟨S16384x512, .f32⟩ : BufTy).Contents (Elt F) :=
  let v114 : (⟨S16384x512, .f32⟩ : BufTy).Contents (Elt F) := (broadcastInDim S16384x512 ![0, 1] bcast_S16384x1_S16384x512_0_1 : (⟨S16384x1, .f32⟩ : BufTy).Contents (Elt F) → (⟨S16384x512, .f32⟩ : BufTy).Contents (Elt F)) v113
  let v115 : (⟨S16384x512, .f32⟩ : BufTy).Contents (Elt F) := (mulf : (⟨S16384x512, .f32⟩ : BufTy).Contents (Elt F) → (⟨S16384x512, .f32⟩ : BufTy).Contents (Elt F) → (⟨S16384x512, .f32⟩ : BufTy).Contents (Elt F)) a2 v114
  v115

/-- Per edge, the rectified inner product of the rows of a [16384, 512] table at the edge's two endpoints. -/
noncomputable def sim512 (v115 : (⟨S16384x512, .f32⟩ : BufTy).Contents (Elt F)) (v105 : (⟨S131072, .i32⟩ : BufTy).Contents (Elt F)) (v107 : (⟨S131072, .i32⟩ : BufTy).Contents (Elt F)) :
    (⟨S131072, .f32⟩ : BufTy).Contents (Elt F) :=
  let c_22 : (⟨S_, .i32⟩ : BufTy).Contents (Elt F) := constantI S_ 32 0#32
  let v116 : (⟨S131072, .i32⟩ : BufTy).Contents (Elt F) := (broadcastInDim S131072 ![] bcast_S_S131072 : (⟨S_, .i32⟩ : BufTy).Contents (Elt F) → (⟨S131072, .i32⟩ : BufTy).Contents (Elt F)) c_22
  let v117 : (⟨S131072, .i1⟩ : BufTy).Contents (Elt F) := (cmpi .slt : (⟨S131072, .i32⟩ : BufTy).Contents (Elt F) → (⟨S131072, .i32⟩ : BufTy).Contents (Elt F) → (⟨S131072, .i1⟩ : BufTy).Contents (Elt F)) v105 v116
  let c_23 : (⟨S_, .i32⟩ : BufTy).Contents (Elt F) := constantI S_ 32 16384#32
  let v118 : (⟨S131072, .i32⟩ : BufTy).Contents (Elt F) := (broadcastInDim S131072 ![] bcast_S_S131072 : (⟨S_, .i32⟩ : BufTy).Contents (Elt F) → (⟨S131072, .i32⟩ : BufTy).Contents (Elt F)) c_23
  let v119 : (⟨S131072, .i32⟩ : BufTy).Contents (Elt F) := (addi : (⟨S131072, .i32⟩ : BufTy).Contents (Elt F) → (⟨S131072, .i32⟩ : BufTy).Contents (Elt F) → (⟨S131072, .i32⟩ : BufTy).Contents (Elt F)) v105 v118
  let v120 : (⟨S131072, .i32⟩ : BufTy).Contents (Elt F) := (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)) v117 v119 v105
  let v121 : (⟨S131072x1, .i32⟩ : BufTy).Contents (Elt F) := (broadcastInDim S131072x1 ![0] bcast_S131072_S131072x1_0 : (⟨S131072, .i32⟩ : BufTy).Contents (Elt F) → (⟨S131072x1, .i32⟩ : BufTy).Contents (Elt F)) v120
  let v122 : (⟨S131072x512, .f32⟩ : BufTy).Contents (Elt F) := ((fun x i => Host.gather gather_S16384x512_S131072x1_S131072x512_1_0_n_n_0_1_1512 x i) : (⟨S16384x512, .f32⟩ : BufTy).Contents (Elt F) → (⟨S131072x1, .i32⟩ : BufTy).Contents (Elt F) → (⟨S131072x512, .f32⟩ : BufTy).Contents (Elt F)) v115 v121
  let c_24 : (⟨S_, .i32⟩ : BufTy).Contents (Elt F) := constantI S_ 32 0#32
  let v123 : (⟨S131072, .i32⟩ : BufTy).Contents (Elt F) := (broadcastInDim S131072 ![] bcast_S_S131072 : (⟨S_, .i32⟩ : BufTy).Contents (Elt F) → (⟨S131072, .i32⟩ : BufTy).Contents (Elt F)) c_24
  let v124 : (⟨S131072, .i1⟩ : BufTy).Contents (Elt F) := (cmpi .slt : (⟨S131072, .i32⟩ : BufTy).Contents (Elt F) → (⟨S131072, .i32⟩ : BufTy).Contents (Elt F) → (⟨S131072, .i1⟩ : BufTy).Contents (Elt F)) v107 v123
  let c_25 : (⟨S_, .i32⟩ : BufTy).Contents (Elt F) := constantI S_ 32 16384#32
  let v125 : (⟨S131072, .i32⟩ : BufTy).Contents (Elt F) := (broadcastInDim S131072 ![] bcast_S_S131072 : (⟨S_, .i32⟩ : BufTy).Contents (Elt F) → (⟨S131072, .i32⟩ : BufTy).Contents (Elt F)) c_25
  let v126 : (⟨S131072, .i32⟩ : BufTy).Contents (Elt F) := (addi : (⟨S131072, .i32⟩ : BufTy).Contents (Elt F) → (⟨S131072, .i32⟩ : BufTy).Contents (Elt F) → (⟨S131072, .i32⟩ : BufTy).Contents (Elt F)) v107 v125
  let v127 : (⟨S131072, .i32⟩ : BufTy).Contents (Elt F) := (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)) v124 v126 v107
  let v128 : (⟨S131072x1, .i32⟩ : BufTy).Contents (Elt F) := (broadcastInDim S131072x1 ![0] bcast_S131072_S131072x1_0 : (⟨S131072, .i32⟩ : BufTy).Contents (Elt F) → (⟨S131072x1, .i32⟩ : BufTy).Contents (Elt F)) v127
  let v129 : (⟨S131072x512, .f32⟩ : BufTy).Contents (Elt F) := ((fun x i => Host.gather gather_S16384x512_S131072x1_S131072x512_1_0_n_n_0_1_1512 x i) : (⟨S16384x512, .f32⟩ : BufTy).Contents (Elt F) → (⟨S131072x1, .i32⟩ : BufTy).Contents (Elt F) → (⟨S131072x512, .f32⟩ : BufTy).Contents (Elt F)) v115 v128
  let v130 : (⟨S131072x512, .f32⟩ : BufTy).Contents (Elt F) := (mulf : (⟨S131072x512, .f32⟩ : BufTy).Contents (Elt F) → (⟨S131072x512, .f32⟩ : BufTy).Contents (Elt F) → (⟨S131072x512, .f32⟩ : BufTy).Contents (Elt F)) v122 v129
  let cst_26 : (⟨S_, .f32⟩ : BufTy).Contents (Elt F) := constant (F := F) S_ .f32 0x00000000#32
  let v131 : (⟨S131072, .f32⟩ : BufTy).Contents (Elt F) := ((fun x v => Host.reduceAdd x v reducesTo_S131072x512_S131072_d1 h_S_) : (⟨S131072x512, .f32⟩ : BufTy).Contents (Elt F) → (⟨S_, .f32⟩ : BufTy).Contents (Elt F) → (⟨S131072, .f32⟩ : BufTy).Contents (Elt F)) v130 cst_26
  let call4_cst : (⟨S_, .f32⟩ : BufTy).Contents (Elt F) := constant (F := F) S_ .f32 0x00000000#32
  let call4_v0 : (⟨S131072, .f32⟩ : BufTy).Contents (Elt F) := (broadcastInDim S131072 ![] bcast_S_S131072) call4_cst
  let v132 : (⟨S131072, .f32⟩ : BufTy).Contents (Elt F) := maximumf v131 call4_v0
  v132

/-- The two graph-convolution output layers and the three linear score heads, summed as (lin + sb) + sf: one score per node. -/
noncomputable def head (v31 : (⟨S16384x32, .f32⟩ : BufTy).Contents (Elt F)) (v99 : (⟨S16384x32, .f32⟩ : BufTy).Contents (Elt F)) (v171 : (⟨S16384x32, .f32⟩ : BufTy).Contents (Elt F)) (a12 : (⟨S32x1, .f32⟩ : BufTy).Contents (Elt F)) (a13 : (⟨S1, .f32⟩ : BufTy).Contents (Elt F)) (a14 : (⟨S32x32, .f32⟩ : BufTy).Contents (Elt F)) (a15 : (⟨S32, .f32⟩ : BufTy).Contents (Elt F)) (a16 : (⟨S32x32, .f32⟩ : BufTy).Contents (Elt F)) (a17 : (⟨S32, .f32⟩ : BufTy).Contents (Elt F)) (a18 : (⟨S32x1, .f32⟩ : BufTy).Contents (Elt F)) (a19 : (⟨S1, .f32⟩ : BufTy).Contents (Elt F)) (a20 : (⟨S32x1, .f32⟩ : BufTy).Contents (Elt F)) (a21 : (⟨S1, .f32⟩ : BufTy).Contents (Elt F)) :
    (⟨S16384, .f32⟩ : BufTy).Contents (Elt F) :=
  let v100 : (⟨S16384x32, .f32⟩ : BufTy).Contents (Elt F) := ((fun l r => Host.dotGeneral dot_S16384x32_S32x32_S16384x32_1_0_0_1_n_n none l r) : (⟨S16384x32, .f32⟩ : BufTy).Contents (Elt F) → (⟨S32x32, .f32⟩ : BufTy).Contents (Elt F) → (⟨S16384x32, .f32⟩ : BufTy).Contents (Elt F)) v99 a14
  let v101 : (⟨S1x32, .f32⟩ : BufTy).Contents (Elt F) := (broadcastInDim S1x32 ![1] bcast_S32_S1x32_1 : (⟨S32, .f32⟩ : BufTy).Contents (Elt F) → (⟨S1x32, .f32⟩ : BufTy).Contents (Elt F)) a15
  let v102 : (⟨S16384x32, .f32⟩ : BufTy).Contents (Elt F) := (broadcastInDim S16384x32 ![0, 1] bcast_S1x32_S16384x32_0_1 : (⟨S1x32, .f32⟩ : BufTy).Contents (Elt F) → (⟨S16384x32, .f32⟩ : BufTy).Contents (Elt F)) v101
  let v103 : (⟨S16384x32, .f32⟩ : BufTy).Contents (Elt F) := (addf : (⟨S16384x32, .f32⟩ : BufTy).Contents (Elt F) → (⟨S16384x32, .f32⟩ : BufTy).Contents (Elt F) → (⟨S16384x32, .f32⟩ : BufTy).Contents (Elt F)) v100 v102
  let v172 : (⟨S16384x32, .f32⟩ : BufTy).Contents (Elt F) := ((fun l r => Host.dotGeneral dot_S16384x32_S32x32_S16384x32_1_0_0_1_n_n none l r) : (⟨S16384x32, .f32⟩ : BufTy).Contents (Elt F) → (⟨S32x32, .f32⟩ : BufTy).Contents (Elt F) → (⟨S16384x32, .f32⟩ : BufTy).Contents (Elt F)) v171 a16
  let v173 : (⟨S1x32, .f32⟩ : BufTy).Contents (Elt F) := (broadcastInDim S1x32 ![1] bcast_S32_S1x32_1 : (⟨S32, .f32⟩ : BufTy).Contents (Elt F) → (⟨S1x32, .f32⟩ : BufTy).Contents (Elt F)) a17
  let v174 : (⟨S16384x32, .f32⟩ : BufTy).Contents (Elt F) := (broadcastInDim S16384x32 ![0, 1] bcast_S1x32_S16384x32_0_1 : (⟨S1x32, .f32⟩ : BufTy).Contents (Elt F) → (⟨S16384x32, .f32⟩ : BufTy).Contents (Elt F)) v173
  let v175 : (⟨S16384x32, .f32⟩ : BufTy).Contents (Elt F) := (addf : (⟨S16384x32, .f32⟩ : BufTy).Contents (Elt F) → (⟨S16384x32, .f32⟩ : BufTy).Contents (Elt F) → (⟨S16384x32, .f32⟩ : BufTy).Contents (Elt F)) v172 v174
  let v176 : (⟨S16384x1, .f32⟩ : BufTy).Contents (Elt F) := ((fun l r => Host.dotGeneral dot_S16384x32_S32x1_S16384x1_1_0_0_1_n_n none l r) : (⟨S16384x32, .f32⟩ : BufTy).Contents (Elt F) → (⟨S32x1, .f32⟩ : BufTy).Contents (Elt F) → (⟨S16384x1, .f32⟩ : BufTy).Contents (Elt F)) v31 a12
  let v177 : (⟨S1x1, .f32⟩ : BufTy).Contents (Elt F) := (broadcastInDim S1x1 ![1] bcast_S1_S1x1_1 : (⟨S1, .f32⟩ : BufTy).Contents (Elt F) → (⟨S1x1, .f32⟩ : BufTy).Contents (Elt F)) a13
  let v178 : (⟨S16384x1, .f32⟩ : BufTy).Contents (Elt F) := (broadcastInDim S16384x1 ![0, 1] bcast_S1x1_S16384x1_0_1 : (⟨S1x1, .f32⟩ : BufTy).Contents (Elt F) → (⟨S16384x1, .f32⟩ : BufTy).Contents (Elt F)) v177
  let v179 : (⟨S16384x1, .f32⟩ : BufTy).Contents (Elt F) := (addf : (⟨S16384x1, .f32⟩ : BufTy).Contents (Elt F) → (⟨S16384x1, .f32⟩ : BufTy).Contents (Elt F) → (⟨S16384x1, .f32⟩ : BufTy).Contents (Elt F)) v176 v178
  let v180 : (⟨S16384, .f32⟩ : BufTy).Contents (Elt F) := shapeCast _ v179 shapeCasts_S16384x1_S16384
  let v181 : (⟨S16384x1, .f32⟩ : BufTy).Contents (Elt F) := ((fun l r => Host.dotGeneral dot_S16384x32_S32x1_S16384x1_1_0_0_1_n_n none l r) : (⟨S16384x32, .f32⟩ : BufTy).Contents (Elt F) → (⟨S32x1, .f32⟩ : BufTy).Contents (Elt F) → (⟨S16384x1, .f32⟩ : BufTy).Contents (Elt F)) v103 a18
  let v182 : (⟨S1x1, .f32⟩ : BufTy).Contents (Elt F) := (broadcastInDim S1x1 ![1] bcast_S1_S1x1_1 : (⟨S1, .f32⟩ : BufTy).Contents (Elt F) → (⟨S1x1, .f32⟩ : BufTy).Contents (Elt F)) a19
  let v183 : (⟨S16384x1, .f32⟩ : BufTy).Contents (Elt F) := (broadcastInDim S16384x1 ![0, 1] bcast_S1x1_S16384x1_0_1 : (⟨S1x1, .f32⟩ : BufTy).Contents (Elt F) → (⟨S16384x1, .f32⟩ : BufTy).Contents (Elt F)) v182
  let v184 : (⟨S16384x1, .f32⟩ : BufTy).Contents (Elt F) := (addf : (⟨S16384x1, .f32⟩ : BufTy).Contents (Elt F) → (⟨S16384x1, .f32⟩ : BufTy).Contents (Elt F) → (⟨S16384x1, .f32⟩ : BufTy).Contents (Elt F)) v181 v183
  let v185 : (⟨S16384, .f32⟩ : BufTy).Contents (Elt F) := shapeCast _ v184 shapeCasts_S16384x1_S16384
  let v186 : (⟨S16384x1, .f32⟩ : BufTy).Contents (Elt F) := ((fun l r => Host.dotGeneral dot_S16384x32_S32x1_S16384x1_1_0_0_1_n_n none l r) : (⟨S16384x32, .f32⟩ : BufTy).Contents (Elt F) → (⟨S32x1, .f32⟩ : BufTy).Contents (Elt F) → (⟨S16384x1, .f32⟩ : BufTy).Contents (Elt F)) v175 a20
  let v187 : (⟨S1x1, .f32⟩ : BufTy).Contents (Elt F) := (broadcastInDim S1x1 ![1] bcast_S1_S1x1_1 : (⟨S1, .f32⟩ : BufTy).Contents (Elt F) → (⟨S1x1, .f32⟩ : BufTy).Contents (Elt F)) a21
  let v188 : (⟨S16384x1, .f32⟩ : BufTy).Contents (Elt F) := (broadcastInDim S16384x1 ![0, 1] bcast_S1x1_S16384x1_0_1 : (⟨S1x1, .f32⟩ : BufTy).Contents (Elt F) → (⟨S16384x1, .f32⟩ : BufTy).Contents (Elt F)) v187
  let v189 : (⟨S16384x1, .f32⟩ : BufTy).Contents (Elt F) := (addf : (⟨S16384x1, .f32⟩ : BufTy).Contents (Elt F) → (⟨S16384x1, .f32⟩ : BufTy).Contents (Elt F) → (⟨S16384x1, .f32⟩ : BufTy).Contents (Elt F)) v186 v188
  let v190 : (⟨S16384, .f32⟩ : BufTy).Contents (Elt F) := shapeCast _ v189 shapeCasts_S16384x1_S16384
  let v191 : (⟨S16384, .f32⟩ : BufTy).Contents (Elt F) := (addf : (⟨S16384, .f32⟩ : BufTy).Contents (Elt F) → (⟨S16384, .f32⟩ : BufTy).Contents (Elt F) → (⟨S16384, .f32⟩ : BufTy).Contents (Elt F)) v180 v185
  let v192 : (⟨S16384, .f32⟩ : BufTy).Contents (Elt F) := (addf : (⟨S16384, .f32⟩ : BufTy).Contents (Elt F) → (⟨S16384, .f32⟩ : BufTy).Contents (Elt F) → (⟨S16384, .f32⟩ : BufTy).Contents (Elt F)) v191 v190
  v192

/-- The whole computation as one function of the 22 arguments. -/
noncomputable def G (a0 : (⟨S16384x2, .f32⟩ : BufTy).Contents (Elt F)) (a1 : (⟨S16384x2048, .f32⟩ : BufTy).Contents (Elt F)) (a2 : (⟨S16384x512, .f32⟩ : BufTy).Contents (Elt F)) (a3 : (⟨S2x131072, .i32⟩ : BufTy).Contents (Elt F)) (a4 : (⟨S2x131072, .i32⟩ : BufTy).Contents (Elt F)) (a5 : (⟨S2x32, .f32⟩ : BufTy).Contents (Elt F)) (a6 : (⟨S32, .f32⟩ : BufTy).Contents (Elt F)) (a7 : (⟨S32, .f32⟩ : BufTy).Contents (Elt F)) (a8 : (⟨S32, .f32⟩ : BufTy).Contents (Elt F)) (a9 : (⟨S_, .f32⟩ : BufTy).Contents (Elt F)) (a10 : (⟨S32x32, .f32⟩ : BufTy).Contents (Elt F)) (a11 : (⟨S32, .f32⟩ : BufTy).Contents (Elt F)) (a12 : (⟨S32x1, .f32⟩ : BufTy).Contents (Elt F)) (a13 : (⟨S1, .f32⟩ : BufTy).Contents (Elt F)) (a14 : (⟨S32x32, .f32⟩ : BufTy).Contents (Elt F)) (a15 : (⟨S32, .f32⟩ : BufTy).Contents (Elt F)) (a16 : (⟨S32x32, .f32⟩ : BufTy).Contents (Elt F)) (a17 : (⟨S32, .f32⟩ : BufTy).Contents (Elt F)) (a18 : (⟨S32x1, .f32⟩ : BufTy).Contents (Elt F)) (a19 : (⟨S1, .f32⟩ : BufTy).Contents (Elt F)) (a20 : (⟨S32x1, .f32⟩ : BufTy).Contents (Elt F)) (a21 : (⟨S1, .f32⟩ : BufTy).Contents (Elt F)) :
    (⟨S16384, .f32⟩ : BufTy).Contents (Elt F) :=
  let emb := enc a0 a5 a6 a7 a8 a9 a10 a11
  let aggb := agg emb (srcOf a3) (dstOf a3) (sim2048 (fn2048 a1 (inv2048 a1)) (srcOf a3) (dstOf a3))
  let aggf := agg emb (srcOf a4) (dstOf a4) (sim512 (fn512 a2 (inv512 a2)) (srcOf a4) (dstOf a4))
  head emb aggb aggf a12 a13 a14 a15 a16 a17 a18 a19 a20 a21

end Cert.Spec

end
-- ==== Proof.SimValue.lean ====
/-
  The edge-row readings and the normalised aggregation are the same operations in both programs, written over two
  copies of the same shapes and dimension records: the kernel program's stage functions are the reference's.
-/
import proofs.«416178_j39376260169848_1_alg».proof.Proof.KSpec
import proofs.«416178_j39376260169848_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.SimValue

open Idealize.ShloMosaic Idealize.SL.Sem

/-- The edge rows are read by the same operations in both programs. -/
theorem srcOf_eq (a3 : IVec Cert.KernelIdeal.S2x131072 32) : Cert.KSpec.srcOf (F := Ideal) a3 = Cert.Spec.srcOf (F := Ideal) a3 := rfl
/-- Likewise the destination row. -/
theorem dstOf_eq (a3 : IVec Cert.KernelIdeal.S2x131072 32) : Cert.KSpec.dstOf (F := Ideal) a3 = Cert.Spec.dstOf (F := Ideal) a3 := rfl
/-- The aggregation is the same operations in both programs. -/
theorem agg_eq (emb : Vec Ideal Cert.KernelIdeal.S16384x32 .f32) (s d : IVec Cert.KernelIdeal.S131072 32) (w : Vec Ideal Cert.KernelIdeal.S131072 .f32) :
    Cert.KSpec.agg (F := Ideal) emb s d w = Cert.Spec.agg (F := Ideal) emb s d w := rfl
end Cert.SimValue

end
-- ==== Proof.LibRowGather.lean ====
/-
  A row gather read at an element. jnp's `table[idx]` over a rank-2 table `[N, M]` with a vector of `n` row numbers
  lowers to a `stablehlo.gather` whose start indices are the `[n, 1]` column of row numbers, whose operand axis 0 is
  collapsed and start-indexed, whose operand axis 1 is kept whole as the result's offset axis 1, and whose index vector
  sits on axis 1 of the start indices. Result element `(p, q)` is the table at row "start index of `p`, read signed and
  clamped into `[0, N - 1]`" and column `q`.
-/
import Idealize.ShloMosaic.Lib.StableHlo.Predicate

namespace Cert.LibRowGather

open Idealize.ShloMosaic Idealize.ShloMosaic.StableHlo.Predicate

/-- The one entry of a list known to be a singleton. -/
theorem getElem_of_eq_singleton {α : Type} {L : List α} {x : α} (h : L = [x]) (k : Nat) (hk : k < L.length) : L[k] = x := by
  subst h
  have hk0 : k = 0 := by simpa using hk
  subst hk0
  rfl

section
variable {α : Type} {N M n w : Nat} (d : GatherDims ⟨2, ![N, M]⟩ ⟨2, ![n, 1]⟩ ⟨2, ![n, M]⟩)
  (hoff : d.offsetDims = [1]) (hcoll : d.collapsedSliceDims = [0]) (hob : d.operandBatchingDims = [])
  (hsim : d.startIndexMap = [0]) (hivd : d.indexVectorDim = 1)
include hoff hcoll hob hsim hivd

/-- The start-indices entry that result row `p` reads its row number from is entry `(p, 0)`. -/
theorem siIdx_row (p : Fin n) (q : Fin M) (c : Fin d.startIndexMap.length) : d.siIdx (ij p q) c = ixP p := by
  have hc : c.val = 0 := by
    have hlen : d.startIndexMap.length = 1 := by rw [hsim]; rfl
    have := c.isLt
    omega
  funext b
  match b with
  | ⟨0, _⟩ =>
    unfold GatherDims.siIdx
    rw [dif_neg (by rw [hivd]; simp)]
    unfold GatherDims.siCoord
    apply Fin.ext
    simp only [Fin.val_cast]
    have hbd : d.batchDims = [0] := by
      show (⟨2, ![n, M]⟩ : Shape).kept d.offsetDims = [0]
      rw [hoff]; rfl
    rw [getElem_of_eq_singleton hbd]
    rfl
  | ⟨1, _⟩ =>
    unfold GatherDims.siIdx
    rw [dif_pos (by rw [hivd])]
    apply Fin.ext
    exact hc

/-- On the table's row axis the operand index is the clamped start index. -/
theorem operandIdx_row (idx : IVec ⟨2, ![n, 1]⟩ w) (p : Fin n) (q : Fin M) :
    (d.operandIdx (ij p q) idx 0).val = min (idx (ixP p)).toInt.toNat (N - 1) := by
  have hb : (0 : Fin 2) ∉ d.operandBatchingDims := by rw [hob]; exact List.not_mem_nil
  have hk : (0 : Fin 2) ∉ d.sKept := by rw [GatherDims.mem_sKept, hcoll]; simp
  have hm : (0 : Fin 2) ∈ d.startIndexMap := by rw [hsim]; exact List.mem_singleton.mpr rfl
  have hsl : d.sliceSizes 0 = 1 := d.slice_collapsed 0 (by rw [hcoll]; exact List.mem_singleton.mpr rfl)
  simp only [GatherDims.operandIdx, GatherDims.batchCoord_eq_zero _ _ _ hb, GatherDims.offCoord_eq_zero _ _ _ hk,
    Nat.add_zero, GatherDims.start, dif_pos hm]
  rw [siIdx_row d hoff hcoll hob hsim hivd p q, hsl]
  rfl

/-- On the table's column axis the operand index is the result's column. -/
theorem operandIdx_col (idx : IVec ⟨2, ![n, 1]⟩ w) (p : Fin n) (q : Fin M) :
    (d.operandIdx (ij p q) idx 1).val = q.val := by
  have hb : (1 : Fin 2) ∉ d.operandBatchingDims := by rw [hob]; exact List.not_mem_nil
  have hm : (1 : Fin 2) ∉ d.startIndexMap := by rw [hsim]; simp
  have hk : (1 : Fin 2) ∈ d.sKept := by rw [GatherDims.mem_sKept, hcoll, hob]; simp
  simp only [GatherDims.operandIdx, GatherDims.batchCoord_eq_zero _ _ _ hb, Nat.add_zero, GatherDims.start, dif_neg hm,
    Nat.zero_add, GatherDims.offCoord, dif_pos hk]
  rw [getElem_of_eq_singleton hoff]
  rfl

/-- THE ROW GATHER at `(p, q)`: the table at the clamped row number of `p` and at column `q`. -/
theorem gather_rows (x : (⟨2, ![N, M]⟩ : Shape).Idx → α) (idx : IVec ⟨2, ![n, 1]⟩ w) (p : Fin n) (q : Fin M) (hN : 0 < N) :
    Host.gather d x idx (ij p q) = x (ij ⟨min (idx (ixP p)).toInt.toNat (N - 1), by omega⟩ q) := by
  unfold Host.gather
  congr 1
  funext a
  match a with
  | ⟨0, _⟩ => exact Fin.ext (operandIdx_row d hoff hcoll hob hsim hivd idx p q)
  | ⟨1, _⟩ => exact Fin.ext (operandIdx_col d hoff hcoll hob hsim hivd idx p q)

end

end Cert.LibRowGather
-- ==== Proof.SimGather.lean ====
/-
  Scaling before or after a row gather. A gathered row of (a table scaled row-wise by a column) is the gathered row of
  the table scaled by the gathered entry of the column, the two gathers clamping the same signed row number into the
  same range: so the per-edge cosine weights formed by gathering the feature rows and the inverse norms and scaling
  afterwards are those formed by scaling the whole table first.
-/
import proofs.«416178_j39376260169848_1_alg».proof.Proof.KSpec
import proofs.«416178_j39376260169848_1_alg».proof.Proof.Spec
import proofs.«416178_j39376260169848_1_alg».proof.Proof.LibRowGather
import Idealize.ShloMosaic.Lib.Pipeline.Value

set_option maxRecDepth 16384

noncomputable section

namespace Cert.SimGather

open Idealize.ShloMosaic Idealize.ShloMosaic.StableHlo.Predicate

variable {F : FTy → Type} [FloatOps F]

/-- A column entry's index, written either way. -/
theorem ixP_eq_ij {n : Nat} (p : Fin n) : (ixP p : (⟨2, ![n, 1]⟩ : Shape).Idx) = ij p (0 : Fin 1) := by
  funext b
  match b with
  | ⟨0, _⟩ => rfl
  | ⟨1, _⟩ => rfl

/-- A column `[a, 1]` broadcast along rows to `[a, b]`, read at `(p, q)`, is the column's entry `p`. -/
theorem bcast_col_apply {α : Type} {a b : Nat} (ha : a ≠ 1) (h : (⟨2, ![a, 1]⟩ : Shape).BroadcastsInDim ⟨2, ![a, b]⟩ ![0, 1])
    (v : (⟨2, ![a, 1]⟩ : Shape).Idx → α) (p : Fin a) (q : Fin b) :
    broadcastInDim ⟨2, ![a, b]⟩ ![0, 1] h v (ij p q) = v (ij p (0 : Fin 1)) := by
  refine broadcastInDim_apply ![0, 1] h v (ij p q) (ij p (0 : Fin 1)) fun x => ?_
  match x with
  | ⟨0, _⟩ => show p.val = if a = 1 then 0 else p.val; rw [if_neg ha]
  | ⟨1, _⟩ => rfl

section
variable {φ : FTy} {N M n w : Nat}
  (dT dT' : GatherDims ⟨2, ![N, M]⟩ ⟨2, ![n, 1]⟩ ⟨2, ![n, M]⟩) (dC : GatherDims ⟨2, ![N, 1]⟩ ⟨2, ![n, 1]⟩ ⟨2, ![n, 1]⟩)
  (hT : dT.offsetDims = [1] ∧ dT.collapsedSliceDims = [0] ∧ dT.operandBatchingDims = [] ∧ dT.startIndexMap = [0] ∧ dT.indexVectorDim = 1)
  (hT' : dT'.offsetDims = [1] ∧ dT'.collapsedSliceDims = [0] ∧ dT'.operandBatchingDims = [] ∧ dT'.startIndexMap = [0] ∧ dT'.indexVectorDim = 1)
  (hC : dC.offsetDims = [1] ∧ dC.collapsedSliceDims = [0] ∧ dC.operandBatchingDims = [] ∧ dC.startIndexMap = [0] ∧ dC.indexVectorDim = 1)
include hT hT' hC

/-- GATHER THEN SCALE IS SCALE THEN GATHER: rows of `feats` and entries of the column `inv` gathered at the same
    row numbers, the rows then scaled by the entries, are the rows of the row-wise scaled table gathered. -/
theorem gather_scale (hN : 1 < N) (hn : n ≠ 1)
    (hb : (⟨2, ![n, 1]⟩ : Shape).BroadcastsInDim ⟨2, ![n, M]⟩ ![0, 1]) (hb' : (⟨2, ![N, 1]⟩ : Shape).BroadcastsInDim ⟨2, ![N, M]⟩ ![0, 1])
    (feats : FVec F ⟨2, ![N, M]⟩ φ) (inv : FVec F ⟨2, ![N, 1]⟩ φ) (col : IVec ⟨2, ![n, 1]⟩ w) :
    mulf (Host.gather dT feats col) (broadcastInDim ⟨2, ![n, M]⟩ ![0, 1] hb (Host.gather dC inv col))
      = Host.gather dT' (mulf feats (broadcastInDim ⟨2, ![N, M]⟩ ![0, 1] hb' inv)) col := by
  obtain ⟨t1, t2, t3, t4, t5⟩ := hT
  obtain ⟨u1, u2, u3, u4, u5⟩ := hT'
  obtain ⟨c1, c2, c3, c4, c5⟩ := hC
  funext i
  obtain ⟨p, q, rfl⟩ : ∃ (p : Fin n) (q : Fin M), i = ij p q := ⟨i 0, i 1, (ij_eta i).symm⟩
  show FloatOps.mulf (Host.gather dT feats col (ij p q))
      (broadcastInDim ⟨2, ![n, M]⟩ ![0, 1] hb (Host.gather dC inv col) (ij p q)) = _
  rw [bcast_col_apply hn hb, Cert.LibRowGather.gather_rows dT t1 t2 t3 t4 t5 feats col p q (by omega),
    Cert.LibRowGather.gather_rows dC c1 c2 c3 c4 c5 inv col p (0 : Fin 1) (by omega),
    Cert.LibRowGather.gather_rows dT' u1 u2 u3 u4 u5 _ col p q (by omega)]
  show _ = FloatOps.mulf (feats (ij _ q)) (broadcastInDim ⟨2, ![N, M]⟩ ![0, 1] hb' inv (ij _ q))
  rw [bcast_col_apply (by omega) hb']

end

/-! ## The two tables of this program -/

theorem scaled2048 (feats : FVec F Cert.KernelIdeal.S16384x2048 .f32) (inv : FVec F Cert.KernelIdeal.S16384x1 .f32) (col : IVec Cert.KernelIdeal.S131072x1 32) :
    mulf (Host.gather Cert.KernelIdeal.gather_S16384x2048_S131072x1_S131072x2048_1_0_n_n_0_1_12048 feats col)
        (broadcastInDim Cert.KernelIdeal.S131072x2048 ![0, 1] Cert.KernelIdeal.Facts₀.bcast_S131072x1_S131072x2048_0_1
          (Host.gather Cert.KernelIdeal.gather_S16384x1_S131072x1_S131072x1_1_0_n_n_0_1_11 inv col))
      = Host.gather Cert.ReferenceIdeal.gather_S16384x2048_S131072x1_S131072x2048_1_0_n_n_0_1_12048
          (mulf feats (broadcastInDim Cert.ReferenceIdeal.S16384x2048 ![0, 1] Cert.ReferenceIdeal.Facts₀.bcast_S16384x1_S16384x2048_0_1 inv)) col :=
  gather_scale _ _ _ ⟨rfl, rfl, rfl, rfl, rfl⟩ ⟨rfl, rfl, rfl, rfl, rfl⟩ ⟨rfl, rfl, rfl, rfl, rfl⟩ (by decide) (by decide) _ _ feats inv col

theorem scaled512 (feats : FVec F Cert.KernelIdeal.S16384x512 .f32) (inv : FVec F Cert.KernelIdeal.S16384x1 .f32) (col : IVec Cert.KernelIdeal.S131072x1 32) :
    mulf (Host.gather Cert.KernelIdeal.gather_S16384x512_S131072x1_S131072x512_1_0_n_n_0_1_1512 feats col)
        (broadcastInDim Cert.KernelIdeal.S131072x512 ![0, 1] Cert.KernelIdeal.Facts₀.bcast_S131072x1_S131072x512_0_1
          (Host.gather Cert.KernelIdeal.gather_S16384x1_S131072x1_S131072x1_1_0_n_n_0_1_11 inv col))
      = Host.gather Cert.ReferenceIdeal.gather_S16384x512_S131072x1_S131072x512_1_0_n_n_0_1_1512
          (mulf feats (broadcastInDim Cert.ReferenceIdeal.S16384x512 ![0, 1] Cert.ReferenceIdeal.Facts₀.bcast_S16384x1_S16384x512_0_1 inv)) col :=
  gather_scale _ _ _ ⟨rfl, rfl, rfl, rfl, rfl⟩ ⟨rfl, rfl, rfl, rfl, rfl⟩ ⟨rfl, rfl, rfl, rfl, rfl⟩ (by decide) (by decide) _ _ feats inv col

/-- The kernel program's per-edge weights over the 2048-wide table are the reference's over the scaled table. -/
theorem sim2048_eq (feats : FVec F Cert.KernelIdeal.S16384x2048 .f32) (inv : FVec F Cert.KernelIdeal.S16384x1 .f32) (s d : IVec Cert.KernelIdeal.S131072 32) :
    Cert.KSpec.sim2048 feats inv s d = Cert.Spec.sim2048 (Cert.Spec.fn2048 feats inv) s d := by
  unfold Cert.KSpec.sim2048 Cert.Spec.sim2048 Cert.Spec.fn2048
  dsimp only
  rw [scaled2048, scaled2048]

/-- The same over the 512-wide table. -/
theorem sim512_eq (feats : FVec F Cert.KernelIdeal.S16384x512 .f32) (inv : FVec F Cert.KernelIdeal.S16384x1 .f32) (s d : IVec Cert.KernelIdeal.S131072 32) :
    Cert.KSpec.sim512 feats inv s d = Cert.Spec.sim512 (Cert.Spec.fn512 feats inv) s d := by
  unfold Cert.KSpec.sim512 Cert.Spec.sim512 Cert.Spec.fn512
  dsimp only
  rw [scaled512, scaled512]

end Cert.SimGather

end
-- ==== Proof.LibPlainDot.lean ====
/-
  A plain matrix product read at an element, on the extended reals.

  For the dimension numbers of a plain product — `[M, K]` by `[K, N]`, the left operand's axis 1 contracted with the
  right operand's axis 0, no batch axes — the operand indices at output element `(a, b)` and contraction coordinate
  `k` are `(a, k)` and `(k, b)`. So a product accumulated into the zero splat is, at `(a, b)`, the plain sum
  `∑ k : Fin K, lhs (a, k) * rhs (k, b)`, and so is the host's `dot_general`.
-/
import Idealize.ShloMosaic.PureOps.Ideal.Laws
import Idealize.ShloMosaic.Lib.ValueIdx

noncomputable section

open scoped BigOperators

namespace Cert.Lib

open Idealize.ShloMosaic Idealize.ShloMosaic.ValueIdx

/-- The dimension numbers of a plain product `[M, K] × [K, N] → [M, N]`: `lhs_contracting = [1]`,
    `rhs_contracting = [0]`, the other axes the result's, no batch axes. At a printed record every field is `rfl`. -/
structure PlainDot {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {M K N : Nat} {d : DotDims ⟨2, ![M, K]⟩ ⟨2, ![K, N]⟩ ⟨2, ![M, N]⟩}

/-- A plain product contracts one axis. -/
theorem PlainDot.rank_contr (hd : PlainDot d) : d.contr.rank = 1 := by
  rw [d.rank_contr, hd.lc]; rfl

/-- The contracted axis has extent `K`. -/
theorem PlainDot.size_contr (hd : PlainDot d) : d.contr.size ⟨0, by rw [hd.rank_contr]; exact Nat.one_pos⟩ = K := by
  obtain ⟨h1, h2, h3, h4, h5, h6⟩ := hd
  obtain ⟨lc, rc, ln, rn, lb, rb, wf⟩ := d
  simp only at h1 h2 h3 h4 h5 h6
  subst h1 h2 h3 h4 h5 h6
  rfl

/-- The left operand's row is the output's row. -/
theorem PlainDot.lhs0 (hd : PlainDot d) (i : (⟨2, ![M, N]⟩ : Shape).Idx) (q : d.contr.Idx) :
    (d.lhsIdx i q 0).val = (i 0).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.lhsIdx
  rw [dif_neg (by simp), dif_pos (by simp)]
  rfl

/-- The left operand's column is the contraction coordinate. -/
theorem PlainDot.lhs1 (hd : PlainDot d) (i : (⟨2, ![M, N]⟩ : Shape).Idx) (q : d.contr.Idx) :
    (d.lhsIdx i q 1).val = (q ⟨0, by rw [hd.rank_contr]; exact Nat.one_pos⟩).val :=
  d.lhsIdx_val_of_single hd.lc i q

/-- The right operand's row is the contraction coordinate. -/
theorem PlainDot.rhs0 (hd : PlainDot d) (i : (⟨2, ![M, N]⟩ : Shape).Idx) (q : d.contr.Idx) :
    (d.rhsIdx i q 0).val = (q ⟨0, by rw [hd.rank_contr]; exact Nat.one_pos⟩).val :=
  d.rhsIdx_val_of_single hd.rc i q

/-- The right operand's column is the output's column. -/
theorem PlainDot.rhs1 (hd : PlainDot d) (i : (⟨2, ![M, N]⟩ : Shape).Idx) (q : d.contr.Idx) :
    (d.rhsIdx i q 1).val = (i 1).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.rhsIdx
  rw [dif_neg (by simp), dif_pos (by simp)]
  rfl

/-- The contraction of a plain product, re-indexed by the contracted coordinate: at output element `(a, b)` it is
    `∑ k : Fin K, lhs (a, k) * rhs (k, b)`. -/
theorem PlainDot.sum_contr (hd : PlainDot d) (lhs : (⟨2, ![M, K]⟩ : Shape).Idx → EReal)
    (rhs : (⟨2, ![K, N]⟩ : Shape).Idx → EReal) (a : Fin M) (b : Fin N) :
    ∑ q : d.contr.Idx, lhs (d.lhsIdx (ix2 a b) q) * rhs (d.rhsIdx (ix2 a b) q)
      = ∑ k : Fin K, lhs (ix2 a k) * rhs (ix2 k b) := by
  rw [← Equiv.sum_comp (contrEquiv1 d K hd.rank_contr hd.size_contr).symm]
  refine Finset.sum_congr rfl fun k _ => ?_
  have hk := contrEquiv1_symm_val d K hd.rank_contr hd.size_contr k
  have el : d.lhsIdx (ix2 a b) ((contrEquiv1 d K hd.rank_contr hd.size_contr).symm k) = ix2 a k :=
    funext fun x => Fin.ext (by
      match x with
      | ⟨0, _⟩ => exact hd.lhs0 _ _
      | ⟨1, _⟩ => exact (hd.lhs1 _ _).trans hk)
  have er : d.rhsIdx (ix2 a b) ((contrEquiv1 d K hd.rank_contr hd.size_contr).symm k) = ix2 k b :=
    funext fun x => Fin.ext (by
      match x with
      | ⟨0, _⟩ => exact (hd.rhs0 _ _).trans hk
      | ⟨1, _⟩ => exact hd.rhs1 _ _)
  rw [el, er]

/-- A plain product accumulated into the zero splat, at element `(a, b)`: `∑ k, lhs (a, k) * rhs (k, b)`. -/
theorem PlainDot.matmul_zero_apply (hd : PlainDot d) {φ₁ φ₂ : FTy} (prec : Option ContractPrecision)
    (lhs : FVec Ideal ⟨2, ![M, K]⟩ φ₁) (rhs : FVec Ideal ⟨2, ![K, N]⟩ φ₂) (a : Fin M) (b : Fin N) :
    FloatOps.matmul d prec lhs rhs (constant ⟨2, ![M, N]⟩ .f32 0x00000000#32) (ix2 a b)
      = ∑ k : Fin K, lhs (ix2 a k) * rhs (ix2 k b) :=
  (Ideal.matmul_constant_zero_apply d prec lhs rhs (ix2 a b)).trans (hd.sum_contr lhs rhs a b)

/-- The host's plain `dot_general` at element `(a, b)`: the same sum. -/
theorem PlainDot.dotGeneral_apply (hd : PlainDot d) {φ₁ φ₂ : FTy} (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) :=
  (Ideal.dotGeneral_apply d prec sched lhs rhs (ix2 a b)).trans (hd.sum_contr lhs rhs a b)

end Cert.Lib

end
-- ==== Proof.EncValue.lean ====
/-
  The encoder region's stored block IS the encoder of the specification, at the extended reals: the kernel's matrix
  products into a zero accumulator are the host's contractions, its column reductions the host's sums over the node
  axis, and every other operation is the same pointwise operation on both sides.

  Both sides are read entry by entry against ONE explicit function `E` of the argument arrays: the first linear layer
  `lin`, its deviation `dev` from the feature's mean over the 16384 nodes, the normalisation `bn` by the reciprocal
  root of the mean squared deviation, the parametric rectifier `act`, and the second linear layer. The kernel keeps
  each per-feature statistic as a `[1, 32]` row and broadcasts it down the nodes; the specification keeps it as a
  `[32]` vector and broadcasts that along axis 1; at an entry `(r, j)` both read the statistic of feature `j`. The
  specification's variance divides by the node count less zero and guards the quotient by "that divisor is positive":
  the divisor is the node count, 16384, which is positive, so the guard takes the quotient.
-/
import proofs.«416178_j39376260169848_1_alg».proof.Proof.Gen.KernelIdeal.Frame
import proofs.«416178_j39376260169848_1_alg».proof.Proof.Spec
import proofs.«416178_j39376260169848_1_alg».proof.Proof.LibPlainDot
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

set_option maxRecDepth 16384

noncomputable section

namespace Cert.EncValue

open Idealize.ShloMosaic Idealize.SL.Sem Idealize.ShloMosaic.ValueIdx

open scoped BigOperators

/-! ## Layout and reduction readings -/

/-- A whole-array rectangle of a matrix starts at the origin. -/
theorem hz2 : (![0, 0] : Fin 2 → Nat) = fun _ => 0 := funext fun a => by fin_cases a <;> rfl
/-- A whole-array rectangle of a vector starts at the origin. -/
theorem hz1 : (![0] : Fin 1 → Nat) = fun _ => 0 := funext fun a => by fin_cases a; rfl

variable {α : Type}

/-- Along the first axis of `[a, b]`, the source index over column `c` with coordinate `k` inserted is `(k, c)`. -/
theorem lift_col {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- A sum down the columns of a matrix of extended reals, at column `c`: the finite sum of that column's entries. -/
theorem colSum_apply {a b : ℕ} (src : FVec Ideal ⟨2, ![a, b]⟩ .f32)
    (h : (⟨2, ![a, b]⟩ : Shape).Reduces [0] (⟨1, ![b]⟩ : Shape)) (hφ : FKind.Formats .f32)
    (hacc : (0x00000000#32 : BitVec 32) = 0x00000000#32) (c : Fin b) :
    multiReduction .add [0] ⟨1, ![b]⟩ src 0x00000000#32 h hφ hacc (ix1 c) = ∑ r : Fin a, src (ix2 r c) := by
  refine (Ideal.multiReduction_add_single src 0x00000000#32 h hφ hacc (ix1 c)).trans ?_
  exact Finset.sum_congr rfl fun k _ => congrArg src (lift_col h c k)

/-- The host's sum down the columns, at column `c`: the initial value plus the finite sum of that column's entries. -/
theorem hostColSum_apply {a b : ℕ} {u : Shape} (x : FVec Ideal ⟨2, ![a, b]⟩ .f32) (init : u.Idx → Ideal .f32)
    (h' : (⟨2, ![a, b]⟩ : Shape).ReducesTo [0] (⟨1, ![b]⟩ : Shape)) (h : (⟨2, ![a, b]⟩ : Shape).Reduces [0] (⟨1, ![b]⟩ : Shape))
    (hu : 0 < u.numel) (c : Fin b) :
    Host.reduceAdd x init h' hu (ix1 c) = init (Shape.Idx.first hu) + ∑ r : Fin a, x (ix2 r c) := by
  refine (hostReduceAdd_apply x init h' hu (ix1 c)).trans ?_
  rw [Ideal.hostReduceAdd_single h' h]
  exact congrArg (init (Shape.Idx.first hu) + ·) (Finset.sum_congr rfl fun k _ => congrArg x (lift_col h c k))

/-- A vector `[n]` broadcast along axis 1 of `[m, n]` reads, at `(r, t)`, the vector at `t`. -/
theorem broadcastInDim_vec_apply {m n : ℕ} (hd : (⟨1, ![n]⟩ : Shape).BroadcastsInDim ⟨2, ![m, n]⟩ ![1])
    (x : (⟨1, ![n]⟩ : Shape).Idx → α) (r : Fin m) (t : Fin n) :
    broadcastInDim ⟨2, ![m, n]⟩ ![1] hd x (ix2 r t) = x (ix1 t) := by
  refine broadcastInDim_apply ![1] hd x (ix2 r t) (ix1 t) fun a => ?_
  match a with
  | ⟨0, _⟩ =>
    show t.val = if n = 1 then 0 else t.val
    split
    · have := t.isLt; omega
    · rfl

/-- A `[1, 1]` array broadcast to `[a, b]` reads its one entry everywhere. -/
theorem broadcastTo_11_ab_apply {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- The reciprocal square root of a vector, at an index. -/
theorem rsqrt_apply {s : Shape} {φ : FTy} (v : FVec Ideal s φ) (i : s.Idx) : rsqrt v i = Ideal.rsqrt (v i) := rfl
/-- The host's reciprocal square root of a vector, at an index. -/
theorem hostRsqrt_apply {s : Shape} {φ : FTy} (v : FVec Ideal s φ) (i : s.Idx) : Host.rsqrt v i = Ideal.rsqrt (v i) := rfl

/-! ## The encoder, entry by entry -/

/-- The first linear layer at node `r`, feature `j`: the two input features against column `j` of the weights, plus the bias. -/
def lin (x0 : FVec Ideal ⟨2, ![16384, 2]⟩ .f32) (x1 : FVec Ideal ⟨2, ![2, 32]⟩ .f32) (x2 : FVec Ideal ⟨1, ![32]⟩ .f32)
    (r : Fin 16384) (j : Fin 32) : EReal :=
  (∑ k : Fin 2, x0 (ix2 r k) * x1 (ix2 k j)) + x2 (ix1 j)

/-- The mean of feature `j` of a node table over the 16384 nodes. -/
def colMean (f : Fin 16384 → Fin 32 → EReal) (j : Fin 32) : EReal :=
  Ideal.div (∑ r : Fin 16384, f r j) (Ideal.ofBits .f32 0x46800000#32)

/-- The deviation of the first layer from its feature's mean. -/
def dev (x0 : FVec Ideal ⟨2, ![16384, 2]⟩ .f32) (x1 : FVec Ideal ⟨2, ![2, 32]⟩ .f32) (x2 : FVec Ideal ⟨1, ![32]⟩ .f32)
    (r : Fin 16384) (j : Fin 32) : EReal :=
  lin x0 x1 x2 r j - colMean (lin x0 x1 x2) j

/-- The batch normalisation: the deviation times the reciprocal root of (the mean squared deviation + 1e-5), scaled and shifted. -/
def bn (x0 : FVec Ideal ⟨2, ![16384, 2]⟩ .f32) (x1 : FVec Ideal ⟨2, ![2, 32]⟩ .f32) (x2 x3 x4 : FVec Ideal ⟨1, ![32]⟩ .f32)
    (r : Fin 16384) (j : Fin 32) : EReal :=
  dev x0 x1 x2 r j
      * Ideal.rsqrt (colMean (fun r' j' => dev x0 x1 x2 r' j' * dev x0 x1 x2 r' j') j + Ideal.ofBits .f32 0x3727C5AC#32)
      * x3 (ix1 j)
    + x4 (ix1 j)

/-- The parametric rectifier with slope `a`. -/
def act (a : EReal) (x0 : FVec Ideal ⟨2, ![16384, 2]⟩ .f32) (x1 : FVec Ideal ⟨2, ![2, 32]⟩ .f32) (x2 x3 x4 : FVec Ideal ⟨1, ![32]⟩ .f32)
    (r : Fin 16384) (j : Fin 32) : EReal :=
  Scalar.select (Ideal.cmp .ogt (bn x0 x1 x2 x3 x4 r j) (Ideal.ofBits .f32 0x00000000#32))
    (bn x0 x1 x2 x3 x4 r j) (a * bn x0 x1 x2 x3 x4 r j)

/-- The node embedding at node `r`, feature `j`: the second linear layer on the rectified normalised features. -/
def E (a : EReal) (x0 : FVec Ideal ⟨2, ![16384, 2]⟩ .f32) (x1 : FVec Ideal ⟨2, ![2, 32]⟩ .f32) (x2 x3 x4 : FVec Ideal ⟨1, ![32]⟩ .f32)
    (x6 : FVec Ideal ⟨2, ![32, 32]⟩ .f32) (x7 : FVec Ideal ⟨1, ![32]⟩ .f32) (r : Fin 16384) (j : Fin 32) : EReal :=
  (∑ k : Fin 32, act a x0 x1 x2 x3 x4 r k * x6 (ix2 k j)) + x7 (ix1 j)

/-! ## The kernel's payload at an entry -/

/-- The kernel's two products are plain matrix products. -/
theorem plain1 : Cert.Lib.PlainDot Cert.KernelIdeal.dot_S16384x2_S2x32_S16384x32_1_0_0_1_n_n := ⟨rfl, rfl, rfl, rfl, rfl, rfl⟩
theorem plain2 : Cert.Lib.PlainDot Cert.KernelIdeal.dot_S16384x32_S32x32_S16384x32_1_0_0_1_n_n := ⟨rfl, rfl, rfl, rfl, rfl, rfl⟩

/-- The kernel's payload at entry `(p, q)` is `E` there, with the slope the one entry of the slope vector: every
    operation read at the entry, the products as finite sums over the contracted axis, the column reductions as finite
    sums over the nodes, each `[1, 32]` row and the `[1, 1]` slope read where the broadcast puts them. -/
theorem kernel_apply (x0 : FVec Ideal Cert.KernelIdeal.S16384x2 .f32) (x1 : FVec Ideal Cert.KernelIdeal.S2x32 .f32)
    (x2 x3 x4 : FVec Ideal Cert.KernelIdeal.S32 .f32) (x5 : FVec Ideal Cert.KernelIdeal.S1 .f32)
    (x6 : FVec Ideal Cert.KernelIdeal.S32x32 .f32) (x7 : FVec Ideal Cert.KernelIdeal.S32 .f32) (p : Fin 16384) (q : Fin 32) :
    Cert.KernelIdeal.Gen.k1_pay1 (F := Ideal) (Cert.KernelIdeal.Gen.k1_pay2 x0 x1 x2 x3 x4 x5 x6) x7 (ix2 p q)
      = E (x5 (ix1 (0 : Fin 1))) x0 x1 x2 x3 x4 x6 x7 p q := by
  unfold Cert.KernelIdeal.Gen.k1_pay1 Cert.KernelIdeal.Gen.k1_pay2
  simp only [addf_apply, subf_apply, mulf_apply, divf_apply, rsqrt_apply, select_apply, cmpf_apply, broadcast_apply,
    broadcastTo_1b_ab_apply, broadcastTo_11_ab_apply, shapeCast_a_1a_apply, shapeCast_self, colSum_apply (a := 16384) (b := 32),
    plain1.matmul_zero_apply, plain2.matmul_zero_apply, Ideal.cmpf_def, Ideal.ofBits_def]
  rfl

/-! ## The specification's encoder at an entry -/

/-- The node count's pattern denotes the real 16384. -/
theorem ofBits_nodes : Ideal.ofBits .f32 0x46800000#32 = ((16384 : ℝ) : EReal) := by
  simp [Ideal.ofBits, Ideal.ieee, -EReal.coe_mul]; norm_num

/-- The integer zero converted is the extended real zero. -/
theorem sitofp_zero32 : FloatOps.sitofp (F := Ideal) .f32 (0#32 : BitVec 32) = 0 := by
  show ((((0#32 : BitVec 32).toInt : ℤ) : ℝ) : EReal) = 0
  simp

/-- The variance's divisor, the node count less zero degrees of freedom, is the node count. -/
theorem nodes_sub_zero :
    Ideal.ofBits .f32 0x46800000#32 - FloatOps.sitofp (F := Ideal) .f32 (0#32 : BitVec 32) = Ideal.ofBits .f32 0x46800000#32 := by
  rw [sitofp_zero32, sub_zero]

/-- The node count is positive, so the variance's guard takes the quotient. -/
theorem nodes_pos : Ideal.cmp .ogt (Ideal.ofBits .f32 0x46800000#32) 0 = 1#1 := by
  have h : (0 : EReal) < ((16384 : ℝ) : EReal) := EReal.coe_pos.mpr (by norm_num)
  rw [ofBits_nodes]
  show BitVec.ofBool (decide ((0 : EReal) < ((16384 : ℝ) : EReal))) = 1#1
  rw [decide_eq_true h]; rfl

/-- The specification's two contractions are plain matrix products. -/
theorem plainR1 : Cert.Lib.PlainDot Cert.ReferenceIdeal.dot_S16384x2_S2x32_S16384x32_1_0_0_1_n_n := ⟨rfl, rfl, rfl, rfl, rfl, rfl⟩
theorem plainR2 : Cert.Lib.PlainDot Cert.ReferenceIdeal.dot_S16384x32_S32x32_S16384x32_1_0_0_1_n_n := ⟨rfl, rfl, rfl, rfl, rfl, rfl⟩

/-- The specification's encoder at entry `(p, q)` is `E` there, with the slope the scalar argument: every host
    operation read at the entry, the initial value zero of each sum dropped, the variance's divisor and its guard
    evaluated. -/
theorem spec_apply (x0 : FVec Ideal Cert.ReferenceIdeal.S16384x2 .f32) (x1 : FVec Ideal Cert.ReferenceIdeal.S2x32 .f32)
    (x2 x3 x4 : FVec Ideal Cert.ReferenceIdeal.S32 .f32) (a9 : FVec Ideal Cert.ReferenceIdeal.S_ .f32)
    (x6 : FVec Ideal Cert.ReferenceIdeal.S32x32 .f32) (x7 : FVec Ideal Cert.ReferenceIdeal.S32 .f32) (p : Fin 16384) (q : Fin 32) :
    Cert.Spec.enc (F := Ideal) x0 x1 x2 x3 x4 a9 x6 x7 (ix2 p q) = E (a9 ix0) x0 x1 x2 x3 x4 x6 x7 p q := by
  unfold Cert.Spec.enc
  simp only [addf_apply, subf_apply, mulf_apply, hostDivf_apply, hostRsqrt_apply, select_apply, cmpf_apply, constant_apply,
    constantI_apply, sitofp_apply, id,
    broadcastInDim_oneRow_apply (m := 16384) (n := 32), broadcastInDim_vec_apply (m := 1) (n := 32),
    broadcastInDim_scalar_apply (T := Cert.ReferenceIdeal.S32), broadcastInDim_scalar_apply (T := Cert.ReferenceIdeal.S1x32),
    broadcastInDim_scalar_apply (T := Cert.ReferenceIdeal.S16384x32),
    hostColSum_apply (a := 16384) (b := 32) (h := Cert.KernelIdeal.Facts₀.reduces_S16384x32_S32),
    Host.dotGeneral, plainR1.dotGeneral_apply, plainR2.dotGeneral_apply, Ideal.cmpf_def,
    Ideal.ofBits_zero_f32, zero_add, nodes_sub_zero, nodes_pos, select_one,
    E, act, bn, dev, colMean, lin]

/-- The slope as a one-element vector reads the scalar slope. -/
theorem slope_apply (a9 : Cert.KernelIdeal.S_.Idx → α) (h : Cert.KernelIdeal.S_.ShapeCasts Cert.KernelIdeal.S1) :
    shapeCast Cert.KernelIdeal.S1 a9 h (ix1 (0 : Fin 1)) = a9 ix0 :=
  shapeCast_apply a9 h _ _ (by rfl)

/-- The block region 1 stores, of the blocks it loads (the slope as the one-element vector the program reshapes the
    scalar argument into), is the specification's encoder of the same arrays. -/
theorem enc_eq (x0 : Vec Ideal Cert.KernelIdeal.S16384x2 .f32) (x1 : Vec Ideal Cert.KernelIdeal.S2x32 .f32)
    (x2 x3 x4 : Vec Ideal Cert.KernelIdeal.S32 .f32) (a9 : Vec Ideal Cert.KernelIdeal.S_ .f32)
    (x6 : Vec Ideal Cert.KernelIdeal.S32x32 .f32) (x7 : Vec Ideal Cert.KernelIdeal.S32 .f32) :
    Cert.KernelIdeal.Gen.out1_8 (F := Ideal) x0 x1 x2 x3 x4
        (shapeCast Cert.KernelIdeal.S1 a9 Cert.KernelIdeal.Facts₀.shapeCasts_S_S1) x6 x7
      = Cert.Spec.enc (F := Ideal) x0 x1 x2 x3 x4 a9 x6 x7 := by
  unfold Cert.KernelIdeal.Gen.out1_8
  rw [View.canon_unit_zero hz2]
  simp only [View.ld_unit_zero (S := Cert.KernelIdeal.S16384x2) hz2, View.ld_unit_zero (S := Cert.KernelIdeal.S2x32) hz2,
    View.ld_unit_zero (S := Cert.KernelIdeal.S32x32) hz2, View.ld_unit_zero (S := Cert.KernelIdeal.S32) hz1,
    View.ld_unit_zero (S := Cert.KernelIdeal.S1) hz1]
  funext i
  obtain ⟨p, q, rfl⟩ : ∃ (p : Fin 16384) (q : Fin 32), i = ix2 p q := ⟨i 0, i 1, eq_ix2 i⟩
  refine (kernel_apply x0 x1 x2 x3 x4 _ x6 x7 p q).trans ?_
  refine Eq.trans ?_ (spec_apply x0 x1 x2 x3 x4 a9 x6 x7 p q).symm
  rw [slope_apply]

end Cert.EncValue

end
-- ==== Proof.HeadValue.lean ====
/-
  The last region's stored block, read as a vector of 16384 scores, IS the specification's output layers and score
  heads of the same arrays, at the extended reals.
-/
import proofs.«416178_j39376260169848_1_alg».proof.Proof.Gen.KernelIdeal.Frame
import proofs.«416178_j39376260169848_1_alg».proof.Proof.Spec
import proofs.«416178_j39376260169848_1_alg».proof.Proof.LibPlainDot
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.HeadValue

open Idealize.ShloMosaic Idealize.SL.Sem
open Idealize.ShloMosaic.ValueIdx
open scoped BigOperators

/-! ## The value at a node, written out -/

/-- One output feature of a graph-convolution output layer at a node: the node's aggregated row against a column of
    the weights, plus that feature's bias. -/
def layer (x : (⟨2, ![16384, 32]⟩ : Shape).Idx → EReal) (W : (⟨2, ![32, 32]⟩ : Shape).Idx → EReal)
    (b : (⟨1, ![32]⟩ : Shape).Idx → EReal) (p : Fin 16384) (k : Fin 32) : EReal :=
  ∑ l : Fin 32, x (ix2 p l) * W (ix2 l k) + b (ix1 k)

/-- A linear score head on a row of 32 features: the row against the head's one weight column, plus its one bias. -/
def score (y : Fin 32 → EReal) (w : (⟨2, ![32, 1]⟩ : Shape).Idx → EReal) (c : (⟨1, ![1]⟩ : Shape).Idx → EReal) : EReal :=
  ∑ k : Fin 32, y k * w (ix2 k (0 : Fin 1)) + c (ix1 (0 : Fin 1))

/-- The score of node `p`: the head on the embedding plus the head on the first graph's output layer, plus the head on
    the second graph's output layer. -/
def E (emb aggb aggf : (⟨2, ![16384, 32]⟩ : Shape).Idx → EReal)
    (a12 : (⟨2, ![32, 1]⟩ : Shape).Idx → EReal) (a13 : (⟨1, ![1]⟩ : Shape).Idx → EReal)
    (a14 : (⟨2, ![32, 32]⟩ : Shape).Idx → EReal) (a15 : (⟨1, ![32]⟩ : Shape).Idx → EReal)
    (a16 : (⟨2, ![32, 32]⟩ : Shape).Idx → EReal) (a17 : (⟨1, ![32]⟩ : Shape).Idx → EReal)
    (a18 : (⟨2, ![32, 1]⟩ : Shape).Idx → EReal) (a19 : (⟨1, ![1]⟩ : Shape).Idx → EReal)
    (a20 : (⟨2, ![32, 1]⟩ : Shape).Idx → EReal) (a21 : (⟨1, ![1]⟩ : Shape).Idx → EReal) (p : Fin 16384) : EReal :=
  (score (fun k => emb (ix2 p k)) a12 a13 + score (layer aggb a14 a15 p) a18 a19) + score (layer aggf a16 a17 p) a20 a21

/-! ## Layout operations at an index -/

section Layout
variable {α : Type}

/-- A column `[a, 1]` cast to the vector `[a]` reads, at `i`, the column at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A vector `[b]` placed as the one row of `[1, b]` reads, at `(u, c)`, the vector at `c`. -/
theorem bcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- One row `[1, b]` repeated over `a` rows reads, at `(p, c)`, the row at `c`. -/
theorem bcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

end Layout

/-! ## The kernel's payloads at an index -/

section Kernel
open Cert.KernelIdeal Cert.KernelIdeal.Gen

/-- The kernel's two products are plain ones: `[16384, 32]` by `[32, 32]`, and `[16384, 32]` by `[32, 1]`. -/
theorem plain32 : Cert.Lib.PlainDot Cert.KernelIdeal.dot_S16384x32_S32x32_S16384x32_1_0_0_1_n_n := ⟨rfl, rfl, rfl, rfl, rfl, rfl⟩
theorem plain1 : Cert.Lib.PlainDot Cert.KernelIdeal.dot_S16384x32_S32x1_S16384x1_1_0_0_1_n_n := ⟨rfl, rfl, rfl, rfl, rfl, rfl⟩

/-- An output layer as the kernel forms it (the product into the zero splat, the bias row broadcast), at `(p, k)`. -/
theorem k_layer (x : FVec Ideal S16384x32 .f32) (W : FVec Ideal S32x32 .f32) (b : FVec Ideal S32 .f32)
    (h0 : S16384x32.ShapeCasts S16384x32) (h1 : S32.ShapeCasts S1x32) (h2 : S1x32.Broadcasts S16384x32)
    (p : Fin 16384) (k : Fin 32) :
    addf (matmul dot_S16384x32_S32x32_S16384x32_1_0_0_1_n_n none (shapeCast S16384x32 x h0) W
        (constant (F := Ideal) S16384x32 .f32 0x00000000#32))
      (broadcastTo S16384x32 (shapeCast S1x32 b h1) h2) (ix2 p k) = layer x W b p k := by
  rw [shapeCast_self]
  exact congrArg₂ (· + ·) (plain32.matmul_zero_apply none x W p k)
    ((broadcastTo_1b_ab_apply _ h2 p k).trans (shapeCast_a_1a_apply b h1 0 k))

/-- A score head as the kernel forms it, without its bias, at node `p`. -/
theorem k_head0 (y : FVec Ideal S16384x32 .f32) (w : FVec Ideal S32x1 .f32) (p : Fin 16384) :
    matmul dot_S16384x32_S32x1_S16384x1_1_0_0_1_n_n none y w (constant (F := Ideal) S16384x1 .f32 0x00000000#32) (ix2 p (0 : Fin 1))
      = ∑ k : Fin 32, y (ix2 p k) * w (ix2 k (0 : Fin 1)) :=
  plain1.matmul_zero_apply none y w p 0

/-- The one-element bias broadcast down the column, at node `p`. -/
theorem k_bias (c : FVec Ideal S1 .f32) (h1 : S1.ShapeCasts S1x1) (h2 : S1x1.Broadcasts S16384x1) (p : Fin 16384) :
    broadcastTo S16384x1 (shapeCast S1x1 c h1) h2 (ix2 p (0 : Fin 1)) = c (ix1 (0 : Fin 1)) :=
  (broadcastTo_1b_ab_apply _ h2 p 0).trans (shapeCast_a_1a_apply c h1 0 0)

/-- The head on the embedding, at node `p`: the embedding's row against the weight column, plus the bias. -/
theorem pay2_apply (x : FVec Ideal S16384x32 .f32) (w : FVec Ideal S32x1 .f32) (c : FVec Ideal S1 .f32) (p : Fin 16384) :
    k2_pay2 (F := Ideal) x w c (ix2 p (0 : Fin 1)) = score (fun k => x (ix2 p k)) w c := by
  unfold k2_pay2
  rw [shapeCast_self]
  exact congrArg₂ (· + ·) (k_head0 x w p) (k_bias c _ _ p)

/-- The first graph's output layer followed by its head, at node `p`. -/
theorem pay3_apply (x : FVec Ideal S16384x32 .f32) (W : FVec Ideal S32x32 .f32) (b : FVec Ideal S32 .f32)
    (w : FVec Ideal S32x1 .f32) (c : FVec Ideal S1 .f32) (p : Fin 16384) :
    k2_pay3 (F := Ideal) x W b w c (ix2 p (0 : Fin 1)) = score (layer x W b p) w c := by
  unfold k2_pay3
  exact congrArg₂ (· + ·)
    ((k_head0 _ w p).trans (Finset.sum_congr rfl fun k _ => congrArg (· * w (ix2 k (0 : Fin 1))) (k_layer x W b _ _ _ p k)))
    (k_bias c _ _ p)

/-- The second graph's output layer followed by its head's product (the bias is added where the three are summed), at node `p`. -/
theorem pay4_apply (x : FVec Ideal S16384x32 .f32) (W : FVec Ideal S32x32 .f32) (b : FVec Ideal S32 .f32)
    (w : FVec Ideal S32x1 .f32) (p : Fin 16384) :
    k2_pay4 (F := Ideal) x W b w (ix2 p (0 : Fin 1)) = ∑ k : Fin 32, layer x W b p k * w (ix2 k (0 : Fin 1)) := by
  unfold k2_pay4
  exact (k_head0 _ w p).trans (Finset.sum_congr rfl fun k _ => congrArg (· * w (ix2 k (0 : Fin 1))) (k_layer x W b _ _ _ p k))

/-- The zero offsets of a whole-array access, at ranks 2 and 1. -/
theorem hz2 : (![0, 0] : Fin 2 → Nat) = fun _ => 0 := funext fun a => by fin_cases a <;> rfl
theorem hz1 : (![0] : Fin 1 → Nat) = fun _ => 0 := funext fun a => by fin_cases a <;> rfl

/-- The stored block, at node `p`. -/
theorem out_apply (emb aggb aggf : Vec Ideal S16384x32 .f32)
    (a12 : Vec Ideal S32x1 .f32) (a13 : Vec Ideal S1 .f32) (a14 : Vec Ideal S32x32 .f32) (a15 : Vec Ideal S32 .f32)
    (a16 : Vec Ideal S32x32 .f32) (a17 : Vec Ideal S32 .f32) (a18 : Vec Ideal S32x1 .f32) (a19 : Vec Ideal S1 .f32)
    (a20 : Vec Ideal S32x1 .f32) (a21 : Vec Ideal S1 .f32) (p : Fin 16384) :
    out2_13 (F := Ideal) emb aggb aggf a14 a15 a16 a17 a12 a13 a18 a19 a20 a21 (ix2 p (0 : Fin 1))
      = E emb aggb aggf a12 a13 a14 a15 a16 a17 a18 a19 a20 a21 p := by
  unfold out2_13
  rw [View.canon_unit_zero hz2]
  simp only [View.ld_unit_zero (S := S16384x32) hz2, View.ld_unit_zero (S := S32x32) hz2, View.ld_unit_zero (S := S32x1) hz2,
    View.ld_unit_zero (S := S32) hz1, View.ld_unit_zero (S := S1) hz1]
  unfold k2_pay1
  exact congrArg₂ (· + ·) (congrArg₂ (· + ·) (pay2_apply emb a12 a13 p) (pay3_apply aggb a14 a15 a18 a19 p))
    (congrArg₂ (· + ·) (pay4_apply aggf a16 a17 a20 p) (k_bias a21 _ _ p))

end Kernel

/-! ## The specification's stages at an index -/

section Reference
open Cert.ReferenceIdeal

/-- The specification's two products are the same plain ones. -/
theorem rplain32 : Cert.Lib.PlainDot Cert.ReferenceIdeal.dot_S16384x32_S32x32_S16384x32_1_0_0_1_n_n := ⟨rfl, rfl, rfl, rfl, rfl, rfl⟩
theorem rplain1 : Cert.Lib.PlainDot Cert.ReferenceIdeal.dot_S16384x32_S32x1_S16384x1_1_0_0_1_n_n := ⟨rfl, rfl, rfl, rfl, rfl, rfl⟩

/-- An output layer as the specification forms it (the host's product, the bias placed as a row and repeated), at `(p, k)`. -/
theorem r_layer (x : FVec Ideal S16384x32 .f32) (W : FVec Ideal S32x32 .f32) (b : FVec Ideal S32 .f32)
    (h1 : S32.BroadcastsInDim S1x32 ![1]) (h2 : S1x32.BroadcastsInDim S16384x32 ![0, 1]) (p : Fin 16384) (k : Fin 32) :
    addf (Host.dotGeneral dot_S16384x32_S32x32_S16384x32_1_0_0_1_n_n none x W)
      (broadcastInDim S16384x32 ![0, 1] h2 (broadcastInDim S1x32 ![1] h1 b)) (ix2 p k) = layer x W b p k :=
  congrArg₂ (· + ·) (rplain32.dotGeneral_apply none .single x W p k)
    ((bcastInDim_1b_ab_apply _ h2 p k).trans (bcastInDim_b_1b_apply b h1 0 k))

/-- A score head as the specification forms it, recast from a column to a vector, at node `p`. -/
theorem r_head (y : FVec Ideal S16384x32 .f32) (w : FVec Ideal S32x1 .f32) (c : FVec Ideal S1 .f32)
    (h1 : S1.BroadcastsInDim S1x1 ![1]) (h2 : S1x1.BroadcastsInDim S16384x1 ![0, 1]) (h3 : S16384x1.ShapeCasts S16384)
    (p : Fin 16384) :
    shapeCast S16384 (addf (Host.dotGeneral dot_S16384x32_S32x1_S16384x1_1_0_0_1_n_n none y w)
      (broadcastInDim S16384x1 ![0, 1] h2 (broadcastInDim S1x1 ![1] h1 c))) h3 (ix1 p)
      = score (fun k => y (ix2 p k)) w c :=
  (shapeCast_a1_a_apply _ h3 p).trans
    (congrArg₂ (· + ·) (rplain1.dotGeneral_apply none .single y w p 0)
      ((bcastInDim_1b_ab_apply _ h2 p 0).trans (bcastInDim_b_1b_apply c h1 0 0)))

/-- The specification's scores, at node `p`. -/
theorem head_apply (emb aggb aggf : Vec Ideal S16384x32 .f32)
    (a12 : Vec Ideal S32x1 .f32) (a13 : Vec Ideal S1 .f32) (a14 : Vec Ideal S32x32 .f32) (a15 : Vec Ideal S32 .f32)
    (a16 : Vec Ideal S32x32 .f32) (a17 : Vec Ideal S32 .f32) (a18 : Vec Ideal S32x1 .f32) (a19 : Vec Ideal S1 .f32)
    (a20 : Vec Ideal S32x1 .f32) (a21 : Vec Ideal S1 .f32) (p : Fin 16384) :
    Cert.Spec.head (F := Ideal) emb aggb aggf a12 a13 a14 a15 a16 a17 a18 a19 a20 a21 (ix1 p)
      = E emb aggb aggf a12 a13 a14 a15 a16 a17 a18 a19 a20 a21 p := by
  unfold Cert.Spec.head
  exact congrArg₂ (· + ·)
    (congrArg₂ (· + ·) (r_head emb a12 a13 _ _ _ p)
      ((r_head _ a18 a19 _ _ _ p).trans
        (congrArg (fun y => score y a18 a19) (funext fun k => r_layer aggb a14 a15 _ _ p k))))
    ((r_head _ a20 a21 _ _ _ p).trans
      (congrArg (fun y => score y a20 a21) (funext fun k => r_layer aggf a16 a17 _ _ p k)))

end Reference

/-- Region 2's block [16384, 1] recast to [16384] is `head` of the same arrays (the region takes the two
    graph-convolution layers' parameters before the first score head's; `head` takes them after). -/
theorem head_eq (emb aggb aggf : Vec Ideal Cert.KernelIdeal.S16384x32 .f32)
    (a12 : Vec Ideal Cert.KernelIdeal.S32x1 .f32) (a13 : Vec Ideal Cert.KernelIdeal.S1 .f32)
    (a14 : Vec Ideal Cert.KernelIdeal.S32x32 .f32) (a15 : Vec Ideal Cert.KernelIdeal.S32 .f32)
    (a16 : Vec Ideal Cert.KernelIdeal.S32x32 .f32) (a17 : Vec Ideal Cert.KernelIdeal.S32 .f32)
    (a18 : Vec Ideal Cert.KernelIdeal.S32x1 .f32) (a19 : Vec Ideal Cert.KernelIdeal.S1 .f32)
    (a20 : Vec Ideal Cert.KernelIdeal.S32x1 .f32) (a21 : Vec Ideal Cert.KernelIdeal.S1 .f32) :
    shapeCast Cert.KernelIdeal.S16384
        (Cert.KernelIdeal.Gen.out2_13 (F := Ideal) emb aggb aggf a14 a15 a16 a17 a12 a13 a18 a19 a20 a21)
        Cert.KernelIdeal.Facts₀.shapeCasts_S16384x1_S16384
      = Cert.Spec.head (F := Ideal) emb aggb aggf a12 a13 a14 a15 a16 a17 a18 a19 a20 a21 := by
  funext j
  obtain ⟨p, rfl⟩ : ∃ p : Fin 16384, j = ix1 p := ⟨j 0, eq_ix1 j⟩
  exact (shapeCast_a1_a_apply _ _ p).trans
    ((out_apply emb aggb aggf a12 a13 a14 a15 a16 a17 a18 a19 a20 a21 p).trans
      (head_apply emb aggb aggf a12 a13 a14 a15 a16 a17 a18 a19 a20 a21 p).symm)

end Cert.HeadValue

end
-- ==== Proof.LibRowReduce.lean ====
/-
  Row reductions of a matrix and the "keepdims" column they are carried in, read at coordinates.

  A matrix of shape `[a, b]` reduced along its second axis gives one number per row. Kept as a column `[a, 1]`
  (a shape cast of the `[a]` vector) and broadcast back over the `b` columns, entry `(r, c)` of the broadcast is
  the number of row `r`. At the extended reals the sum along a row is the finite sum of the row's entries, and the
  maximum along a row is the fold of `max` over them from the accumulator's value.
-/
import Idealize.ShloMosaic.Lib.ValueLayout
import Idealize.ShloMosaic.PureOps.Ideal.Laws

noncomputable section

namespace Cert.RowReduce

open Idealize.ShloMosaic Idealize.ShloMosaic.ValueIdx

variable {α : Type}

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` columns reads, at `(i, j)`, the column at row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Along the second axis of `[a, b]`, the source index over row `r` with coordinate `k` inserted is `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

variable {φ : FTy}

/-- A sum along the rows of a matrix of extended reals, at row `r`: the finite sum of that row's entries. -/
theorem rowSum_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ) (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the rows of a matrix of extended reals, at row `r`: the fold of `max` over that row's entries
    from the accumulator's value. -/
theorem rowMax_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (fun f => Finset.fold max (Ideal.ofBits φ acc) f (Finset.univ : Finset (Fin b)))
    (funext fun k => congrArg src (lift_row h r k))

end Cert.RowReduce

end
-- ==== Proof.InvValue.lean ====
/-
  Region 0 leaves, in its two output arrays, each node's reciprocal root of (its row's sum of squares + 1e-12): sixteen
  row blocks of 1024 nodes tile each column, a block's entry depends on its own row of the feature block only, and the
  kernel's lane sum over a row is the host's sum over axis 1 at the extended reals.
-/
import proofs.«416178_j39376260169848_1_alg».proof.Proof.Gen.KernelIdeal.Frame
import proofs.«416178_j39376260169848_1_alg».proof.Proof.Spec
import proofs.«416178_j39376260169848_1_alg».proof.Proof.LibRowReduce
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

set_option maxRecDepth 16384

noncomputable section

namespace Cert.InvValue

open Idealize.ShloMosaic Idealize.ShloMosaic.TcCoe Idealize.SL.Sem Idealize.ShloMosaic.ValueIdx
open Cert.KernelIdeal Cert.KernelIdeal.Gen

/-! ## The inverse norm of a row, and the two programs' readings of it -/

/-- Row `r` of a table of width `D`: the reciprocal root of (the sum of the squares of the row's entries + the small
    constant, kept as its word). -/
def invCol {D : ℕ} (x : (⟨2, ![16384, D]⟩ : Shape).Idx → EReal) (r : Fin 16384) : EReal :=
  Ideal.rsqrt ((∑ k : Fin D, x (ix2 r k) * x (ix2 r k)) + Ideal.ofBits .f32 0x2B8CBCCC#32)

/-- The host's sum over axis 1 of the squared table, started from the zero word, is at row `r` the finite sum of the
    squares of that row's entries. -/
theorem hostRowSq {D : ℕ} (x : FVec Ideal ⟨2, ![16384, D]⟩ .f32)
    (h' : (⟨2, ![16384, D]⟩ : Shape).ReducesTo [1] ⟨1, ![16384]⟩) (hu : 0 < (⟨0, ![]⟩ : Shape).numel) (r : Fin 16384) :
    Host.reduceAdd (F := Ideal) (mulf x x) (constant (F := Ideal) ⟨0, ![]⟩ .f32 0x00000000#32) h' hu (ix1 r)
      = ∑ k : Fin D, x (ix2 r k) * x (ix2 r k) := by
  have h : (⟨2, ![16384, D]⟩ : Shape).Reduces [1] ⟨1, ![16384]⟩ := ⟨h'.1, by decide, h'.2⟩
  rw [hostReduceAdd_apply, Ideal.hostReduceAdd_single h' h, constant_apply, Ideal.ofBits_zero_f32, zero_add]
  exact Finset.sum_congr rfl fun k _ => congrArg (fun i => x i * x i) (Cert.RowReduce.lift_row h r k)

/-- The specification's column of the 2048-wide table reads, at row `r`, that row's inverse norm. -/
theorem spec2048_apply (x : (⟨Cert.ReferenceIdeal.S16384x2048, .f32⟩ : BufTy).Contents (Elt Ideal)) (r : Fin 16384) (u : Fin 1) :
    Cert.Spec.inv2048 (F := Ideal) x (ix2 r u) = invCol (D := 2048) x r := by
  unfold Cert.Spec.inv2048 invCol
  dsimp only
  rw [show ∀ (v : FVec Ideal Cert.ReferenceIdeal.S16384x1 .f32) i, Host.rsqrt v i = Ideal.rsqrt (v i) from fun _ _ => rfl]
  rw [addf_apply]
  rw [broadcastInDim_apply ![0] _ _ (ix2 r u) (ix1 r) (fun a => by
    match a with
    | ⟨0, _⟩ => rfl)]
  rw [broadcastInDim_scalar_apply, constant_apply]
  rw [hostRowSq]

/-- The specification's column of the 512-wide table reads, at row `r`, that row's inverse norm. -/
theorem spec512_apply (x : (⟨Cert.ReferenceIdeal.S16384x512, .f32⟩ : BufTy).Contents (Elt Ideal)) (r : Fin 16384) (u : Fin 1) :
    Cert.Spec.inv512 (F := Ideal) x (ix2 r u) = invCol (D := 512) x r := by
  unfold Cert.Spec.inv512 invCol
  dsimp only
  rw [show ∀ (v : FVec Ideal Cert.ReferenceIdeal.S16384x1 .f32) i, Host.rsqrt v i = Ideal.rsqrt (v i) from fun _ _ => rfl]
  rw [addf_apply]
  rw [broadcastInDim_apply ![0] _ _ (ix2 r u) (ix1 r) (fun a => by
    match a with
    | ⟨0, _⟩ => rfl)]
  rw [broadcastInDim_scalar_apply, constant_apply]
  rw [hostRowSq]

/-- The kernel's first payload, of a block of 1024 rows of width 2048, reads at row `p` of the block the reciprocal
    root of (the lane sum of the row's squares + the small constant). -/
theorem pay2048_apply (x0 : Vec Ideal S1024x2048 .f32) (p : Fin 1024) (u : Fin 1) :
    k0_pay1 (F := Ideal) x0 (ix2 p u)
      = Ideal.rsqrt ((∑ k : Fin 2048, x0 (ix2 p k) * x0 (ix2 p k)) + Ideal.ofBits .f32 0x2B8CBCCC#32) := by
  unfold k0_pay1
  dsimp only
  rw [show ∀ (v : FVec Ideal S1024x1 .f32) i, rsqrt v i = Ideal.rsqrt (v i) from fun _ _ => rfl]
  rw [addf_apply, broadcast_apply]
  refine congrArg (fun z => Ideal.rsqrt (z + _)) ?_
  refine (Cert.RowReduce.shapeCast_a_a1_apply _ _ p u).trans ?_
  refine (Cert.RowReduce.rowSum_apply (mulf x0 x0) _ _ _ _ p).trans ?_
  rfl

/-- The kernel's second payload, of a block of 1024 rows of width 512, likewise. -/
theorem pay512_apply (x1 : Vec Ideal S1024x512 .f32) (p : Fin 1024) (u : Fin 1) :
    k0_pay2 (F := Ideal) x1 (ix2 p u)
      = Ideal.rsqrt ((∑ k : Fin 512, x1 (ix2 p k) * x1 (ix2 p k)) + Ideal.ofBits .f32 0x2B8CBCCC#32) := by
  unfold k0_pay2
  dsimp only
  rw [show ∀ (v : FVec Ideal S1024x1 .f32) i, rsqrt v i = Ideal.rsqrt (v i) from fun _ _ => rfl]
  rw [addf_apply, broadcast_apply]
  refine congrArg (fun z => Ideal.rsqrt (z + _)) ?_
  refine (Cert.RowReduce.shapeCast_a_a1_apply _ _ p u).trans ?_
  refine (Cert.RowReduce.rowSum_apply (mulf x1 x1) _ _ _ _ p).trans ?_
  rfl

/-- A block of 1024 rows that sits at rows 1024·T … of a 2048-wide table: the kernel's payload of the block, at a row
    of the block, is the specification's column of the table at that row of the table. -/
theorem pay2048_eq_spec (x0 : Vec Ideal S1024x2048 .f32) (x : (⟨Cert.ReferenceIdeal.S16384x2048, .f32⟩ : BufTy).Contents (Elt Ideal))
    (T : ℕ) (hx : ∀ (p : Fin 1024) (k : Fin 2048) (r : Fin 16384), r.val = T * 1024 + p.val → x0 (ix2 p k) = x (ix2 r k))
    (j : S1024x1.Idx) (i : Cert.ReferenceIdeal.S16384x1.Idx) (hi : (i 0).val = T * 1024 + (j 0).val) :
    k0_pay1 (F := Ideal) x0 j = Cert.Spec.inv2048 (F := Ideal) x i := by
  obtain ⟨p, u, rfl⟩ : ∃ (p : Fin 1024) (u : Fin 1), j = ix2 p u := ⟨j 0, j 1, eq_ix2 j⟩
  obtain ⟨r, u', rfl⟩ : ∃ (r : Fin 16384) (u' : Fin 1), i = ix2 r u' := ⟨i 0, i 1, eq_ix2 i⟩
  rw [pay2048_apply, spec2048_apply]
  unfold invCol
  exact congrArg (fun z => Ideal.rsqrt (z + _)) (Finset.sum_congr rfl fun k _ => by rw [hx p k r hi])

/-- The same for a block of a 512-wide table. -/
theorem pay512_eq_spec (x1 : Vec Ideal S1024x512 .f32) (x : (⟨Cert.ReferenceIdeal.S16384x512, .f32⟩ : BufTy).Contents (Elt Ideal))
    (T : ℕ) (hx : ∀ (p : Fin 1024) (k : Fin 512) (r : Fin 16384), r.val = T * 1024 + p.val → x1 (ix2 p k) = x (ix2 r k))
    (j : S1024x1.Idx) (i : Cert.ReferenceIdeal.S16384x1.Idx) (hi : (i 0).val = T * 1024 + (j 0).val) :
    k0_pay2 (F := Ideal) x1 j = Cert.Spec.inv512 (F := Ideal) x i := by
  obtain ⟨p, u, rfl⟩ : ∃ (p : Fin 1024) (u : Fin 1), j = ix2 p u := ⟨j 0, j 1, eq_ix2 j⟩
  obtain ⟨r, u', rfl⟩ : ∃ (r : Fin 16384) (u' : Fin 1), i = ix2 r u' := ⟨i 0, i 1, eq_ix2 i⟩
  rw [pay512_apply, spec512_apply]
  unfold invCol
  exact congrArg (fun z => Ideal.rsqrt (z + _)) (Finset.sum_congr rfl fun k _ => by rw [hx p k r hi])

/-! ## From the sixteen blocks to the two columns -/

variable (V : (c : Dev nD) → (b : Ref sig .tc) → Buf (Elt Ideal) ((c : Thread nD τ).loc b))

/-- The zero offsets of a whole-buffer access, as the constant function. -/
theorem zero_offsets : (![0, 0] : Fin 2 → Nat) = fun _ => 0 := funext fun a => by fin_cases a <;> rfl

/-- The four index maps over the sixteen grid points: at point `t` every window's block index is (t, 0). -/
theorem block_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point `t` writes back to the first output is block `t` of the specification's column of the 2048-wide table:
    the input block is rows 1024·t … of the table and the output block rows 1024·t … of the column. -/
theorem flushed2048_eq (c : Dev nD) (t : Fin cfg0.N) :
    (dat0 (F := Ideal) V c).flushed 2 t
      = ((cfg0.win 2).blk t).view.read (Elt Ideal) (Cert.Spec.inv2048 (F := Ideal) (V c main_arg1)) := by
  show (cfg0.win 2).cut (grid0.coords t) ((dat0 V c).after 2 t) = _
  rw [after0_2]
  unfold out0_2
  rw [View.canon_unit_zero zero_offsets]
  simp only [View.ld_unit_zero (S := S1024x2048) zero_offsets]
  obtain ⟨e00, e01, -, -, e20, -, -, -⟩ := block_index t
  funext j
  show k0_pay1 (F := Ideal) (iblk0 V c 0 t) j
    = Cert.Spec.inv2048 (F := Ideal) (V c main_arg1) (((cfg0.win 2).blk t).view.emb j)
  refine pay2048_eq_spec (iblk0 V c 0 t) (V c main_arg1) t.val (fun p k r hr => ?_) j _ ?_
  · show V c main_arg1 (((cfg0.win 0).blk t).view.emb (ix2 p k)) = V c main_arg1 (ix2 r k)
    refine congrArg (V c main_arg1) (funext fun a => Fin.ext ?_)
    match a with
    | ⟨0, _⟩ => show win0_0.index t (0 : Fin 2) * 1024 + 1 * p.val = r.val; omega
    | ⟨1, _⟩ => show win0_0.index t (1 : Fin 2) * 2048 + 1 * k.val = k.val; omega
  · show win0_2.index t (0 : Fin 2) * 1024 + 1 * (j 0).val = t.val * 1024 + (j 0).val
    omega

/-- What point `t` writes back to the second output is block `t` of the specification's column of the 512-wide table. -/
theorem flushed512_eq (c : Dev nD) (t : Fin cfg0.N) :
    (dat0 (F := Ideal) V c).flushed 3 t
      = ((cfg0.win 3).blk t).view.read (Elt Ideal) (Cert.Spec.inv512 (F := Ideal) (V c main_arg2)) := by
  show (cfg0.win 3).cut (grid0.coords t) ((dat0 V c).after 3 t) = _
  rw [after0_3]
  unfold out0_3
  rw [View.canon_unit_zero zero_offsets]
  simp only [View.ld_unit_zero (S := S1024x512) zero_offsets]
  obtain ⟨-, -, e10, e11, -, -, e30, -⟩ := block_index t
  funext j
  show k0_pay2 (F := Ideal) (iblk0 V c 1 t) j
    = Cert.Spec.inv512 (F := Ideal) (V c main_arg2) (((cfg0.win 3).blk t).view.emb j)
  refine pay512_eq_spec (iblk0 V c 1 t) (V c main_arg2) t.val (fun p k r hr => ?_) j _ ?_
  · show V c main_arg2 (((cfg0.win 1).blk t).view.emb (ix2 p k)) = V c main_arg2 (ix2 r k)
    refine congrArg (V c main_arg2) (funext fun a => Fin.ext ?_)
    match a with
    | ⟨0, _⟩ => show win0_1.index t (0 : Fin 2) * 1024 + 1 * p.val = r.val; omega
    | ⟨1, _⟩ => show win0_1.index t (1 : Fin 2) * 512 + 1 * k.val = k.val; omega
  · show win0_3.index t (0 : Fin 2) * 1024 + 1 * (j 0).val = t.val * 1024 + (j 0).val
    omega

/-- An index of the first output column is in point `t`'s block iff each coordinate is in the block's range. -/
theorem mem_block2048 (t : Fin cfg0.N) (i : S16384x1.Idx) :
    i ∈ ((cfg0.win 2).blk t).view.set ↔ ∀ a : Fin 2, win0_2.index t a * S1024x1.size a ≤ (i a).val
      ∧ (i a).val < win0_2.index t a * S1024x1.size a + S1024x1.size a := by
  show i ∈ ((View.whole main_v0_0).slice (win0_2.rect t)).set ↔ _
  rw [View.set_slice_whole, Rect.mem_set_unit]
  exact Iff.rfl

/-- An index of the second output column is in point `t`'s block iff each coordinate is in the block's range. -/
theorem mem_block512 (t : Fin cfg0.N) (i : S16384x1.Idx) :
    i ∈ ((cfg0.win 3).blk t).view.set ↔ ∀ a : Fin 2, win0_3.index t a * S1024x1.size a ≤ (i a).val
      ∧ (i a).val < win0_3.index t a * S1024x1.size a + S1024x1.size a := by
  show i ∈ ((View.whole main_v0_1).slice (win0_3.rect t)).set ↔ _
  rw [View.set_slice_whole, Rect.mem_set_unit]
  exact Iff.rfl

/-- Row `r` of the first output column is in the block of point `r / 1024`. -/
theorem cover2048 (i : S16384x1.Idx) :
    ∃ t : Fin cfg0.N, (cfg0.win 2).flush t = true ∧ i ∈ ((cfg0.win 2).blk t).view.set := by
  have hN : cfg0.N = 16 := N_0
  have hi0 : (i 0).val < 16384 := (i 0).isLt
  have hi1 : (i 1).val < 1 := (i 1).isLt
  have ht : (i 0).val / 1024 < cfg0.N := by rw [hN]; omega
  obtain ⟨-, -, -, -, e20, e21, -, -⟩ := block_index ⟨(i 0).val / 1024, ht⟩
  refine ⟨⟨(i 0).val / 1024, ht⟩, flush0_2 _, ?_⟩
  rw [mem_block2048]
  intro a
  match a with
  | ⟨0, _⟩ =>
    show win0_2.index ⟨(i 0).val / 1024, ht⟩ (0 : Fin 2) * 1024 ≤ (i 0).val
      ∧ (i 0).val < win0_2.index ⟨(i 0).val / 1024, ht⟩ (0 : Fin 2) * 1024 + 1024
    rw [e20]
    show (i 0).val / 1024 * 1024 ≤ (i 0).val ∧ (i 0).val < (i 0).val / 1024 * 1024 + 1024
    omega
  | ⟨1, _⟩ =>
    show win0_2.index ⟨(i 0).val / 1024, ht⟩ (1 : Fin 2) * 1 ≤ (i 1).val
      ∧ (i 1).val < win0_2.index ⟨(i 0).val / 1024, ht⟩ (1 : Fin 2) * 1 + 1
    rw [e21]
    omega

/-- Row `r` of the second output column is in the block of point `r / 1024`. -/
theorem cover512 (i : S16384x1.Idx) :
    ∃ t : Fin cfg0.N, (cfg0.win 3).flush t = true ∧ i ∈ ((cfg0.win 3).blk t).view.set := by
  have hN : cfg0.N = 16 := N_0
  have hi0 : (i 0).val < 16384 := (i 0).isLt
  have hi1 : (i 1).val < 1 := (i 1).isLt
  have ht : (i 0).val / 1024 < cfg0.N := by rw [hN]; omega
  obtain ⟨-, -, -, -, -, -, e30, e31⟩ := block_index ⟨(i 0).val / 1024, ht⟩
  refine ⟨⟨(i 0).val / 1024, ht⟩, flush0_3 _, ?_⟩
  rw [mem_block512]
  intro a
  match a with
  | ⟨0, _⟩ =>
    show win0_3.index ⟨(i 0).val / 1024, ht⟩ (0 : Fin 2) * 1024 ≤ (i 0).val
      ∧ (i 0).val < win0_3.index ⟨(i 0).val / 1024, ht⟩ (0 : Fin 2) * 1024 + 1024
    rw [e30]
    show (i 0).val / 1024 * 1024 ≤ (i 0).val ∧ (i 0).val < (i 0).val / 1024 * 1024 + 1024
    omega
  | ⟨1, _⟩ =>
    show win0_3.index ⟨(i 0).val / 1024, ht⟩ (1 : Fin 2) * 1 ≤ (i 1).val
      ∧ (i 1).val < win0_3.index ⟨(i 0).val / 1024, ht⟩ (1 : Fin 2) * 1 + 1
    rw [e31]
    omega

/-- After region 0 the first output array (window 2) is the specification's inverse-norm column of the 2048-wide
    feature table as the region found it. -/
theorem inv2048_eq (c : Dev nD) :
    (dat0 (F := Ideal) V c).arrAt 2 cfg0.N = Cert.Spec.inv2048 (F := Ideal) (V c main_arg1) :=
  (dat0 (F := Ideal) V c).arrAt_eq_of_cover 2 (Cert.Spec.inv2048 (F := Ideal) (V c main_arg1))
    (fun t _ => flushed2048_eq V c t) cover2048

/-- After region 0 the second output array (window 3) is the inverse-norm column of the 512-wide feature table. -/
theorem inv512_eq (c : Dev nD) :
    (dat0 (F := Ideal) V c).arrAt 3 cfg0.N = Cert.Spec.inv512 (F := Ideal) (V c main_arg2) :=
  (dat0 (F := Ideal) V c).arrAt_eq_of_cover 3 (Cert.Spec.inv512 (F := Ideal) (V c main_arg2))
    (fun t _ => flushed512_eq V c t) cover512

end Cert.InvValue

end
-- ==== Proof.KValue.lean ====
/-
  The idealized kernel program's result as the specification's `G` of the launch contents: the encoder region's
  array is `enc`, region 0's two columns are the inverse norms, the host stretch's two aggregated arrays are `agg`
  of the embedding, the edge rows and the per-edge cosine weights (scaling after the gather being scaling before it),
  and the last region with the final recast is `head`.
-/
import proofs.«416178_j39376260169848_1_alg».proof.Proof.KKeep
import proofs.«416178_j39376260169848_1_alg».proof.Proof.RegionArr
import proofs.«416178_j39376260169848_1_alg».proof.Proof.KHost
import proofs.«416178_j39376260169848_1_alg».proof.Proof.SimValue
import proofs.«416178_j39376260169848_1_alg».proof.Proof.SimGather
import proofs.«416178_j39376260169848_1_alg».proof.Proof.EncValue
import proofs.«416178_j39376260169848_1_alg».proof.Proof.HeadValue
import proofs.«416178_j39376260169848_1_alg».proof.Proof.InvValue

set_option maxRecDepth 16384

noncomputable section

namespace Cert.KValue

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The node embedding: region 1's output array, of the launch contents of its arguments. -/
theorem emb_eq (c : Dev nD) :
    W3 m ρ c (Proc.devRef .tc main_v2)
      = Cert.Spec.enc (m ((c : Thread nD τ).loc main_arg0)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [Cert.KKeep.W3_v2, Cert.RegionArr.arr1 (V2 m ρ) c]
  show out1_8 (W2 m ρ c (Proc.devRef .tc main_arg0)) (W2 m ρ c (Proc.devRef .tc main_arg5)) (W2 m ρ c (Proc.devRef .tc main_arg6))
      (W2 m ρ c (Proc.devRef .tc main_arg7)) (W2 m ρ c (Proc.devRef .tc main_arg8)) (W2 m ρ c (Proc.devRef .tc main_v1))
      (W2 m ρ c (Proc.devRef .tc main_arg10)) (W2 m ρ c (Proc.devRef .tc main_arg11)) = _
  rw [Cert.KKeep.W2_arg0, Cert.KKeep.W2_arg5, Cert.KKeep.W2_arg6, Cert.KKeep.W2_arg7, Cert.KKeep.W2_arg8, Cert.KKeep.W2_v1,
    Cert.KKeep.W2_arg10, Cert.KKeep.W2_arg11]
  exact Cert.EncValue.enc_eq _ _ _ _ _ _ _ _

/-- The 2048-wide table's inverse-norm column at region 1's exit. -/
theorem invb_eq (c : Dev nD) :
    W3 m ρ c (Proc.devRef .tc main_v0_0) = Cert.Spec.inv2048 (m ((c : Thread nD τ).loc main_arg1)) := by
  rw [Cert.KKeep.W3_v0_0]
  exact Cert.InvValue.inv2048_eq (V0 m ρ) c

/-- The 512-wide table's inverse-norm column at region 1's exit. -/
theorem invf_eq (c : Dev nD) :
    W3 m ρ c (Proc.devRef .tc main_v0_1) = Cert.Spec.inv512 (m ((c : Thread nD τ).loc main_arg2)) := by
  rw [Cert.KKeep.W3_v0_1]
  exact Cert.InvValue.inv512_eq (V0 m ρ) c

/-- The body graph's aggregated array at region 2's entry. -/
theorem aggb_eq (c : Dev nD) :
    W12 m ρ c (Proc.devRef .tc main_v84)
      = Cert.Spec.agg (Cert.Spec.enc (m ((c : Thread nD τ).loc main_arg0)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)))
          (Cert.Spec.srcOf (m ((c : Thread nD τ).loc main_arg3))) (Cert.Spec.dstOf (m ((c : Thread nD τ).loc main_arg3)))
          (Cert.Spec.sim2048 (Cert.Spec.fn2048 (m ((c : Thread nD τ).loc main_arg1)) (Cert.Spec.inv2048 (m ((c : Thread nD τ).loc main_arg1)))) (Cert.Spec.srcOf (m ((c : Thread nD τ).loc main_arg3))) (Cert.Spec.dstOf (m ((c : Thread nD τ).loc main_arg3)))) := by
  rw [Cert.KHost.v84_eq, emb_eq, invb_eq, Cert.KKeep.W3_arg3, Cert.KKeep.W3_arg1, Cert.SimValue.agg_eq, Cert.SimValue.srcOf_eq,
    Cert.SimValue.dstOf_eq, Cert.SimGather.sim2048_eq]

/-- The face graph's aggregated array at region 2's entry. -/
theorem aggf_eq (c : Dev nD) :
    W12 m ρ c (Proc.devRef .tc main_v158)
      = Cert.Spec.agg (Cert.Spec.enc (m ((c : Thread nD τ).loc main_arg0)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)))
          (Cert.Spec.srcOf (m ((c : Thread nD τ).loc main_arg4))) (Cert.Spec.dstOf (m ((c : Thread nD τ).loc main_arg4)))
          (Cert.Spec.sim512 (Cert.Spec.fn512 (m ((c : Thread nD τ).loc main_arg2)) (Cert.Spec.inv512 (m ((c : Thread nD τ).loc main_arg2)))) (Cert.Spec.srcOf (m ((c : Thread nD τ).loc main_arg4))) (Cert.Spec.dstOf (m ((c : Thread nD τ).loc main_arg4)))) := by
  rw [Cert.KHost.v158_eq, emb_eq, invf_eq, Cert.KKeep.W3_arg4, Cert.KKeep.W3_arg2, Cert.SimValue.agg_eq, Cert.SimValue.srcOf_eq,
    Cert.SimValue.dstOf_eq, Cert.SimGather.sim512_eq]

/-- THE KERNEL PROGRAM'S RESULT: what the last boundary's contents hold at the result buffer is `G` of the launch
    contents of the 22 arguments. -/
theorem kvalue (c : Dev nD) :
    W14 m ρ c (Proc.devRef .tc main_v160)
      = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  rw [Cert.KKeep.W14_v160, Cert.RegionArr.arr2 (V12 m ρ) c]
  show shapeCast S16384 (out2_13 (W12 m ρ c (Proc.devRef .tc main_v2)) (W12 m ρ c (Proc.devRef .tc main_v84)) (W12 m ρ c (Proc.devRef .tc main_v158))
      (W12 m ρ c (Proc.devRef .tc main_arg14)) (W12 m ρ c (Proc.devRef .tc main_arg15)) (W12 m ρ c (Proc.devRef .tc main_arg16)) (W12 m ρ c (Proc.devRef .tc main_arg17))
      (W12 m ρ c (Proc.devRef .tc main_arg12)) (W12 m ρ c (Proc.devRef .tc main_arg13)) (W12 m ρ c (Proc.devRef .tc main_arg18)) (W12 m ρ c (Proc.devRef .tc main_arg19))
      (W12 m ρ c (Proc.devRef .tc main_arg20)) (W12 m ρ c (Proc.devRef .tc main_arg21))) Facts₀.shapeCasts_S16384x1_S16384 = _
  rw [Cert.KHost.keep_v2, emb_eq, aggb_eq, aggf_eq,
    Cert.KHost.keep_arg14, Cert.KKeep.W3_arg14,
    Cert.KHost.keep_arg15, Cert.KKeep.W3_arg15,
    Cert.KHost.keep_arg16, Cert.KKeep.W3_arg16,
    Cert.KHost.keep_arg17, Cert.KKeep.W3_arg17,
    Cert.KHost.keep_arg12, Cert.KKeep.W3_arg12,
    Cert.KHost.keep_arg13, Cert.KKeep.W3_arg13,
    Cert.KHost.keep_arg18, Cert.KKeep.W3_arg18,
    Cert.KHost.keep_arg19, Cert.KKeep.W3_arg19,
    Cert.KHost.keep_arg20, Cert.KKeep.W3_arg20,
    Cert.KHost.keep_arg21, Cert.KKeep.W3_arg21]
  exact Cert.HeadValue.head_eq _ _ _ _ _ _ _ _ _ _ _ _ _

end Cert.KValue

end
-- ==== Proof.RefOps.lean ====
/-
  The reference program's operations in order, one list per window of its main function; where the program calls a
  local function (the variance, the selections, the rectifier, the clip) the function's operations stand at the
  call, over the buffers that call names.
-/
import proofs.«416178_j39376260169848_1_alg».proof.Proof.Gen.ReferenceIdeal

noncomputable section

namespace Cert.RefOps

open Idealize.ShloMosaic Idealize.SL.Sem Idealize.ShloMosaic.StableHlo
open Cert.ReferenceIdeal Cert.ReferenceIdeal.Facts₀ Cert.ReferenceIdeal.Facts

variable {F : FTy → Type} [FloatOps F]

/-- Window 0 of the main function: 81 operations. -/
abbrev ops0 : List (HloOp τ sig (Elt F)) :=
  [ StableHlo.binary main_arg0 main_arg5 main_v0 ((fun l r => Host.dotGeneral dot_S16384x2_S2x32_S16384x32_1_0_0_1_n_n none l r) : (⟨S16384x2, .f32⟩ : BufTy).Contents (Elt F) → (⟨S2x32, .f32⟩ : BufTy).Contents (Elt F) → (⟨S16384x32, .f32⟩ : BufTy).Contents (Elt F)),
    StableHlo.unary main_arg6 main_v1 (broadcastInDim S1x32 ![1] bcast_S32_S1x32_1 : (⟨S32, .f32⟩ : BufTy).Contents (Elt F) → (⟨S1x32, .f32⟩ : BufTy).Contents (Elt F)),
    StableHlo.unary main_v1 main_v2 (broadcastInDim S16384x32 ![0, 1] bcast_S1x32_S16384x32_0_1 : (⟨S1x32, .f32⟩ : BufTy).Contents (Elt F) → (⟨S16384x32, .f32⟩ : BufTy).Contents (Elt F)),
    StableHlo.binary main_v0 main_v2 main_v3 (addf : (⟨S16384x32, .f32⟩ : BufTy).Contents (Elt F) → (⟨S16384x32, .f32⟩ : BufTy).Contents (Elt F) → (⟨S16384x32, .f32⟩ : BufTy).Contents (Elt F)),
    StableHlo.nullary main_cst (constant S_ .f32 0x00000000#32),
    StableHlo.binary main_v3 main_cst main_v4 ((fun x v => Host.reduceAdd x v reducesTo_S16384x32_S32_d0 h_S_) : (⟨S16384x32, .f32⟩ : BufTy).Contents (Elt F) → (⟨S_, .f32⟩ : BufTy).Contents (Elt F) → (⟨S32, .f32⟩ : BufTy).Contents (Elt F)),
    StableHlo.nullary main_cst_0 (constant S_ .f32 0x46800000#32),
    StableHlo.unary main_cst_0 main_v5 (broadcastInDim S32 ![] bcast_S_S32 : (⟨S_, .f32⟩ : BufTy).Contents (Elt F) → (⟨S32, .f32⟩ : BufTy).Contents (Elt F)),
    StableHlo.binary main_v4 main_v5 main_v6 (Host.divf : (⟨S32, .f32⟩ : BufTy).Contents (Elt F) → (⟨S32, .f32⟩ : BufTy).Contents (Elt F) → (⟨S32, .f32⟩ : BufTy).Contents (Elt F)),
    StableHlo.nullary main_c (constantI S_ 32 0#32),
    StableHlo.TRef.nullary main_call0.cst (constant S_ .f32 0x00000000#32),
    StableHlo.TRef.binary (.of main_v3) main_call0.cst main_call0.v0 (fun x v => Host.reduceAdd x v reducesTo_S16384x32_S32_d0 h_S_),
    StableHlo.TRef.unary main_call0.v0 main_call0.v1 (broadcastInDim S1x32 ![1] bcast_S32_S1x32_1),
    StableHlo.TRef.nullary main_call0.cst_0 (constant S_ .f32 0x46800000#32),
    StableHlo.TRef.unary main_call0.cst_0 main_call0.v2 (broadcastInDim S1x32 ![] bcast_S_S1x32),
    StableHlo.TRef.binary main_call0.v1 main_call0.v2 main_call0.v3 Host.divf,
    StableHlo.TRef.unary main_call0.v3 main_call0.v4 (broadcastInDim S16384x32 ![0, 1] bcast_S1x32_S16384x32_0_1),
    StableHlo.TRef.binary (.of main_v3) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x46800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S16384x32_S32_d0 h_S_),
    StableHlo.TRef.unary main_call0.v8 main_call0.v10 (broadcastInDim S32 ![] bcast_S_S32),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S32 ![] bcast_S_S32),
    StableHlo.TRef.ternary main_call0.v12 main_call0.v11 main_call0.call0.v1 main_call0.call0.v2 (fun p a b => select (broadcastInDim S32 ![] bcast_S_S32 p) a b),
    StableHlo.unary main_v6 main_v8 (broadcastInDim S1x32 ![1] bcast_S32_S1x32_1 : (⟨S32, .f32⟩ : BufTy).Contents (Elt F) → (⟨S1x32, .f32⟩ : BufTy).Contents (Elt F)),
    StableHlo.unary main_v8 main_v9 (broadcastInDim S16384x32 ![0, 1] bcast_S1x32_S16384x32_0_1 : (⟨S1x32, .f32⟩ : BufTy).Contents (Elt F) → (⟨S16384x32, .f32⟩ : BufTy).Contents (Elt F)),
    StableHlo.binary main_v3 main_v9 main_v10 (subf : (⟨S16384x32, .f32⟩ : BufTy).Contents (Elt F) → (⟨S16384x32, .f32⟩ : BufTy).Contents (Elt F) → (⟨S16384x32, .f32⟩ : BufTy).Contents (Elt F)),
    StableHlo.nullary main_cst_1 (constant S_ .f32 0x3727C5AC#32),
    StableHlo.unary main_cst_1 main_v11 (broadcastInDim S32 ![] bcast_S_S32 : (⟨S_, .f32⟩ : BufTy).Contents (Elt F) → (⟨S32, .f32⟩ : BufTy).Contents (Elt F)),
    StableHlo.binary main_v7 main_v11 main_v12 (addf : (⟨S32, .f32⟩ : BufTy).Contents (Elt F) → (⟨S32, .f32⟩ : BufTy).Contents (Elt F) → (⟨S32, .f32⟩ : BufTy).Contents (Elt F)),
    StableHlo.unary main_v12 main_v13 (Host.rsqrt : (⟨S32, .f32⟩ : BufTy).Contents (Elt F) → (⟨S32, .f32⟩ : BufTy).Contents (Elt F)),
    StableHlo.unary main_v13 main_v14 (broadcastInDim S1x32 ![1] bcast_S32_S1x32_1 : (⟨S32, .f32⟩ : BufTy).Contents (Elt F) → (⟨S1x32, .f32⟩ : BufTy).Contents (Elt F)),
    StableHlo.unary main_v14 main_v15 (broadcastInDim S16384x32 ![0, 1] bcast_S1x32_S16384x32_0_1 : (⟨S1x32, .f32⟩ : BufTy).Contents (Elt F) → (⟨S16384x32, .f32⟩ : BufTy).Contents (Elt F)),
    StableHlo.binary main_v10 main_v15 main_v16 (mulf : (⟨S16384x32, .f32⟩ : BufTy).Contents (Elt F) → (⟨S16384x32, .f32⟩ : BufTy).Contents (Elt F) → (⟨S16384x32, .f32⟩ : BufTy).Contents (Elt F)),
    StableHlo.unary main_arg7 main_v17 (broadcastInDim S1x32 ![1] bcast_S32_S1x32_1 : (⟨S32, .f32⟩ : BufTy).Contents (Elt F) → (⟨S1x32, .f32⟩ : BufTy).Contents (Elt F)),
    StableHlo.unary main_v17 main_v18 (broadcastInDim S16384x32 ![0, 1] bcast_S1x32_S16384x32_0_1 : (⟨S1x32, .f32⟩ : BufTy).Contents (Elt F) → (⟨S16384x32, .f32⟩ : BufTy).Contents (Elt F)),
    StableHlo.binary main_v16 main_v18 main_v19 (mulf : (⟨S16384x32, .f32⟩ : BufTy).Contents (Elt F) → (⟨S16384x32, .f32⟩ : BufTy).Contents (Elt F) → (⟨S16384x32, .f32⟩ : BufTy).Contents (Elt F)),
    StableHlo.unary main_arg8 main_v20 (broadcastInDim S1x32 ![1] bcast_S32_S1x32_1 : (⟨S32, .f32⟩ : BufTy).Contents (Elt F) → (⟨S1x32, .f32⟩ : BufTy).Contents (Elt F)),
    StableHlo.unary main_v20 main_v21 (broadcastInDim S16384x32 ![0, 1] bcast_S1x32_S16384x32_0_1 : (⟨S1x32, .f32⟩ : BufTy).Contents (Elt F) → (⟨S16384x32, .f32⟩ : BufTy).Contents (Elt F)),
    StableHlo.binary main_v19 main_v21 main_v22 (addf : (⟨S16384x32, .f32⟩ : BufTy).Contents (Elt F) → (⟨S16384x32, .f32⟩ : BufTy).Contents (Elt F) → (⟨S16384x32, .f32⟩ : BufTy).Contents (Elt F)),
    StableHlo.nullary main_cst_2 (constant S_ .f32 0x00000000#32),
    StableHlo.unary main_cst_2 main_v23 (broadcastInDim S16384x32 ![] bcast_S_S16384x32 : (⟨S_, .f32⟩ : BufTy).Contents (Elt F) → (⟨S16384x32, .f32⟩ : BufTy).Contents (Elt F)),
    StableHlo.binary main_v22 main_v23 main_v24 (cmpf .ogt : (⟨S16384x32, .f32⟩ : BufTy).Contents (Elt F) → (⟨S16384x32, .f32⟩ : BufTy).Contents (Elt F) → (⟨S16384x32, .i1⟩ : BufTy).Contents (Elt F)),
    StableHlo.unary main_arg9 main_v25 (broadcastInDim S16384x32 ![] bcast_S_S16384x32 : (⟨S_, .f32⟩ : BufTy).Contents (Elt F) → (⟨S16384x32, .f32⟩ : BufTy).Contents (Elt F)),
    StableHlo.binary main_v25 main_v22 main_v26 (mulf : (⟨S16384x32, .f32⟩ : BufTy).Contents (Elt F) → (⟨S16384x32, .f32⟩ : BufTy).Contents (Elt F) → (⟨S16384x32, .f32⟩ : BufTy).Contents (Elt F)),
    StableHlo.TRef.ternary (.of main_v24) (.of main_v22) (.of main_v26) main_call1.v0 select,
    StableHlo.binary main_v27 main_arg10 main_v28 ((fun l r => Host.dotGeneral dot_S16384x32_S32x32_S16384x32_1_0_0_1_n_n none l r) : (⟨S16384x32, .f32⟩ : BufTy).Contents (Elt F) → (⟨S32x32, .f32⟩ : BufTy).Contents (Elt F) → (⟨S16384x32, .f32⟩ : BufTy).Contents (Elt F)),
    StableHlo.unary main_arg11 main_v29 (broadcastInDim S1x32 ![1] bcast_S32_S1x32_1 : (⟨S32, .f32⟩ : BufTy).Contents (Elt F) → (⟨S1x32, .f32⟩ : BufTy).Contents (Elt F)),
    StableHlo.unary main_v29 main_v30 (broadcastInDim S16384x32 ![0, 1] bcast_S1x32_S16384x32_0_1 : (⟨S1x32, .f32⟩ : BufTy).Contents (Elt F) → (⟨S16384x32, .f32⟩ : BufTy).Contents (Elt F)),
    StableHlo.binary main_v28 main_v30 main_v31 (addf : (⟨S16384x32, .f32⟩ : BufTy).Contents (Elt F) → (⟨S16384x32, .f32⟩ : BufTy).Contents (Elt F) → (⟨S16384x32, .f32⟩ : BufTy).Contents (Elt F)),
    StableHlo.unary main_arg3 main_v32 ((extractStridedSlice S1x131072 ![0, 0] · slices_S2x131072_S1x131072_0_0) : (⟨S2x131072, .i32⟩ : BufTy).Contents (Elt F) → (⟨S1x131072, .i32⟩ : BufTy).Contents (Elt F)),
    StableHlo.reshape main_v32 main_v33 rfl shapeCasts_S1x131072_S131072,
    StableHlo.unary main_arg3 main_v34 ((extractStridedSlice S1x131072 ![1, 0] · slices_S2x131072_S1x131072_1_0) : (⟨S2x131072, .i32⟩ : BufTy).Contents (Elt F) → (⟨S1x131072, .i32⟩ : BufTy).Contents (Elt F)),
    StableHlo.reshape main_v34 main_v35 rfl shapeCasts_S1x131072_S131072,
    StableHlo.binary main_arg1 main_arg1 main_v36 (mulf : (⟨S16384x2048, .f32⟩ : BufTy).Contents (Elt F) → (⟨S16384x2048, .f32⟩ : BufTy).Contents (Elt F) → (⟨S16384x2048, .f32⟩ : BufTy).Contents (Elt F)),
    StableHlo.nullary main_cst_3 (constant S_ .f32 0x00000000#32),
    StableHlo.binary main_v36 main_cst_3 main_v37 ((fun x v => Host.reduceAdd x v reducesTo_S16384x2048_S16384_d1 h_S_) : (⟨S16384x2048, .f32⟩ : BufTy).Contents (Elt F) → (⟨S_, .f32⟩ : BufTy).Contents (Elt F) → (⟨S16384, .f32⟩ : BufTy).Contents (Elt F)),
    StableHlo.unary main_v37 main_v38 (broadcastInDim S16384x1 ![0] bcast_S16384_S16384x1_0 : (⟨S16384, .f32⟩ : BufTy).Contents (Elt F) → (⟨S16384x1, .f32⟩ : BufTy).Contents (Elt F)),
    StableHlo.nullary main_cst_4 (constant S_ .f32 0x2B8CBCCC#32),
    StableHlo.unary main_cst_4 main_v39 (broadcastInDim S16384x1 ![] bcast_S_S16384x1 : (⟨S_, .f32⟩ : BufTy).Contents (Elt F) → (⟨S16384x1, .f32⟩ : BufTy).Contents (Elt F)),
    StableHlo.binary main_v38 main_v39 main_v40 (addf : (⟨S16384x1, .f32⟩ : BufTy).Contents (Elt F) → (⟨S16384x1, .f32⟩ : BufTy).Contents (Elt F) → (⟨S16384x1, .f32⟩ : BufTy).Contents (Elt F)),
    StableHlo.unary main_v40 main_v41 (Host.rsqrt : (⟨S16384x1, .f32⟩ : BufTy).Contents (Elt F) → (⟨S16384x1, .f32⟩ : BufTy).Contents (Elt F)),
    StableHlo.unary main_v41 main_v42 (broadcastInDim S16384x2048 ![0, 1] bcast_S16384x1_S16384x2048_0_1 : (⟨S16384x1, .f32⟩ : BufTy).Contents (Elt F) → (⟨S16384x2048, .f32⟩ : BufTy).Contents (Elt F)),
    StableHlo.binary main_arg1 main_v42 main_v43 (mulf : (⟨S16384x2048, .f32⟩ : BufTy).Contents (Elt F) → (⟨S16384x2048, .f32⟩ : BufTy).Contents (Elt F) → (⟨S16384x2048, .f32⟩ : BufTy).Contents (Elt F)),
    StableHlo.nullary main_c_5 (constantI S_ 32 0#32),
    StableHlo.unary main_c_5 main_v44 (broadcastInDim S131072 ![] bcast_S_S131072 : (⟨S_, .i32⟩ : BufTy).Contents (Elt F) → (⟨S131072, .i32⟩ : BufTy).Contents (Elt F)),
    StableHlo.binary main_v33 main_v44 main_v45 (cmpi .slt : (⟨S131072, .i32⟩ : BufTy).Contents (Elt F) → (⟨S131072, .i32⟩ : BufTy).Contents (Elt F) → (⟨S131072, .i1⟩ : BufTy).Contents (Elt F)),
    StableHlo.nullary main_c_6 (constantI S_ 32 16384#32),
    StableHlo.unary main_c_6 main_v46 (broadcastInDim S131072 ![] bcast_S_S131072 : (⟨S_, .i32⟩ : BufTy).Contents (Elt F) → (⟨S131072, .i32⟩ : BufTy).Contents (Elt F)),
    StableHlo.binary main_v33 main_v46 main_v47 (addi : (⟨S131072, .i32⟩ : BufTy).Contents (Elt F) → (⟨S131072, .i32⟩ : BufTy).Contents (Elt F) → (⟨S131072, .i32⟩ : BufTy).Contents (Elt F)),
    StableHlo.ternary main_v45 main_v47 main_v33 main_v48 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v48 main_v49 (broadcastInDim S131072x1 ![0] bcast_S131072_S131072x1_0 : (⟨S131072, .i32⟩ : BufTy).Contents (Elt F) → (⟨S131072x1, .i32⟩ : BufTy).Contents (Elt F)),
    StableHlo.binary main_v43 main_v49 main_v50 ((fun x i => Host.gather gather_S16384x2048_S131072x1_S131072x2048_1_0_n_n_0_1_12048 x i) : (⟨S16384x2048, .f32⟩ : BufTy).Contents (Elt F) → (⟨S131072x1, .i32⟩ : BufTy).Contents (Elt F) → (⟨S131072x2048, .f32⟩ : BufTy).Contents (Elt F)) ]

/-- Window 1 of the main function: 64 operations. -/
abbrev ops1 : List (HloOp τ sig (Elt F)) :=
  [ StableHlo.nullary main_c_7 (constantI S_ 32 0#32),
    StableHlo.unary main_c_7 main_v51 (broadcastInDim S131072 ![] bcast_S_S131072 : (⟨S_, .i32⟩ : BufTy).Contents (Elt F) → (⟨S131072, .i32⟩ : BufTy).Contents (Elt F)),
    StableHlo.binary main_v35 main_v51 main_v52 (cmpi .slt : (⟨S131072, .i32⟩ : BufTy).Contents (Elt F) → (⟨S131072, .i32⟩ : BufTy).Contents (Elt F) → (⟨S131072, .i1⟩ : BufTy).Contents (Elt F)),
    StableHlo.nullary main_c_8 (constantI S_ 32 16384#32),
    StableHlo.unary main_c_8 main_v53 (broadcastInDim S131072 ![] bcast_S_S131072 : (⟨S_, .i32⟩ : BufTy).Contents (Elt F) → (⟨S131072, .i32⟩ : BufTy).Contents (Elt F)),
    StableHlo.binary main_v35 main_v53 main_v54 (addi : (⟨S131072, .i32⟩ : BufTy).Contents (Elt F) → (⟨S131072, .i32⟩ : BufTy).Contents (Elt F) → (⟨S131072, .i32⟩ : BufTy).Contents (Elt F)),
    StableHlo.ternary main_v52 main_v54 main_v35 main_v55 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v55 main_v56 (broadcastInDim S131072x1 ![0] bcast_S131072_S131072x1_0 : (⟨S131072, .i32⟩ : BufTy).Contents (Elt F) → (⟨S131072x1, .i32⟩ : BufTy).Contents (Elt F)),
    StableHlo.binary main_v43 main_v56 main_v57 ((fun x i => Host.gather gather_S16384x2048_S131072x1_S131072x2048_1_0_n_n_0_1_12048 x i) : (⟨S16384x2048, .f32⟩ : BufTy).Contents (Elt F) → (⟨S131072x1, .i32⟩ : BufTy).Contents (Elt F) → (⟨S131072x2048, .f32⟩ : BufTy).Contents (Elt F)),
    StableHlo.binary main_v50 main_v57 main_v58 (mulf : (⟨S131072x2048, .f32⟩ : BufTy).Contents (Elt F) → (⟨S131072x2048, .f32⟩ : BufTy).Contents (Elt F) → (⟨S131072x2048, .f32⟩ : BufTy).Contents (Elt F)),
    StableHlo.nullary main_cst_9 (constant S_ .f32 0x00000000#32),
    StableHlo.binary main_v58 main_cst_9 main_v59 ((fun x v => Host.reduceAdd x v reducesTo_S131072x2048_S131072_d1 h_S_) : (⟨S131072x2048, .f32⟩ : BufTy).Contents (Elt F) → (⟨S_, .f32⟩ : BufTy).Contents (Elt F) → (⟨S131072, .f32⟩ : BufTy).Contents (Elt F)),
    StableHlo.TRef.nullary main_call2.cst (constant S_ .f32 0x00000000#32),
    StableHlo.TRef.unary main_call2.cst main_call2.v0 (broadcastInDim S131072 ![] bcast_S_S131072),
    StableHlo.TRef.binary (.of main_v59) main_call2.v0 main_call2.v1 maximumf,
    StableHlo.nullary main_v61 (iotaInDim S16384 32 0),
    StableHlo.binary main_v33 main_v61 main_v62 ((fun a b => concatenate S147456 0 [⟨S131072, a⟩, ⟨S16384, b⟩] concatenates_S131072_S16384_S147456_d0) : (⟨S131072, .i32⟩ : BufTy).Contents (Elt F) → (⟨S16384, .i32⟩ : BufTy).Contents (Elt F) → (⟨S147456, .i32⟩ : BufTy).Contents (Elt F)),
    StableHlo.binary main_v35 main_v61 main_v63 ((fun a b => concatenate S147456 0 [⟨S131072, a⟩, ⟨S16384, b⟩] concatenates_S131072_S16384_S147456_d0) : (⟨S131072, .i32⟩ : BufTy).Contents (Elt F) → (⟨S16384, .i32⟩ : BufTy).Contents (Elt F) → (⟨S147456, .i32⟩ : BufTy).Contents (Elt F)),
    StableHlo.nullary main_cst_10 (constant S_ .f32 0x3F800000#32),
    StableHlo.unary main_cst_10 main_v64 (broadcastInDim S16384 ![] bcast_S_S16384 : (⟨S_, .f32⟩ : BufTy).Contents (Elt F) → (⟨S16384, .f32⟩ : BufTy).Contents (Elt F)),
    StableHlo.binary main_v60 main_v64 main_v65 ((fun a b => concatenate S147456 0 [⟨S131072, a⟩, ⟨S16384, b⟩] concatenates_S131072_S16384_S147456_d0) : (⟨S131072, .f32⟩ : BufTy).Contents (Elt F) → (⟨S16384, .f32⟩ : BufTy).Contents (Elt F) → (⟨S147456, .f32⟩ : BufTy).Contents (Elt F)),
    StableHlo.nullary main_cst_11 (constant S_ .f32 0x00000000#32),
    StableHlo.unary main_cst_11 main_v66 (broadcastInDim S16384 ![] bcast_S_S16384 : (⟨S_, .f32⟩ : BufTy).Contents (Elt F) → (⟨S16384, .f32⟩ : BufTy).Contents (Elt F)),
    StableHlo.unary main_v63 main_v67 (broadcastInDim S147456x1 ![0] bcast_S147456_S147456x1_0 : (⟨S147456, .i32⟩ : BufTy).Contents (Elt F) → (⟨S147456x1, .i32⟩ : BufTy).Contents (Elt F)),
    StableHlo.ternary main_v66 main_v67 main_v65 main_v68 ((fun x i u => Host.scatterAdd scatter_S16384_S147456x1_S147456_n_0_0_1 x i u) : (⟨S16384, .f32⟩ : BufTy).Contents (Elt F) → (⟨S147456x1, .i32⟩ : BufTy).Contents (Elt F) → (⟨S147456, .f32⟩ : BufTy).Contents (Elt F) → (⟨S16384, .f32⟩ : BufTy).Contents (Elt F)),
    StableHlo.nullary main_cst_12 (constant S_ .f32 0x358637BD#32),
    StableHlo.TRef.unary (.of main_cst_12) main_call3.v0 id,
    StableHlo.TRef.unary main_call3.v0 main_call3.v1 (broadcastInDim S16384 ![] bcast_S_S16384),
    StableHlo.TRef.binary main_call3.v1 (.of main_v68) main_call3.v2 maximumf,
    StableHlo.unary main_v69 main_v70 (Host.rsqrt : (⟨S16384, .f32⟩ : BufTy).Contents (Elt F) → (⟨S16384, .f32⟩ : BufTy).Contents (Elt F)),
    StableHlo.nullary main_c_13 (constantI S_ 32 0#32),
    StableHlo.unary main_c_13 main_v71 (broadcastInDim S147456 ![] bcast_S_S147456 : (⟨S_, .i32⟩ : BufTy).Contents (Elt F) → (⟨S147456, .i32⟩ : BufTy).Contents (Elt F)),
    StableHlo.binary main_v62 main_v71 main_v72 (cmpi .slt : (⟨S147456, .i32⟩ : BufTy).Contents (Elt F) → (⟨S147456, .i32⟩ : BufTy).Contents (Elt F) → (⟨S147456, .i1⟩ : BufTy).Contents (Elt F)),
    StableHlo.nullary main_c_14 (constantI S_ 32 16384#32),
    StableHlo.unary main_c_14 main_v73 (broadcastInDim S147456 ![] bcast_S_S147456 : (⟨S_, .i32⟩ : BufTy).Contents (Elt F) → (⟨S147456, .i32⟩ : BufTy).Contents (Elt F)),
    StableHlo.binary main_v62 main_v73 main_v74 (addi : (⟨S147456, .i32⟩ : BufTy).Contents (Elt F) → (⟨S147456, .i32⟩ : BufTy).Contents (Elt F) → (⟨S147456, .i32⟩ : BufTy).Contents (Elt F)),
    StableHlo.ternary main_v72 main_v74 main_v62 main_v75 (select : (⟨S147456, .i1⟩ : BufTy).Contents (Elt F) → (⟨S147456, .i32⟩ : BufTy).Contents (Elt F) → (⟨S147456, .i32⟩ : BufTy).Contents (Elt F) → (⟨S147456, .i32⟩ : BufTy).Contents (Elt F)),
    StableHlo.unary main_v75 main_v76 (broadcastInDim S147456x1 ![0] bcast_S147456_S147456x1_0 : (⟨S147456, .i32⟩ : BufTy).Contents (Elt F) → (⟨S147456x1, .i32⟩ : BufTy).Contents (Elt F)),
    StableHlo.binary main_v70 main_v76 main_v77 ((fun x i => Host.gather gather_S16384_S147456x1_S147456_n_0_n_n_0_1_1 x i) : (⟨S16384, .f32⟩ : BufTy).Contents (Elt F) → (⟨S147456x1, .i32⟩ : BufTy).Contents (Elt F) → (⟨S147456, .f32⟩ : BufTy).Contents (Elt F)),
    StableHlo.nullary main_c_15 (constantI S_ 32 0#32),
    StableHlo.unary main_c_15 main_v78 (broadcastInDim S147456 ![] bcast_S_S147456 : (⟨S_, .i32⟩ : BufTy).Contents (Elt F) → (⟨S147456, .i32⟩ : BufTy).Contents (Elt F)),
    StableHlo.binary main_v63 main_v78 main_v79 (cmpi .slt : (⟨S147456, .i32⟩ : BufTy).Contents (Elt F) → (⟨S147456, .i32⟩ : BufTy).Contents (Elt F) → (⟨S147456, .i1⟩ : BufTy).Contents (Elt F)),
    StableHlo.nullary main_c_16 (constantI S_ 32 16384#32),
    StableHlo.unary main_c_16 main_v80 (broadcastInDim S147456 ![] bcast_S_S147456 : (⟨S_, .i32⟩ : BufTy).Contents (Elt F) → (⟨S147456, .i32⟩ : BufTy).Contents (Elt F)),
    StableHlo.binary main_v63 main_v80 main_v81 (addi : (⟨S147456, .i32⟩ : BufTy).Contents (Elt F) → (⟨S147456, .i32⟩ : BufTy).Contents (Elt F) → (⟨S147456, .i32⟩ : BufTy).Contents (Elt F)),
    StableHlo.ternary main_v79 main_v81 main_v63 main_v82 (select : (⟨S147456, .i1⟩ : BufTy).Contents (Elt F) → (⟨S147456, .i32⟩ : BufTy).Contents (Elt F) → (⟨S147456, .i32⟩ : BufTy).Contents (Elt F) → (⟨S147456, .i32⟩ : BufTy).Contents (Elt F)),
    StableHlo.unary main_v82 main_v83 (broadcastInDim S147456x1 ![0] bcast_S147456_S147456x1_0 : (⟨S147456, .i32⟩ : BufTy).Contents (Elt F) → (⟨S147456x1, .i32⟩ : BufTy).Contents (Elt F)),
    StableHlo.binary main_v70 main_v83 main_v84 ((fun x i => Host.gather gather_S16384_S147456x1_S147456_n_0_n_n_0_1_1 x i) : (⟨S16384, .f32⟩ : BufTy).Contents (Elt F) → (⟨S147456x1, .i32⟩ : BufTy).Contents (Elt F) → (⟨S147456, .f32⟩ : BufTy).Contents (Elt F)),
    StableHlo.binary main_v77 main_v84 main_v85 (mulf : (⟨S147456, .f32⟩ : BufTy).Contents (Elt F) → (⟨S147456, .f32⟩ : BufTy).Contents (Elt F) → (⟨S147456, .f32⟩ : BufTy).Contents (Elt F)),
    StableHlo.binary main_v85 main_v65 main_v86 (mulf : (⟨S147456, .f32⟩ : BufTy).Contents (Elt F) → (⟨S147456, .f32⟩ : BufTy).Contents (Elt F) → (⟨S147456, .f32⟩ : BufTy).Contents (Elt F)),
    StableHlo.nullary main_c_17 (constantI S_ 32 0#32),
    StableHlo.unary main_c_17 main_v87 (broadcastInDim S147456 ![] bcast_S_S147456 : (⟨S_, .i32⟩ : BufTy).Contents (Elt F) → (⟨S147456, .i32⟩ : BufTy).Contents (Elt F)),
    StableHlo.binary main_v62 main_v87 main_v88 (cmpi .slt : (⟨S147456, .i32⟩ : BufTy).Contents (Elt F) → (⟨S147456, .i32⟩ : BufTy).Contents (Elt F) → (⟨S147456, .i1⟩ : BufTy).Contents (Elt F)),
    StableHlo.nullary main_c_18 (constantI S_ 32 16384#32),
    StableHlo.unary main_c_18 main_v89 (broadcastInDim S147456 ![] bcast_S_S147456 : (⟨S_, .i32⟩ : BufTy).Contents (Elt F) → (⟨S147456, .i32⟩ : BufTy).Contents (Elt F)),
    StableHlo.binary main_v62 main_v89 main_v90 (addi : (⟨S147456, .i32⟩ : BufTy).Contents (Elt F) → (⟨S147456, .i32⟩ : BufTy).Contents (Elt F) → (⟨S147456, .i32⟩ : BufTy).Contents (Elt F)),
    StableHlo.ternary main_v88 main_v90 main_v62 main_v91 (select : (⟨S147456, .i1⟩ : BufTy).Contents (Elt F) → (⟨S147456, .i32⟩ : BufTy).Contents (Elt F) → (⟨S147456, .i32⟩ : BufTy).Contents (Elt F) → (⟨S147456, .i32⟩ : BufTy).Contents (Elt F)),
    StableHlo.unary main_v91 main_v92 (broadcastInDim S147456x1 ![0] bcast_S147456_S147456x1_0 : (⟨S147456, .i32⟩ : BufTy).Contents (Elt F) → (⟨S147456x1, .i32⟩ : BufTy).Contents (Elt F)),
    StableHlo.binary main_v31 main_v92 main_v93 ((fun x i => Host.gather gather_S16384x32_S147456x1_S147456x32_1_0_n_n_0_1_132 x i) : (⟨S16384x32, .f32⟩ : BufTy).Contents (Elt F) → (⟨S147456x1, .i32⟩ : BufTy).Contents (Elt F) → (⟨S147456x32, .f32⟩ : BufTy).Contents (Elt F)),
    StableHlo.unary main_v86 main_v94 (broadcastInDim S147456x1 ![0] bcast_S147456_S147456x1_0 : (⟨S147456, .f32⟩ : BufTy).Contents (Elt F) → (⟨S147456x1, .f32⟩ : BufTy).Contents (Elt F)),
    StableHlo.unary main_v94 main_v95 (broadcastInDim S147456x32 ![0, 1] bcast_S147456x1_S147456x32_0_1 : (⟨S147456x1, .f32⟩ : BufTy).Contents (Elt F) → (⟨S147456x32, .f32⟩ : BufTy).Contents (Elt F)),
    StableHlo.binary main_v93 main_v95 main_v96 (mulf : (⟨S147456x32, .f32⟩ : BufTy).Contents (Elt F) → (⟨S147456x32, .f32⟩ : BufTy).Contents (Elt F) → (⟨S147456x32, .f32⟩ : BufTy).Contents (Elt F)),
    StableHlo.nullary main_cst_19 (constant S_ .f32 0x00000000#32),
    StableHlo.unary main_cst_19 main_v97 (broadcastInDim S16384x32 ![] bcast_S_S16384x32 : (⟨S_, .f32⟩ : BufTy).Contents (Elt F) → (⟨S16384x32, .f32⟩ : BufTy).Contents (Elt F)) ]

/-- Window 2 of the main function: 64 operations. -/
abbrev ops2 : List (HloOp τ sig (Elt F)) :=
  [ StableHlo.unary main_v63 main_v98 (broadcastInDim S147456x1 ![0] bcast_S147456_S147456x1_0 : (⟨S147456, .i32⟩ : BufTy).Contents (Elt F) → (⟨S147456x1, .i32⟩ : BufTy).Contents (Elt F)),
    StableHlo.ternary main_v97 main_v98 main_v96 main_v99 ((fun x i u => Host.scatterAdd scatter_S16384x32_S147456x1_S147456x32_1_0_0_1 x i u) : (⟨S16384x32, .f32⟩ : BufTy).Contents (Elt F) → (⟨S147456x1, .i32⟩ : BufTy).Contents (Elt F) → (⟨S147456x32, .f32⟩ : BufTy).Contents (Elt F) → (⟨S16384x32, .f32⟩ : BufTy).Contents (Elt F)),
    StableHlo.binary main_v99 main_arg14 main_v100 ((fun l r => Host.dotGeneral dot_S16384x32_S32x32_S16384x32_1_0_0_1_n_n none l r) : (⟨S16384x32, .f32⟩ : BufTy).Contents (Elt F) → (⟨S32x32, .f32⟩ : BufTy).Contents (Elt F) → (⟨S16384x32, .f32⟩ : BufTy).Contents (Elt F)),
    StableHlo.unary main_arg15 main_v101 (broadcastInDim S1x32 ![1] bcast_S32_S1x32_1 : (⟨S32, .f32⟩ : BufTy).Contents (Elt F) → (⟨S1x32, .f32⟩ : BufTy).Contents (Elt F)),
    StableHlo.unary main_v101 main_v102 (broadcastInDim S16384x32 ![0, 1] bcast_S1x32_S16384x32_0_1 : (⟨S1x32, .f32⟩ : BufTy).Contents (Elt F) → (⟨S16384x32, .f32⟩ : BufTy).Contents (Elt F)),
    StableHlo.binary main_v100 main_v102 main_v103 (addf : (⟨S16384x32, .f32⟩ : BufTy).Contents (Elt F) → (⟨S16384x32, .f32⟩ : BufTy).Contents (Elt F) → (⟨S16384x32, .f32⟩ : BufTy).Contents (Elt F)),
    StableHlo.unary main_arg4 main_v104 ((extractStridedSlice S1x131072 ![0, 0] · slices_S2x131072_S1x131072_0_0) : (⟨S2x131072, .i32⟩ : BufTy).Contents (Elt F) → (⟨S1x131072, .i32⟩ : BufTy).Contents (Elt F)),
    StableHlo.reshape main_v104 main_v105 rfl shapeCasts_S1x131072_S131072,
    StableHlo.unary main_arg4 main_v106 ((extractStridedSlice S1x131072 ![1, 0] · slices_S2x131072_S1x131072_1_0) : (⟨S2x131072, .i32⟩ : BufTy).Contents (Elt F) → (⟨S1x131072, .i32⟩ : BufTy).Contents (Elt F)),
    StableHlo.reshape main_v106 main_v107 rfl shapeCasts_S1x131072_S131072,
    StableHlo.binary main_arg2 main_arg2 main_v108 (mulf : (⟨S16384x512, .f32⟩ : BufTy).Contents (Elt F) → (⟨S16384x512, .f32⟩ : BufTy).Contents (Elt F) → (⟨S16384x512, .f32⟩ : BufTy).Contents (Elt F)),
    StableHlo.nullary main_cst_20 (constant S_ .f32 0x00000000#32),
    StableHlo.binary main_v108 main_cst_20 main_v109 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    StableHlo.unary main_v109 main_v110 (broadcastInDim S16384x1 ![0] bcast_S16384_S16384x1_0 : (⟨S16384, .f32⟩ : BufTy).Contents (Elt F) → (⟨S16384x1, .f32⟩ : BufTy).Contents (Elt F)),
    StableHlo.nullary main_cst_21 (constant S_ .f32 0x2B8CBCCC#32),
    StableHlo.unary main_cst_21 main_v111 (broadcastInDim S16384x1 ![] bcast_S_S16384x1 : (⟨S_, .f32⟩ : BufTy).Contents (Elt F) → (⟨S16384x1, .f32⟩ : BufTy).Contents (Elt F)),
    StableHlo.binary main_v110 main_v111 main_v112 (addf : (⟨S16384x1, .f32⟩ : BufTy).Contents (Elt F) → (⟨S16384x1, .f32⟩ : BufTy).Contents (Elt F) → (⟨S16384x1, .f32⟩ : BufTy).Contents (Elt F)),
    StableHlo.unary main_v112 main_v113 (Host.rsqrt : (⟨S16384x1, .f32⟩ : BufTy).Contents (Elt F) → (⟨S16384x1, .f32⟩ : BufTy).Contents (Elt F)),
    StableHlo.unary main_v113 main_v114 (broadcastInDim S16384x512 ![0, 1] bcast_S16384x1_S16384x512_0_1 : (⟨S16384x1, .f32⟩ : BufTy).Contents (Elt F) → (⟨S16384x512, .f32⟩ : BufTy).Contents (Elt F)),
    StableHlo.binary main_arg2 main_v114 main_v115 (mulf : (⟨S16384x512, .f32⟩ : BufTy).Contents (Elt F) → (⟨S16384x512, .f32⟩ : BufTy).Contents (Elt F) → (⟨S16384x512, .f32⟩ : BufTy).Contents (Elt F)),
    StableHlo.nullary main_c_22 (constantI S_ 32 0#32),
    StableHlo.unary main_c_22 main_v116 (broadcastInDim S131072 ![] bcast_S_S131072 : (⟨S_, .i32⟩ : BufTy).Contents (Elt F) → (⟨S131072, .i32⟩ : BufTy).Contents (Elt F)),
    StableHlo.binary main_v105 main_v116 main_v117 (cmpi .slt : (⟨S131072, .i32⟩ : BufTy).Contents (Elt F) → (⟨S131072, .i32⟩ : BufTy).Contents (Elt F) → (⟨S131072, .i1⟩ : BufTy).Contents (Elt F)),
    StableHlo.nullary main_c_23 (constantI S_ 32 16384#32),
    StableHlo.unary main_c_23 main_v118 (broadcastInDim S131072 ![] bcast_S_S131072 : (⟨S_, .i32⟩ : BufTy).Contents (Elt F) → (⟨S131072, .i32⟩ : BufTy).Contents (Elt F)),
    StableHlo.binary main_v105 main_v118 main_v119 (addi : (⟨S131072, .i32⟩ : BufTy).Contents (Elt F) → (⟨S131072, .i32⟩ : BufTy).Contents (Elt F) → (⟨S131072, .i32⟩ : BufTy).Contents (Elt F)),
    StableHlo.ternary main_v117 main_v119 main_v105 main_v120 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v120 main_v121 (broadcastInDim S131072x1 ![0] bcast_S131072_S131072x1_0 : (⟨S131072, .i32⟩ : BufTy).Contents (Elt F) → (⟨S131072x1, .i32⟩ : BufTy).Contents (Elt F)),
    StableHlo.binary main_v115 main_v121 main_v122 ((fun x i => Host.gather gather_S16384x512_S131072x1_S131072x512_1_0_n_n_0_1_1512 x i) : (⟨S16384x512, .f32⟩ : BufTy).Contents (Elt F) → (⟨S131072x1, .i32⟩ : BufTy).Contents (Elt F) → (⟨S131072x512, .f32⟩ : BufTy).Contents (Elt F)),
    StableHlo.nullary main_c_24 (constantI S_ 32 0#32),
    StableHlo.unary main_c_24 main_v123 (broadcastInDim S131072 ![] bcast_S_S131072 : (⟨S_, .i32⟩ : BufTy).Contents (Elt F) → (⟨S131072, .i32⟩ : BufTy).Contents (Elt F)),
    StableHlo.binary main_v107 main_v123 main_v124 (cmpi .slt : (⟨S131072, .i32⟩ : BufTy).Contents (Elt F) → (⟨S131072, .i32⟩ : BufTy).Contents (Elt F) → (⟨S131072, .i1⟩ : BufTy).Contents (Elt F)),
    StableHlo.nullary main_c_25 (constantI S_ 32 16384#32),
    StableHlo.unary main_c_25 main_v125 (broadcastInDim S131072 ![] bcast_S_S131072 : (⟨S_, .i32⟩ : BufTy).Contents (Elt F) → (⟨S131072, .i32⟩ : BufTy).Contents (Elt F)),
    StableHlo.binary main_v107 main_v125 main_v126 (addi : (⟨S131072, .i32⟩ : BufTy).Contents (Elt F) → (⟨S131072, .i32⟩ : BufTy).Contents (Elt F) → (⟨S131072, .i32⟩ : BufTy).Contents (Elt F)),
    StableHlo.ternary main_v124 main_v126 main_v107 main_v127 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v127 main_v128 (broadcastInDim S131072x1 ![0] bcast_S131072_S131072x1_0 : (⟨S131072, .i32⟩ : BufTy).Contents (Elt F) → (⟨S131072x1, .i32⟩ : BufTy).Contents (Elt F)),
    StableHlo.binary main_v115 main_v128 main_v129 ((fun x i => Host.gather gather_S16384x512_S131072x1_S131072x512_1_0_n_n_0_1_1512 x i) : (⟨S16384x512, .f32⟩ : BufTy).Contents (Elt F) → (⟨S131072x1, .i32⟩ : BufTy).Contents (Elt F) → (⟨S131072x512, .f32⟩ : BufTy).Contents (Elt F)),
    StableHlo.binary main_v122 main_v129 main_v130 (mulf : (⟨S131072x512, .f32⟩ : BufTy).Contents (Elt F) → (⟨S131072x512, .f32⟩ : BufTy).Contents (Elt F) → (⟨S131072x512, .f32⟩ : BufTy).Contents (Elt F)),
    StableHlo.nullary main_cst_26 (constant S_ .f32 0x00000000#32),
    StableHlo.binary main_v130 main_cst_26 main_v131 ((fun x v => Host.reduceAdd x v reducesTo_S131072x512_S131072_d1 h_S_) : (⟨S131072x512, .f32⟩ : BufTy).Contents (Elt F) → (⟨S_, .f32⟩ : BufTy).Contents (Elt F) → (⟨S131072, .f32⟩ : BufTy).Contents (Elt F)),
    StableHlo.TRef.nullary main_call4.cst (constant S_ .f32 0x00000000#32),
    StableHlo.TRef.unary main_call4.cst main_call4.v0 (broadcastInDim S131072 ![] bcast_S_S131072),
    StableHlo.TRef.binary (.of main_v131) main_call4.v0 main_call4.v1 maximumf,
    StableHlo.nullary main_v133 (iotaInDim S16384 32 0),
    StableHlo.binary main_v105 main_v133 main_v134 ((fun a b => concatenate S147456 0 [⟨S131072, a⟩, ⟨S16384, b⟩] concatenates_S131072_S16384_S147456_d0) : (⟨S131072, .i32⟩ : BufTy).Contents (Elt F) → (⟨S16384, .i32⟩ : BufTy).Contents (Elt F) → (⟨S147456, .i32⟩ : BufTy).Contents (Elt F)),
    StableHlo.binary main_v107 main_v133 main_v135 ((fun a b => concatenate S147456 0 [⟨S131072, a⟩, ⟨S16384, b⟩] concatenates_S131072_S16384_S147456_d0) : (⟨S131072, .i32⟩ : BufTy).Contents (Elt F) → (⟨S16384, .i32⟩ : BufTy).Contents (Elt F) → (⟨S147456, .i32⟩ : BufTy).Contents (Elt F)),
    StableHlo.nullary main_cst_27 (constant S_ .f32 0x3F800000#32),
    StableHlo.unary main_cst_27 main_v136 (broadcastInDim S16384 ![] bcast_S_S16384 : (⟨S_, .f32⟩ : BufTy).Contents (Elt F) → (⟨S16384, .f32⟩ : BufTy).Contents (Elt F)),
    StableHlo.binary main_v132 main_v136 main_v137 ((fun a b => concatenate S147456 0 [⟨S131072, a⟩, ⟨S16384, b⟩] concatenates_S131072_S16384_S147456_d0) : (⟨S131072, .f32⟩ : BufTy).Contents (Elt F) → (⟨S16384, .f32⟩ : BufTy).Contents (Elt F) → (⟨S147456, .f32⟩ : BufTy).Contents (Elt F)),
    StableHlo.nullary main_cst_28 (constant S_ .f32 0x00000000#32),
    StableHlo.unary main_cst_28 main_v138 (broadcastInDim S16384 ![] bcast_S_S16384 : (⟨S_, .f32⟩ : BufTy).Contents (Elt F) → (⟨S16384, .f32⟩ : BufTy).Contents (Elt F)),
    StableHlo.unary main_v135 main_v139 (broadcastInDim S147456x1 ![0] bcast_S147456_S147456x1_0 : (⟨S147456, .i32⟩ : BufTy).Contents (Elt F) → (⟨S147456x1, .i32⟩ : BufTy).Contents (Elt F)),
    StableHlo.ternary main_v138 main_v139 main_v137 main_v140 ((fun x i u => Host.scatterAdd scatter_S16384_S147456x1_S147456_n_0_0_1 x i u) : (⟨S16384, .f32⟩ : BufTy).Contents (Elt F) → (⟨S147456x1, .i32⟩ : BufTy).Contents (Elt F) → (⟨S147456, .f32⟩ : BufTy).Contents (Elt F) → (⟨S16384, .f32⟩ : BufTy).Contents (Elt F)),
    StableHlo.nullary main_cst_29 (constant S_ .f32 0x358637BD#32),
    StableHlo.TRef.unary (.of main_cst_29) main_call5.v0 id,
    StableHlo.TRef.unary main_call5.v0 main_call5.v1 (broadcastInDim S16384 ![] bcast_S_S16384),
    StableHlo.TRef.binary main_call5.v1 (.of main_v140) main_call5.v2 maximumf,
    StableHlo.unary main_v141 main_v142 (Host.rsqrt : (⟨S16384, .f32⟩ : BufTy).Contents (Elt F) → (⟨S16384, .f32⟩ : BufTy).Contents (Elt F)),
    StableHlo.nullary main_c_30 (constantI S_ 32 0#32),
    StableHlo.unary main_c_30 main_v143 (broadcastInDim S147456 ![] bcast_S_S147456 : (⟨S_, .i32⟩ : BufTy).Contents (Elt F) → (⟨S147456, .i32⟩ : BufTy).Contents (Elt F)),
    StableHlo.binary main_v134 main_v143 main_v144 (cmpi .slt : (⟨S147456, .i32⟩ : BufTy).Contents (Elt F) → (⟨S147456, .i32⟩ : BufTy).Contents (Elt F) → (⟨S147456, .i1⟩ : BufTy).Contents (Elt F)),
    StableHlo.nullary main_c_31 (constantI S_ 32 16384#32),
    StableHlo.unary main_c_31 main_v145 (broadcastInDim S147456 ![] bcast_S_S147456 : (⟨S_, .i32⟩ : BufTy).Contents (Elt F) → (⟨S147456, .i32⟩ : BufTy).Contents (Elt F)) ]

/-- Window 3 of the main function: 52 operations. -/
abbrev ops3 : List (HloOp τ sig (Elt F)) :=
  [ StableHlo.binary main_v134 main_v145 main_v146 (addi : (⟨S147456, .i32⟩ : BufTy).Contents (Elt F) → (⟨S147456, .i32⟩ : BufTy).Contents (Elt F) → (⟨S147456, .i32⟩ : BufTy).Contents (Elt F)),
    StableHlo.ternary main_v144 main_v146 main_v134 main_v147 (select : (⟨S147456, .i1⟩ : BufTy).Contents (Elt F) → (⟨S147456, .i32⟩ : BufTy).Contents (Elt F) → (⟨S147456, .i32⟩ : BufTy).Contents (Elt F) → (⟨S147456, .i32⟩ : BufTy).Contents (Elt F)),
    StableHlo.unary main_v147 main_v148 (broadcastInDim S147456x1 ![0] bcast_S147456_S147456x1_0 : (⟨S147456, .i32⟩ : BufTy).Contents (Elt F) → (⟨S147456x1, .i32⟩ : BufTy).Contents (Elt F)),
    StableHlo.binary main_v142 main_v148 main_v149 ((fun x i => Host.gather gather_S16384_S147456x1_S147456_n_0_n_n_0_1_1 x i) : (⟨S16384, .f32⟩ : BufTy).Contents (Elt F) → (⟨S147456x1, .i32⟩ : BufTy).Contents (Elt F) → (⟨S147456, .f32⟩ : BufTy).Contents (Elt F)),
    StableHlo.nullary main_c_32 (constantI S_ 32 0#32),
    StableHlo.unary main_c_32 main_v150 (broadcastInDim S147456 ![] bcast_S_S147456 : (⟨S_, .i32⟩ : BufTy).Contents (Elt F) → (⟨S147456, .i32⟩ : BufTy).Contents (Elt F)),
    StableHlo.binary main_v135 main_v150 main_v151 (cmpi .slt : (⟨S147456, .i32⟩ : BufTy).Contents (Elt F) → (⟨S147456, .i32⟩ : BufTy).Contents (Elt F) → (⟨S147456, .i1⟩ : BufTy).Contents (Elt F)),
    StableHlo.nullary main_c_33 (constantI S_ 32 16384#32),
    StableHlo.unary main_c_33 main_v152 (broadcastInDim S147456 ![] bcast_S_S147456 : (⟨S_, .i32⟩ : BufTy).Contents (Elt F) → (⟨S147456, .i32⟩ : BufTy).Contents (Elt F)),
    StableHlo.binary main_v135 main_v152 main_v153 (addi : (⟨S147456, .i32⟩ : BufTy).Contents (Elt F) → (⟨S147456, .i32⟩ : BufTy).Contents (Elt F) → (⟨S147456, .i32⟩ : BufTy).Contents (Elt F)),
    StableHlo.ternary main_v151 main_v153 main_v135 main_v154 (select : (⟨S147456, .i1⟩ : BufTy).Contents (Elt F) → (⟨S147456, .i32⟩ : BufTy).Contents (Elt F) → (⟨S147456, .i32⟩ : BufTy).Contents (Elt F) → (⟨S147456, .i32⟩ : BufTy).Contents (Elt F)),
    StableHlo.unary main_v154 main_v155 (broadcastInDim S147456x1 ![0] bcast_S147456_S147456x1_0 : (⟨S147456, .i32⟩ : BufTy).Contents (Elt F) → (⟨S147456x1, .i32⟩ : BufTy).Contents (Elt F)),
    StableHlo.binary main_v142 main_v155 main_v156 ((fun x i => Host.gather gather_S16384_S147456x1_S147456_n_0_n_n_0_1_1 x i) : (⟨S16384, .f32⟩ : BufTy).Contents (Elt F) → (⟨S147456x1, .i32⟩ : BufTy).Contents (Elt F) → (⟨S147456, .f32⟩ : BufTy).Contents (Elt F)),
    StableHlo.binary main_v149 main_v156 main_v157 (mulf : (⟨S147456, .f32⟩ : BufTy).Contents (Elt F) → (⟨S147456, .f32⟩ : BufTy).Contents (Elt F) → (⟨S147456, .f32⟩ : BufTy).Contents (Elt F)),
    StableHlo.binary main_v157 main_v137 main_v158 (mulf : (⟨S147456, .f32⟩ : BufTy).Contents (Elt F) → (⟨S147456, .f32⟩ : BufTy).Contents (Elt F) → (⟨S147456, .f32⟩ : BufTy).Contents (Elt F)),
    StableHlo.nullary main_c_34 (constantI S_ 32 0#32),
    StableHlo.unary main_c_34 main_v159 (broadcastInDim S147456 ![] bcast_S_S147456 : (⟨S_, .i32⟩ : BufTy).Contents (Elt F) → (⟨S147456, .i32⟩ : BufTy).Contents (Elt F)),
    StableHlo.binary main_v134 main_v159 main_v160 (cmpi .slt : (⟨S147456, .i32⟩ : BufTy).Contents (Elt F) → (⟨S147456, .i32⟩ : BufTy).Contents (Elt F) → (⟨S147456, .i1⟩ : BufTy).Contents (Elt F)),
    StableHlo.nullary main_c_35 (constantI S_ 32 16384#32),
    StableHlo.unary main_c_35 main_v161 (broadcastInDim S147456 ![] bcast_S_S147456 : (⟨S_, .i32⟩ : BufTy).Contents (Elt F) → (⟨S147456, .i32⟩ : BufTy).Contents (Elt F)),
    StableHlo.binary main_v134 main_v161 main_v162 (addi : (⟨S147456, .i32⟩ : BufTy).Contents (Elt F) → (⟨S147456, .i32⟩ : BufTy).Contents (Elt F) → (⟨S147456, .i32⟩ : BufTy).Contents (Elt F)),
    StableHlo.ternary main_v160 main_v162 main_v134 main_v163 (select : (⟨S147456, .i1⟩ : BufTy).Contents (Elt F) → (⟨S147456, .i32⟩ : BufTy).Contents (Elt F) → (⟨S147456, .i32⟩ : BufTy).Contents (Elt F) → (⟨S147456, .i32⟩ : BufTy).Contents (Elt F)),
    StableHlo.unary main_v163 main_v164 (broadcastInDim S147456x1 ![0] bcast_S147456_S147456x1_0 : (⟨S147456, .i32⟩ : BufTy).Contents (Elt F) → (⟨S147456x1, .i32⟩ : BufTy).Contents (Elt F)),
    StableHlo.binary main_v31 main_v164 main_v165 ((fun x i => Host.gather gather_S16384x32_S147456x1_S147456x32_1_0_n_n_0_1_132 x i) : (⟨S16384x32, .f32⟩ : BufTy).Contents (Elt F) → (⟨S147456x1, .i32⟩ : BufTy).Contents (Elt F) → (⟨S147456x32, .f32⟩ : BufTy).Contents (Elt F)),
    StableHlo.unary main_v158 main_v166 (broadcastInDim S147456x1 ![0] bcast_S147456_S147456x1_0 : (⟨S147456, .f32⟩ : BufTy).Contents (Elt F) → (⟨S147456x1, .f32⟩ : BufTy).Contents (Elt F)),
    StableHlo.unary main_v166 main_v167 (broadcastInDim S147456x32 ![0, 1] bcast_S147456x1_S147456x32_0_1 : (⟨S147456x1, .f32⟩ : BufTy).Contents (Elt F) → (⟨S147456x32, .f32⟩ : BufTy).Contents (Elt F)),
    StableHlo.binary main_v165 main_v167 main_v168 (mulf : (⟨S147456x32, .f32⟩ : BufTy).Contents (Elt F) → (⟨S147456x32, .f32⟩ : BufTy).Contents (Elt F) → (⟨S147456x32, .f32⟩ : BufTy).Contents (Elt F)),
    StableHlo.nullary main_cst_36 (constant S_ .f32 0x00000000#32),
    StableHlo.unary main_cst_36 main_v169 (broadcastInDim S16384x32 ![] bcast_S_S16384x32 : (⟨S_, .f32⟩ : BufTy).Contents (Elt F) → (⟨S16384x32, .f32⟩ : BufTy).Contents (Elt F)),
    StableHlo.unary main_v135 main_v170 (broadcastInDim S147456x1 ![0] bcast_S147456_S147456x1_0 : (⟨S147456, .i32⟩ : BufTy).Contents (Elt F) → (⟨S147456x1, .i32⟩ : BufTy).Contents (Elt F)),
    StableHlo.ternary main_v169 main_v170 main_v168 main_v171 ((fun x i u => Host.scatterAdd scatter_S16384x32_S147456x1_S147456x32_1_0_0_1 x i u) : (⟨S16384x32, .f32⟩ : BufTy).Contents (Elt F) → (⟨S147456x1, .i32⟩ : BufTy).Contents (Elt F) → (⟨S147456x32, .f32⟩ : BufTy).Contents (Elt F) → (⟨S16384x32, .f32⟩ : BufTy).Contents (Elt F)),
    StableHlo.binary main_v171 main_arg16 main_v172 ((fun l r => Host.dotGeneral dot_S16384x32_S32x32_S16384x32_1_0_0_1_n_n none l r) : (⟨S16384x32, .f32⟩ : BufTy).Contents (Elt F) → (⟨S32x32, .f32⟩ : BufTy).Contents (Elt F) → (⟨S16384x32, .f32⟩ : BufTy).Contents (Elt F)),
    StableHlo.unary main_arg17 main_v173 (broadcastInDim S1x32 ![1] bcast_S32_S1x32_1 : (⟨S32, .f32⟩ : BufTy).Contents (Elt F) → (⟨S1x32, .f32⟩ : BufTy).Contents (Elt F)),
    StableHlo.unary main_v173 main_v174 (broadcastInDim S16384x32 ![0, 1] bcast_S1x32_S16384x32_0_1 : (⟨S1x32, .f32⟩ : BufTy).Contents (Elt F) → (⟨S16384x32, .f32⟩ : BufTy).Contents (Elt F)),
    StableHlo.binary main_v172 main_v174 main_v175 (addf : (⟨S16384x32, .f32⟩ : BufTy).Contents (Elt F) → (⟨S16384x32, .f32⟩ : BufTy).Contents (Elt F) → (⟨S16384x32, .f32⟩ : BufTy).Contents (Elt F)),
    StableHlo.binary main_v31 main_arg12 main_v176 ((fun l r => Host.dotGeneral dot_S16384x32_S32x1_S16384x1_1_0_0_1_n_n none l r) : (⟨S16384x32, .f32⟩ : BufTy).Contents (Elt F) → (⟨S32x1, .f32⟩ : BufTy).Contents (Elt F) → (⟨S16384x1, .f32⟩ : BufTy).Contents (Elt F)),
    StableHlo.unary main_arg13 main_v177 (broadcastInDim S1x1 ![1] bcast_S1_S1x1_1 : (⟨S1, .f32⟩ : BufTy).Contents (Elt F) → (⟨S1x1, .f32⟩ : BufTy).Contents (Elt F)),
    StableHlo.unary main_v177 main_v178 (broadcastInDim S16384x1 ![0, 1] bcast_S1x1_S16384x1_0_1 : (⟨S1x1, .f32⟩ : BufTy).Contents (Elt F) → (⟨S16384x1, .f32⟩ : BufTy).Contents (Elt F)),
    StableHlo.binary main_v176 main_v178 main_v179 (addf : (⟨S16384x1, .f32⟩ : BufTy).Contents (Elt F) → (⟨S16384x1, .f32⟩ : BufTy).Contents (Elt F) → (⟨S16384x1, .f32⟩ : BufTy).Contents (Elt F)),
    StableHlo.reshape main_v179 main_v180 rfl shapeCasts_S16384x1_S16384,
    StableHlo.binary main_v103 main_arg18 main_v181 ((fun l r => Host.dotGeneral dot_S16384x32_S32x1_S16384x1_1_0_0_1_n_n none l r) : (⟨S16384x32, .f32⟩ : BufTy).Contents (Elt F) → (⟨S32x1, .f32⟩ : BufTy).Contents (Elt F) → (⟨S16384x1, .f32⟩ : BufTy).Contents (Elt F)),
    StableHlo.unary main_arg19 main_v182 (broadcastInDim S1x1 ![1] bcast_S1_S1x1_1 : (⟨S1, .f32⟩ : BufTy).Contents (Elt F) → (⟨S1x1, .f32⟩ : BufTy).Contents (Elt F)),
    StableHlo.unary main_v182 main_v183 (broadcastInDim S16384x1 ![0, 1] bcast_S1x1_S16384x1_0_1 : (⟨S1x1, .f32⟩ : BufTy).Contents (Elt F) → (⟨S16384x1, .f32⟩ : BufTy).Contents (Elt F)),
    StableHlo.binary main_v181 main_v183 main_v184 (addf : (⟨S16384x1, .f32⟩ : BufTy).Contents (Elt F) → (⟨S16384x1, .f32⟩ : BufTy).Contents (Elt F) → (⟨S16384x1, .f32⟩ : BufTy).Contents (Elt F)),
    StableHlo.reshape main_v184 main_v185 rfl shapeCasts_S16384x1_S16384,
    StableHlo.binary main_v175 main_arg20 main_v186 ((fun l r => Host.dotGeneral dot_S16384x32_S32x1_S16384x1_1_0_0_1_n_n none l r) : (⟨S16384x32, .f32⟩ : BufTy).Contents (Elt F) → (⟨S32x1, .f32⟩ : BufTy).Contents (Elt F) → (⟨S16384x1, .f32⟩ : BufTy).Contents (Elt F)),
    StableHlo.unary main_arg21 main_v187 (broadcastInDim S1x1 ![1] bcast_S1_S1x1_1 : (⟨S1, .f32⟩ : BufTy).Contents (Elt F) → (⟨S1x1, .f32⟩ : BufTy).Contents (Elt F)),
    StableHlo.unary main_v187 main_v188 (broadcastInDim S16384x1 ![0, 1] bcast_S1x1_S16384x1_0_1 : (⟨S1x1, .f32⟩ : BufTy).Contents (Elt F) → (⟨S16384x1, .f32⟩ : BufTy).Contents (Elt F)),
    StableHlo.binary main_v186 main_v188 main_v189 (addf : (⟨S16384x1, .f32⟩ : BufTy).Contents (Elt F) → (⟨S16384x1, .f32⟩ : BufTy).Contents (Elt F) → (⟨S16384x1, .f32⟩ : BufTy).Contents (Elt F)),
    StableHlo.reshape main_v189 main_v190 rfl shapeCasts_S16384x1_S16384,
    StableHlo.binary main_v180 main_v185 main_v191 (addf : (⟨S16384, .f32⟩ : BufTy).Contents (Elt F) → (⟨S16384, .f32⟩ : BufTy).Contents (Elt F) → (⟨S16384, .f32⟩ : BufTy).Contents (Elt F)),
    StableHlo.binary main_v191 main_v190 main_v192 (addf : (⟨S16384, .f32⟩ : BufTy).Contents (Elt F) → (⟨S16384, .f32⟩ : BufTy).Contents (Elt F) → (⟨S16384, .f32⟩ : BufTy).Contents (Elt F)) ]

end Cert.RefOps

end
-- ==== Proof.RefRun.lean ====
/-
  The reference program runs: its main function is one line of host operations (the four windows in order, the local
  functions' operations at their calls), so every weakly fair execution terminates with each buffer at the fold of
  those operations over the launch contents; read at the result buffer the fold is the specification's `G` of the
  argument arrays, and no operation writes an argument.
-/
import proofs.«416178_j39376260169848_1_alg».proof.Proof.Spec
import proofs.«416178_j39376260169848_1_alg».proof.Proof.RefOps
import proofs.«416178_j39376260169848_1_alg».proof.Proof.LibSeqLine
import Idealize.ShloMosaic.Lib.StableHlo.Run

set_option maxRecDepth 16384

noncomputable section

namespace Cert.RefRun

open Idealize.ShloMosaic Idealize.ShloMosaic.TcCoe Idealize.SL.Sem Idealize.ShloMosaic.StableHlo
open Cert.ReferenceIdeal Cert.RefOps

variable {F : FTy → Type} [FloatOps F]

/-- The whole program's operations: the four windows' lists in order. -/
abbrev ops : List (HloOp τ sig (Elt F)) := ops0 ++ (ops1 ++ (ops2 ++ ops3))

/-! ## The program is one line of operations -/

/-- Window 0 is its operations in order: the variance, its selection and the rectifier's selection unfolded at their
    calls, sequencing reassociated. -/
theorem main_part0_eq (c : Dev nD) : main_part0 (F := F) c = seq ops0 := by
  simp only [main_part0, fn_var.body, fn_where.body, fn_where_0.body, seq, bind_assoc, pure_bind]
  rfl

/-- Window 1 likewise: the rectifier and the clip unfolded at their calls. -/
theorem main_part1_eq (c : Dev nD) : main_part1 (F := F) c = seq ops1 := by
  simp only [main_part1, fn_relu.body, fn_clip.body, seq, bind_assoc, pure_bind]
  rfl

/-- Window 2 likewise. -/
theorem main_part2_eq (c : Dev nD) : main_part2 (F := F) c = seq ops2 := by
  simp only [main_part2, fn_relu.body, fn_clip.body, seq, bind_assoc, pure_bind]
  rfl

/-- Window 3 makes no call: it is its operations as written. -/
theorem main_part3_eq (c : Dev nD) : main_part3 (F := F) c = seq ops3 := by
  simp only [main_part3, seq, bind_assoc, pure_bind]

/-- The main function runs the four windows in order, which is the one line of all their operations. -/
theorem main_eq (c : Dev nD) : main (F := F) c = seq ops := by
  show main (F := F) c = seq (ops0 ++ (ops1 ++ (ops2 ++ ops3)))
  rw [seq_append ops0, seq_append ops1, seq_append ops2, ← main_part0_eq c, ← main_part1_eq c, ← main_part2_eq c,
    ← main_part3_eq c]
  rfl

theorem ops0_sub : (ops0 : List (HloOp τ sig (Elt F))).Forall fun op => op.bufs ⊆ tcRefs τ sig := by
  simp only [List.Forall, nullary_bufs_sub, unary_bufs_sub, binary_bufs_sub, ternary_bufs_sub, reshape_bufs_sub, and_self]

theorem ops1_sub : (ops1 : List (HloOp τ sig (Elt F))).Forall fun op => op.bufs ⊆ tcRefs τ sig := by
  simp only [List.Forall, nullary_bufs_sub, unary_bufs_sub, binary_bufs_sub, ternary_bufs_sub, reshape_bufs_sub, and_self]

theorem ops2_sub : (ops2 : List (HloOp τ sig (Elt F))).Forall fun op => op.bufs ⊆ tcRefs τ sig := by
  simp only [List.Forall, nullary_bufs_sub, unary_bufs_sub, binary_bufs_sub, ternary_bufs_sub, reshape_bufs_sub, and_self]

theorem ops3_sub : (ops3 : List (HloOp τ sig (Elt F))).Forall fun op => op.bufs ⊆ tcRefs τ sig := by
  simp only [List.Forall, nullary_bufs_sub, unary_bufs_sub, binary_bufs_sub, ternary_bufs_sub, reshape_bufs_sub, and_self]

/-- Every operation touches buffers of the TensorCore only: each is built over TensorCore references. -/
theorem ops_sub : (ops : List (HloOp τ sig (Elt F))).Forall fun op => op.bufs ⊆ tcRefs τ sig := by
  rw [List.forall_iff_forall_mem]
  intro op h
  rcases List.mem_append.mp h with h | h
  · exact List.forall_iff_forall_mem.mp ops0_sub op h
  rcases List.mem_append.mp h with h | h
  · exact List.forall_iff_forall_mem.mp ops1_sub op h
  rcases List.mem_append.mp h with h | h
  · exact List.forall_iff_forall_mem.mp ops2_sub op h
  · exact List.forall_iff_forall_mem.mp ops3_sub op h

/-- The program scopes no TensorCore buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of the main function terminates, and every final
    state has each TensorCore buffer at the fold of the 261 operations over the launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The 22 argument buffers. -/
abbrev argRefs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21]

open Cert.ReferenceIdeal.Facts₀ Cert.ReferenceIdeal.Facts in
/-- The first graph's output layer: the aggregated embedding times a weight matrix, plus a bias row on every node. -/
def layerB (v99 : (⟨S16384x32, .f32⟩ : BufTy).Contents (Elt F)) (a14 : (⟨S32x32, .f32⟩ : BufTy).Contents (Elt F))
    (a15 : (⟨S32, .f32⟩ : BufTy).Contents (Elt F)) : (⟨S16384x32, .f32⟩ : BufTy).Contents (Elt F) :=
  addf (Host.dotGeneral dot_S16384x32_S32x32_S16384x32_1_0_0_1_n_n none v99 a14)
    (broadcastInDim S16384x32 ![0, 1] bcast_S1x32_S16384x32_0_1 (broadcastInDim S1x32 ![1] bcast_S32_S1x32_1 a15))

/-! ## The seven stretches

The program's 261 operations cut where one stage of the specification ends and the next begins. Over ANY contents
`X` at its start, a stretch leaves at its stage's result buffer the stage's function of what `X` holds at the
stage's inputs: the fold of the stretch, read at that buffer, is the chain of the stage's operations, which is the
stage's definition word for word. -/

/-- The operations up to the normalised 2048-wide table: the encoder, the first edge list's two rows, the table. -/
abbrev seg1 : List (HloOp τ sig (Elt F)) := ops0.take 72
/-- The first graph's edge weights. -/
abbrev seg2 : List (HloOp τ sig (Elt F)) := ops0.drop 72 ++ ops1.take 15
/-- The first graph's aggregation. -/
abbrev seg3 : List (HloOp τ sig (Elt F)) := ops1.drop 15 ++ ops2.take 2
/-- The first output layer, the second edge list's two rows, the normalised 512-wide table. -/
abbrev seg4 : List (HloOp τ sig (Elt F)) := (ops2.drop 2).take 18
/-- The second graph's edge weights. -/
abbrev seg5 : List (HloOp τ sig (Elt F)) := (ops2.drop 20).take 24
/-- The second graph's aggregation. -/
abbrev seg6 : List (HloOp τ sig (Elt F)) := ops2.drop 44 ++ ops3.take 31
/-- The second output layer and the score heads. -/
abbrev seg7 : List (HloOp τ sig (Elt F)) := ops3.drop 31

/-- The four windows in order are the seven stretches in order: the same 261 operations, cut at other places. -/
theorem ops_segs : (ops : List (HloOp τ sig (Elt F))) = seg1 ++ (seg2 ++ (seg3 ++ (seg4 ++ (seg5 ++ (seg6 ++ seg7))))) := rfl

-- The reductions, gathers, scatter-adds and concatenations stay folded while a stretch's chain of operations is compared
-- with its stage's definition: the two chains agree operation by operation, and the comparison never has to look
-- inside one of these.
attribute [local irreducible] Host.reduceAdd Host.gather Host.scatterAdd concatenate

theorem seg1_v31 (X : Valuation τ sig (Elt F)) :
    after seg1 X (Proc.devRef .tc main_v31)
      = Cert.Spec.enc (X (Proc.devRef .tc main_arg0)) (X (Proc.devRef .tc main_arg5)) (X (Proc.devRef .tc main_arg6)) (X (Proc.devRef .tc main_arg7)) (X (Proc.devRef .tc main_arg8)) (X (Proc.devRef .tc main_arg9)) (X (Proc.devRef .tc main_arg10)) (X (Proc.devRef .tc main_arg11)) := by
  simp only [seg1, ops0, List.take]
  after_results_simp
  unfold Cert.Spec.enc
  rfl

theorem seg1_v33 (X : Valuation τ sig (Elt F)) :
    after seg1 X (Proc.devRef .tc main_v33) = Cert.Spec.srcOf (X (Proc.devRef .tc main_arg3)) := by
  simp only [seg1, ops0, List.take]
  after_results_simp
  unfold Cert.Spec.srcOf
  rfl

theorem seg1_v35 (X : Valuation τ sig (Elt F)) :
    after seg1 X (Proc.devRef .tc main_v35) = Cert.Spec.dstOf (X (Proc.devRef .tc main_arg3)) := by
  simp only [seg1, ops0, List.take]
  after_results_simp
  unfold Cert.Spec.dstOf
  rfl

theorem seg1_v43 (X : Valuation τ sig (Elt F)) :
    after seg1 X (Proc.devRef .tc main_v43) = Cert.Spec.fn2048 (X (Proc.devRef .tc main_arg1)) (Cert.Spec.inv2048 (X (Proc.devRef .tc main_arg1))) := by
  simp only [seg1, ops0, List.take]
  after_results_simp
  unfold Cert.Spec.fn2048 Cert.Spec.inv2048
  rfl

theorem seg2_v60 (X : Valuation τ sig (Elt F)) :
    after seg2 X (Proc.devRef .tc main_v60)
      = Cert.Spec.sim2048 (X (Proc.devRef .tc main_v43)) (X (Proc.devRef .tc main_v33)) (X (Proc.devRef .tc main_v35)) := by
  simp only [seg2, ops0, ops1, List.take, List.drop, List.cons_append, List.nil_append]
  after_results_simp
  unfold Cert.Spec.sim2048
  rfl

theorem seg3_v99 (X : Valuation τ sig (Elt F)) :
    after seg3 X (Proc.devRef .tc main_v99)
      = Cert.Spec.agg (X (Proc.devRef .tc main_v31)) (X (Proc.devRef .tc main_v33)) (X (Proc.devRef .tc main_v35)) (X (Proc.devRef .tc main_v60)) := by
  simp only [seg3, ops1, ops2, List.take, List.drop, List.cons_append, List.nil_append]
  after_results_simp
  unfold Cert.Spec.agg
  rfl

theorem seg4_v103 (X : Valuation τ sig (Elt F)) :
    after seg4 X (Proc.devRef .tc main_v103) = layerB (X (Proc.devRef .tc main_v99)) (X (Proc.devRef .tc main_arg14)) (X (Proc.devRef .tc main_arg15)) := by
  simp only [seg4, ops2, List.take, List.drop]
  after_results_simp
  unfold layerB
  rfl

theorem seg4_v105 (X : Valuation τ sig (Elt F)) :
    after seg4 X (Proc.devRef .tc main_v105) = Cert.Spec.srcOf (X (Proc.devRef .tc main_arg4)) := by
  simp only [seg4, ops2, List.take, List.drop]
  after_results_simp
  unfold Cert.Spec.srcOf
  rfl

theorem seg4_v107 (X : Valuation τ sig (Elt F)) :
    after seg4 X (Proc.devRef .tc main_v107) = Cert.Spec.dstOf (X (Proc.devRef .tc main_arg4)) := by
  simp only [seg4, ops2, List.take, List.drop]
  after_results_simp
  unfold Cert.Spec.dstOf
  rfl

theorem seg4_v115 (X : Valuation τ sig (Elt F)) :
    after seg4 X (Proc.devRef .tc main_v115) = Cert.Spec.fn512 (X (Proc.devRef .tc main_arg2)) (Cert.Spec.inv512 (X (Proc.devRef .tc main_arg2))) := by
  simp only [seg4, ops2, List.take, List.drop]
  after_results_simp
  unfold Cert.Spec.fn512 Cert.Spec.inv512
  rfl

theorem seg5_v132 (X : Valuation τ sig (Elt F)) :
    after seg5 X (Proc.devRef .tc main_v132)
      = Cert.Spec.sim512 (X (Proc.devRef .tc main_v115)) (X (Proc.devRef .tc main_v105)) (X (Proc.devRef .tc main_v107)) := by
  simp only [seg5, ops2, List.take, List.drop]
  after_results_simp
  unfold Cert.Spec.sim512
  rfl

theorem seg6_v171 (X : Valuation τ sig (Elt F)) :
    after seg6 X (Proc.devRef .tc main_v171)
      = Cert.Spec.agg (X (Proc.devRef .tc main_v31)) (X (Proc.devRef .tc main_v105)) (X (Proc.devRef .tc main_v107)) (X (Proc.devRef .tc main_v132)) := by
  simp only [seg6, ops2, ops3, List.take, List.drop, List.cons_append, List.nil_append]
  after_results_simp
  unfold Cert.Spec.agg
  rfl

/-- The last stretch reads the first output layer where an earlier stretch left it. -/
theorem seg7_v192 (X : Valuation τ sig (Elt F))
    (h103 : (X (Proc.devRef .tc main_v103)) = layerB (X (Proc.devRef .tc main_v99)) (X (Proc.devRef .tc main_arg14)) (X (Proc.devRef .tc main_arg15))) :
    after seg7 X (Proc.devRef .tc main_v192)
      = Cert.Spec.head (X (Proc.devRef .tc main_v31)) (X (Proc.devRef .tc main_v99)) (X (Proc.devRef .tc main_v171)) (X (Proc.devRef .tc main_arg12)) (X (Proc.devRef .tc main_arg13)) (X (Proc.devRef .tc main_arg14)) (X (Proc.devRef .tc main_arg15)) (X (Proc.devRef .tc main_arg16)) (X (Proc.devRef .tc main_arg17)) (X (Proc.devRef .tc main_arg18)) (X (Proc.devRef .tc main_arg19)) (X (Proc.devRef .tc main_arg20)) (X (Proc.devRef .tc main_arg21)) := by
  simp only [seg7, ops3, List.drop]
  after_results_simp
  rw [h103]
  unfold Cert.Spec.head layerB
  rfl

/-! ## What a stretch leaves alone

A buffer that no operation of a stretch writes holds after the stretch what it held before. For each stretch this
is stated of the 22 arguments and of the few results that a LATER stretch still reads; it holds because the buffer
differs from every result buffer of the stretch, one comparison per operation. -/

local macro "kept" : tactic =>
  `(tactic| (refine List.forall_iff_forall_mem.mp ?_
             simp (disch := decide) only [argRefs, List.Forall, List.cons_append, List.nil_append, after_cons, after_nil,
               nullary_result_ne', unary_result_ne', binary_result_ne', ternary_result_ne', reshape_result_ne', and_self]))

set_option maxHeartbeats 2000000 in  -- one comparison of references per operation and buffer
theorem seg1_keep (X : Valuation τ sig (Elt F)) :
    ∀ r ∈ argRefs, after seg1 X (Proc.devRef .tc r) = X (Proc.devRef .tc r) := by
  simp only [seg1, ops0, List.take]
  kept

set_option maxHeartbeats 2000000 in  -- one comparison of references per operation and buffer
theorem seg2_keep (X : Valuation τ sig (Elt F)) :
    ∀ r ∈ argRefs ++ [main_v31, main_v33, main_v35], after seg2 X (Proc.devRef .tc r) = X (Proc.devRef .tc r) := by
  simp only [seg2, ops0, ops1, List.take, List.drop, List.cons_append, List.nil_append]
  kept

set_option maxHeartbeats 2000000 in  -- one comparison of references per operation and buffer
theorem seg3_keep (X : Valuation τ sig (Elt F)) :
    ∀ r ∈ argRefs ++ [main_v31], after seg3 X (Proc.devRef .tc r) = X (Proc.devRef .tc r) := by
  simp only [seg3, ops1, ops2, List.take, List.drop, List.cons_append, List.nil_append]
  kept

set_option maxHeartbeats 2000000 in  -- one comparison of references per operation and buffer
theorem seg4_keep (X : Valuation τ sig (Elt F)) :
    ∀ r ∈ argRefs ++ [main_v31, main_v99], after seg4 X (Proc.devRef .tc r) = X (Proc.devRef .tc r) := by
  simp only [seg4, ops2, List.take, List.drop]
  kept

set_option maxHeartbeats 2000000 in  -- one comparison of references per operation and buffer
theorem seg5_keep (X : Valuation τ sig (Elt F)) :
    ∀ r ∈ argRefs ++ [main_v31, main_v99, main_v103, main_v105, main_v107], after seg5 X (Proc.devRef .tc r) = X (Proc.devRef .tc r) := by
  simp only [seg5, ops2, List.take, List.drop]
  kept

set_option maxHeartbeats 2000000 in  -- one comparison of references per operation and buffer
theorem seg6_keep (X : Valuation τ sig (Elt F)) :
    ∀ r ∈ argRefs ++ [main_v31, main_v99, main_v103], after seg6 X (Proc.devRef .tc r) = X (Proc.devRef .tc r) := by
  simp only [seg6, ops2, ops3, List.take, List.drop, List.cons_append, List.nil_append]
  kept

set_option maxHeartbeats 2000000 in  -- one comparison of references per operation and buffer
theorem seg7_keep (X : Valuation τ sig (Elt F)) :
    ∀ r ∈ argRefs, after seg7 X (Proc.devRef .tc r) = X (Proc.devRef .tc r) := by
  simp only [seg7, ops3, List.drop]
  kept

/-! ## The whole line -/

/-- No operation writes an argument: after the whole line each argument holds what it held at the start. -/
theorem args_eq (V : Valuation τ sig (Elt F)) :
    ∀ r ∈ argRefs, after ops V (Proc.devRef .tc r) = V (Proc.devRef .tc r) := by
  intro r hr
  rw [ops_segs, Cert.LibSeqLine.after_append seg1, Cert.LibSeqLine.after_append seg2, Cert.LibSeqLine.after_append seg3,
    Cert.LibSeqLine.after_append seg4, Cert.LibSeqLine.after_append seg5, Cert.LibSeqLine.after_append seg6,
    seg7_keep _ r hr, seg6_keep _ r (List.mem_append_left _ hr), seg5_keep _ r (List.mem_append_left _ hr), seg4_keep _ r (List.mem_append_left _ hr), seg3_keep _ r (List.mem_append_left _ hr),
    seg2_keep _ r (List.mem_append_left _ hr), seg1_keep _ r hr]

/-- The line's result is the specification's function of the arguments: stretch by stretch, each stage's result is
    the stage's function of results of earlier stretches, which the stretches between leave alone, down to the
    arguments; composed, that is `G`. -/
theorem result_eq (V : Valuation τ sig (Elt F)) :
    after ops V (Proc.devRef .tc main_v192)
      = Cert.Spec.G (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) := by
  rw [ops_segs, Cert.LibSeqLine.after_append seg1, Cert.LibSeqLine.after_append seg2, Cert.LibSeqLine.after_append seg3,
    Cert.LibSeqLine.after_append seg4, Cert.LibSeqLine.after_append seg5, Cert.LibSeqLine.after_append seg6]
  -- the contents at the six cuts
  generalize hX1 : after seg1 V = X1
  generalize hX2 : after seg2 X1 = X2
  generalize hX3 : after seg3 X2 = X3
  generalize hX4 : after seg4 X3 = X4
  generalize hX5 : after seg5 X4 = X5
  generalize hX6 : after seg6 X5 = X6
  -- the arguments at the cuts that read them
  have a1 : ∀ r ∈ argRefs, X1 (Proc.devRef .tc r) = V (Proc.devRef .tc r) := fun r hr => by
    rw [← hX1]; exact seg1_keep V r hr
  have a2 : ∀ r ∈ argRefs, X2 (Proc.devRef .tc r) = V (Proc.devRef .tc r) := fun r hr => by
    rw [← hX2, seg2_keep X1 r (List.mem_append_left _ hr)]; exact a1 r hr
  have a3 : ∀ r ∈ argRefs, X3 (Proc.devRef .tc r) = V (Proc.devRef .tc r) := fun r hr => by
    rw [← hX3, seg3_keep X2 r (List.mem_append_left _ hr)]; exact a2 r hr
  have a4 : ∀ r ∈ argRefs, X4 (Proc.devRef .tc r) = V (Proc.devRef .tc r) := fun r hr => by
    rw [← hX4, seg4_keep X3 r (List.mem_append_left _ hr)]; exact a3 r hr
  have a5 : ∀ r ∈ argRefs, X5 (Proc.devRef .tc r) = V (Proc.devRef .tc r) := fun r hr => by
    rw [← hX5, seg5_keep X4 r (List.mem_append_left _ hr)]; exact a4 r hr
  have a6 : ∀ r ∈ argRefs, X6 (Proc.devRef .tc r) = V (Proc.devRef .tc r) := fun r hr => by
    rw [← hX6, seg6_keep X5 r (List.mem_append_left _ hr)]; exact a5 r hr
  -- stretch 1: the embedding, the first edge list's rows, the normalised 2048-wide table
  have e31 := seg1_v31 V
  rw [hX1] at e31
  have e33 := seg1_v33 V
  rw [hX1] at e33
  have e35 := seg1_v35 V
  rw [hX1] at e35
  have e43 := seg1_v43 V
  rw [hX1] at e43
  -- stretch 2: the first graph's edge weights
  have k2_31 := seg2_keep X1 main_v31 (by decide)
  rw [hX2] at k2_31
  have k2_33 := seg2_keep X1 main_v33 (by decide)
  rw [hX2] at k2_33
  have k2_35 := seg2_keep X1 main_v35 (by decide)
  rw [hX2] at k2_35
  have e60 := seg2_v60 X1
  rw [hX2] at e60
  -- stretch 3: the first graph's aggregation
  have k3_31 := seg3_keep X2 main_v31 (by decide)
  rw [hX3] at k3_31
  have e99 := seg3_v99 X2
  rw [hX3] at e99
  -- stretch 4: the first output layer, the second edge list's rows, the normalised 512-wide table
  have k4_31 := seg4_keep X3 main_v31 (by decide)
  rw [hX4] at k4_31
  have k4_99 := seg4_keep X3 main_v99 (by decide)
  rw [hX4] at k4_99
  have e103 := seg4_v103 X3
  rw [hX4] at e103
  have e105 := seg4_v105 X3
  rw [hX4] at e105
  have e107 := seg4_v107 X3
  rw [hX4] at e107
  have e115 := seg4_v115 X3
  rw [hX4] at e115
  -- stretch 5: the second graph's edge weights
  have k5_31 := seg5_keep X4 main_v31 (by decide)
  rw [hX5] at k5_31
  have k5_99 := seg5_keep X4 main_v99 (by decide)
  rw [hX5] at k5_99
  have k5_103 := seg5_keep X4 main_v103 (by decide)
  rw [hX5] at k5_103
  have k5_105 := seg5_keep X4 main_v105 (by decide)
  rw [hX5] at k5_105
  have k5_107 := seg5_keep X4 main_v107 (by decide)
  rw [hX5] at k5_107
  have e132 := seg5_v132 X4
  rw [hX5] at e132
  -- stretch 6: the second graph's aggregation
  have k6_31 := seg6_keep X5 main_v31 (by decide)
  rw [hX6] at k6_31
  have k6_99 := seg6_keep X5 main_v99 (by decide)
  rw [hX6] at k6_99
  have k6_103 := seg6_keep X5 main_v103 (by decide)
  rw [hX6] at k6_103
  have e171 := seg6_v171 X5
  rw [hX6] at e171
  -- stretch 7 reads the first output layer as stretch 4 left it
  have h103 : X6 (Proc.devRef .tc main_v103) = layerB (X6 (Proc.devRef .tc main_v99)) (X6 (Proc.devRef .tc main_arg14)) (X6 (Proc.devRef .tc main_arg15)) := by
    rw [k6_103, k5_103, e103, k6_99, k5_99, k4_99, a6 main_arg14 (by decide), a6 main_arg15 (by decide),
      a3 main_arg14 (by decide), a3 main_arg15 (by decide)]
  -- every read, cut by cut, down to the arguments
  rw [seg7_v192 X6 h103, e171, k6_31, k6_99, e132, k5_31, k5_99, k5_105, k5_107, e115, e105, e107, k4_31, k4_99, e99, k3_31,
    e60, k2_31, k2_33, k2_35, e31, e33, e35, e43,
    a6 main_arg12 (by decide), a6 main_arg13 (by decide), a6 main_arg14 (by decide), a6 main_arg15 (by decide), a6 main_arg16 (by decide), a6 main_arg17 (by decide), a6 main_arg18 (by decide), a6 main_arg19 (by decide), a6 main_arg20 (by decide), a6 main_arg21 (by decide),
    a3 main_arg2 (by decide), a3 main_arg4 (by decide)]
  rfl

/-- The reference's run with its result named: every weakly fair execution terminates, the result buffer holds `G` of
    the launch contents of the 22 arguments, and the argument arrays are as launched. -/
theorem run_value (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v192)
          = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run (defs (F := F)) _ _).mono (fun _ h c =>
    ⟨(h c main_v192).trans (result_eq _),
      (h c main_arg0).trans (args_eq _ main_arg0 (by decide)),
      (h c main_arg1).trans (args_eq _ main_arg1 (by decide)),
      (h c main_arg2).trans (args_eq _ main_arg2 (by decide)),
      (h c main_arg3).trans (args_eq _ main_arg3 (by decide)),
      (h c main_arg4).trans (args_eq _ main_arg4 (by decide)),
      (h c main_arg5).trans (args_eq _ main_arg5 (by decide)),
      (h c main_arg6).trans (args_eq _ main_arg6 (by decide)),
      (h c main_arg7).trans (args_eq _ main_arg7 (by decide)),
      (h c main_arg8).trans (args_eq _ main_arg8 (by decide)),
      (h c main_arg9).trans (args_eq _ main_arg9 (by decide)),
      (h c main_arg10).trans (args_eq _ main_arg10 (by decide)),
      (h c main_arg11).trans (args_eq _ main_arg11 (by decide)),
      (h c main_arg12).trans (args_eq _ main_arg12 (by decide)),
      (h c main_arg13).trans (args_eq _ main_arg13 (by decide)),
      (h c main_arg14).trans (args_eq _ main_arg14 (by decide)),
      (h c main_arg15).trans (args_eq _ main_arg15 (by decide)),
      (h c main_arg16).trans (args_eq _ main_arg16 (by decide)),
      (h c main_arg17).trans (args_eq _ main_arg17 (by decide)),
      (h c main_arg18).trans (args_eq _ main_arg18 (by decide)),
      (h c main_arg19).trans (args_eq _ main_arg19 (by decide)),
      (h c main_arg20).trans (args_eq _ main_arg20 (by decide)),
      (h c main_arg21).trans (args_eq _ main_arg21 (by decide))⟩)
    (run_main m ρ)

end Cert.RefRun

end
-- ==== Proof.lean ====
/-
  A two-branch graph network on 16384 nodes: an encoder (linear layer, batch normalisation over the nodes, parametric
  rectifier, linear layer) gives a 32-wide embedding; for each of two graphs (131072 edges each) the edge weights are
  the rectified cosine similarities of the endpoints' feature rows (2048 and 512 wide), the embedding is aggregated
  with the symmetric normalisation of the weighted in-degrees and a self loop per node, and a linear layer follows;
  three linear heads score the embedding and the two aggregated branches, and the scores are added.

  The kernel program computes the inverse feature norms in a first region (sixteen row blocks), the encoder in a
  second, gathers rows and inverse norms per edge on the host and scales after the gather, aggregates on the host with
  the reference's own operations, and applies the output layers and heads in a third region. Over the extended reals
  it is the reference's function `Cert.Spec.G` of the 22 arguments, index by index: a gathered row of the scaled table
  is the gathered row scaled by the gathered norm; a product into a zero accumulator is the contraction; a lane or
  column reduction is the finite sum; everything else is the same pointwise operation on both sides. No law beyond
  these readings is used, so the inputs' finiteness is never opened.

  The two kernel programs' frames are the generated ones; the reference's frame is its run with the result dropped;
  the idealization rewrote nothing, so there is nothing to preserve.
-/
import proofs.«416178_j39376260169848_1_alg».proof.Defs
import proofs.«416178_j39376260169848_1_alg».proof.Proof.Gen.Kernel.Frame
import proofs.«416178_j39376260169848_1_alg».proof.Proof.Gen.KernelIdeal.Frame
import proofs.«416178_j39376260169848_1_alg».proof.Proof.Gen.ReferenceIdeal
import proofs.«416178_j39376260169848_1_alg».proof.Proof.Gen.Pre_finite_inputs
import proofs.«416178_j39376260169848_1_alg».proof.Proof.KRun
import proofs.«416178_j39376260169848_1_alg».proof.Proof.KValue
import proofs.«416178_j39376260169848_1_alg».proof.Proof.RefRun
import Idealize.ShloMosaic.Adequacy
import Idealize.ShloMosaic.Init

noncomputable section

namespace Cert.Proof

open Idealize.ShloMosaic Idealize.SL.Sem

/-- The word-level kernel program terminates and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is one line of host operations: its run, the result dropped. -/
theorem frame_ri : Cert.frame_ReferenceIdeal := fun m ρ _ =>
  (θ_run (Cert.ReferenceIdeal.defs (F := Ideal)) _ _).mono (fun _ h c => (h c).2) (Cert.RefRun.run_value (F := Ideal) m ρ)

/-- Run from memories that agree on the 22 arguments, both idealized programs end with `G` of those arguments in their
    result buffers and the arguments as launched. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21)), ?_, ?_⟩
  · exact (θ_run (Cert.KernelIdeal.defs (F := Ideal)) _ _).mono
      (fun _ h c => ⟨(h c).1.trans (Cert.KValue.kvalue m ρ c), (h c).2⟩) (Cert.KernelIdeal.KRun.run (F := Ideal) m ρ)
  · refine (θ_run (Cert.ReferenceIdeal.defs (F := Ideal)) _ _).mono (fun _ h c => ⟨(h c).1.trans ?_, (h c).2⟩)
      (Cert.RefRun.run_value (F := Ideal) m' ρ')
    obtain ⟨h0, h1, h2, h3, h4, h5, h6, h7, h8, h9, h10, h11, h12, h13, h14, h15, h16, h17, h18, h19, h20, h21⟩ := hagree c
    rw [h0, h1, h2, h3, h4, h5, h6, h7, h8, h9, h10, h11, h12, h13, h14, h15, h16, h17, h18, h19, h20, h21]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
